-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg2 : IVec S50000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S50000 32 := broadcastInDim S50000 ![] bcast_S_S50000 main_c_20
  let main_v55 : IVec S50000 1 := cmpi .sge main_arg2 main_v54
  let main_c_21 : IVec S_ 1 := constantI S_ 1 1#1
  let main_v56 : IVec S_ 1 := (fun x v => Host.reduce IntOp.andi x v reducesTo_S50000_S_d0 h_S_) main_v55 main_c_21
  let main_v57 : IVec S_ 1 := andi main_v53 main_v56
  let main_c_22 : IVec S_ 32 := constantI S_ 32 256#32
  let main_v58 : IVec S50000 32 := broadcastInDim S50000 ![] bcast_S_S50000 main_c_22
  let main_v59 : IVec S50000 1 := cmpi .slt main_arg2 main_v58
  let main_c_23 : IVec S_ 1 := constantI S_ 1 1#1
  let main_v60 : IVec S_ 1 := (fun x v => Host.reduce IntOp.andi x v reducesTo_S50000_S_d0 h_S_) main_v59 main_c_23
  let main_v61 : IVec S_ 1 := andi main_v57 main_v60
  main_v61

def fn_part2 {F : FTy → Type} [FloatOps F] (main_arg2 : IVec S50000 32) (main_arg9 : FVec F S128 .f32) (main_arg10 : FVec F S128 .f32) (main_arg11 : FVec F S128x64 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_v48 main_v49 main_v50

def fn_part1 {F : FTy → Type} [FloatOps F] (main_arg2 : IVec S50000 32) (main_arg6 : FVec F S64x128 .f32) (main_arg7 : FVec F S128 .f32) (main_arg8 : FVec F S128 .f32) (main_arg9 : FVec F S128 .f32) (main_arg10 : FVec F S128 .f32) (main_arg11 : FVec F S128x64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_arg12 main_v33

def fn {F : FTy → Type} [FloatOps F] (main_arg0 : FVec F S50000x64 .f32) (main_arg1 : IVec S2x800000 32) (main_arg2 : IVec S50000 32) (main_arg3 : FVec F S64 .f32) (main_arg4 : FVec F S64 .f32) (main_arg5 : FVec F S64 .f32) (main_arg6 : FVec F S64x128 .f32) (main_arg7 : FVec F S128 .f32) (main_arg8 : FVec F S128 .f32) (main_arg9 : FVec F S128 .f32) (main_arg10 : FVec F S128 .f32) (main_arg11 : FVec F S128x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩
abbrev S51200 : Shape := ⟨1, ![51200]⟩
abbrev S256 : Shape := ⟨1, ![256]⟩
abbrev S1x51200 : Shape := ⟨2, ![1, 51200]⟩
abbrev S256x1 : Shape := ⟨2, ![256, 1]⟩
abbrev S256x51200 : Shape := ⟨2, ![256, 51200]⟩
abbrev S51200x1 : Shape := ⟨2, ![51200, 1]⟩
abbrev S1x256 : Shape := ⟨2, ![1, 256]⟩
abbrev S51200x256 : Shape := ⟨2, ![51200, 256]⟩
abbrev S50000x1 : Shape := ⟨2, ![50000, 1]⟩
abbrev S51200x64 : Shape := ⟨2, ![51200, 64]⟩
abbrev S256x64 : Shape := ⟨2, ![256, 64]⟩
abbrev S256x2048 : Shape := ⟨2, ![256, 2048]⟩
abbrev S2048x64 : Shape := ⟨2, ![2048, 64]⟩
abbrev S1x64 : Shape := ⟨2, ![1, 64]⟩
abbrev S2048x256 : Shape := ⟨2, ![2048, 256]⟩
abbrev S1x800000 : Shape := ⟨2, ![1, 800000]⟩
abbrev S800000 : Shape := ⟨1, ![800000]⟩
abbrev S850000 : Shape := ⟨1, ![850000]⟩
abbrev S51200x128 : Shape := ⟨2, ![51200, 128]⟩
abbrev S2048x128 : Shape := ⟨2, ![2048, 128]⟩
abbrev S50000x128 : Shape := ⟨2, ![50000, 128]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S850000x64 : Shape := ⟨2, ![850000, 64]⟩

abbrev nBuf : Space → Nat
  | .hbm => 212
  | .vmem => 65
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64, .f32⟩
  | 4 => ⟨S64, .f32⟩
  | 5 => ⟨S64, .f32⟩
  | 6 => ⟨S64x128, .f32⟩
  | 7 => ⟨S128, .f32⟩
  | 8 => ⟨S128, .f32⟩
  | 9 => ⟨S128, .f32⟩
  | 10 => ⟨S128, .f32⟩
  | 11 => ⟨S128x64, .f32⟩
  | 12 => ⟨S64, .f32⟩
  | 13 => ⟨S_, .i32⟩
  | 14 => ⟨S_, .i32⟩
  | 15 => ⟨S51200, .i32⟩
  | 16 => ⟨S256, .i32⟩
  | 17 => ⟨S1x51200, .i32⟩
  | 18 => ⟨S256x1, .i32⟩
  | 19 => ⟨S256x51200, .i32⟩
  | 20 => ⟨S256x51200, .i32⟩
  | 21 => ⟨S256x51200, .i1⟩
  | 22 => ⟨S256x51200, .bf16⟩
  | 23 => ⟨S51200x1, .i32⟩
  | 24 => ⟨S1x256, .i32⟩
  | 25 => ⟨S51200x256, .i32⟩
  | 26 => ⟨S51200x256, .i32⟩
  | 27 => ⟨S51200x256, .i1⟩
  | 28 => ⟨S51200x256, .bf16⟩
  | 29 => ⟨S_, .f32⟩
  | 30 => ⟨S50000, .f32⟩
  | 31 => ⟨S_, .f32⟩
  | 32 => ⟨S256, .f32⟩
  | 33 => ⟨S50000x1, .i32⟩
  | 34 => ⟨S256, .f32⟩
  | 35 => ⟨S_, .f32⟩
  | 36 => ⟨S256, .f32⟩
  | 37 => ⟨S256, .f32⟩
  | 38 => ⟨S256x1, .f32⟩
  | 39 => ⟨S_, .i32⟩
  | 40 => ⟨S_, .f32⟩
  | 41 => ⟨S51200x64, .f32⟩
  | 42 => ⟨S256x64, .f32⟩
  | 43 => ⟨S256x64, .f32⟩
  | 44 => ⟨S256x64, .f32⟩
  | 45 => ⟨S1x64, .f32⟩
  | 46 => ⟨S51200x64, .f32⟩
  | 47 => ⟨S256x64, .f32⟩
  | 48 => ⟨S256x64, .f32⟩
  | 49 => ⟨S256x64, .f32⟩
  | 50 => ⟨S1x64, .f32⟩
  | 51 => ⟨S1x64, .f32⟩
  | 52 => ⟨S51200x64, .f32⟩
  | 53 => ⟨S50000x64, .f32⟩
  | 54 => ⟨S50000, .i32⟩
  | 55 => ⟨S1x800000, .i32⟩
  | 56 => ⟨S800000, .i32⟩
  | 57 => ⟨S850000, .i32⟩
  | 58 => ⟨S1x800000, .i32⟩
  | 59 => ⟨S800000, .i32⟩
  | 60 => ⟨S850000, .i32⟩
  | 61 => ⟨S_, .i32⟩
  | 62 => ⟨S_, .f32⟩
  | 63 => ⟨S51200x64, .f32⟩
  | 64 => ⟨S51200x128, .f32⟩
  | 65 => ⟨S50000x128, .f32⟩
  | 66 => ⟨S_, .f32⟩
  | 67 => ⟨S850000, .f32⟩
  | 68 => ⟨S_, .f32⟩
  | 69 => ⟨S50000, .f32⟩
  | 70 => ⟨S850000x1, .i32⟩
  | 71 => ⟨S50000, .f32⟩
  | 72 => ⟨S_, .f32⟩
  | 73 => ⟨S50000, .f32⟩
  | 74 => ⟨S50000, .i1⟩
  | 75 => ⟨S_, .f32⟩
  | 76 => ⟨S50000, .f32⟩
  | 77 => ⟨S50000, .f32⟩
  | 78 => ⟨S50000, .f32⟩
  | 79 => ⟨S_, .f32⟩
  | 80 => ⟨S_, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x1, .f32⟩
  | 112 => ⟨S850000x128, .f32⟩
  | 113 => ⟨S850000x128, .f32⟩
  | 114 => ⟨S_, .f32⟩
  | 115 => ⟨S50000x128, .f32⟩
  | 116 => ⟨S850000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .i32⟩
  | 125 => ⟨S_, .f32⟩
  | 126 => ⟨S51200x128, .f32⟩
  | 127 => ⟨S256x128, .f32⟩
  | _ => ⟨S50000x64, .f32⟩

abbrev hbmTy0_1 (i : Nat) : BufTy := match i % 128 with
  | 0 => ⟨S256x128, .f32⟩
  | 1 => ⟨S256x128, .f32⟩
  | 2 => ⟨S1x128, .f32⟩
  | 3 => ⟨S51200x128, .f32⟩
  | 4 => ⟨S256x128, .f32⟩
  | 5 => ⟨S256x128, .f32⟩
  | 6 => ⟨S256x128, .f32⟩
  | 7 => ⟨S1x128, .f32⟩
  | 8 => ⟨S1x128, .f32⟩
  | 9 => ⟨S51200x128, .f32⟩
  | 10 => ⟨S50000x128, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .i32⟩
  | 19 => ⟨S_, .f32⟩
  | 20 => ⟨S51200x128, .f32⟩
  | 21 => ⟨S51200x64, .f32⟩
  | 22 => ⟨S50000x64, .f32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x64, .f32⟩
  | 68 => ⟨S850000x1, .f32⟩
  | 69 => ⟨S850000x64, .f32⟩
  | 70 => ⟨S850000x64, .f32⟩
  | 71 => ⟨S_, .f32⟩
  | 72 => ⟨S50000x64, .f32⟩
  | 73 => ⟨S850000x1, .i32⟩
  | 74 => ⟨S50000x64, .f32⟩
  | 75 => ⟨S1x64, .f32⟩
  | 76 => ⟨S50000x64, .f32⟩
  | 77 => ⟨S50000x64, .f32⟩
  | 78 => ⟨S_, .i32⟩
  | 79 => ⟨S_, .f32⟩
  | 80 => ⟨S51200x64, .f32⟩
  | 81 => ⟨S256x64, .f32⟩
  | 82 => ⟨S256x64, .f32⟩
  | 83 => ⟨S256x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S2048x64, .f32⟩
  | .local _ .vmem, ⟨3, _⟩ => ⟨S2048x64, .f32⟩
  | .local _ .vmem, ⟨4, _⟩ => ⟨S256x64, .f32⟩
  | .local _ .vmem, ⟨5, _⟩ => ⟨S256x2048, .bf16⟩
  | .local _ .vmem, ⟨6, _⟩ => ⟨S256x2048, .bf16⟩
  | .local _ .vmem, ⟨7, _⟩ => ⟨S2048x256, .bf16⟩
  | .local _ .vmem, ⟨8, _⟩ => ⟨S2048x256, .bf16⟩
  | .local _ .vmem, ⟨9, _⟩ => ⟨S2048x64, .f32⟩
  | .local _ .vmem, ⟨10, _⟩ => ⟨S2048x64, .f32⟩
  | .local _ .vmem, ⟨11, _⟩ => ⟨S256x64, .f32⟩
  | .local _ .vmem, ⟨12, _⟩ => ⟨S1x64, .f32⟩
  | .local _ .vmem, ⟨13, _⟩ => ⟨S2048x64, .f32⟩
  | .local _ .vmem, ⟨14, _⟩ => ⟨S2048x64, .f32⟩
  | .local _ .vmem, ⟨15, _⟩ => ⟨S256x64, .f32⟩
  | .local _ .vmem, ⟨16, _⟩ => ⟨S2048x256, .bf16⟩
  | .local _ .vmem, ⟨17, _⟩ => ⟨S2048x256, .bf16⟩
  | .local _ .vmem, ⟨18, _⟩ => ⟨S2048x64, .f32⟩
  | .local _ .vmem, ⟨19, _⟩ => ⟨S2048x64, .f32⟩
  | .local _ .vmem, ⟨20, _⟩ => ⟨S256x64, .f32⟩
  | .local _ .vmem, ⟨21, _⟩ => ⟨S1x64, .f32⟩
  | .local _ .vmem, ⟨22, _⟩ => ⟨S1x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S64x128, .f32⟩
  | .local _ .vmem, ⟨28, _⟩ => ⟨S2048x128, .f32⟩
  | .local _ .vmem, ⟨29, _⟩ => ⟨S2048x128, .f32⟩
  | .local _ .vmem, ⟨30, _⟩ => ⟨S256x2048, .bf16⟩
  | .local _ .vmem, ⟨31, _⟩ => ⟨S256x2048, .bf16⟩
  | .local _ .vmem, ⟨32, _⟩ => ⟨S2048x128, .f32⟩
  | .local _ .vmem, ⟨33, _⟩ => ⟨S2048x128, .f32⟩
  | .local _ .vmem, ⟨34, _⟩ => ⟨S256x128, .f32⟩
  | .local _ .vmem, ⟨35, _⟩ => ⟨S256x2048, .bf16⟩
  | .local _ .vmem, ⟨36, _⟩ => ⟨S256x2048, .bf16⟩
  | .local _ .vmem, ⟨37, _⟩ => ⟨S2048x256, .bf16⟩
  | .local _ .vmem, ⟨38, _⟩ => ⟨S2048x256, .bf16⟩
  | .local _ .vmem, ⟨39, _⟩ => ⟨S2048x128, .f32⟩
  | .local _ .vmem, ⟨40, _⟩ => ⟨S2048x128, .f32⟩
  | .local _ .vmem, ⟨41, _⟩ => ⟨S256x128, .f32⟩
  | .local _ .vmem, ⟨42, _⟩ => ⟨S1x128, .f32⟩
  | .local _ .vmem, ⟨43, _⟩ => ⟨S2048x128, .f32⟩
  | .local _ .vmem, ⟨44, _⟩ => ⟨S2048x128, .f32⟩
  | .local _ .vmem, ⟨45, _⟩ => ⟨S256x128, .f32⟩
  | .local _ .vmem, ⟨46, _⟩ => ⟨S2048x256, .bf16⟩
  | .local _ .vmem, ⟨47, _⟩ => ⟨S2048x256, .bf16⟩
  | .local _ .vmem, ⟨48, _⟩ => ⟨S2048x128, .f32⟩
  | .local _ .vmem, ⟨49, _⟩ => ⟨S2048x128, .f32⟩
  | .local _ .vmem, ⟨50, _⟩ => ⟨S256x128, .f32⟩
  | .local _ .vmem, ⟨51, _⟩ => ⟨S1x128, .f32⟩
  | .local _ .vmem, ⟨52, _⟩ => ⟨S1x128, .f32⟩
  | .local _ .vmem, ⟨53, _⟩ => ⟨S2048x128, .f32⟩
  | .local _ .vmem, ⟨54, _⟩ => ⟨S2048x128, .f32⟩
  | .local _ .vmem, ⟨55, _⟩ => ⟨S2048x128, .f32⟩
  | .local _ .vmem, ⟨56, _⟩ => ⟨S2048x128, .f32⟩
  | .local _ .vmem, ⟨57, _⟩ => ⟨S128x64, .f32⟩
  | .local _ .vmem, ⟨58, _⟩ => ⟨S2048x64, .f32⟩
  | .local _ .vmem, ⟨59, _⟩ => ⟨S2048x64, .f32⟩
  | .local _ .vmem, ⟨60, _⟩ => ⟨S256x2048, .bf16⟩
  | .local _ .vmem, ⟨61, _⟩ => ⟨S256x2048, .bf16⟩
  | .local _ .vmem, ⟨62, _⟩ => ⟨S2048x64, .f32⟩
  | .local _ .vmem, ⟨63, _⟩ => ⟨S2048x64, .f32⟩
  | .local _ .vmem, ⟨64, _⟩ => ⟨S256x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_call1_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_3 : Ref sig .tc := ⟨.hbm, 61, rfl⟩
abbrev main_call2_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_call3_v0 : Ref sig .tc := ⟨.hbm, 80, rfl⟩
abbrev main_call3_v1 : Ref sig .tc := ⟨.hbm, 81, rfl⟩
abbrev main_v52 : Ref sig .tc := ⟨.hbm, 82, rfl⟩
abbrev main_c_9 : Ref sig .tc := ⟨.hbm, 83, rfl⟩
abbrev main_v53 : Ref sig .tc := ⟨.hbm, 84, rfl⟩
abbrev main_v54 : Ref sig .tc := ⟨.hbm, 85, rfl⟩
abbrev main_c_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_11 : Ref sig .tc := ⟨.hbm, 92, rfl⟩
abbrev main_v60 : Ref sig .tc := ⟨.hbm, 93, rfl⟩
abbrev main_v61 : Ref sig .tc := ⟨.hbm, 94, rfl⟩
abbrev main_c_12 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call4_cst : Ref sig .tc := ⟨.hbm, 121, rfl⟩
abbrev main_call4_v0 : Ref sig .tc := ⟨.hbm, 122, rfl⟩
abbrev main_v84 : Ref sig .tc := ⟨.hbm, 123, rfl⟩
abbrev main_c_16 : Ref sig .tc := ⟨.hbm, 124, rfl⟩
abbrev main_call5_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90_0 : Ref sig .tc := ⟨.hbm, 131, rfl⟩
abbrev main_v90_1 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_17 : Ref sig .tc := ⟨.hbm, 146, rfl⟩
abbrev main_call6_v0 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_18 : Ref sig .tc := ⟨.hbm, 151, rfl⟩
abbrev main_v107 : Ref sig .tc := ⟨.hbm, 152, rfl⟩
abbrev main_cst_19 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_20 : Ref sig .tc := ⟨.hbm, 157, rfl⟩
abbrev main_v111 : Ref sig .tc := ⟨.hbm, 158, rfl⟩
abbrev main_v112 : Ref sig .tc := ⟨.hbm, 159, rfl⟩
abbrev main_cst_21 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_22 : Ref sig .tc := ⟨.hbm, 164, rfl⟩
abbrev main_call7_v0 : Ref sig .tc := ⟨.hbm, 165, rfl⟩
abbrev main_call7_v1 : Ref sig .tc := ⟨.hbm, 166, rfl⟩
abbrev main_v116 : Ref sig .tc := ⟨.hbm, 167, rfl⟩
abbrev main_c_23 : Ref sig .tc := ⟨.hbm, 168, rfl⟩
abbrev main_v117 : Ref sig .tc := ⟨.hbm, 169, rfl⟩
abbrev main_v118 : Ref sig .tc := ⟨.hbm, 170, rfl⟩
abbrev main_c_24 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_c_25 : Ref sig .tc := ⟨.hbm, 177, rfl⟩
abbrev main_v124 : Ref sig .tc := ⟨.hbm, 178, rfl⟩
abbrev main_v125 : Ref sig .tc := ⟨.hbm, 179, rfl⟩
abbrev main_c_26 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_c_27 : Ref sig .tc := ⟨.hbm, 187, rfl⟩
abbrev main_v132 : Ref sig .tc := ⟨.hbm, 188, rfl⟩
abbrev main_v133 : Ref sig .tc := ⟨.hbm, 189, rfl⟩
abbrev main_c_28 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_29 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_c_30 : Ref sig .tc := ⟨.hbm, 206, rfl⟩
abbrev main_call8_v0 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc5_stg6_0 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg5_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg2_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem5_0 : DmaSem sig := 43
abbrev cc5_sem5_1 : DmaSem sig := 44
abbrev cc5_sem6_0 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem5_1 : DmaSem sig := 54
abbrev cc7_sem0_0 : DmaSem sig := 55
abbrev cc7_sem0_1 : DmaSem sig := 56
abbrev cc7_sem1_0 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S256x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2048x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2048x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S256x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2048x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  pads_S50000_S51200_012000 : S50000.Pads (![0] : Fin 1 → Nat) ![1200] ![0] S51200
  h_S_ : 0 < S_.numel
  bcast_S51200_S1x51200_1 : S51200.BroadcastsInDim S1x51200 (![1] : Fin 1 → Fin S1x51200.rank)
  bcast_S256_S256x1_0 : S256.BroadcastsInDim S256x1 (![0] : Fin 1 → Fin S256x1.rank)
  bcast_S1x51200_S256x51200_0_1 : S1x51200.BroadcastsInDim S256x51200 (![0, 1] : Fin 2 → Fin S256x51200.rank)
  bcast_S256x1_S256x51200_0_1 : S256x1.BroadcastsInDim S256x51200 (![0, 1] : Fin 2 → Fin S256x51200.rank)
  bcast_S51200_S51200x1_0 : S51200.BroadcastsInDim S51200x1 (![0] : Fin 1 → Fin S51200x1.rank)
  bcast_S256_S1x256_1 : S256.BroadcastsInDim S1x256 (![1] : Fin 1 → Fin S1x256.rank)
  bcast_S51200x1_S51200x256_0_1 : S51200x1.BroadcastsInDim S51200x256 (![0, 1] : Fin 2 → Fin S51200x256.rank)
  bcast_S1x256_S51200x256_0_1 : S1x256.BroadcastsInDim S51200x256 (![0, 1] : Fin 2 → Fin S51200x256.rank)
  bcast_S_S50000 : S_.BroadcastsInDim S50000 (![] : Fin 0 → Fin S50000.rank)
  bcast_S_S256 : S_.BroadcastsInDim S256 (![] : Fin 0 → Fin S256.rank)
  bcast_S50000_S50000x1_0 : S50000.BroadcastsInDim S50000x1 (![0] : Fin 1 → Fin S50000x1.rank)
  shapeCasts_S256_S256x1 : S256.ShapeCasts S256x1
  pads_S50000x64_S51200x64_012000_000 : S50000x64.Pads (![0, 0] : Fin 2 → Nat) ![1200, 0] ![0, 0] S51200x64
  inb_S256x64_S256x64_0_0 : ∀ a, (![0, 0] : Fin 2 → Nat) a + S256x64.size a ≤ S256x64.size a
  h_S256x64 : 0 < S256x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  shapeCasts_S256x64_S256x64 : S256x64.ShapeCasts S256x64
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bcast_S256x1_S256x64_0_1 : S256x1.BroadcastsInDim S256x64 (![0, 1] : Fin 2 → Fin S256x64.rank)
  shapeCasts_S64_S1x64 : S64.ShapeCasts S1x64
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S51200x64_S50000x64_0_0 : S51200x64.Slices ![0, 0] S50000x64
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  inb_S64x128_S64x128_0_0 : ∀ a, (![0, 0] : Fin 2 → Nat) a + S64x128.size a ≤ S64x128.size a
  h_S64x128 : 0 < S64x128.numel
  inb_S2048x128_S2048x128_0_0 : ∀ a, (![0, 0] : Fin 2 → Nat) a + S2048x128.size a ≤ S2048x128.size a
  h_S2048x128 : 0 < S2048x128.numel
  slices_S51200x128_S50000x128_0_0 : S51200x128.Slices ![0, 0] S50000x128
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  pads_S50000x128_S51200x128_012000_000 : S50000x128.Pads (![0, 0] : Fin 2 → Nat) ![1200, 0] ![0, 0] S51200x128
  inb_S256x128_S256x128_0_0 : ∀ a, (![0, 0] : Fin 2 → Nat) a + S256x128.size a ≤ S256x128.size a
  h_S256x128 : 0 < S256x128.numel
  shapeCasts_S2048x128_S2048x128 : S2048x128.ShapeCasts S2048x128
  shapeCasts_S256x128_S256x128 : S256x128.ShapeCasts S256x128
  bcast_S256x1_S256x128_0_1 : S256x1.BroadcastsInDim S256x128 (![0, 1] : Fin 2 → Fin S256x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S256_S50000x1_S50000_n_0_0_1_wf : ScatterDims.WF S256 S50000x1 S50000 [] [0] [0] 1
  dot_S256x2048_S2048x64_S256x64_1_0_0_1_n_n_wf : DotDims.WF S256x2048 S2048x64 S256x64 [1] [0] [0] [1] [] []
  dot_S2048x256_S256x64_S2048x64_1_0_0_1_n_n_wf : DotDims.WF S2048x256 S256x64 S2048x64 [1] [0] [0] [1] [] []
  dot_S2048x64_S64x128_S2048x128_1_0_0_1_n_n_wf : DotDims.WF S2048x64 S64x128 S2048x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S256x2048_S2048x128_S256x128_1_0_0_1_n_n_wf : DotDims.WF S256x2048 S2048x128 S256x128 [1] [0] [0] [1] [] []
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x51200.size a
  hwx0_0 : ∀ i : grid0.Coords, EltTy.bits .bf16 = 32 ∨ (Rect.block (s := S256x51200) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S51200x64.size a
  hwx0_1 : ∀ i : grid0.Coords, EltTy.bits .f32 = 32 ∨ (Rect.block (s := S51200x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S256x51200.size a
  hwx1_0 : ∀ i : grid1.Coords, EltTy.bits .bf16 = 32 ∨ (Rect.block (s := S256x51200) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S51200x256.size a
  hwx1_1 : ∀ i : grid1.Coords, EltTy.bits .bf16 = 32 ∨ (Rect.block (s := S51200x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S51200x64.size a
  hwx1_2 : ∀ i : grid1.Coords, EltTy.bits .f32 = 32 ∨ (Rect.block (s := S51200x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S51200x64.size a
  hwx1_5 : ∀ i : grid1.Coords, EltTy.bits .f32 = 32 ∨ (Rect.block (s := S51200x64) S2048x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .f32 = 32 ∨ (Rect.block (s := S256x64) S256x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S51200x256.size a
  hwx2_0 : ∀ i : grid2.Coords, EltTy.bits .bf16 = 32 ∨ (Rect.block (s := S51200x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S51200x64.size a
  hwx2_1 : ∀ i : grid2.Coords, EltTy.bits .f32 = 32 ∨ (Rect.block (s := S51200x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S51200x64.size a
  hwx2_5 : ∀ i : grid2.Coords, EltTy.bits .f32 = 32 ∨ (Rect.block (s := S51200x64) S2048x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S51200x64.size a
  hwx3_0 : ∀ i : grid3.Coords, EltTy.bits .f32 = 32 ∨ (Rect.block (s := S51200x64) S2048x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S51200x128.size a
  hwx3_2 : ∀ i : grid3.Coords, EltTy.bits .f32 = 32 ∨ (Rect.block (s := S51200x128) S2048x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S256x51200.size a
  hwx4_0 : ∀ i : grid4.Coords, EltTy.bits .bf16 = 32 ∨ (Rect.block (s := S256x51200) S256x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S51200x128.size a
  hwx4_1 : ∀ i : grid4.Coords, EltTy.bits .f32 = 32 ∨ (Rect.block (s := S51200x128) S2048x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S256x51200.size a
  hwx5_0 : ∀ i : grid5.Coords, EltTy.bits .bf16 = 32 ∨ (Rect.block (s := S256x51200) S256x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S51200x256.size a
  hwx5_1 : ∀ i : grid5.Coords, EltTy.bits .bf16 = 32 ∨ (Rect.block (s := S51200x256) S2048x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S51200x128.size a
  hwx5_2 : ∀ i : grid5.Coords, EltTy.bits .f32 = 32 ∨ (Rect.block (s := S51200x128) S2048x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x128.size a ≤ S51200x128.size a
  hwx5_5 : ∀ i : grid5.Coords, EltTy.bits .f32 = 32 ∨ (Rect.block (s := S51200x128) S2048x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x128.size a ≤ S256x128.size a
  hwx5_6 : ∀ i : grid5.Coords, EltTy.bits .f32 = 32 ∨ (Rect.block (s := S256x128) S256x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S51200x256.size a
  hwx6_0 : ∀ i : grid6.Coords, EltTy.bits .bf16 = 32 ∨ (Rect.block (s := S51200x256) S2048x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x128.size a ≤ S51200x128.size a
  hwx6_1 : ∀ i : grid6.Coords, EltTy.bits .f32 = 32 ∨ (Rect.block (s := S51200x128) S2048x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2048x128.size a ≤ S51200x128.size a
  hwx6_5 : ∀ i : grid6.Coords, EltTy.bits .f32 = 32 ∨ (Rect.block (s := S51200x128) S2048x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S51200x128.size a
  hwx7_0 : ∀ i : grid7.Coords, EltTy.bits .f32 = 32 ∨ (Rect.block (s := S51200x128) S2048x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x64.size a ≤ S51200x64.size a
  hwx7_2 : ∀ i : grid7.Coords, EltTy.bits .f32 = 32 ∨ (Rect.block (s := S51200x64) S2048x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x2048.size a ≤ S256x51200.size a
  hwx8_0 : ∀ i : grid8.Coords, EltTy.bits .bf16 = 32 ∨ (Rect.block (s := S256x51200) S256x2048.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x64.size a ≤ S51200x64.size a
  hwx8_1 : ∀ i : grid8.Coords, EltTy.bits .f32 = 32 ∨ (Rect.block (s := S51200x64) S2048x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x64.size a ≤ S256x64.size a
  hwx8_2 : ∀ i : grid8.Coords, EltTy.bits .f32 = 32 ∨ (Rect.block (s := S256x64) S256x64.size (cc8_transform_2 i) (hinb8_2 i)).WholeWords (EltTy.packing .f32)

variable [Facts₀]

def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v7) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S2048x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S256x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_0) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v7) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S256x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v7) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S2048x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v88) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90_0) S2048x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v90_1) S256x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v13) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90_0) S2048x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v92) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v94) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95) S2048x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v104) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v105) S2048x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v7) S256x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v148) S2048x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v149) S256x64.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S1x64 : Shape := ⟨2, ![1, 64]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S850000x64 : Shape := ⟨2, ![850000, 64]⟩

abbrev nBuf : Space → Nat
  | .hbm => 290
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64, .f32⟩
  | 4 => ⟨S64, .f32⟩
  | 5 => ⟨S64, .f32⟩
  | 6 => ⟨S64x128, .f32⟩
  | 7 => ⟨S128, .f32⟩
  | 8 => ⟨S128, .f32⟩
  | 9 => ⟨S128, .f32⟩
  | 10 => ⟨S128, .f32⟩
  | 11 => ⟨S128x64, .f32⟩
  | 12 => ⟨S64, .f32⟩
  | 13 => ⟨S_, .f32⟩
  | 14 => ⟨S256x64, .f32⟩
  | 15 => ⟨S50000x1, .i32⟩
  | 16 => ⟨S256x64, .f32⟩
  | 17 => ⟨S_, .f32⟩
  | 18 => ⟨S50000, .f32⟩
  | 19 => ⟨S_, .f32⟩
  | 20 => ⟨S256, .f32⟩
  | 21 => ⟨S50000x1, .i32⟩
  | 22 => ⟨S256, .f32⟩
  | 23 => ⟨S_, .f32⟩
  | 24 => ⟨S256, .f32⟩
  | 25 => ⟨S256, .f32⟩
  | 26 => ⟨S256x1, .f32⟩
  | 27 => ⟨S256x64, .f32⟩
  | 28 => ⟨S256x64, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x64, .f32⟩
  | 38 => ⟨S1x64, .f32⟩
  | 39 => ⟨S50000x64, .f32⟩
  | 40 => ⟨S50000x64, .f32⟩
  | 41 => ⟨S50000x64, .f32⟩
  | 42 => ⟨S50000x64, .f32⟩
  | 43 => ⟨S_, .f32⟩
  | 44 => ⟨S256x64, .f32⟩
  | 45 => ⟨S50000x1, .i32⟩
  | 46 => ⟨S256x64, .f32⟩
  | 47 => ⟨S_, .f32⟩
  | 48 => ⟨S50000, .f32⟩
  | 49 => ⟨S_, .f32⟩
  | 50 => ⟨S256, .f32⟩
  | 51 => ⟨S50000x1, .i32⟩
  | 52 => ⟨S256, .f32⟩
  | 53 => ⟨S_, .f32⟩
  | 54 => ⟨S256, .f32⟩
  | 55 => ⟨S256, .f32⟩
  | 56 => ⟨S256x1, .f32⟩
  | 57 => ⟨S256x64, .f32⟩
  | 58 => ⟨S256x64, .f32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S50000, .i32⟩
  | 80 => ⟨S1x800000, .i32⟩
  | 81 => ⟨S800000, .i32⟩
  | 82 => ⟨S850000, .i32⟩
  | 83 => ⟨S1x800000, .i32⟩
  | 84 => ⟨S800000, .i32⟩
  | 85 => ⟨S850000, .i32⟩
  | 86 => ⟨S50000x128, .f32⟩
  | 87 => ⟨S_, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S_, .f32⟩
  | 97 => ⟨S50000, .f32⟩
  | 98 => ⟨S50000, .f32⟩
  | 99 => ⟨S50000, .f32⟩
  | 100 => ⟨S_, .f32⟩
  | 101 => ⟨S_, .f32⟩
  | 102 => ⟨S50000, .f32⟩
  | 103 => ⟨S50000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000, .f32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x64, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S_, .f32⟩
  | 18 => ⟨S256x128, .f32⟩
  | 19 => ⟨S50000x1, .i32⟩
  | 20 => ⟨S256x128, .f32⟩
  | 21 => ⟨S_, .f32⟩
  | 22 => ⟨S50000, .f32⟩
  | 23 => ⟨S_, .f32⟩
  | 24 => ⟨S256, .f32⟩
  | 25 => ⟨S50000x1, .i32⟩
  | 26 => ⟨S256, .f32⟩
  | 27 => ⟨S_, .f32⟩
  | 28 => ⟨S256, .f32⟩
  | 29 => ⟨S256, .f32⟩
  | 30 => ⟨S256x1, .f32⟩
  | 31 => ⟨S256x128, .f32⟩
  | 32 => ⟨S256x128, .f32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S_, .f32⟩
  | 48 => ⟨S256x128, .f32⟩
  | 49 => ⟨S50000x1, .i32⟩
  | 50 => ⟨S256x128, .f32⟩
  | 51 => ⟨S_, .f32⟩
  | 52 => ⟨S50000, .f32⟩
  | 53 => ⟨S_, .f32⟩
  | 54 => ⟨S256, .f32⟩
  | 55 => ⟨S50000x1, .i32⟩
  | 56 => ⟨S256, .f32⟩
  | 57 => ⟨S_, .f32⟩
  | 58 => ⟨S256, .f32⟩
  | 59 => ⟨S256, .f32⟩
  | 60 => ⟨S256x1, .f32⟩
  | 61 => ⟨S256x128, .f32⟩
  | 62 => ⟨S256x128, .f32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S50000x1, .i32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000, .i32⟩
  | 84 => ⟨S1x800000, .i32⟩
  | 85 => ⟨S800000, .i32⟩
  | 86 => ⟨S850000, .i32⟩
  | 87 => ⟨S1x800000, .i32⟩
  | 88 => ⟨S800000, .i32⟩
  | 89 => ⟨S850000, .i32⟩
  | 90 => ⟨S50000x64, .f32⟩
  | 91 => ⟨S_, .f32⟩
  | 92 => ⟨S850000, .f32⟩
  | 93 => ⟨S_, .f32⟩
  | 94 => ⟨S50000, .f32⟩
  | 95 => ⟨S850000x1, .i32⟩
  | 96 => ⟨S50000, .f32⟩
  | 97 => ⟨S_, .f32⟩
  | 98 => ⟨S50000, .f32⟩
  | 99 => ⟨S50000, .i1⟩
  | 100 => ⟨S_, .f32⟩
  | 101 => ⟨S50000, .f32⟩
  | 102 => ⟨S50000, .f32⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S850000, .f32⟩
  | 127 => ⟨S_, .i32⟩
  | _ => ⟨S50000x64, .f32⟩

abbrev hbmTy0_2 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x64, .f32⟩
  | 8 => ⟨S850000x1, .f32⟩
  | 9 => ⟨S850000x64, .f32⟩
  | 10 => ⟨S850000x64, .f32⟩
  | 11 => ⟨S_, .f32⟩
  | 12 => ⟨S50000x64, .f32⟩
  | 13 => ⟨S850000x1, .i32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S256x64, .f32⟩
  | 20 => ⟨S50000x1, .i32⟩
  | 21 => ⟨S256x64, .f32⟩
  | 22 => ⟨S_, .f32⟩
  | 23 => ⟨S50000, .f32⟩
  | 24 => ⟨S_, .f32⟩
  | 25 => ⟨S256, .f32⟩
  | 26 => ⟨S50000x1, .i32⟩
  | 27 => ⟨S256, .f32⟩
  | 28 => ⟨S_, .f32⟩
  | 29 => ⟨S256, .f32⟩
  | 30 => ⟨S256, .f32⟩
  | 31 => ⟨S256x1, .f32⟩
  | 32 => ⟨S256x64, .f32⟩
  | 33 => ⟨S256x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_call0_v0 : Ref sig .tc := ⟨.hbm, 101, rfl⟩
abbrev main_call0_v1 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_18 : Ref sig .tc := ⟨.hbm, 113, rfl⟩
abbrev main_v78 : Ref sig .tc := ⟨.hbm, 114, rfl⟩
abbrev main_v79 : Ref sig .tc := ⟨.hbm, 115, rfl⟩
abbrev main_c_19 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_c_21 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_call1_cst : Ref sig .tc := ⟨.hbm, 142, rfl⟩
abbrev main_call1_v0 : Ref sig .tc := ⟨.hbm, 143, rfl⟩
abbrev main_v102 : Ref sig .tc := ⟨.hbm, 144, rfl⟩
abbrev main_cst_23 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_24 : Ref sig .tc := ⟨.hbm, 149, rfl⟩
abbrev main_v106 : Ref sig .tc := ⟨.hbm, 150, rfl⟩
abbrev main_cst_25 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_26 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_27 : Ref sig .tc := ⟨.hbm, 161, rfl⟩
abbrev main_v115 : Ref sig .tc := ⟨.hbm, 162, rfl⟩
abbrev main_v116 : Ref sig .tc := ⟨.hbm, 163, rfl⟩
abbrev main_c_28 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_29 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_30 : Ref sig .tc := ⟨.hbm, 179, rfl⟩
abbrev main_v130 : Ref sig .tc := ⟨.hbm, 180, rfl⟩
abbrev main_cst_31 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_32 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_33 : Ref sig .tc := ⟨.hbm, 191, rfl⟩
abbrev main_v139 : Ref sig .tc := ⟨.hbm, 192, rfl⟩
abbrev main_v140 : Ref sig .tc := ⟨.hbm, 193, rfl⟩
abbrev main_c_34 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_35 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_36 : Ref sig .tc := ⟨.hbm, 219, rfl⟩
abbrev main_v164 : Ref sig .tc := ⟨.hbm, 220, rfl⟩
abbrev main_cst_37 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_38 : Ref sig .tc := ⟨.hbm, 225, rfl⟩
abbrev main_v168 : Ref sig .tc := ⟨.hbm, 226, rfl⟩
abbrev main_v169 : Ref sig .tc := ⟨.hbm, 227, rfl⟩
abbrev main_cst_39 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_40 : Ref sig .tc := ⟨.hbm, 232, rfl⟩
abbrev main_call2_v0 : Ref sig .tc := ⟨.hbm, 233, rfl⟩
abbrev main_call2_v1 : Ref sig .tc := ⟨.hbm, 234, rfl⟩
abbrev main_v173 : Ref sig .tc := ⟨.hbm, 235, rfl⟩
abbrev main_c_41 : Ref sig .tc := ⟨.hbm, 236, rfl⟩
abbrev main_v174 : Ref sig .tc := ⟨.hbm, 237, rfl⟩
abbrev main_v175 : Ref sig .tc := ⟨.hbm, 238, rfl⟩
abbrev main_c_42 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_c_43 : Ref sig .tc := ⟨.hbm, 245, rfl⟩
abbrev main_v181 : Ref sig .tc := ⟨.hbm, 246, rfl⟩
abbrev main_v182 : Ref sig .tc := ⟨.hbm, 247, rfl⟩
abbrev main_c_44 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_c_45 : Ref sig .tc := ⟨.hbm, 255, rfl⟩
abbrev main_v189 : Ref sig .tc := ⟨.hbm, 256, rfl⟩
abbrev main_v190 : Ref sig .tc := ⟨.hbm, 257, rfl⟩
abbrev main_c_46 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_cst_47 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_cst_48 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_cst_49 : Ref sig .tc := ⟨.hbm, 278, rfl⟩
abbrev main_v208 : Ref sig .tc := ⟨.hbm, 279, rfl⟩
abbrev main_cst_50 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_cst_51 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩

abbrev nD : Nat := 1
abbrev τ : Topo := Topo.v7x

variable {F : FTy → Type} [FloatOps F]

class Facts₀ : Prop where
  bcast_S_S256x64 : S_.BroadcastsInDim S256x64 (![] : Fin 0 → Fin S256x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S256x1_S256x128_0_1 : S256x1.BroadcastsInDim S256x128 (![0, 1] : Fin 2 → Fin S256x128.rank)
  bcast_S850000x1_S850000x64_0_1 : S850000x1.BroadcastsInDim S850000x64 (![0, 1] : Fin 2 → Fin S850000x64.rank)
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  gather_S256x64_S50000x1_S50000x64_1_0_n_n_0_1_164_wf : GatherDims.WF S256x64 S50000x1 S50000x64 [1] [0] [] [0] [] 1 ![1, 64]
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  gather_S256x128_S50000x1_S50000x128_1_0_n_n_0_1_1128_wf : GatherDims.WF S256x128 S50000x1 S50000x128 [1] [0] [] [0] [] 1 ![1, 128]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def gather_S256x64_S50000x1_S50000x64_1_0_n_n_0_1_164 : GatherDims S256x64 S50000x1 S50000x64 where
  offsetDims := [1]
  collapsedSliceDims := [0]
  operandBatchingDims := []
  startIndicesBatchingDims := []
  startIndexMap := [0]
  indexVectorDim := 1
  sliceSizes := ![1, 64]
  wf := gather_S256x64_S50000x1_S50000x64_1_0_n_n_0_1_164_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def gather_S256x128_S50000x1_S50000x128_1_0_n_n_0_1_1128 : GatherDims S256x128 S50000x1 S50000x128 where
  offsetDims := [1]
  collapsedSliceDims := [0]
  operandBatchingDims := []
  startIndicesBatchingDims := []
  startIndexMap := [0]
  indexVectorDim := 1
  sliceSizes := ![1, 128]
  wf := gather_S256x128_S50000x1_S50000x128_1_0_n_n_0_1_1128_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The mathematics both programs compute, over the extended reals, as plain functions of index-by-index data.

  A graph batch assigns node `n` the graph `b n` (a signed integer; nodes whose label is no graph index belong to no
  graph). A SEGMENT SUM adds the rows of the nodes of one graph; the COUNT of a graph is its number of nodes, floored at
  one. GraphNorm centres every node by (a scaled) mean of its graph, divides by the root of the graph's mean square
  plus `eps`, and applies a scale and a shift per feature. A linear layer is a matrix product. The mean pool of a
  graph is its segment sum over its count.
-/
import Idealize.ShloMosaic.PureOps.Ideal
import Idealize.ShloMosaic.Lib.ValueIdx
import Mathlib.Data.EReal.Basic
import Mathlib.Algebra.BigOperators.Group.Finset.Basic

noncomputable section

open scoped BigOperators

namespace Cert.Spec

open Idealize.ShloMosaic

variable {N D K J : Nat}

/-- A rank-2 array as a function of two coordinates. -/
def mat {a b : Nat} (x : (⟨2, ![a, b]⟩ : Shape).Idx → EReal) : Fin a → Fin b → EReal := fun i j => x (ValueIdx.ix2 i j)

/-- A rank-1 array as a function of its coordinate. -/
def vec {a : Nat} (x : (⟨1, ![a]⟩ : Shape).Idx → EReal) : Fin a → EReal := fun i => x (ValueIdx.ix1 i)

/-- A rank-1 array of 32-bit words read as signed integers. -/
def sint {a : Nat} (x : (⟨1, ![a]⟩ : Shape).Idx → BitVec 32) : Fin a → Int := fun i => (x (ValueIdx.ix1 i)).toInt

/-- The f32 word of 1.0 and the f32 word nearest 1e-5, as extended reals (kept as words: never evaluated but for their sign). -/
abbrev one : EReal := Ideal.ofBits .f32 0x3F800000#32
abbrev eps : EReal := Ideal.ofBits .f32 0x3727C5AC#32

/-- Every node's label is a graph index. -/
def InRange (b : Fin N → Int) : Prop := ∀ n, 0 ≤ b n ∧ b n < 256

/-- The sum of the rows of `X` over the nodes whose label is `g`. -/
def segSum (b : Fin N → Int) (X : Fin N → Fin D → EReal) (g : Fin 256) (d : Fin D) : EReal :=
  ∑ n ∈ Finset.univ.filter (fun n : Fin N => b n = (g.val : Int)), X n d

/-- The number of nodes of graph `g` (a sum of `one`s), floored at `one`. -/
def cnt (one : EReal) (b : Fin N → Int) (g : Fin 256) : EReal :=
  max (∑ _n ∈ Finset.univ.filter (fun n : Fin N => b n = (g.val : Int)), one) one

/-- The graph of node `n`, as an index (for labels in `[0, 256)` it is the label). -/
def gix (b : Fin N → Int) (n : Fin N) : Fin 256 := ⟨(b n).toNat % 256, Nat.mod_lt _ (by norm_num)⟩

/-- The mean row of graph `g`. -/
def mean (one : EReal) (b : Fin N → Int) (X : Fin N → Fin D → EReal) (g : Fin 256) (d : Fin D) : EReal :=
  Ideal.div (segSum b X g d) (cnt one b g)

/-- A node's row minus the scaled mean row of its graph. -/
def centered (one : EReal) (b : Fin N → Int) (ms : Fin D → EReal) (X : Fin N → Fin D → EReal) (n : Fin N) (d : Fin D) : EReal :=
  X n d - ms d * mean one b X (gix b n) d

/-- The mean square of the centred rows of graph `g`. -/
def var (one : EReal) (b : Fin N → Int) (ms : Fin D → EReal) (X : Fin N → Fin D → EReal) (g : Fin 256) (d : Fin D) : EReal :=
  Ideal.div (segSum b (fun n d => centered one b ms X n d * centered one b ms X n d) g d) (cnt one b g)

/-- GraphNorm: scale · centred / √(variance of the node's graph + eps) + shift. -/
def gnOut (one eps : EReal) (b : Fin N → Int) (w bias ms : Fin D → EReal) (X : Fin N → Fin D → EReal) (n : Fin N) (d : Fin D) : EReal :=
  w d * Ideal.div (centered one b ms X n d) (Ideal.sqrt (var one b ms X (gix b n) d + eps)) + bias d

/-- A matrix product. -/
def matmul (A : Fin N → Fin K → EReal) (Wt : Fin K → Fin J → EReal) (n : Fin N) (j : Fin J) : EReal :=
  ∑ k : Fin K, A n k * Wt k j

/-- The mean pool: segment sum over count. -/
def pool (one : EReal) (b : Fin N → Int) (X : Fin N → Fin D → EReal) (g : Fin 256) (d : Fin D) : EReal :=
  Ideal.div (segSum b X g d) (cnt one b g)

end Cert.Spec

end
-- ==== Proof.PreRange.lean ====
/-
  READING THE PRECONDITION: the printed predicate is all ones on an input only if every entry of the label array, read
  as a signed integer, lies in [0, 256).
-/
import proofs.«413028_j69071664054692_1_alg».proof.Pre_finite_inputs
import proofs.«413028_j69071664054692_1_alg».proof.Proof.Gen.Pre_finite_inputs
import proofs.«413028_j69071664054692_1_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreRange

open Cert.Pre_finite_inputs Cert.Spec

/-- The rank-0 shape has one index. -/
instance : Subsingleton S_.Idx := ⟨fun a b => funext fun d => d.elim0⟩

/-- If the precondition evaluates to the all-ones mask at the exact instance, every label is a graph index. -/
theorem inRange_of_pre [hP : Cert.Pre_finite_inputs.Facts]
    (x0 : (⟨S50000x64, .f32⟩ : BufTy).Contents (Elt Ideal)) (x1 : (⟨S2x800000, .i32⟩ : BufTy).Contents (Elt Ideal))
    (x2 : (⟨S50000, .i32⟩ : BufTy).Contents (Elt Ideal)) (x3 x4 x5 : (⟨S64, .f32⟩ : BufTy).Contents (Elt Ideal))
    (x6 : (⟨S64x128, .f32⟩ : BufTy).Contents (Elt Ideal)) (x7 x8 x9 x10 : (⟨S128, .f32⟩ : BufTy).Contents (Elt Ideal))
    (x11 : (⟨S128x64, .f32⟩ : BufTy).Contents (Elt Ideal)) (x12 : (⟨S64, .f32⟩ : BufTy).Contents (Elt Ideal))
    (h : Cert.Pre_finite_inputs.fn (F := Ideal) x0 x1 x2 x3 x4 x5 x6 x7 x8 x9 x10 x11 x12 = (fun _ => 1#1)) :
    InRange (sint (x2 : IVec S50000 32)) := by
  -- the predicate's value at its one index is the conjunction of its thirteen conjuncts
  have h0 := congrFun h ValueIdx.ix0
  dsimp only [Cert.Pre_finite_inputs.fn, Cert.Pre_finite_inputs.fn_part1, Cert.Pre_finite_inputs.fn_part2,
    Cert.Pre_finite_inputs.fn_part3] at h0
  -- the last two conjuncts are the two bounds on the labels
  obtain ⟨h1, hlt⟩ := IntOp.andi_eq_one.1 h0
  obtain ⟨_, hge⟩ := IntOp.andi_eq_one.1 h1
  intro n
  -- a conjunction over all entries that is 1 has a 1 at every entry
  have hge' := Host.reduce_andi_all _ _ _ _ _ hge (ValueIdx.ix1 n)
  have hlt' := Host.reduce_andi_all _ _ _ _ _ hlt (ValueIdx.ix1 n)
  -- a signed comparison word that is 1 orders its operands read as signed integers
  -- (the right operands are the constants 0 and 256 at every entry)
  have a : (0#32 : BitVec 32).toInt ≤ (x2 (ValueIdx.ix1 n)).toInt := IntOp.cmpi_sge.1 hge'
  have b : (x2 (ValueIdx.ix1 n)).toInt < (256#32 : BitVec 32).toInt := IntOp.cmpi_slt.1 hlt'
  rw [show (0#32 : BitVec 32).toInt = 0 from by decide] at a
  rw [show (256#32 : BitVec 32).toInt = 256 from by decide] at b
  exact ⟨a, b⟩

end Cert.PreRange

end
-- ==== Proof.KBufs.lean ====
/-
  NAMES, each at its literal array type, for the buffers of the kernel's program that the value lemmas speak of: an
  argument array as launched, or a buffer's contents at the boundary of @main right after the step that writes it (or at
  the entry of the region that reads it).
-/
import proofs.«413028_j69071664054692_1_alg».proof.Proof.Gen.KernelIdeal.Frame
import proofs.«413028_j69071664054692_1_alg».proof.Proof.Spec

noncomputable section

open Idealize.ShloMosaic Idealize.ShloMosaic.TcCoe Idealize.ShloMosaic.ValueIdx Idealize.SL.Sem

namespace Cert.KernelIdeal.Chain

open Cert.KernelIdeal Cert.KernelIdeal.Gen Cert.Spec

variable (m : (ℓ : Loc nD τ sig) → Buf (Elt Ideal) ℓ) (ρ : Dev nD → PrngReg)

-- the argument arrays as launched
abbrev arg0 (c : Dev nD) : S50000x64.Idx → EReal := m ((c : Thread nD τ).loc main_arg0)
abbrev arg1 (c : Dev nD) : S2x800000.Idx → BitVec 32 := m ((c : Thread nD τ).loc main_arg1)
abbrev arg2 (c : Dev nD) : S50000.Idx → BitVec 32 := m ((c : Thread nD τ).loc main_arg2)
abbrev arg3 (c : Dev nD) : S64.Idx → EReal := m ((c : Thread nD τ).loc main_arg3)
abbrev arg4 (c : Dev nD) : S64.Idx → EReal := m ((c : Thread nD τ).loc main_arg4)
abbrev arg5 (c : Dev nD) : S64.Idx → EReal := m ((c : Thread nD τ).loc main_arg5)
abbrev arg6 (c : Dev nD) : S64x128.Idx → EReal := m ((c : Thread nD τ).loc main_arg6)
abbrev arg7 (c : Dev nD) : S128.Idx → EReal := m ((c : Thread nD τ).loc main_arg7)
abbrev arg8 (c : Dev nD) : S128.Idx → EReal := m ((c : Thread nD τ).loc main_arg8)
abbrev arg9 (c : Dev nD) : S128.Idx → EReal := m ((c : Thread nD τ).loc main_arg9)
abbrev arg10 (c : Dev nD) : S128.Idx → EReal := m ((c : Thread nD τ).loc main_arg10)
abbrev arg11 (c : Dev nD) : S128x64.Idx → EReal := m ((c : Thread nD τ).loc main_arg11)
abbrev arg12 (c : Dev nD) : S64.Idx → EReal := m ((c : Thread nD τ).loc main_arg12)

/-- The graph label of each node, signed. -/
abbrev bat (c : Dev nD) : Fin 50000 → Int := sint (arg2 m c)

-- the one-hot matrices and the count column, after the host prologue
abbrev b7 (c : Dev nD) : S256x51200.Idx → EReal := W3 m ρ c (Proc.devRef .tc main_v7)
abbrev b13 (c : Dev nD) : S51200x256.Idx → EReal := W3 m ρ c (Proc.devRef .tc main_v13)
abbrev b20 (c : Dev nD) : S256x1.Idx → EReal := W3 m ρ c (Proc.devRef .tc main_v20)

-- the first GraphNorm: means, centred rows, variances, normalised rows
abbrev b24 (c : Dev nD) : S256x64.Idx → EReal := W6 m ρ c (Proc.devRef .tc main_v24)
abbrev b26_0 (c : Dev nD) : S51200x64.Idx → EReal := W7 m ρ c (Proc.devRef .tc main_v26_0)
abbrev b28 (c : Dev nD) : S256x64.Idx → EReal := W8 m ρ c (Proc.devRef .tc main_v28)
abbrev b32 (c : Dev nD) : S50000x64.Idx → EReal := W10 m ρ c (Proc.devRef .tc main_v32)

-- the first linear layer and its aggregation
abbrev b42 (c : Dev nD) : S50000x128.Idx → EReal := W13 m ρ c (Proc.devRef .tc main_v42)
abbrev b84 (c : Dev nD) : S50000x128.Idx → EReal := W18 m ρ c (Proc.devRef .tc main_v84)

-- the second GraphNorm
abbrev b88 (c : Dev nD) : S256x128.Idx → EReal := W20 m ρ c (Proc.devRef .tc main_v88)
abbrev b90_0 (c : Dev nD) : S51200x128.Idx → EReal := W21 m ρ c (Proc.devRef .tc main_v90_0)
abbrev b92 (c : Dev nD) : S256x128.Idx → EReal := W22 m ρ c (Proc.devRef .tc main_v92)
abbrev b96 (c : Dev nD) : S50000x128.Idx → EReal := W24 m ρ c (Proc.devRef .tc main_v96)

-- the second linear layer, its aggregation, and the result
abbrev b106 (c : Dev nD) : S50000x64.Idx → EReal := W27 m ρ c (Proc.devRef .tc main_v106)
abbrev b147 (c : Dev nD) : S50000x64.Idx → EReal := W30 m ρ c (Proc.devRef .tc main_v147)
abbrev b151 (c : Dev nD) : S256x64.Idx → EReal := W32 m ρ c (Proc.devRef .tc main_v151)

end Cert.KernelIdeal.Chain

end
-- ==== Proof.LibSegment.lean ====
/-
  GENERAL LEMMAS ON THE EXTENDED REALS for segment sums written as one-hot products, and for a normalisation written
  with a reciprocal square root against one written with a quotient by a square root.

  A one-hot weight (1 where a predicate holds, 0 elsewhere) times a term, summed, is the sum over the terms where the
  predicate holds: on the extended reals `0 * x = 0` and `1 * x = x` for EVERY `x`, the infinities included, so no
  finiteness is needed. `c * rsqrt v = c / sqrt v` for every `c` as soon as `0 < v` (at `v = ⊤` both sides are `c * 0`).
-/
import Idealize.ShloMosaic.PureOps.Ideal
import Mathlib.Data.EReal.Basic
import Mathlib.Data.EReal.Inv
import Mathlib.Algebra.BigOperators.Group.Finset.Basic

noncomputable section

open scoped BigOperators

namespace Cert.LibSegment

open Idealize.ShloMosaic

/-- One-hot weights pick out the terms where the predicate holds. -/
theorem sum_onehot_mul {ι : Type*} [Fintype ι] (p : ι → Prop) [DecidablePred p] (x : ι → EReal) :
    ∑ n, (if p n then (1 : EReal) else 0) * x n = ∑ n ∈ Finset.univ.filter p, x n := by
  rw [Finset.sum_filter]
  refine Finset.sum_congr rfl fun n _ => ?_
  by_cases h : p n
  · rw [if_pos h, if_pos h, one_mul]
  · rw [if_neg h, if_neg h, zero_mul]

/-- A one-hot row times a table is the table's row at the hot index. -/
theorem sum_onehot_eq_mul {ι : Type*} [Fintype ι] [DecidableEq ι] (g0 : ι) (M : ι → EReal) :
    ∑ g, (if g = g0 then (1 : EReal) else 0) * M g = M g0 := by
  rw [Finset.sum_eq_single g0]
  · rw [if_pos rfl, one_mul]
  · intro b _ hb
    rw [if_neg hb, zero_mul]
  · intro h
    exact absurd (Finset.mem_univ g0) h

/-- An all-zero row times a table is zero. -/
theorem sum_zero_mul {ι : Type*} [Fintype ι] (M : ι → EReal) : ∑ g : ι, (0 : EReal) * M g = 0 := by
  refine Finset.sum_eq_zero fun g _ => ?_
  exact zero_mul (M g)

/-- The product with the reciprocal root is the quotient by the root, for a positive radicand (`⊤` included). -/
theorem mul_rsqrt_eq_div_sqrt (c v : EReal) (hv : 0 < v) : c * Ideal.rsqrt v = Ideal.div c (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := by exact_mod_cast hv
    have hs : 0 < Real.sqrt r := Real.sqrt_pos.mpr hr
    have hs' : ((Real.sqrt r : ℝ) : EReal) ≠ 0 := by exact_mod_cast hs.ne'
    rw [Ideal.rsqrt_coe, Ideal.sqrt_coe, if_neg (not_lt.mpr hr.le), if_neg hr.ne',
      if_neg (not_lt.mpr hr.le), Ideal.div, if_neg hs', EReal.coe_inv]

/-- A nonnegative numerator over a positive denominator is nonnegative (`Ideal.div`'s conventions). -/
theorem div_nonneg {s c : EReal} (hs : 0 ≤ s) (hc : 0 < c) : 0 ≤ Ideal.div s c := by
  rw [Ideal.div, if_neg hc.ne']
  exact EReal.mul_nonneg hs (EReal.inv_nonneg_of_nonneg hc.le)

/-- A sum of squares is nonnegative on the extended reals (`⊥ * ⊥ = ⊤`). -/
theorem sum_mul_self_nonneg {ι : Type*} (s : Finset ι) (f : ι → EReal) : 0 ≤ ∑ i ∈ s, f i * f i := by
  refine Finset.sum_nonneg fun i _ => ?_
  rw [EReal.mul_nonneg_iff]
  rcases le_total 0 (f i) with h | h
  · exact Or.inl ⟨h, h⟩
  · exact Or.inr ⟨h, h⟩

theorem add_pos_of_nonneg_of_pos {v e : EReal} (hv : 0 ≤ v) (he : 0 < e) : 0 < v + e := by
  calc (0 : EReal) < e := he
    _ = 0 + e := (zero_add e).symm
    _ ≤ v + e := add_le_add hv le_rfl

/-- A sum over `T * B` indices, tile by tile. -/
theorem sum_tiles (T B : Nat) (f : Fin (T * B) → EReal) :
    ∑ n : Fin (T * B), f n
      = ∑ t : Fin T, ∑ k : Fin B, f ⟨t.val * B + k.val, by
          have := t.isLt; have := k.isLt; nlinarith [Nat.mul_le_mul_right B (Nat.succ_le_of_lt t.isLt)]⟩ := by
  rw [← (finProdFinEquiv (m := T) (n := B)).sum_comp f, Fintype.sum_prod_type]
  refine Finset.sum_congr rfl fun t _ => Finset.sum_congr rfl fun k _ => ?_
  congr 1
  apply Fin.ext
  simp only [finProdFinEquiv_apply_val]
  ring

/-- The f32 words of this certificate as extended reals. -/
theorem ofBits_one_pos : (0 : EReal) < Ideal.ofBits .f32 0x3F800000#32 := by
  have h : Ideal.ofBits .f32 0x3F800000#32 = 1 := by
    simp [Ideal.ofBits, Ideal.ieee, -EReal.coe_mul]; norm_num
  rw [h]
  exact zero_lt_one
theorem ofBits_eps_pos : (0 : EReal) < Ideal.ofBits .f32 0x3727C5AC#32 := by
  simp [Ideal.ofBits, Ideal.ieee, -EReal.coe_mul]

/-- A floor at a positive value is positive. -/
theorem max_pos_right {a one : EReal} (h : 0 < one) : 0 < max a one := lt_of_lt_of_le h (le_max_right _ _)

end Cert.LibSegment

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.LibPadSum.lean ====
/-
  ONE-HOT PRODUCTS OVER PADDED ROWS, AND THE NORMALISATION LAW, in the specification's terms.

  The 50000 nodes are padded to 51200 rows; a padding row's one-hot weight is 0, so whatever the padded operand holds
  there drops out (0 * x = 0 for every extended real). A one-hot ROW against a per-graph table picks the table's row at
  the node's label when the label is a graph index. The variance of the specification is a mean of squares over a
  positive count, so `variance + eps` is positive and a product with its reciprocal root is the quotient by its root.
-/
import proofs.«413028_j69071664054692_1_alg».proof.Proof.Spec
import proofs.«413028_j69071664054692_1_alg».proof.Proof.LibSegment

noncomputable section

open scoped BigOperators

namespace Cert.LibPadSum

open Idealize.ShloMosaic Cert.Spec

/-- A one-hot column over the padded rows against a padded operand is the segment sum over the real nodes. -/
theorem padded_onehot_sum {D : Nat} (b : Fin 50000 → Int) (X : Fin 50000 → Fin D → EReal) (g : Fin 256) (d : Fin D)
    (oh xp : Fin 51200 → EReal)
    (hoh : ∀ n : Fin 51200, oh n = if h : n.val < 50000 then (if b ⟨n.val, h⟩ = (g.val : Int) then (1 : EReal) else 0) else 0)
    (hxp : ∀ (n : Fin 51200) (h : n.val < 50000), xp n = X ⟨n.val, h⟩ d) :
    ∑ n : Fin 51200, oh n * xp n = segSum b X g d := by
  -- the 51200 rows are the 50000 nodes followed by 1200 padding rows
  change ∑ n : Fin (50000 + 1200), oh n * xp n = _
  rw [Fin.sum_univ_add]
  -- on a node's row the summand is the one-hot weight times the node's entry
  have h1 : ∀ i : Fin 50000, oh (Fin.castAdd 1200 i) * xp (Fin.castAdd 1200 i)
      = (if b i = (g.val : Int) then (1 : EReal) else 0) * X i d := by
    intro i
    have hi : (Fin.castAdd 1200 i : Fin (50000 + 1200)).val < 50000 := i.isLt
    rw [hoh (Fin.castAdd 1200 i), dif_pos hi, hxp (Fin.castAdd 1200 i) hi]
    rfl
  -- on a padding row the weight is 0
  have h2 : ∀ i : Fin 1200, oh (Fin.natAdd 50000 i) * xp (Fin.natAdd 50000 i) = 0 := by
    intro i
    have hi : ¬ (Fin.natAdd 50000 i : Fin (50000 + 1200)).val < 50000 := by
      rw [Fin.coe_natAdd]; omega
    rw [hoh (Fin.natAdd 50000 i), dif_neg hi, zero_mul]
  rw [Finset.sum_congr rfl fun i _ => h1 i, Finset.sum_congr rfl fun i _ => h2 i, Finset.sum_const_zero, add_zero,
    Cert.LibSegment.sum_onehot_mul]
  rfl

/-- A one-hot row against a per-graph table is the table's row at the node's label. -/
theorem onehot_row_gather (b : Fin 50000 → Int) (hr : InRange b) (n : Fin 50000) (M ohT : Fin 256 → EReal)
    (h : ∀ g : Fin 256, ohT g = if b n = (g.val : Int) then (1 : EReal) else 0) :
    ∑ g : Fin 256, ohT g * M g = M (gix b n) := by
  -- a label in [0, 256) equals a graph index exactly when that index is the label's
  have hv : ((gix b n).val : Int) = b n := by
    obtain ⟨h0, h1⟩ := hr n
    show (((b n).toNat % 256 : Nat) : Int) = b n
    omega
  have hg : ∀ g : Fin 256, (b n = (g.val : Int)) ↔ g = gix b n := by
    intro g
    constructor
    · intro e
      apply Fin.ext
      omega
    · rintro rfl
      exact hv.symm
  calc ∑ g : Fin 256, ohT g * M g
      = ∑ g : Fin 256, (if g = gix b n then (1 : EReal) else 0) * M g := by
        refine Finset.sum_congr rfl fun g _ => ?_
        rw [h g, if_congr (hg g) rfl rfl]
    _ = M (gix b n) := Cert.LibSegment.sum_onehot_eq_mul _ _

/-- An all-zero row against a table is zero. -/
theorem zero_row_gather (M ohT : Fin 256 → EReal) (h : ∀ g : Fin 256, ohT g = 0) : ∑ g : Fin 256, ohT g * M g = 0 := by
  refine Finset.sum_eq_zero fun g _ => ?_
  rw [h g, zero_mul]

/-- Under `InRange` the label is its own index. -/
theorem gix_val {N : Nat} (b : Fin N → Int) (hr : InRange b) (n : Fin N) : ((gix b n).val : Int) = b n := by
  obtain ⟨h0, h1⟩ := hr n
  show (((b n).toNat % 256 : Nat) : Int) = b n
  omega

/-- The count of a graph is positive. -/
theorem cnt_pos {N : Nat} (b : Fin N → Int) (g : Fin 256) : 0 < cnt one b g := by
  unfold cnt
  exact Cert.LibSegment.max_pos_right Cert.LibSegment.ofBits_one_pos

/-- The variance is nonnegative. -/
theorem var_nonneg {N D : Nat} (b : Fin N → Int) (ms : Fin D → EReal) (X : Fin N → Fin D → EReal) (g : Fin 256) (d : Fin D) :
    0 ≤ var one b ms X g d := by
  unfold var
  refine Cert.LibSegment.div_nonneg ?_ (cnt_pos b g)
  unfold segSum
  exact Cert.LibSegment.sum_mul_self_nonneg _ (fun n => centered one b ms X n d)

/-- The normalisation written with a reciprocal root is the specification's, written with a quotient by the root. -/
theorem norm_rsqrt_eq {N D : Nat} (b : Fin N → Int) (ms : Fin D → EReal) (X : Fin N → Fin D → EReal) (g : Fin 256) (d : Fin D)
    (w c bias : EReal) :
    w * (c * Ideal.rsqrt (var one b ms X g d + eps)) + bias = w * Ideal.div c (Ideal.sqrt (var one b ms X g d + eps)) + bias := by
  rw [Cert.LibSegment.mul_rsqrt_eq_div_sqrt c (var one b ms X g d + eps)
    (Cert.LibSegment.add_pos_of_nonneg_of_pos (var_nonneg b ms X g d) Cert.LibSegment.ofBits_eps_pos)]

end Cert.LibPadSum

end
-- ==== Proof.Keep.lean ====
/-
  BUFFERS THAT A STEP OF @main DOES NOT WRITE KEEP THEIR CONTENTS across it: one lemma per step of the kernel's program
  (a stretch of host operations, which writes its operations' results, or a region, which writes only the arrays of its
  output windows), so that a buffer's contents at a later boundary are read back to the boundary right after the step
  that wrote it. Step k leads from boundary k to boundary k + 1; `wr k` lists the references it writes.
-/
import proofs.«413028_j69071664054692_1_alg».proof.Proof.Gen.KernelIdeal.Frame
import Idealize.ShloMosaic.Lib.StableHlo.Run

set_option maxRecDepth 16384

noncomputable section

open Idealize.ShloMosaic Idealize.ShloMosaic.TcCoe Idealize.SL.Sem

namespace Cert.KernelIdeal.Keep

open Cert.KernelIdeal Cert.KernelIdeal.Gen

variable {F : FTy → Type} [FloatOps F]
variable (m : (ℓ : Loc nD τ sig) → Buf (Elt F) ℓ) (ρ : Dev nD → PrngReg)

/-- The result buffer of one host operation is a member of the list of written references. -/
macro "wr_one" : tactic => `(tactic|
  (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
   exact List.mem_map_of_mem (by decide)))

/-- At the launch boundary a buffer holds the launch memory. -/
theorem W0_arg (c : Dev nD) (b : Ref sig .tc) : W0 m ρ c (Proc.devRef .tc b) = m ((c : Thread nD τ).loc b) := rfl

/-- The references the host operations of step 0 (`hostOps0`) write: each operation's result. -/
abbrev wr0 : List (Ref sig .tc) := [main_c]
theorem wr0_sub : (hostOps0 : List (HloOp τ sig (Elt F))).Forall fun op => op.writes ⊆ (wr0.map (Proc.devRef (τ := τ) .tc)).toFinset := by
  simp only [List.Forall]; repeat' apply And.intro
  all_goals wr_one
/-- A buffer that step 0 does not write holds after it what it held before. -/
theorem keep0 (c : Dev nD) (b : Ref sig .tc) (hb : b ∉ wr0) :
    W1 m ρ c (Proc.devRef .tc b) = W0 m ρ c (Proc.devRef .tc b) :=
  StableHlo.after_of_writes_sub hostOps0 _ wr0_sub hb

/-- The references the host operations of step 1 (`hostOps0_1`) write: each operation's result. -/
abbrev wr1 : List (Ref sig .tc) := [main_call0_v0, main_v0]
theorem wr1_sub : (hostOps0_1 : List (HloOp τ sig (Elt F))).Forall fun op => op.writes ⊆ (wr1.map (Proc.devRef (τ := τ) .tc)).toFinset := by
  simp only [List.Forall]; repeat' apply And.intro
  all_goals wr_one
/-- A buffer that step 1 does not write holds after it what it held before. -/
theorem keep1 (c : Dev nD) (b : Ref sig .tc) (hb : b ∉ wr1) :
    W2 m ρ c (Proc.devRef .tc b) = W1 m ρ c (Proc.devRef .tc b) :=
  StableHlo.after_of_writes_sub hostOps0_1 _ wr1_sub hb

/-- The references the host operations of step 2 (`hostOps0_2`) write: each operation's result. -/
abbrev wr2 : List (Ref sig .tc) := [main_v1, main_v2, main_v3, main_v4, main_v5, main_v6, main_v7, main_v8, main_v9, main_v10, main_v11, main_v12, main_v13, main_cst, main_v14, main_cst_0, main_v15, main_v16, main_v17, main_cst_1, main_v18, main_v19, main_v20, main_c_2]
theorem wr2_sub : (hostOps0_2 : List (HloOp τ sig (Elt F))).Forall fun op => op.writes ⊆ (wr2.map (Proc.devRef (τ := τ) .tc)).toFinset := by
  simp only [List.Forall]; repeat' apply And.intro
  all_goals wr_one
/-- A buffer that step 2 does not write holds after it what it held before. -/
theorem keep2 (c : Dev nD) (b : Ref sig .tc) (hb : b ∉ wr2) :
    W3 m ρ c (Proc.devRef .tc b) = W2 m ρ c (Proc.devRef .tc b) :=
  StableHlo.after_of_writes_sub hostOps0_2 _ wr2_sub hb

/-- The references the host operations of step 3 (`hostOps0_3`) write: each operation's result. -/
abbrev wr3 : List (Ref sig .tc) := [main_call1_v0, main_v21]
theorem wr3_sub : (hostOps0_3 : List (HloOp τ sig (Elt F))).Forall fun op => op.writes ⊆ (wr3.map (Proc.devRef (τ := τ) .tc)).toFinset := by
  simp only [List.Forall]; repeat' apply And.intro
  all_goals wr_one
/-- A buffer that step 3 does not write holds after it what it held before. -/
theorem keep3 (c : Dev nD) (b : Ref sig .tc) (hb : b ∉ wr3) :
    W4 m ρ c (Proc.devRef .tc b) = W3 m ρ c (Proc.devRef .tc b) :=
  StableHlo.after_of_writes_sub hostOps0_3 _ wr3_sub hb

/-- The arrays region 0 (step 4) writes: those of its output windows. An input window's array is never written back. -/
abbrev wr4 : List (Ref sig .tc) := [main_v22]
theorem wr4_out : ∀ w : Fin cfg0.W, (cfg0.win w).isOut = true → Pipeline.arrRef spec0 w ∈ wr4 := by decide
/-- A buffer that is no output array of region 0 holds after the region what it held before: an array of an input
    window because no write-back reaches it, any other buffer because the region touches only its windows' arrays. -/
theorem keep4 (c : Dev nD) (b : Ref sig .tc) (hb : b ∉ wr4) :
    W5 m ρ c (Proc.devRef .tc b) = W4 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd (wr4_out w hw) hb
    exact (W5_arr m ρ c w).trans (((dat0 (V4 m ρ) c).arrAt_in w hin _).trans (A_eq0 (V4 m ρ) c w))
  · exact W5_of_ne m ρ c b fun w e => h ⟨w, e⟩

/-- The references the host operations of step 5 (`hostOps1`) write: each operation's result. -/
abbrev wr5 : List (Ref sig .tc) := [main_v23, main_v24, main_v25]
theorem wr5_sub : (hostOps1 : List (HloOp τ sig (Elt F))).Forall fun op => op.writes ⊆ (wr5.map (Proc.devRef (τ := τ) .tc)).toFinset := by
  simp only [List.Forall]; repeat' apply And.intro
  all_goals wr_one
/-- A buffer that step 5 does not write holds after it what it held before. -/
theorem keep5 (c : Dev nD) (b : Ref sig .tc) (hb : b ∉ wr5) :
    W6 m ρ c (Proc.devRef .tc b) = W5 m ρ c (Proc.devRef .tc b) :=
  StableHlo.after_of_writes_sub hostOps1 _ wr5_sub hb

/-- The arrays region 1 (step 6) writes: those of its output windows. An input window's array is never written back. -/
abbrev wr6 : List (Ref sig .tc) := [main_v26_0, main_v26_1]
theorem wr6_out : ∀ w : Fin cfg1.W, (cfg1.win w).isOut = true → Pipeline.arrRef spec1 w ∈ wr6 := by decide
/-- A buffer that is no output array of region 1 holds after the region what it held before: an array of an input
    window because no write-back reaches it, any other buffer because the region touches only its windows' arrays. -/
theorem keep6 (c : Dev nD) (b : Ref sig .tc) (hb : b ∉ wr6) :
    W7 m ρ c (Proc.devRef .tc b) = W6 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd (wr6_out w hw) hb
    exact (W7_arr m ρ c w).trans (((dat1 (V6 m ρ) c).arrAt_in w hin _).trans (A_eq1 (V6 m ρ) c w))
  · exact W7_of_ne m ρ c b fun w e => h ⟨w, e⟩

/-- The references the host operations of step 7 (`hostOps2`) write: each operation's result. -/
abbrev wr7 : List (Ref sig .tc) := [main_v27, main_v28, main_v29, main_v30]
theorem wr7_sub : (hostOps2 : List (HloOp τ sig (Elt F))).Forall fun op => op.writes ⊆ (wr7.map (Proc.devRef (τ := τ) .tc)).toFinset := by
  simp only [List.Forall]; repeat' apply And.intro
  all_goals wr_one
/-- A buffer that step 7 does not write holds after it what it held before. -/
theorem keep7 (c : Dev nD) (b : Ref sig .tc) (hb : b ∉ wr7) :
    W8 m ρ c (Proc.devRef .tc b) = W7 m ρ c (Proc.devRef .tc b) :=
  StableHlo.after_of_writes_sub hostOps2 _ wr7_sub hb

/-- The arrays region 2 (step 8) writes: those of its output windows. An input window's array is never written back. -/
abbrev wr8 : List (Ref sig .tc) := [main_v31]
theorem wr8_out : ∀ w : Fin cfg2.W, (cfg2.win w).isOut = true → Pipeline.arrRef spec2 w ∈ wr8 := by decide
/-- A buffer that is no output array of region 2 holds after the region what it held before: an array of an input
    window because no write-back reaches it, any other buffer because the region touches only its windows' arrays. -/
theorem keep8 (c : Dev nD) (b : Ref sig .tc) (hb : b ∉ wr8) :
    W9 m ρ c (Proc.devRef .tc b) = W8 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd (wr8_out w hw) hb
    exact (W9_arr m ρ c w).trans (((dat2 (V8 m ρ) c).arrAt_in w hin _).trans (A_eq2 (V8 m ρ) c w))
  · exact W9_of_ne m ρ c b fun w e => h ⟨w, e⟩

/-- The references the host operations of step 9 (`hostOps3`) write: each operation's result. -/
abbrev wr9 : List (Ref sig .tc) := [main_v32, main_v33, main_v34, main_v35, main_v36, main_v37, main_v38, main_v39, main_c_3]
theorem wr9_sub : (hostOps3 : List (HloOp τ sig (Elt F))).Forall fun op => op.writes ⊆ (wr9.map (Proc.devRef (τ := τ) .tc)).toFinset := by
  simp only [List.Forall]; repeat' apply And.intro
  all_goals wr_one
/-- A buffer that step 9 does not write holds after it what it held before. -/
theorem keep9 (c : Dev nD) (b : Ref sig .tc) (hb : b ∉ wr9) :
    W10 m ρ c (Proc.devRef .tc b) = W9 m ρ c (Proc.devRef .tc b) :=
  StableHlo.after_of_writes_sub hostOps3 _ wr9_sub hb

/-- The references the host operations of step 10 (`hostOps3_1`) write: each operation's result. -/
abbrev wr10 : List (Ref sig .tc) := [main_call2_v0, main_v40]
theorem wr10_sub : (hostOps3_1 : List (HloOp τ sig (Elt F))).Forall fun op => op.writes ⊆ (wr10.map (Proc.devRef (τ := τ) .tc)).toFinset := by
  simp only [List.Forall]; repeat' apply And.intro
  all_goals wr_one
/-- A buffer that step 10 does not write holds after it what it held before. -/
theorem keep10 (c : Dev nD) (b : Ref sig .tc) (hb : b ∉ wr10) :
    W11 m ρ c (Proc.devRef .tc b) = W10 m ρ c (Proc.devRef .tc b) :=
  StableHlo.after_of_writes_sub hostOps3_1 _ wr10_sub hb

/-- The arrays region 3 (step 11) writes: those of its output windows. An input window's array is never written back. -/
abbrev wr11 : List (Ref sig .tc) := [main_v41]
theorem wr11_out : ∀ w : Fin cfg3.W, (cfg3.win w).isOut = true → Pipeline.arrRef spec3 w ∈ wr11 := by decide
/-- A buffer that is no output array of region 3 holds after the region what it held before: an array of an input
    window because no write-back reaches it, any other buffer because the region touches only its windows' arrays. -/
theorem keep11 (c : Dev nD) (b : Ref sig .tc) (hb : b ∉ wr11) :
    W12 m ρ c (Proc.devRef .tc b) = W11 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd (wr11_out w hw) hb
    exact (W12_arr m ρ c w).trans (((dat3 (V11 m ρ) c).arrAt_in w hin _).trans (A_eq3 (V11 m ρ) c w))
  · exact W12_of_ne m ρ c b fun w e => h ⟨w, e⟩

/-- The references the host operations of step 12 (`hostOps4`) write: each operation's result. -/
abbrev wr12 : List (Ref sig .tc) := [main_v42, main_cst_4, main_v43, main_cst_5, main_v44, main_v45, main_v46, main_cst_6, main_v47, main_v48, main_cst_7, main_v49, main_v50, main_v51, main_cst_8]
theorem wr12_sub : (hostOps4 : List (HloOp τ sig (Elt F))).Forall fun op => op.writes ⊆ (wr12.map (Proc.devRef (τ := τ) .tc)).toFinset := by
  simp only [List.Forall]; repeat' apply And.intro
  all_goals wr_one
/-- A buffer that step 12 does not write holds after it what it held before. -/
theorem keep12 (c : Dev nD) (b : Ref sig .tc) (hb : b ∉ wr12) :
    W13 m ρ c (Proc.devRef .tc b) = W12 m ρ c (Proc.devRef .tc b) :=
  StableHlo.after_of_writes_sub hostOps4 _ wr12_sub hb

/-- The references the host operations of step 13 (`hostOps4_1`) write: each operation's result. -/
abbrev wr13 : List (Ref sig .tc) := [main_call3_v0, main_call3_v1, main_v52]
theorem wr13_sub : (hostOps4_1 : List (HloOp τ sig (Elt F))).Forall fun op => op.writes ⊆ (wr13.map (Proc.devRef (τ := τ) .tc)).toFinset := by
  simp only [List.Forall]; repeat' apply And.intro
  all_goals wr_one
/-- A buffer that step 13 does not write holds after it what it held before. -/
theorem keep13 (c : Dev nD) (b : Ref sig .tc) (hb : b ∉ wr13) :
    W14 m ρ c (Proc.devRef .tc b) = W13 m ρ c (Proc.devRef .tc b) :=
  StableHlo.after_of_writes_sub hostOps4_1 _ wr13_sub hb

/-- The references the host operations of step 14 (`hostOps4_2`) write: each operation's result. -/
abbrev wr14 : List (Ref sig .tc) := [main_c_9, main_v53, main_v54, main_c_10, main_v55, main_v56, main_v57, main_v58, main_v59, main_c_11, main_v60, main_v61, main_c_12, main_v62, main_v63, main_v64, main_v65, main_v66, main_v67, main_c_13, main_v68, main_v69, main_c_14, main_v70, main_v71, main_v72, main_v73, main_v74, main_v75, main_v76, main_v77, main_cst_15, main_v78, main_v79, main_v80, main_v81, main_v82, main_v83]
theorem wr14_sub : (hostOps4_2 : List (HloOp τ sig (Elt F))).Forall fun op => op.writes ⊆ (wr14.map (Proc.devRef (τ := τ) .tc)).toFinset := by
  simp only [List.Forall]; repeat' apply And.intro
  all_goals wr_one
/-- A buffer that step 14 does not write holds after it what it held before. -/
theorem keep14 (c : Dev nD) (b : Ref sig .tc) (hb : b ∉ wr14) :
    W15 m ρ c (Proc.devRef .tc b) = W14 m ρ c (Proc.devRef .tc b) :=
  StableHlo.after_of_writes_sub hostOps4_2 _ wr14_sub hb

/-- The references the host operations of step 15 (`hostOps4_3`) write: each operation's result. -/
abbrev wr15 : List (Ref sig .tc) := [main_call4_cst, main_call4_v0, main_v84]
theorem wr15_sub : (hostOps4_3 : List (HloOp τ sig (Elt F))).Forall fun op => op.writes ⊆ (wr15.map (Proc.devRef (τ := τ) .tc)).toFinset := by
  simp only [List.Forall]; repeat' apply And.intro
  all_goals wr_one
/-- A buffer that step 15 does not write holds after it what it held before. -/
theorem keep15 (c : Dev nD) (b : Ref sig .tc) (hb : b ∉ wr15) :
    W16 m ρ c (Proc.devRef .tc b) = W15 m ρ c (Proc.devRef .tc b) :=
  StableHlo.after_of_writes_sub hostOps4_3 _ wr15_sub hb

/-- The references the host operations of step 16 (`hostOps4_4`) write: each operation's result. -/
abbrev wr16 : List (Ref sig .tc) := [main_c_16]
theorem wr16_sub : (hostOps4_4 : List (HloOp τ sig (Elt F))).Forall fun op => op.writes ⊆ (wr16.map (Proc.devRef (τ := τ) .tc)).toFinset := by
  simp only [List.Forall]; repeat' apply And.intro
  all_goals wr_one
/-- A buffer that step 16 does not write holds after it what it held before. -/
theorem keep16 (c : Dev nD) (b : Ref sig .tc) (hb : b ∉ wr16) :
    W17 m ρ c (Proc.devRef .tc b) = W16 m ρ c (Proc.devRef .tc b) :=
  StableHlo.after_of_writes_sub hostOps4_4 _ wr16_sub hb

/-- The references the host operations of step 17 (`hostOps4_5`) write: each operation's result. -/
abbrev wr17 : List (Ref sig .tc) := [main_call5_v0, main_v85]
theorem wr17_sub : (hostOps4_5 : List (HloOp τ sig (Elt F))).Forall fun op => op.writes ⊆ (wr17.map (Proc.devRef (τ := τ) .tc)).toFinset := by
  simp only [List.Forall]; repeat' apply And.intro
  all_goals wr_one
/-- A buffer that step 17 does not write holds after it what it held before. -/
theorem keep17 (c : Dev nD) (b : Ref sig .tc) (hb : b ∉ wr17) :
    W18 m ρ c (Proc.devRef .tc b) = W17 m ρ c (Proc.devRef .tc b) :=
  StableHlo.after_of_writes_sub hostOps4_5 _ wr17_sub hb

/-- The arrays region 4 (step 18) writes: those of its output windows. An input window's array is never written back. -/
abbrev wr18 : List (Ref sig .tc) := [main_v86]
theorem wr18_out : ∀ w : Fin cfg4.W, (cfg4.win w).isOut = true → Pipeline.arrRef spec4 w ∈ wr18 := by decide
/-- A buffer that is no output array of region 4 holds after the region what it held before: an array of an input
    window because no write-back reaches it, any other buffer because the region touches only its windows' arrays. -/
theorem keep18 (c : Dev nD) (b : Ref sig .tc) (hb : b ∉ wr18) :
    W19 m ρ c (Proc.devRef .tc b) = W18 m ρ c (Proc.devRef .tc b) := by
  by_cases h : ∃ w, Pipeline.arrRef spec4 w = b
  · obtain ⟨w, rfl⟩ := h
    have hin : (cfg4.win w).isOut = false := by
      cases hw : (cfg4.win w).isOut with
      | false => rfl
      | true => exact absurd (wr18_out w hw) hb
    exact (W19_arr m ρ c w).trans (((dat4 (V18 m ρ) c).arrAt_in w hin _).trans (A_eq4 (V18 m ρ) c w))
  · exact W19_of_ne m ρ c b fun w e => h ⟨w, e⟩

/-- The references the host operations of step 19 (`hostOps5`) write: each operation's result. -/
abbrev wr19 : List (Ref sig .tc) := [main_v87, main_v88, main_v89]
theorem wr19_sub : (hostOps5 : List (HloOp τ sig (Elt F))).Forall fun op => op.writes ⊆ (wr19.map (Proc.devRef (τ := τ) .tc)).toFinset := by
  simp only [List.Forall]; repeat' apply And.intro
  all_goals wr_one
/-- A buffer that step 19 does not write holds after it what it held before. -/
theorem keep19 (c : Dev nD) (b : Ref sig .tc) (hb : b ∉ wr19) :
    W20 m ρ c (Proc.devRef .tc b) = W19 m ρ c (Proc.devRef .tc b) :=
  StableHlo.after_of_writes_sub hostOps5 _ wr19_sub hb

/-- The arrays region 5 (step 20) writes: those of its output windows. An input window's array is never written back. -/
abbrev wr20 : List (Ref sig .tc) := [main_v90_0, main_v90_1]
theorem wr20_out : ∀ w : Fin cfg5.W, (cfg5.win w).isOut = true → Pipeline.arrRef spec5 w ∈ wr20 := by decide
/-- A buffer that is no output array of region 5 holds after the region what it held before: an array of an input
    window because no write-back reaches it, any other buffer because the region touches only its windows' arrays. -/
theorem keep20 (c : Dev nD) (b : Ref sig .tc) (hb : b ∉ wr20) :
    W21 m ρ c (Proc.devRef .tc b) = W20 m ρ c (Proc.devRef .tc b) := by
  by_cases h : ∃ w, Pipeline.arrRef spec5 w = b
  · obtain ⟨w, rfl⟩ := h
    have hin : (cfg5.win w).isOut = false := by
      cases hw : (cfg5.win w).isOut with
      | false => rfl
      | true => exact absurd (wr20_out w hw) hb
    exact (W21_arr m ρ c w).trans (((dat5 (V20 m ρ) c).arrAt_in w hin _).trans (A_eq5 (V20 m ρ) c w))
  · exact W21_of_ne m ρ c b fun w e => h ⟨w, e⟩

/-- The references the host operations of step 21 (`hostOps6`) write: each operation's result. -/
abbrev wr21 : List (Ref sig .tc) := [main_v91, main_v92, main_v93, main_v94]
theorem wr21_sub : (hostOps6 : List (HloOp τ sig (Elt F))).Forall fun op => op.writes ⊆ (wr21.map (Proc.devRef (τ := τ) .tc)).toFinset := by
  simp only [List.Forall]; repeat' apply And.intro
  all_goals wr_one
/-- A buffer that step 21 does not write holds after it what it held before. -/
theorem keep21 (c : Dev nD) (b : Ref sig .tc) (hb : b ∉ wr21) :
    W22 m ρ c (Proc.devRef .tc b) = W21 m ρ c (Proc.devRef .tc b) :=
  StableHlo.after_of_writes_sub hostOps6 _ wr21_sub hb

/-- The arrays region 6 (step 22) writes: those of its output windows. An input window's array is never written back. -/
abbrev wr22 : List (Ref sig .tc) := [main_v95]
theorem wr22_out : ∀ w : Fin cfg6.W, (cfg6.win w).isOut = true → Pipeline.arrRef spec6 w ∈ wr22 := by decide
/-- A buffer that is no output array of region 6 holds after the region what it held before: an array of an input
    window because no write-back reaches it, any other buffer because the region touches only its windows' arrays. -/
theorem keep22 (c : Dev nD) (b : Ref sig .tc) (hb : b ∉ wr22) :
    W23 m ρ c (Proc.devRef .tc b) = W22 m ρ c (Proc.devRef .tc b) := by
  by_cases h : ∃ w, Pipeline.arrRef spec6 w = b
  · obtain ⟨w, rfl⟩ := h
    have hin : (cfg6.win w).isOut = false := by
      cases hw : (cfg6.win w).isOut with
      | false => rfl
      | true => exact absurd (wr22_out w hw) hb
    exact (W23_arr m ρ c w).trans (((dat6 (V22 m ρ) c).arrAt_in w hin _).trans (A_eq6 (V22 m ρ) c w))
  · exact W23_of_ne m ρ c b fun w e => h ⟨w, e⟩

/-- The references the host operations of step 23 (`hostOps7`) write: each operation's result. -/
abbrev wr23 : List (Ref sig .tc) := [main_v96, main_v97, main_v98, main_v99, main_v100, main_v101, main_v102, main_v103, main_c_17]
theorem wr23_sub : (hostOps7 : List (HloOp τ sig (Elt F))).Forall fun op => op.writes ⊆ (wr23.map (Proc.devRef (τ := τ) .tc)).toFinset := by
  simp only [List.Forall]; repeat' apply And.intro
  all_goals wr_one
/-- A buffer that step 23 does not write holds after it what it held before. -/
theorem keep23 (c : Dev nD) (b : Ref sig .tc) (hb : b ∉ wr23) :
    W24 m ρ c (Proc.devRef .tc b) = W23 m ρ c (Proc.devRef .tc b) :=
  StableHlo.after_of_writes_sub hostOps7 _ wr23_sub hb

/-- The references the host operations of step 24 (`hostOps7_1`) write: each operation's result. -/
abbrev wr24 : List (Ref sig .tc) := [main_call6_v0, main_v104]
theorem wr24_sub : (hostOps7_1 : List (HloOp τ sig (Elt F))).Forall fun op => op.writes ⊆ (wr24.map (Proc.devRef (τ := τ) .tc)).toFinset := by
  simp only [List.Forall]; repeat' apply And.intro
  all_goals wr_one
/-- A buffer that step 24 does not write holds after it what it held before. -/
theorem keep24 (c : Dev nD) (b : Ref sig .tc) (hb : b ∉ wr24) :
    W25 m ρ c (Proc.devRef .tc b) = W24 m ρ c (Proc.devRef .tc b) :=
  StableHlo.after_of_writes_sub hostOps7_1 _ wr24_sub hb

/-- The arrays region 7 (step 25) writes: those of its output windows. An input window's array is never written back. -/
abbrev wr25 : List (Ref sig .tc) := [main_v105]
theorem wr25_out : ∀ w : Fin cfg7.W, (cfg7.win w).isOut = true → Pipeline.arrRef spec7 w ∈ wr25 := by decide
/-- A buffer that is no output array of region 7 holds after the region what it held before: an array of an input
    window because no write-back reaches it, any other buffer because the region touches only its windows' arrays. -/
theorem keep25 (c : Dev nD) (b : Ref sig .tc) (hb : b ∉ wr25) :
    W26 m ρ c (Proc.devRef .tc b) = W25 m ρ c (Proc.devRef .tc b) := by
  by_cases h : ∃ w, Pipeline.arrRef spec7 w = b
  · obtain ⟨w, rfl⟩ := h
    have hin : (cfg7.win w).isOut = false := by
      cases hw : (cfg7.win w).isOut with
      | false => rfl
      | true => exact absurd (wr25_out w hw) hb
    exact (W26_arr m ρ c w).trans (((dat7 (V25 m ρ) c).arrAt_in w hin _).trans (A_eq7 (V25 m ρ) c w))
  · exact W26_of_ne m ρ c b fun w e => h ⟨w, e⟩

/-- The references the host operations of step 26 (`hostOps8`) write: each operation's result. -/
abbrev wr26 : List (Ref sig .tc) := [main_v106, main_cst_18, main_v107, main_cst_19, main_v108, main_v109, main_v110, main_cst_20, main_v111, main_v112, main_cst_21, main_v113, main_v114, main_v115, main_cst_22]
theorem wr26_sub : (hostOps8 : List (HloOp τ sig (Elt F))).Forall fun op => op.writes ⊆ (wr26.map (Proc.devRef (τ := τ) .tc)).toFinset := by
  simp only [List.Forall]; repeat' apply And.intro
  all_goals wr_one
/-- A buffer that step 26 does not write holds after it what it held before. -/
theorem keep26 (c : Dev nD) (b : Ref sig .tc) (hb : b ∉ wr26) :
    W27 m ρ c (Proc.devRef .tc b) = W26 m ρ c (Proc.devRef .tc b) :=
  StableHlo.after_of_writes_sub hostOps8 _ wr26_sub hb

/-- The references the host operations of step 27 (`hostOps8_1`) write: each operation's result. -/
abbrev wr27 : List (Ref sig .tc) := [main_call7_v0, main_call7_v1, main_v116]
theorem wr27_sub : (hostOps8_1 : List (HloOp τ sig (Elt F))).Forall fun op => op.writes ⊆ (wr27.map (Proc.devRef (τ := τ) .tc)).toFinset := by
  simp only [List.Forall]; repeat' apply And.intro
  all_goals wr_one
/-- A buffer that step 27 does not write holds after it what it held before. -/
theorem keep27 (c : Dev nD) (b : Ref sig .tc) (hb : b ∉ wr27) :
    W28 m ρ c (Proc.devRef .tc b) = W27 m ρ c (Proc.devRef .tc b) :=
  StableHlo.after_of_writes_sub hostOps8_1 _ wr27_sub hb

/-- The references the host operations of step 28 (`hostOps8_2`) write: each operation's result. -/
abbrev wr28 : List (Ref sig .tc) := [main_c_23, main_v117, main_v118, main_c_24, main_v119, main_v120, main_v121, main_v122, main_v123, main_c_25, main_v124, main_v125, main_c_26, main_v126, main_v127, main_v128, main_v129, main_v130, main_v131, main_c_27, main_v132, main_v133, main_c_28, main_v134, main_v135, main_v136, main_v137, main_v138, main_v139, main_v140, main_v141, main_cst_29, main_v142, main_v143, main_v144, main_v145, main_v146, main_v147, main_c_30]
theorem wr28_sub : (hostOps8_2 : List (HloOp τ sig (Elt F))).Forall fun op => op.writes ⊆ (wr28.map (Proc.devRef (τ := τ) .tc)).toFinset := by
  simp only [List.Forall]; repeat' apply And.intro
  all_goals wr_one
/-- A buffer that step 28 does not write holds after it what it held before. -/
theorem keep28 (c : Dev nD) (b : Ref sig .tc) (hb : b ∉ wr28) :
    W29 m ρ c (Proc.devRef .tc b) = W28 m ρ c (Proc.devRef .tc b) :=
  StableHlo.after_of_writes_sub hostOps8_2 _ wr28_sub hb

/-- The references the host operations of step 29 (`hostOps8_3`) write: each operation's result. -/
abbrev wr29 : List (Ref sig .tc) := [main_call8_v0, main_v148]
theorem wr29_sub : (hostOps8_3 : List (HloOp τ sig (Elt F))).Forall fun op => op.writes ⊆ (wr29.map (Proc.devRef (τ := τ) .tc)).toFinset := by
  simp only [List.Forall]; repeat' apply And.intro
  all_goals wr_one
/-- A buffer that step 29 does not write holds after it what it held before. -/
theorem keep29 (c : Dev nD) (b : Ref sig .tc) (hb : b ∉ wr29) :
    W30 m ρ c (Proc.devRef .tc b) = W29 m ρ c (Proc.devRef .tc b) :=
  StableHlo.after_of_writes_sub hostOps8_3 _ wr29_sub hb

/-- The arrays region 8 (step 30) writes: those of its output windows. An input window's array is never written back. -/
abbrev wr30 : List (Ref sig .tc) := [main_v149]
theorem wr30_out : ∀ w : Fin cfg8.W, (cfg8.win w).isOut = true → Pipeline.arrRef spec8 w ∈ wr30 := by decide
/-- A buffer that is no output array of region 8 holds after the region what it held before: an array of an input
    window because no write-back reaches it, any other buffer because the region touches only its windows' arrays. -/
theorem keep30 (c : Dev nD) (b : Ref sig .tc) (hb : b ∉ wr30) :
    W31 m ρ c (Proc.devRef .tc b) = W30 m ρ c (Proc.devRef .tc b) := by
  by_cases h : ∃ w, Pipeline.arrRef spec8 w = b
  · obtain ⟨w, rfl⟩ := h
    have hin : (cfg8.win w).isOut = false := by
      cases hw : (cfg8.win w).isOut with
      | false => rfl
      | true => exact absurd (wr30_out w hw) hb
    exact (W31_arr m ρ c w).trans (((dat8 (V30 m ρ) c).arrAt_in w hin _).trans (A_eq8 (V30 m ρ) c w))
  · exact W31_of_ne m ρ c b fun w e => h ⟨w, e⟩

/-- The references the host operations of step 31 (`hostOps9`) write: each operation's result. -/
abbrev wr31 : List (Ref sig .tc) := [main_v150, main_v151]
theorem wr31_sub : (hostOps9 : List (HloOp τ sig (Elt F))).Forall fun op => op.writes ⊆ (wr31.map (Proc.devRef (τ := τ) .tc)).toFinset := by
  simp only [List.Forall]; repeat' apply And.intro
  all_goals wr_one
/-- A buffer that step 31 does not write holds after it what it held before. -/
theorem keep31 (c : Dev nD) (b : Ref sig .tc) (hb : b ∉ wr31) :
    W32 m ρ c (Proc.devRef .tc b) = W31 m ρ c (Proc.devRef .tc b) :=
  StableHlo.after_of_writes_sub hostOps9 _ wr31_sub hb

/-! ## Walking a buffer back between two boundaries -/

open Lean Elab Tactic Meta in
/-- `walk_back` closes `W j m ρ c (Proc.devRef .tc b) = W i m ρ c (Proc.devRef .tc b)` for `i ≤ j` and a literal
    reference `b` that no step between the two boundaries writes: the step lemmas chained from boundary `j` down to
    boundary `i`, each step's non-membership decided on its own. -/
elab "walk_back" : tactic => do
  let idx (e : Expr) : TacticM Nat := do
    let some nm := e.getAppFn.constName? | throwError "walk_back: {e} is no boundary's contents"
    let .str pre s := nm | throwError "walk_back: {e} is no boundary's contents"
    unless pre == `Cert.KernelIdeal.Gen && s.startsWith "W" do throwError "walk_back: {e} is no boundary's contents"
    let some j := (s.drop 1).toNat? | throwError "walk_back: {e} is no boundary's contents"
    pure j
  for _ in [0:40] do
    let g ← getMainGoal
    let t ← instantiateMVars (← g.getType)
    let some (_, lhs, rhs) := t.eq? | throwError "walk_back: the goal is not an equation"
    let j ← idx lhs
    let i ← idx rhs
    if j < i then throwError "walk_back: boundary {j} is before boundary {i}"
    if j == i then
      evalTactic (← `(tactic| exact rfl))
      return
    let lem := mkCIdent (`Cert.KernelIdeal.Keep ++ Name.mkSimple s!"keep{j - 1}")
    evalTactic (← `(tactic| refine Eq.trans ($lem _ _ _ _ (by decide)) ?_))
  throwError "walk_back: too many steps"

example (c : Dev nD) : W32 m ρ c (Proc.devRef .tc main_v20) = W3 m ρ c (Proc.devRef .tc main_v20) := by walk_back
example (c : Dev nD) : W30 m ρ c (Proc.devRef .tc main_v7) = W3 m ρ c (Proc.devRef .tc main_v7) := by walk_back
example (c : Dev nD) : W22 m ρ c (Proc.devRef .tc main_v13) = W3 m ρ c (Proc.devRef .tc main_v13) := by walk_back
example (c : Dev nD) : W6 m ρ c (Proc.devRef .tc main_arg5) = W0 m ρ c (Proc.devRef .tc main_arg5) := by walk_back
example (c : Dev nD) : W18 m ρ c (Proc.devRef .tc main_v42) = W13 m ρ c (Proc.devRef .tc main_v42) := by walk_back

end Cert.KernelIdeal.Keep

end
-- ==== Proof.OneHot.lean ====
/-
  THE ONE-HOT MATRICES AND THE COUNTS the kernel's program builds on the host before its first region, read index by index:
  entry (g, n) of the one-hot matrix is 1 when node n (one of the 50000 real nodes) carries label g, else 0 (the 1200
  padding rows carry the label -1, which is no graph); the count column is the number of nodes of each graph, floored at one.
-/
import proofs.«413028_j69071664054692_1_alg».proof.Proof.Gen.KernelIdeal.Frame
import proofs.«413028_j69071664054692_1_alg».proof.Proof.Spec
import proofs.«413028_j69071664054692_1_alg».proof.Proof.KBufs
import proofs.«413028_j69071664054692_1_alg».proof.Proof.LibSegment
import proofs.«413028_j69071664054692_1_alg».proof.Proof.LibIndexing
import proofs.«413028_j69071664054692_1_alg».proof.Proof.Keep
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.KernelVsHost
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem

namespace Cert.KernelIdeal.Chain

open Cert.KernelIdeal Cert.KernelIdeal.Gen Cert.Spec

/-! ## Words: a comparison's bit as a number, a label word against a graph index -/

/-- The bit of "two words are equal", read unsigned as an extended real, is 1 when they are equal and 0 when not. -/
theorem eq_bit_val (x y : BitVec 32) :
    (((IntOp.cmpi .eq x y).toNat : ℝ) : EReal) = if x = y then 1 else 0 := by
  by_cases h : x = y
  · rw [if_pos h, StableHlo.Predicate.cmpi_eq_iff.2 h]; simp
  · rw [if_neg h]
    have h0 : IntOp.cmpi .eq x y = 0#1 :=
      eq_zero_of_ne_one (fun h1 => h (StableHlo.Predicate.cmpi_eq_iff.1 h1))
    rw [h0]; simp

/-- The same for whole arrays, at an index: the converted comparison of two arrays of words is their one-hot. -/
theorem uitofp_cmpi_eq_apply {s : Shape} {φ : FTy} (a b : IVec s 32) (i : s.Idx) :
    (uitofp φ (cmpi .eq a b) : FVec Ideal s φ) i = if a i = b i then 1 else 0 :=
  eq_bit_val (a i) (b i)

/-- A label word equals the word of a graph index (below 256) exactly when it reads, signed, as that index. -/
theorem word_eq_iff (w : BitVec 32) (g : Fin 256) : w = BitVec.ofNat 32 g.val ↔ w.toInt = (g.val : Int) := by
  have hg : (BitVec.ofNat 32 g.val).toInt = (g.val : Int) :=
    StableHlo.Predicate.toInt_ofNat_small g.val (by have := g.isLt; omega)
  constructor
  · rintro rfl; exact hg
  · intro h; exact BitVec.eq_of_toInt_eq (h.trans hg.symm)

/-- The all-ones word (the label -1 of a padding row) is the word of no graph index. -/
theorem pad_word_ne (g : Fin 256) : (4294967295#32 : BitVec 32) ≠ BitVec.ofNat 32 g.val := by
  intro h
  have h' := congrArg BitVec.toNat h
  rw [BitVec.toNat_ofNat, BitVec.toNat_ofNat] at h'
  have := g.isLt
  omega

/-! ## The layout operations of the prologue, read at an index -/

/-- The padded labels: the label of a real node, and the all-ones word on the 1200 padding rows. -/
theorem padded_apply (x : S50000.Idx → BitVec 32) (n : Fin 51200) :
    pad S51200 ![0] ![1200] ![0] x (constantI S_ 32 4294967295#32) pads_S50000_S51200_012000 h_S_ (ix1 n)
      = if h : n.val < 50000 then x (ix1 ⟨n.val, h⟩) else 4294967295#32 := by
  by_cases h : n.val < 50000
  · rw [dif_pos h]
    exact pad_apply_of_inside _ _ _ x _ _ _ (ix1 n) (ix1 ⟨n.val, h⟩) (fun a => by
      have ha : a = 0 := Subsingleton.elim _ _
      subst ha
      show n.val = 0 + n.val * (0 + 1); omega)
  · rw [dif_neg h]
    exact (pad_apply_of_not_inside _ _ _ x _ _ _ (ix1 n) (0 : Fin 1) (fun hin => h (by
      have h3 : (n.val - 0) / (0 + 1) < 50000 := hin.2.2
      omega))).trans rfl

variable {α : Type}

/-- A vector over the nodes laid along the columns of the [256, 51200] rectangle reads, at (g, n), the vector at n. -/
theorem nodes_as_cols (v : S51200.Idx → α) (g : Fin 256) (n : Fin 51200) :
    broadcastInDim S256x51200 ![0, 1] bcast_S1x51200_S256x51200_0_1
      (broadcastInDim S1x51200 ![1] bcast_S51200_S1x51200_1 v) (ix2 g n) = v (ix1 n) :=
  (broadcastInDim_apply ![0, 1] bcast_S1x51200_S256x51200_0_1 _ (ix2 g n) (ix2 (0 : Fin 1) n)
    (fun a => match a with | ⟨0, _⟩ => rfl | ⟨1, _⟩ => rfl)).trans
  (broadcastInDim_apply ![1] bcast_S51200_S1x51200_1 v (ix2 (0 : Fin 1) n) (ix1 n)
    (fun a => match a with | ⟨0, _⟩ => rfl))

/-- A vector over the graphs laid along the rows of the [256, 51200] rectangle reads, at (g, n), the vector at g. -/
theorem graphs_as_rows (v : S256.Idx → α) (g : Fin 256) (n : Fin 51200) :
    broadcastInDim S256x51200 ![0, 1] bcast_S256x1_S256x51200_0_1
      (broadcastInDim S256x1 ![0] bcast_S256_S256x1_0 v) (ix2 g n) = v (ix1 g) :=
  (broadcastInDim_apply ![0, 1] bcast_S256x1_S256x51200_0_1 _ (ix2 g n) (ix2 g (0 : Fin 1))
    (fun a => match a with | ⟨0, _⟩ => rfl | ⟨1, _⟩ => rfl)).trans
  (broadcastInDim_apply ![0] bcast_S256_S256x1_0 v (ix2 g (0 : Fin 1)) (ix1 g)
    (fun a => match a with | ⟨0, _⟩ => rfl))

/-- A vector over the nodes laid along the rows of the [51200, 256] rectangle reads, at (n, g), the vector at n. -/
theorem nodes_as_rows (v : S51200.Idx → α) (n : Fin 51200) (g : Fin 256) :
    broadcastInDim S51200x256 ![0, 1] bcast_S51200x1_S51200x256_0_1
      (broadcastInDim S51200x1 ![0] bcast_S51200_S51200x1_0 v) (ix2 n g) = v (ix1 n) :=
  (broadcastInDim_apply ![0, 1] bcast_S51200x1_S51200x256_0_1 _ (ix2 n g) (ix2 n (0 : Fin 1))
    (fun a => match a with | ⟨0, _⟩ => rfl | ⟨1, _⟩ => rfl)).trans
  (broadcastInDim_apply ![0] bcast_S51200_S51200x1_0 v (ix2 n (0 : Fin 1)) (ix1 n)
    (fun a => match a with | ⟨0, _⟩ => rfl))

/-- A vector over the graphs laid along the columns of the [51200, 256] rectangle reads, at (n, g), the vector at g. -/
theorem graphs_as_cols (v : S256.Idx → α) (n : Fin 51200) (g : Fin 256) :
    broadcastInDim S51200x256 ![0, 1] bcast_S1x256_S51200x256_0_1
      (broadcastInDim S1x256 ![1] bcast_S256_S1x256_1 v) (ix2 n g) = v (ix1 g) :=
  (broadcastInDim_apply ![0, 1] bcast_S1x256_S51200x256_0_1 _ (ix2 n g) (ix2 (0 : Fin 1) g)
    (fun a => match a with | ⟨0, _⟩ => rfl | ⟨1, _⟩ => rfl)).trans
  (broadcastInDim_apply ![1] bcast_S256_S1x256_1 v (ix2 (0 : Fin 1) g) (ix1 g)
    (fun a => match a with | ⟨0, _⟩ => rfl))

/-- One entry of either one-hot matrix: the padded label of node n compared with the word of the graph index g. -/
theorem onehot_entry (x : S50000.Idx → BitVec 32) (g : Fin 256) (n : Fin 51200) :
    (if pad S51200 ![0] ![1200] ![0] x (constantI S_ 32 4294967295#32) pads_S50000_S51200_012000 h_S_ (ix1 n)
        = iotaInDim S256 32 0 (ix1 g) then (1 : EReal) else 0)
      = if h : n.val < 50000 then (if sint x ⟨n.val, h⟩ = (g.val : Int) then (1 : EReal) else 0) else 0 := by
  rw [padded_apply]
  show (if (if h : n.val < 50000 then x (ix1 ⟨n.val, h⟩) else 4294967295#32) = BitVec.ofNat 32 g.val
      then (1 : EReal) else 0) = _
  by_cases h : n.val < 50000
  · rw [dif_pos h, dif_pos h]
    exact if_congr (word_eq_iff _ g) rfl rfl
  · rw [dif_neg h, dif_neg h, if_neg (pad_word_ne g)]

variable (m : (ℓ : Loc nD τ sig) → Buf (Elt Ideal) ℓ) (ρ : Dev nD → PrngReg)

/-! ## The three buffers as terms over the labels as launched -/

/-- The one-hot matrix: the padded labels along the columns compared with the graph indices along the rows. -/
theorem v7_fun (c : Dev nD) :
    b7 m ρ c = (uitofp FTy.bf16
      (cmpi CmpIPredicate.eq
        (broadcastInDim S256x51200 ![0, 1] bcast_S1x51200_S256x51200_0_1
          (broadcastInDim S1x51200 ![1] bcast_S51200_S1x51200_1
            (pad S51200 ![0] ![1200] ![0] (arg2 m c) (constantI S_ 32 4294967295#32) pads_S50000_S51200_012000 h_S_)))
        (broadcastInDim S256x51200 ![0, 1] bcast_S256x1_S256x51200_0_1
          (broadcastInDim S256x1 ![0] bcast_S256_S256x1_0 (iotaInDim S256 32 0)))) : FVec Ideal S256x51200 .bf16) := by
  show StableHlo.after hostOps0_2 (W2 m ρ c) (Proc.devRef .tc main_v7) = _
  after_results
  rfl

/-- Its transpose: the padded labels along the rows compared with the graph indices along the columns. -/
theorem v13_fun (c : Dev nD) :
    b13 m ρ c = (uitofp FTy.bf16
      (cmpi CmpIPredicate.eq
        (broadcastInDim S51200x256 ![0, 1] bcast_S51200x1_S51200x256_0_1
          (broadcastInDim S51200x1 ![0] bcast_S51200_S51200x1_0
            (pad S51200 ![0] ![1200] ![0] (arg2 m c) (constantI S_ 32 4294967295#32) pads_S50000_S51200_012000 h_S_)))
        (broadcastInDim S51200x256 ![0, 1] bcast_S1x256_S51200x256_0_1
          (broadcastInDim S1x256 ![1] bcast_S256_S1x256_1 (iotaInDim S256 32 0)))) : FVec Ideal S51200x256 .bf16) := by
  show StableHlo.after hostOps0_2 (W2 m ρ c) (Proc.devRef .tc main_v13) = _
  after_results
  rfl

/-- The count column: ones scattered at the labels into zeros, floored at one, as a column. -/
theorem v20_fun (c : Dev nD) :
    b20 m ρ c = shapeCast S256x1
      (maximumf
        (Host.scatterAdd scatter_S256_S50000x1_S50000_n_0_0_1
          (broadcastInDim S256 ![] bcast_S_S256 (constant S_ FTy.f32 0#32))
          (broadcastInDim S50000x1 ![0] bcast_S50000_S50000x1_0 (arg2 m c))
          (broadcastInDim S50000 ![] bcast_S_S50000 (constant S_ FTy.f32 1065353216#32)))
        (broadcastInDim S256 ![] bcast_S_S256 (constant S_ FTy.f32 1065353216#32)) : FVec Ideal S256 .f32)
      shapeCasts_S256_S256x1 := by
  show StableHlo.after hostOps0_2 (W2 m ρ c) (Proc.devRef .tc main_v20) = _
  after_results
  rfl

/-! ## The interfaces -/

/-- The one-hot matrix [256, 51200] after the host prologue. -/
theorem v7_apply (c : Dev nD) (g : Fin 256) (n : Fin 51200) :
    b7 m ρ c (ix2 g n)
      = if h : n.val < 50000 then (if bat m c ⟨n.val, h⟩ = (g.val : Int) then (1 : EReal) else 0) else 0 := by
  rw [v7_fun, uitofp_cmpi_eq_apply, nodes_as_cols, graphs_as_rows]
  exact onehot_entry (arg2 m c) g n

/-- Its transpose [51200, 256]. -/
theorem v13_apply (c : Dev nD) (n : Fin 51200) (g : Fin 256) :
    b13 m ρ c (ix2 n g)
      = if h : n.val < 50000 then (if bat m c ⟨n.val, h⟩ = (g.val : Int) then (1 : EReal) else 0) else 0 := by
  rw [v13_fun, uitofp_cmpi_eq_apply, nodes_as_rows, graphs_as_cols]
  exact onehot_entry (arg2 m c) g n

/-- The count column [256, 1]. -/
theorem v20_apply (c : Dev nD) (g : Fin 256) : b20 m ρ c (ix2 g 0) = cnt one (bat m c) g := by
  rw [v20_fun]
  refine (shapeCast_apply _ shapeCasts_S256_S256x1 (ix2 g (0 : Fin 1)) (ix1 g) (by
    rw [Shape.rowMajor_val_one, Shape.rowMajor_val_two]
    show g.val = g.val * 1 + 0
    omega)).trans ?_
  rw [maximumf_apply]
  have hd : scatter_S256_S50000x1_S50000_n_0_0_1
      = Cert.LibIndexing.vecScatterDims 256 50000 scatter_S256_S50000x1_S50000_n_0_0_1_wf := rfl
  rw [hd, Cert.LibIndexing.scatterAdd_vec_apply]
  have h0 : broadcastInDim S256 ![] bcast_S_S256 (constant (F := Ideal) S_ FTy.f32 0#32) (ix1 g) = 0 :=
    Ideal.ofBits_zero_f32
  have h1 : broadcastInDim S256 ![] bcast_S_S256 (constant (F := Ideal) S_ FTy.f32 1065353216#32) (ix1 g) = one := rfl
  rw [h0, h1, zero_add]
  unfold cnt
  refine congrArg (fun s : EReal => max s one) ?_
  refine Finset.sum_congr (Finset.filter_congr fun e _ => ?_) (fun e _ => rfl)
  rw [broadcastInDim_apply ![0] bcast_S50000_S50000x1_0 (arg2 m c) (ix2 e (0 : Fin 1)) (ix1 e)
    (fun a => match a with | ⟨0, _⟩ => rfl)]
  rfl

end Cert.KernelIdeal.Chain

end
-- ==== Proof.RegSeg.lean ====
/-
  THE SEGMENT-SUM REGIONS (regions 0, 4 and 8), read as values at the exact instance: what the accumulated output array
  holds after the region, index by index, as a function of the arrays the region is entered with.

  Each region runs the same body over 25 grid points: at the first point the output's block is reset to zero, at every
  point the one-hot block [256, 2048] times the row block [2048, D] is added into it, and the block, whose index never
  moves, is written back once, after the last point. So after point `n` the block holds the first `n + 1` tiles'
  products added from zero (an induction on the point), the array ends holding the block after point 24, and 25 sums
  over 2048 rows are one sum over 51200 rows.
-/
import proofs.«413028_j69071664054692_1_alg».proof.Proof.Gen.KernelIdeal.Frame
import proofs.«413028_j69071664054692_1_alg».proof.Proof.LibSegment
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen

-- the TensorCore's buffer contents when the region is entered: any
variable (V : (c : Dev nD) → (b : Ref sig .tc) → Buf (Elt Ideal) ((c : Thread nD τ).loc b))

/-- The zero offsets of a whole-block access. -/
theorem seg_hz : (![0, 0] : Fin 2 → Nat) = fun _ => 0 := funext fun a => by fin_cases a <;> rfl

/-! ## The [256, 2048] × [2048, 64] product at an index -/

/-- The contraction's operand indices, axis by axis: the left operand is read at (output row, contracted coordinate), -/
theorem seg_lhs64_0 (j : S256x64.Idx) (q : dot_S256x2048_S2048x64_S256x64_1_0_0_1_n_n.contr.Idx) :
    (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem seg_lhs64_1 (j : S256x64.Idx) (q : dot_S256x2048_S2048x64_S256x64_1_0_0_1_n_n.contr.Idx) :
    (dot_S256x2048_S2048x64_S256x64_1_0_0_1_n_n.lhsIdx j q 1).val = (q ⟨0, by decide⟩).val :=
  dot_S256x2048_S2048x64_S256x64_1_0_0_1_n_n.lhsIdx_val_of_single rfl j q
/-- the right operand at (contracted coordinate, output column). -/
theorem seg_rhs64_0 (j : S256x64.Idx) (q : dot_S256x2048_S2048x64_S256x64_1_0_0_1_n_n.contr.Idx) :
    (dot_S256x2048_S2048x64_S256x64_1_0_0_1_n_n.rhsIdx j q 0).val = (q ⟨0, by decide⟩).val :=
  dot_S256x2048_S2048x64_S256x64_1_0_0_1_n_n.rhsIdx_val_of_single rfl j q
theorem seg_rhs64_1 (j : S256x64.Idx) (q : dot_S256x2048_S2048x64_S256x64_1_0_0_1_n_n.contr.Idx) :
    (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- The product of a [256, 2048] block by a [2048, 64] block into the zero block, at an index: the sum over the 2048
    contracted rows of the entries' products. -/
theorem seg_matmul64_apply (A : FVec Ideal S256x2048 .bf16) (B : FVec Ideal S2048x64 .bf16) (g : Fin 256) (d : Fin 64) :
    matmul dot_S256x2048_S2048x64_S256x64_1_0_0_1_n_n none A B (constant (F := Ideal) S256x64 .f32 0x00000000#32) (ix2 g d)
      = ∑ k : Fin 2048, A (ix2 g k) * B (ix2 k d) := by
  simp only [matmul]
  rw [Ideal.matmul_constant_zero_apply,
    ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 g d)
      ((contrEquiv1 dot_S256x2048_S2048x64_S256x64_1_0_0_1_n_n 2048 rfl rfl).symm k) = ix2 g k := funext fun a => Fin.ext (by
    match a with
    | ⟨0, _⟩ => exact seg_lhs64_0 _ _
    | ⟨1, _⟩ => exact (seg_lhs64_1 _ _).trans hk)
  have er : dot_S256x2048_S2048x64_S256x64_1_0_0_1_n_n.rhsIdx (ix2 g d)
      ((contrEquiv1 dot_S256x2048_S2048x64_S256x64_1_0_0_1_n_n 2048 rfl rfl).symm k) = ix2 k d := funext fun a => Fin.ext (by
    match a with
    | ⟨0, _⟩ => exact (seg_rhs64_0 _ _).trans hk
    | ⟨1, _⟩ => exact seg_rhs64_1 _ _)
  rw [el, er]

/-! ## The [256, 2048] × [2048, 128] product at an index -/

/-- The contraction's operand indices, axis by axis: the left operand is read at (output row, contracted coordinate), -/
theorem seg_lhs128_0 (j : S256x128.Idx) (q : dot_S256x2048_S2048x128_S256x128_1_0_0_1_n_n.contr.Idx) :
    (dot_S256x2048_S2048x128_S256x128_1_0_0_1_n_n.lhsIdx j q 0).val = (j 0).val := by
  unfold DotDims.lhsIdx
  rw [dif_neg (show ¬(0 : Fin S256x2048.rank) ∈ dot_S256x2048_S2048x128_S256x128_1_0_0_1_n_n.lhsBatch by decide),
    dif_pos (show (0 : Fin S256x2048.rank) ∈ dot_S256x2048_S2048x128_S256x128_1_0_0_1_n_n.lhsNonContracting by decide)]
  rfl
theorem seg_lhs128_1 (j : S256x128.Idx) (q : dot_S256x2048_S2048x128_S256x128_1_0_0_1_n_n.contr.Idx) :
    (dot_S256x2048_S2048x128_S256x128_1_0_0_1_n_n.lhsIdx j q 1).val = (q ⟨0, by decide⟩).val :=
  dot_S256x2048_S2048x128_S256x128_1_0_0_1_n_n.lhsIdx_val_of_single rfl j q
/-- the right operand at (contracted coordinate, output column). -/
theorem seg_rhs128_0 (j : S256x128.Idx) (q : dot_S256x2048_S2048x128_S256x128_1_0_0_1_n_n.contr.Idx) :
    (dot_S256x2048_S2048x128_S256x128_1_0_0_1_n_n.rhsIdx j q 0).val = (q ⟨0, by decide⟩).val :=
  dot_S256x2048_S2048x128_S256x128_1_0_0_1_n_n.rhsIdx_val_of_single rfl j q
theorem seg_rhs128_1 (j : S256x128.Idx) (q : dot_S256x2048_S2048x128_S256x128_1_0_0_1_n_n.contr.Idx) :
    (dot_S256x2048_S2048x128_S256x128_1_0_0_1_n_n.rhsIdx j q 1).val = (j 1).val := by
  unfold DotDims.rhsIdx
  rw [dif_neg (show ¬(1 : Fin S2048x128.rank) ∈ dot_S256x2048_S2048x128_S256x128_1_0_0_1_n_n.rhsBatch by decide),
    dif_pos (show (1 : Fin S2048x128.rank) ∈ dot_S256x2048_S2048x128_S256x128_1_0_0_1_n_n.rhsNonContracting by decide)]
  rfl

/-- The product of a [256, 2048] block by a [2048, 128] block into the zero block, at an index: the sum over the 2048
    contracted rows of the entries' products. -/
theorem seg_matmul128_apply (A : FVec Ideal S256x2048 .bf16) (B : FVec Ideal S2048x128 .bf16) (g : Fin 256) (d : Fin 128) :
    matmul dot_S256x2048_S2048x128_S256x128_1_0_0_1_n_n none A B (constant (F := Ideal) S256x128 .f32 0x00000000#32) (ix2 g d)
      = ∑ k : Fin 2048, A (ix2 g k) * B (ix2 k d) := by
  simp only [matmul]
  rw [Ideal.matmul_constant_zero_apply,
    ← Equiv.sum_comp (contrEquiv1 dot_S256x2048_S2048x128_S256x128_1_0_0_1_n_n 2048 rfl rfl).symm]
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 g d)
      ((contrEquiv1 dot_S256x2048_S2048x128_S256x128_1_0_0_1_n_n 2048 rfl rfl).symm k) = ix2 g k := funext fun a => Fin.ext (by
    match a with
    | ⟨0, _⟩ => exact seg_lhs128_0 _ _
    | ⟨1, _⟩ => exact (seg_lhs128_1 _ _).trans hk)
  have er : dot_S256x2048_S2048x128_S256x128_1_0_0_1_n_n.rhsIdx (ix2 g d)
      ((contrEquiv1 dot_S256x2048_S2048x128_S256x128_1_0_0_1_n_n 2048 rfl rfl).symm k) = ix2 k d := funext fun a => Fin.ext (by
    match a with
    | ⟨0, _⟩ => exact (seg_rhs128_0 _ _).trans hk
    | ⟨1, _⟩ => exact seg_rhs128_1 _ _)
  rw [el, er]

/-! ## Region 0 -/

/-- What the body leaves in the output's block at a point other than the first, the block holding `acc`: the update's
    payload of the loaded blocks — its one covering store, whose loads read the whole buffers. -/
theorem piece0_B {F : FTy → Type} [FloatOps F] (c : Dev nD) (i : grid0.Coords) (a1 : Memref sig .tc .vmem S256x2048 .bf16) (h1 : a1.IsWhole)
    (a2 : Memref sig .tc .vmem S2048x64 .f32) (h2 : a2.IsWhole) (a3 : Memref sig .tc .vmem S256x64 .f32) (h3 : a3.IsWhole)
    (hc : ¬cond0_0 i) (oh : Vec F S256x2048 .bf16) (x : Vec F S2048x64 .f32) (acc : Vec F S256x64 .f32) :
    out0_B_2 c i a1 h1 a2 h2 a3 h3 hc oh x acc = k0_pay2 x acc oh := by
  unfold out0_B_2
  rw [View.read_writes_eq_canon _ _ _ (cover0_B_2 c i a1 h1 a2 h2 a3 h3 hc oh x acc)]
  unfold kernelRun0_B
  dsimp only
  sl_unfold_words
  rw [View.canon_unit_zero (S := S256x64) seg_hz]
  simp only [View.readAt_eq_ld, h1.read_unread, h2.read_unread, h3.read_unread, View.ld_unit_zero (S := S2048x64) seg_hz,
    View.ld_unit_zero (S := S256x64) seg_hz, View.ld_unit_zero (S := S256x2048) seg_hz]

/-- What the body leaves there at the first point: the reset stores the zero block, the update reads it back and stores
    its payload over it. -/
theorem piece0_A {F : FTy → Type} [FloatOps F] (c : Dev nD) (i : grid0.Coords) (a1 : Memref sig .tc .vmem S256x2048 .bf16) (h1 : a1.IsWhole)
    (a2 : Memref sig .tc .vmem S2048x64 .f32) (h2 : a2.IsWhole) (a3 : Memref sig .tc .vmem S256x64 .f32) (h3 : a3.IsWhole)
    (hc : cond0_0 i) (oh : Vec F S256x2048 .bf16) (x : Vec F S2048x64 .f32) :
    out0_A_2 c i a1 h1 a2 h2 a3 h3 hc oh x = k0_pay2 x (k0_pay1 (F := F)) oh := by
  unfold out0_A_2
  rw [View.read_writes_eq_canon _ _ _ (cover0_A_2 c i a1 h1 a2 h2 a3 h3 hc oh x)]
  unfold kernelRun0_A
  dsimp only
  sl_unfold_words
  rw [View.canon_cons_unit_zero (S := S256x64) seg_hz, View.readCov_unit_zero (S := S256x64) _ seg_hz]
  simp only [View.readAt_eq_ld, h1.read_unread, h2.read_unread, View.ld_unit_zero (S := S2048x64) seg_hz,
    View.ld_unit_zero (S := S256x2048) seg_hz]

/-- The update's payload at an index: what the block held plus the tile's one-hot product (the format changes are the
    identity on the extended reals). -/
theorem pay2_0_apply (x : Vec Ideal S2048x64 .f32) (acc : Vec Ideal S256x64 .f32) (oh : Vec Ideal S256x2048 .bf16)
    (g : Fin 256) (d : Fin 64) :
    k0_pay2 (F := Ideal) x acc oh (ix2 g d) = acc (ix2 g d) + ∑ k : Fin 2048, oh (ix2 g k) * x (ix2 k d) := by
  unfold k0_pay2
  simp only [shapeCast_self]
  refine (addf_apply _ _ (ix2 g d)).trans ?_
  exact congrArg (acc (ix2 g d) + ·) (seg_matmul64_apply _ _ g d)

/-- The reset's payload is the zero block. -/
theorem pay1_0_apply (g : Fin 256) (d : Fin 64) : k0_pay1 (F := Ideal) (ix2 g d) = 0 := by
  unfold k0_pay1
  exact Ideal.ofBits_zero_f32

/-- Region 0's arrays as it finds them, and its output array after it, each at its literal type. -/
abbrev oh0 (c : Dev nD) : S256x51200.Idx → EReal := V c main_v7
abbrev x0 (c : Dev nD) : S51200x64.Idx → EReal := V c main_v21
abbrev out0 (c : Dev nD) : S256x64.Idx → EReal := (dat0 (F := Ideal) V c).arrAt 2 cfg0.N

/-- The two input blocks of region 0 at a grid point, each at its literal type. -/
abbrev ohb0 (c : Dev nD) (t : Fin cfg0.N) : S256x2048.Idx → EReal := iblk0 (F := Ideal) V c 0 t
abbrev xb0 (c : Dev nD) (t : Fin cfg0.N) : S2048x64.Idx → EReal := iblk0 (F := Ideal) V c 1 t

/-- The one-hot block at point `t` is columns `2048 t … 2048 t + 2047` of the one-hot array: a block's coordinate is
    its index times its size plus the coordinate inside it, and the index map sends point `t` to block (0, t). -/
theorem ohb0_apply (c : Dev nD) (t : Fin cfg0.N) (g : Fin 256) (k : Fin 2048) (n : Fin 51200)
    (hn : n.val = t.val * 2048 + k.val) : ohb0 V c t (ix2 g k) = oh0 V c (ix2 g n) := by
  have hi : ∀ t : Fin cfg0.N, win0_0.index t (0 : Fin 2) = 0 ∧ win0_0.index t (1 : Fin 2) = t.val :=
    (by decide +kernel : ∀ t : Fin grid0.N, win0_0.index t (0 : Fin 2) = 0 ∧ win0_0.index t (1 : Fin 2) = t.val)
  show iblk0 (F := Ideal) V c 0 t (ix2 g k) = V c main_v7 (ix2 g n)
  unfold iblk0
  rw [View.read_apply]
  show V c main_v7 _ = V c main_v7 _
  congr 1
  funext a
  apply Fin.ext
  match a with
  | ⟨0, _⟩ => show win0_0.index t 0 * 256 + 1 * g.val = g.val; rw [(hi t).1]; omega
  | ⟨1, _⟩ => show win0_0.index t 1 * 2048 + 1 * k.val = n.val; rw [(hi t).2, hn]; omega

/-- The row block at point `t` is rows `2048 t … 2048 t + 2047` of the row array (block (t, 0)). -/
theorem xb0_apply (c : Dev nD) (t : Fin cfg0.N) (k : Fin 2048) (d : Fin 64) (n : Fin 51200)
    (hn : n.val = t.val * 2048 + k.val) : xb0 V c t (ix2 k d) = x0 V c (ix2 n d) := by
  have hi : ∀ t : Fin cfg0.N, win0_1.index t (0 : Fin 2) = t.val ∧ win0_1.index t (1 : Fin 2) = 0 :=
    (by decide +kernel : ∀ t : Fin grid0.N, win0_1.index t (0 : Fin 2) = t.val ∧ win0_1.index t (1 : Fin 2) = 0)
  show iblk0 (F := Ideal) V c 1 t (ix2 k d) = V c main_v21 (ix2 n d)
  unfold iblk0
  rw [View.read_apply]
  show V c main_v21 _ = V c main_v21 _
  congr 1
  funext a
  apply Fin.ext
  match a with
  | ⟨0, _⟩ => show win0_1.index t 0 * 2048 + 1 * k.val = n.val; rw [(hi t).1, hn]; omega
  | ⟨1, _⟩ => show win0_1.index t 1 * 64 + 1 * d.val = d.val; rw [(hi t).2]; omega

/-- Tile `t`'s one-hot product at an index (zero past the grid). -/
def tile0 (c : Dev nD) (g : Fin 256) (d : Fin 64) (t : ℕ) : EReal :=
  if h : t < cfg0.N then ∑ k : Fin 2048, ohb0 V c ⟨t, h⟩ (ix2 g k) * xb0 V c ⟨t, h⟩ (ix2 k d) else 0

/-- After point `n` the accumulated block holds the tiles' products of the points up to `n`, added in point order
    from zero: by induction on the point, the first point the reset's case, every later one the update's. -/
theorem acc0 (c : Dev nD) (g : Fin 256) (d : Fin 64) : ∀ (n : ℕ) (h : n < cfg0.N),
    (outsAt0 (F := Ideal) V c n h : S256x64.Idx → EReal) (ix2 g d) = ∑ t ∈ Finset.range (n + 1), tile0 V c g d t
  | 0, h => by
    refine (congrFun ((outsAt0_A (F := Ideal) V c ⟨0, h⟩ rfl).trans (piece0_A (F := Ideal) c (grid0.coords ⟨0, h⟩)
      (ms0_0 ⟨0, h⟩) (hs0_0 ⟨0, h⟩) (ms0_1 ⟨0, h⟩) (hs0_1 ⟨0, h⟩) (ms0_2 ⟨0, h⟩) (hs0_2 ⟨0, h⟩) _
      (iblk0 (F := Ideal) V c 0 ⟨0, h⟩) (iblk0 (F := Ideal) V c 1 ⟨0, h⟩))) (ix2 g d)).trans ?_
    refine (pay2_0_apply (xb0 V c ⟨0, h⟩) (k0_pay1 (F := Ideal)) (ohb0 V c ⟨0, h⟩) g d).trans ?_
    rw [pay1_0_apply, zero_add, Finset.sum_range_one]
    unfold tile0
    rw [dif_pos h]
  | n + 1, h => by
    have hN : cfg0.N = 25 := N_0
    have hB : ¬(⟨n + 1, h⟩ : Fin cfg0.N).val % 25 = 0 := by dsimp only; omega
    refine (congrFun ((outsAt0_B (F := Ideal) V c ⟨n + 1, h⟩ hB).trans (piece0_B (F := Ideal) c (grid0.coords ⟨n + 1, h⟩)
      (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _
      (iblk0 (F := Ideal) V c 0 ⟨n + 1, h⟩) (iblk0 (F := Ideal) V c 1 ⟨n + 1, h⟩)
      (outsAt0 (F := Ideal) V c n (Nat.lt_of_succ_lt h)))) (ix2 g d)).trans ?_
    refine (pay2_0_apply (xb0 V c ⟨n + 1, h⟩) (outsAt0 (F := Ideal) V c n (Nat.lt_of_succ_lt h)) (ohb0 V c ⟨n + 1, h⟩) g d).trans ?_
    rw [acc0 c g d n (Nat.lt_of_succ_lt h), Finset.sum_range_succ (tile0 V c g d) (n + 1)]
    refine congrArg (_ + ·) ?_
    show _ = tile0 V c g d (n + 1)
    unfold tile0
    rw [dif_pos h]

/-- The last of the 25 grid points. -/
theorem last0 : (24 : ℕ) < cfg0.N := by rw [show cfg0.N = 25 from N_0]; decide

/-- What the accumulated block holds after the last point. -/
abbrev res0 (c : Dev nD) : S256x64.Idx → EReal := outsAt0 (F := Ideal) V c 24 last0

/-- The one write-back, at the last point, writes it: the output's block index never moves, and its one block, read
    through zero offsets, is its whole array. -/
theorem flushed0 (c : Dev nD) (t : Fin cfg0.N) (hf : (cfg0.win 2).flush t = true) :
    (dat0 (F := Ideal) V c).flushed 2 t = ((cfg0.win 2).blk t).view.read (Elt Ideal) (res0 V c) := by
  have hN : cfg0.N = 25 := N_0
  have h24 : t.val = 24 := by have := (flush0_2 t).mp hf; have := t.isLt; omega
  obtain rfl : t = ⟨24, last0⟩ := Fin.ext h24
  show (cfg0.win 2).cut (grid0.coords ⟨24, last0⟩) ((dat0 (F := Ideal) V c).after 2 ⟨24, last0⟩) = _
  rw [after0_2]
  have hz' : (fun a => win0_2.index ⟨24, last0⟩ a * main_v22.ty.shape.size a) = fun _ => 0 := funext fun a => by fin_cases a <;> decide
  exact (Memref.read_access_unit_zero (Elt Ideal) main_v22 hz' (fun a => by rw [congrFun hz' a]; simp) (res0 V c)).symm

/-- So the output array ends holding the accumulated block after the last point: that point's block covers it. -/
theorem final0 (c : Dev nD) : out0 V c = res0 V c :=
  (dat0 (F := Ideal) V c).arrAt_eq_of_cover 2 (res0 V c) (flushed0 V c) fun i =>
    ⟨⟨24, last0⟩, (flush0_2 ⟨24, last0⟩).mpr rfl, by
      show i ∈ ((View.whole main_v22).slice (win0_2.rect ⟨24, last0⟩)).set
      rw [View.set_slice_whole, Rect.mem_set_unit]
      intro a
      have h0 : (i 0 : Nat) < 256 := (i 0).isLt
      have h1 : (i 1 : Nat) < 64 := (i 1).isLt
      match a with
      | ⟨0, _⟩ => show win0_2.index ⟨24, last0⟩ 0 * win0_2.size 0 ≤ (i 0 : Nat) ∧ (i 0 : Nat) < win0_2.index ⟨24, last0⟩ 0 * win0_2.size 0 + win0_2.xsize (grid0.coords ⟨24, last0⟩) 0
                  rw [show win0_2.index ⟨24, last0⟩ 0 * win0_2.size 0 = 0 from by decide +kernel, show win0_2.xsize (grid0.coords ⟨24, last0⟩) 0 = 256 from by decide +kernel]; omega
      | ⟨1, _⟩ => show win0_2.index ⟨24, last0⟩ 1 * win0_2.size 1 ≤ (i 1 : Nat) ∧ (i 1 : Nat) < win0_2.index ⟨24, last0⟩ 1 * win0_2.size 1 + win0_2.xsize (grid0.coords ⟨24, last0⟩) 1
                  rw [show win0_2.index ⟨24, last0⟩ 1 * win0_2.size 1 = 0 from by decide +kernel, show win0_2.xsize (grid0.coords ⟨24, last0⟩) 1 = 64 from by decide +kernel]; omega⟩

/-- Region 0: the accumulated output block, after the last grid point, is the one-hot product summed over ALL 51200 rows:
    25 tiles of 2048 rows, added in point order from a zero block, on the extended reals one sum. -/
theorem seg0 (c : Dev nD) (g : Fin 256) (d : Fin 64) :
    out0 V c (ix2 g d) = ∑ n : Fin 51200, oh0 V c (ix2 g n) * x0 V c (ix2 n d) := by
  have hN : cfg0.N = 25 := N_0
  refine (congrFun (final0 V c) (ix2 g d)).trans ?_
  refine (acc0 V c g d 24 last0).trans ?_
  rw [Finset.sum_range (tile0 V c g d)]
  refine Eq.trans ?_ (Cert.LibSegment.sum_tiles 25 2048 (fun n : Fin 51200 => oh0 V c (ix2 g n) * x0 V c (ix2 n d))).symm
  refine Finset.sum_congr rfl fun t _ => ?_
  have ht : t.val < cfg0.N := by rw [hN]; exact t.isLt
  unfold tile0
  rw [dif_pos ht]
  refine Finset.sum_congr rfl fun k _ => ?_
  have hlt : t.val * 2048 + k.val < 51200 := by have := t.isLt; have := k.isLt; omega
  rw [ohb0_apply V c ⟨t.val, ht⟩ g k ⟨t.val * 2048 + k.val, hlt⟩ rfl, xb0_apply V c ⟨t.val, ht⟩ k d ⟨t.val * 2048 + k.val, hlt⟩ rfl]

/-! ## Region 4 -/

/-- What the body leaves in the output's block at a point other than the first, the block holding `acc`: the update's
    payload of the loaded blocks — its one covering store, whose loads read the whole buffers. -/
theorem piece4_B {F : FTy → Type} [FloatOps F] (c : Dev nD) (i : grid4.Coords) (a1 : Memref sig .tc .vmem S256x2048 .bf16) (h1 : a1.IsWhole)
    (a2 : Memref sig .tc .vmem S2048x128 .f32) (h2 : a2.IsWhole) (a3 : Memref sig .tc .vmem S256x128 .f32) (h3 : a3.IsWhole)
    (hc : ¬cond4_0 i) (oh : Vec F S256x2048 .bf16) (x : Vec F S2048x128 .f32) (acc : Vec F S256x128 .f32) :
    out4_B_2 c i a1 h1 a2 h2 a3 h3 hc oh x acc = k4_pay2 x acc oh := by
  unfold out4_B_2
  rw [View.read_writes_eq_canon _ _ _ (cover4_B_2 c i a1 h1 a2 h2 a3 h3 hc oh x acc)]
  unfold kernelRun4_B
  dsimp only
  sl_unfold_words
  rw [View.canon_unit_zero (S := S256x128) seg_hz]
  simp only [View.readAt_eq_ld, h1.read_unread, h2.read_unread, h3.read_unread, View.ld_unit_zero (S := S2048x128) seg_hz,
    View.ld_unit_zero (S := S256x128) seg_hz, View.ld_unit_zero (S := S256x2048) seg_hz]

/-- What the body leaves there at the first point: the reset stores the zero block, the update reads it back and stores
    its payload over it. -/
theorem piece4_A {F : FTy → Type} [FloatOps F] (c : Dev nD) (i : grid4.Coords) (a1 : Memref sig .tc .vmem S256x2048 .bf16) (h1 : a1.IsWhole)
    (a2 : Memref sig .tc .vmem S2048x128 .f32) (h2 : a2.IsWhole) (a3 : Memref sig .tc .vmem S256x128 .f32) (h3 : a3.IsWhole)
    (hc : cond4_0 i) (oh : Vec F S256x2048 .bf16) (x : Vec F S2048x128 .f32) :
    out4_A_2 c i a1 h1 a2 h2 a3 h3 hc oh x = k4_pay2 x (k4_pay1 (F := F)) oh := by
  unfold out4_A_2
  rw [View.read_writes_eq_canon _ _ _ (cover4_A_2 c i a1 h1 a2 h2 a3 h3 hc oh x)]
  unfold kernelRun4_A
  dsimp only
  sl_unfold_words
  rw [View.canon_cons_unit_zero (S := S256x128) seg_hz, View.readCov_unit_zero (S := S256x128) _ seg_hz]
  simp only [View.readAt_eq_ld, h1.read_unread, h2.read_unread, View.ld_unit_zero (S := S2048x128) seg_hz,
    View.ld_unit_zero (S := S256x2048) seg_hz]

/-- The update's payload at an index: what the block held plus the tile's one-hot product (the format changes are the
    identity on the extended reals). -/
theorem pay2_4_apply (x : Vec Ideal S2048x128 .f32) (acc : Vec Ideal S256x128 .f32) (oh : Vec Ideal S256x2048 .bf16)
    (g : Fin 256) (d : Fin 128) :
    k4_pay2 (F := Ideal) x acc oh (ix2 g d) = acc (ix2 g d) + ∑ k : Fin 2048, oh (ix2 g k) * x (ix2 k d) := by
  unfold k4_pay2
  simp only [shapeCast_self]
  refine (addf_apply _ _ (ix2 g d)).trans ?_
  exact congrArg (acc (ix2 g d) + ·) (seg_matmul128_apply _ _ g d)

/-- The reset's payload is the zero block. -/
theorem pay1_4_apply (g : Fin 256) (d : Fin 128) : k4_pay1 (F := Ideal) (ix2 g d) = 0 := by
  unfold k4_pay1
  exact Ideal.ofBits_zero_f32

/-- Region 4's arrays as it finds them, and its output array after it, each at its literal type. -/
abbrev oh4 (c : Dev nD) : S256x51200.Idx → EReal := V c main_v7
abbrev x4 (c : Dev nD) : S51200x128.Idx → EReal := V c main_v85
abbrev out4 (c : Dev nD) : S256x128.Idx → EReal := (dat4 (F := Ideal) V c).arrAt 2 cfg4.N

/-- The two input blocks of region 4 at a grid point, each at its literal type. -/
abbrev ohb4 (c : Dev nD) (t : Fin cfg4.N) : S256x2048.Idx → EReal := iblk4 (F := Ideal) V c 0 t
abbrev xb4 (c : Dev nD) (t : Fin cfg4.N) : S2048x128.Idx → EReal := iblk4 (F := Ideal) V c 1 t

/-- The one-hot block at point `t` is columns `2048 t … 2048 t + 2047` of the one-hot array: a block's coordinate is
    its index times its size plus the coordinate inside it, and the index map sends point `t` to block (0, t). -/
theorem ohb4_apply (c : Dev nD) (t : Fin cfg4.N) (g : Fin 256) (k : Fin 2048) (n : Fin 51200)
    (hn : n.val = t.val * 2048 + k.val) : ohb4 V c t (ix2 g k) = oh4 V c (ix2 g n) := by
  have hi : ∀ t : Fin cfg4.N, win4_0.index t (0 : Fin 2) = 0 ∧ win4_0.index t (1 : Fin 2) = t.val :=
    (by decide +kernel : ∀ t : Fin grid4.N, win4_0.index t (0 : Fin 2) = 0 ∧ win4_0.index t (1 : Fin 2) = t.val)
  show iblk4 (F := Ideal) V c 0 t (ix2 g k) = V c main_v7 (ix2 g n)
  unfold iblk4
  rw [View.read_apply]
  show V c main_v7 _ = V c main_v7 _
  congr 1
  funext a
  apply Fin.ext
  match a with
  | ⟨0, _⟩ => show win4_0.index t 0 * 256 + 1 * g.val = g.val; rw [(hi t).1]; omega
  | ⟨1, _⟩ => show win4_0.index t 1 * 2048 + 1 * k.val = n.val; rw [(hi t).2, hn]; omega

/-- The row block at point `t` is rows `2048 t … 2048 t + 2047` of the row array (block (t, 0)). -/
theorem xb4_apply (c : Dev nD) (t : Fin cfg4.N) (k : Fin 2048) (d : Fin 128) (n : Fin 51200)
    (hn : n.val = t.val * 2048 + k.val) : xb4 V c t (ix2 k d) = x4 V c (ix2 n d) := by
  have hi : ∀ t : Fin cfg4.N, win4_1.index t (0 : Fin 2) = t.val ∧ win4_1.index t (1 : Fin 2) = 0 :=
    (by decide +kernel : ∀ t : Fin grid4.N, win4_1.index t (0 : Fin 2) = t.val ∧ win4_1.index t (1 : Fin 2) = 0)
  show iblk4 (F := Ideal) V c 1 t (ix2 k d) = V c main_v85 (ix2 n d)
  unfold iblk4
  rw [View.read_apply]
  show V c main_v85 _ = V c main_v85 _
  congr 1
  funext a
  apply Fin.ext
  match a with
  | ⟨0, _⟩ => show win4_1.index t 0 * 2048 + 1 * k.val = n.val; rw [(hi t).1, hn]; omega
  | ⟨1, _⟩ => show win4_1.index t 1 * 128 + 1 * d.val = d.val; rw [(hi t).2]; omega

/-- Tile `t`'s one-hot product at an index (zero past the grid). -/
def tile4 (c : Dev nD) (g : Fin 256) (d : Fin 128) (t : ℕ) : EReal :=
  if h : t < cfg4.N then ∑ k : Fin 2048, ohb4 V c ⟨t, h⟩ (ix2 g k) * xb4 V c ⟨t, h⟩ (ix2 k d) else 0

/-- After point `n` the accumulated block holds the tiles' products of the points up to `n`, added in point order
    from zero: by induction on the point, the first point the reset's case, every later one the update's. -/
theorem acc4 (c : Dev nD) (g : Fin 256) (d : Fin 128) : ∀ (n : ℕ) (h : n < cfg4.N),
    (outsAt4 (F := Ideal) V c n h : S256x128.Idx → EReal) (ix2 g d) = ∑ t ∈ Finset.range (n + 1), tile4 V c g d t
  | 0, h => by
    refine (congrFun ((outsAt4_A (F := Ideal) V c ⟨0, h⟩ rfl).trans (piece4_A (F := Ideal) c (grid4.coords ⟨0, h⟩)
      (ms4_0 ⟨0, h⟩) (hs4_0 ⟨0, h⟩) (ms4_1 ⟨0, h⟩) (hs4_1 ⟨0, h⟩) (ms4_2 ⟨0, h⟩) (hs4_2 ⟨0, h⟩) _
      (iblk4 (F := Ideal) V c 0 ⟨0, h⟩) (iblk4 (F := Ideal) V c 1 ⟨0, h⟩))) (ix2 g d)).trans ?_
    refine (pay2_4_apply (xb4 V c ⟨0, h⟩) (k4_pay1 (F := Ideal)) (ohb4 V c ⟨0, h⟩) g d).trans ?_
    rw [pay1_4_apply, zero_add, Finset.sum_range_one]
    unfold tile4
    rw [dif_pos h]
  | n + 1, h => by
    have hN : cfg4.N = 25 := N_4
    have hB : ¬(⟨n + 1, h⟩ : Fin cfg4.N).val % 25 = 0 := by dsimp only; omega
    refine (congrFun ((outsAt4_B (F := Ideal) V c ⟨n + 1, h⟩ hB).trans (piece4_B (F := Ideal) c (grid4.coords ⟨n + 1, h⟩)
      (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) _
      (iblk4 (F := Ideal) V c 0 ⟨n + 1, h⟩) (iblk4 (F := Ideal) V c 1 ⟨n + 1, h⟩)
      (outsAt4 (F := Ideal) V c n (Nat.lt_of_succ_lt h)))) (ix2 g d)).trans ?_
    refine (pay2_4_apply (xb4 V c ⟨n + 1, h⟩) (outsAt4 (F := Ideal) V c n (Nat.lt_of_succ_lt h)) (ohb4 V c ⟨n + 1, h⟩) g d).trans ?_
    rw [acc4 c g d n (Nat.lt_of_succ_lt h), Finset.sum_range_succ (tile4 V c g d) (n + 1)]
    refine congrArg (_ + ·) ?_
    show _ = tile4 V c g d (n + 1)
    unfold tile4
    rw [dif_pos h]

/-- The last of the 25 grid points. -/
theorem last4 : (24 : ℕ) < cfg4.N := by rw [show cfg4.N = 25 from N_4]; decide

/-- What the accumulated block holds after the last point. -/
abbrev res4 (c : Dev nD) : S256x128.Idx → EReal := outsAt4 (F := Ideal) V c 24 last4

/-- The one write-back, at the last point, writes it: the output's block index never moves, and its one block, read
    through zero offsets, is its whole array. -/
theorem flushed4 (c : Dev nD) (t : Fin cfg4.N) (hf : (cfg4.win 2).flush t = true) :
    (dat4 (F := Ideal) V c).flushed 2 t = ((cfg4.win 2).blk t).view.read (Elt Ideal) (res4 V c) := by
  have hN : cfg4.N = 25 := N_4
  have h24 : t.val = 24 := by have := (flush4_2 t).mp hf; have := t.isLt; omega
  obtain rfl : t = ⟨24, last4⟩ := Fin.ext h24
  show (cfg4.win 2).cut (grid4.coords ⟨24, last4⟩) ((dat4 (F := Ideal) V c).after 2 ⟨24, last4⟩) = _
  rw [after4_2]
  have hz' : (fun a => win4_2.index ⟨24, last4⟩ a * main_v86.ty.shape.size a) = fun _ => 0 := funext fun a => by fin_cases a <;> decide
  exact (Memref.read_access_unit_zero (Elt Ideal) main_v86 hz' (fun a => by rw [congrFun hz' a]; simp) (res4 V c)).symm

/-- So the output array ends holding the accumulated block after the last point: that point's block covers it. -/
theorem final4 (c : Dev nD) : out4 V c = res4 V c :=
  (dat4 (F := Ideal) V c).arrAt_eq_of_cover 2 (res4 V c) (flushed4 V c) fun i =>
    ⟨⟨24, last4⟩, (flush4_2 ⟨24, last4⟩).mpr rfl, by
      show i ∈ ((View.whole main_v86).slice (win4_2.rect ⟨24, last4⟩)).set
      rw [View.set_slice_whole, Rect.mem_set_unit]
      intro a
      have h0 : (i 0 : Nat) < 256 := (i 0).isLt
      have h1 : (i 1 : Nat) < 128 := (i 1).isLt
      match a with
      | ⟨0, _⟩ => show win4_2.index ⟨24, last4⟩ 0 * win4_2.size 0 ≤ (i 0 : Nat) ∧ (i 0 : Nat) < win4_2.index ⟨24, last4⟩ 0 * win4_2.size 0 + win4_2.xsize (grid4.coords ⟨24, last4⟩) 0
                  rw [show win4_2.index ⟨24, last4⟩ 0 * win4_2.size 0 = 0 from by decide +kernel, show win4_2.xsize (grid4.coords ⟨24, last4⟩) 0 = 256 from by decide +kernel]; omega
      | ⟨1, _⟩ => show win4_2.index ⟨24, last4⟩ 1 * win4_2.size 1 ≤ (i 1 : Nat) ∧ (i 1 : Nat) < win4_2.index ⟨24, last4⟩ 1 * win4_2.size 1 + win4_2.xsize (grid4.coords ⟨24, last4⟩) 1
                  rw [show win4_2.index ⟨24, last4⟩ 1 * win4_2.size 1 = 0 from by decide +kernel, show win4_2.xsize (grid4.coords ⟨24, last4⟩) 1 = 128 from by decide +kernel]; omega⟩

/-- Region 4: the accumulated output block, after the last grid point, is the one-hot product summed over ALL 51200 rows:
    25 tiles of 2048 rows, added in point order from a zero block, on the extended reals one sum. -/
theorem seg4 (c : Dev nD) (g : Fin 256) (d : Fin 128) :
    out4 V c (ix2 g d) = ∑ n : Fin 51200, oh4 V c (ix2 g n) * x4 V c (ix2 n d) := by
  have hN : cfg4.N = 25 := N_4
  refine (congrFun (final4 V c) (ix2 g d)).trans ?_
  refine (acc4 V c g d 24 last4).trans ?_
  rw [Finset.sum_range (tile4 V c g d)]
  refine Eq.trans ?_ (Cert.LibSegment.sum_tiles 25 2048 (fun n : Fin 51200 => oh4 V c (ix2 g n) * x4 V c (ix2 n d))).symm
  refine Finset.sum_congr rfl fun t _ => ?_
  have ht : t.val < cfg4.N := by rw [hN]; exact t.isLt
  unfold tile4
  rw [dif_pos ht]
  refine Finset.sum_congr rfl fun k _ => ?_
  have hlt : t.val * 2048 + k.val < 51200 := by have := t.isLt; have := k.isLt; omega
  rw [ohb4_apply V c ⟨t.val, ht⟩ g k ⟨t.val * 2048 + k.val, hlt⟩ rfl, xb4_apply V c ⟨t.val, ht⟩ k d ⟨t.val * 2048 + k.val, hlt⟩ rfl]

/-! ## Region 8 -/

/-- What the body leaves in the output's block at a point other than the first, the block holding `acc`: the update's
    payload of the loaded blocks — its one covering store, whose loads read the whole buffers. -/
theorem piece8_B {F : FTy → Type} [FloatOps F] (c : Dev nD) (i : grid8.Coords) (a1 : Memref sig .tc .vmem S256x2048 .bf16) (h1 : a1.IsWhole)
    (a2 : Memref sig .tc .vmem S2048x64 .f32) (h2 : a2.IsWhole) (a3 : Memref sig .tc .vmem S256x64 .f32) (h3 : a3.IsWhole)
    (hc : ¬cond8_0 i) (oh : Vec F S256x2048 .bf16) (x : Vec F S2048x64 .f32) (acc : Vec F S256x64 .f32) :
    out8_B_2 c i a1 h1 a2 h2 a3 h3 hc oh x acc = k8_pay2 x acc oh := by
  unfold out8_B_2
  rw [View.read_writes_eq_canon _ _ _ (cover8_B_2 c i a1 h1 a2 h2 a3 h3 hc oh x acc)]
  unfold kernelRun8_B
  dsimp only
  sl_unfold_words
  rw [View.canon_unit_zero (S := S256x64) seg_hz]
  simp only [View.readAt_eq_ld, h1.read_unread, h2.read_unread, h3.read_unread, View.ld_unit_zero (S := S2048x64) seg_hz,
    View.ld_unit_zero (S := S256x64) seg_hz, View.ld_unit_zero (S := S256x2048) seg_hz]

/-- What the body leaves there at the first point: the reset stores the zero block, the update reads it back and stores
    its payload over it. -/
theorem piece8_A {F : FTy → Type} [FloatOps F] (c : Dev nD) (i : grid8.Coords) (a1 : Memref sig .tc .vmem S256x2048 .bf16) (h1 : a1.IsWhole)
    (a2 : Memref sig .tc .vmem S2048x64 .f32) (h2 : a2.IsWhole) (a3 : Memref sig .tc .vmem S256x64 .f32) (h3 : a3.IsWhole)
    (hc : cond8_0 i) (oh : Vec F S256x2048 .bf16) (x : Vec F S2048x64 .f32) :
    out8_A_2 c i a1 h1 a2 h2 a3 h3 hc oh x = k8_pay2 x (k8_pay1 (F := F)) oh := by
  unfold out8_A_2
  rw [View.read_writes_eq_canon _ _ _ (cover8_A_2 c i a1 h1 a2 h2 a3 h3 hc oh x)]
  unfold kernelRun8_A
  dsimp only
  sl_unfold_words
  rw [View.canon_cons_unit_zero (S := S256x64) seg_hz, View.readCov_unit_zero (S := S256x64) _ seg_hz]
  simp only [View.readAt_eq_ld, h1.read_unread, h2.read_unread, View.ld_unit_zero (S := S2048x64) seg_hz,
    View.ld_unit_zero (S := S256x2048) seg_hz]

/-- The update's payload at an index: what the block held plus the tile's one-hot product (the format changes are the
    identity on the extended reals). -/
theorem pay2_8_apply (x : Vec Ideal S2048x64 .f32) (acc : Vec Ideal S256x64 .f32) (oh : Vec Ideal S256x2048 .bf16)
    (g : Fin 256) (d : Fin 64) :
    k8_pay2 (F := Ideal) x acc oh (ix2 g d) = acc (ix2 g d) + ∑ k : Fin 2048, oh (ix2 g k) * x (ix2 k d) := by
  unfold k8_pay2
  simp only [shapeCast_self]
  refine (addf_apply _ _ (ix2 g d)).trans ?_
  exact congrArg (acc (ix2 g d) + ·) (seg_matmul64_apply _ _ g d)

/-- The reset's payload is the zero block. -/
theorem pay1_8_apply (g : Fin 256) (d : Fin 64) : k8_pay1 (F := Ideal) (ix2 g d) = 0 := by
  unfold k8_pay1
  exact Ideal.ofBits_zero_f32

/-- Region 8's arrays as it finds them, and its output array after it, each at its literal type. -/
abbrev oh8 (c : Dev nD) : S256x51200.Idx → EReal := V c main_v7
abbrev x8 (c : Dev nD) : S51200x64.Idx → EReal := V c main_v148
abbrev out8 (c : Dev nD) : S256x64.Idx → EReal := (dat8 (F := Ideal) V c).arrAt 2 cfg8.N

/-- The two input blocks of region 8 at a grid point, each at its literal type. -/
abbrev ohb8 (c : Dev nD) (t : Fin cfg8.N) : S256x2048.Idx → EReal := iblk8 (F := Ideal) V c 0 t
abbrev xb8 (c : Dev nD) (t : Fin cfg8.N) : S2048x64.Idx → EReal := iblk8 (F := Ideal) V c 1 t

/-- The one-hot block at point `t` is columns `2048 t … 2048 t + 2047` of the one-hot array: a block's coordinate is
    its index times its size plus the coordinate inside it, and the index map sends point `t` to block (0, t). -/
theorem ohb8_apply (c : Dev nD) (t : Fin cfg8.N) (g : Fin 256) (k : Fin 2048) (n : Fin 51200)
    (hn : n.val = t.val * 2048 + k.val) : ohb8 V c t (ix2 g k) = oh8 V c (ix2 g n) := by
  have hi : ∀ t : Fin cfg8.N, win8_0.index t (0 : Fin 2) = 0 ∧ win8_0.index t (1 : Fin 2) = t.val :=
    (by decide +kernel : ∀ t : Fin grid8.N, win8_0.index t (0 : Fin 2) = 0 ∧ win8_0.index t (1 : Fin 2) = t.val)
  show iblk8 (F := Ideal) V c 0 t (ix2 g k) = V c main_v7 (ix2 g n)
  unfold iblk8
  rw [View.read_apply]
  show V c main_v7 _ = V c main_v7 _
  congr 1
  funext a
  apply Fin.ext
  match a with
  | ⟨0, _⟩ => show win8_0.index t 0 * 256 + 1 * g.val = g.val; rw [(hi t).1]; omega
  | ⟨1, _⟩ => show win8_0.index t 1 * 2048 + 1 * k.val = n.val; rw [(hi t).2, hn]; omega

/-- The row block at point `t` is rows `2048 t … 2048 t + 2047` of the row array (block (t, 0)). -/
theorem xb8_apply (c : Dev nD) (t : Fin cfg8.N) (k : Fin 2048) (d : Fin 64) (n : Fin 51200)
    (hn : n.val = t.val * 2048 + k.val) : xb8 V c t (ix2 k d) = x8 V c (ix2 n d) := by
  have hi : ∀ t : Fin cfg8.N, win8_1.index t (0 : Fin 2) = t.val ∧ win8_1.index t (1 : Fin 2) = 0 :=
    (by decide +kernel : ∀ t : Fin grid8.N, win8_1.index t (0 : Fin 2) = t.val ∧ win8_1.index t (1 : Fin 2) = 0)
  show iblk8 (F := Ideal) V c 1 t (ix2 k d) = V c main_v148 (ix2 n d)
  unfold iblk8
  rw [View.read_apply]
  show V c main_v148 _ = V c main_v148 _
  congr 1
  funext a
  apply Fin.ext
  match a with
  | ⟨0, _⟩ => show win8_1.index t 0 * 2048 + 1 * k.val = n.val; rw [(hi t).1, hn]; omega
  | ⟨1, _⟩ => show win8_1.index t 1 * 64 + 1 * d.val = d.val; rw [(hi t).2]; omega

/-- Tile `t`'s one-hot product at an index (zero past the grid). -/
def tile8 (c : Dev nD) (g : Fin 256) (d : Fin 64) (t : ℕ) : EReal :=
  if h : t < cfg8.N then ∑ k : Fin 2048, ohb8 V c ⟨t, h⟩ (ix2 g k) * xb8 V c ⟨t, h⟩ (ix2 k d) else 0

/-- After point `n` the accumulated block holds the tiles' products of the points up to `n`, added in point order
    from zero: by induction on the point, the first point the reset's case, every later one the update's. -/
theorem acc8 (c : Dev nD) (g : Fin 256) (d : Fin 64) : ∀ (n : ℕ) (h : n < cfg8.N),
    (outsAt8 (F := Ideal) V c n h : S256x64.Idx → EReal) (ix2 g d) = ∑ t ∈ Finset.range (n + 1), tile8 V c g d t
  | 0, h => by
    refine (congrFun ((outsAt8_A (F := Ideal) V c ⟨0, h⟩ rfl).trans (piece8_A (F := Ideal) c (grid8.coords ⟨0, h⟩)
      (ms8_0 ⟨0, h⟩) (hs8_0 ⟨0, h⟩) (ms8_1 ⟨0, h⟩) (hs8_1 ⟨0, h⟩) (ms8_2 ⟨0, h⟩) (hs8_2 ⟨0, h⟩) _
      (iblk8 (F := Ideal) V c 0 ⟨0, h⟩) (iblk8 (F := Ideal) V c 1 ⟨0, h⟩))) (ix2 g d)).trans ?_
    refine (pay2_8_apply (xb8 V c ⟨0, h⟩) (k8_pay1 (F := Ideal)) (ohb8 V c ⟨0, h⟩) g d).trans ?_
    rw [pay1_8_apply, zero_add, Finset.sum_range_one]
    unfold tile8
    rw [dif_pos h]
  | n + 1, h => by
    have hN : cfg8.N = 25 := N_8
    have hB : ¬(⟨n + 1, h⟩ : Fin cfg8.N).val % 25 = 0 := by dsimp only; omega
    refine (congrFun ((outsAt8_B (F := Ideal) V c ⟨n + 1, h⟩ hB).trans (piece8_B (F := Ideal) c (grid8.coords ⟨n + 1, h⟩)
      (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) _
      (iblk8 (F := Ideal) V c 0 ⟨n + 1, h⟩) (iblk8 (F := Ideal) V c 1 ⟨n + 1, h⟩)
      (outsAt8 (F := Ideal) V c n (Nat.lt_of_succ_lt h)))) (ix2 g d)).trans ?_
    refine (pay2_8_apply (xb8 V c ⟨n + 1, h⟩) (outsAt8 (F := Ideal) V c n (Nat.lt_of_succ_lt h)) (ohb8 V c ⟨n + 1, h⟩) g d).trans ?_
    rw [acc8 c g d n (Nat.lt_of_succ_lt h), Finset.sum_range_succ (tile8 V c g d) (n + 1)]
    refine congrArg (_ + ·) ?_
    show _ = tile8 V c g d (n + 1)
    unfold tile8
    rw [dif_pos h]

/-- The last of the 25 grid points. -/
theorem last8 : (24 : ℕ) < cfg8.N := by rw [show cfg8.N = 25 from N_8]; decide

/-- What the accumulated block holds after the last point. -/
abbrev res8 (c : Dev nD) : S256x64.Idx → EReal := outsAt8 (F := Ideal) V c 24 last8

/-- The one write-back, at the last point, writes it: the output's block index never moves, and its one block, read
    through zero offsets, is its whole array. -/
theorem flushed8 (c : Dev nD) (t : Fin cfg8.N) (hf : (cfg8.win 2).flush t = true) :
    (dat8 (F := Ideal) V c).flushed 2 t = ((cfg8.win 2).blk t).view.read (Elt Ideal) (res8 V c) := by
  have hN : cfg8.N = 25 := N_8
  have h24 : t.val = 24 := by have := (flush8_2 t).mp hf; have := t.isLt; omega
  obtain rfl : t = ⟨24, last8⟩ := Fin.ext h24
  show (cfg8.win 2).cut (grid8.coords ⟨24, last8⟩) ((dat8 (F := Ideal) V c).after 2 ⟨24, last8⟩) = _
  rw [after8_2]
  have hz' : (fun a => win8_2.index ⟨24, last8⟩ a * main_v149.ty.shape.size a) = fun _ => 0 := funext fun a => by fin_cases a <;> decide
  exact (Memref.read_access_unit_zero (Elt Ideal) main_v149 hz' (fun a => by rw [congrFun hz' a]; simp) (res8 V c)).symm

/-- So the output array ends holding the accumulated block after the last point: that point's block covers it. -/
theorem final8 (c : Dev nD) : out8 V c = res8 V c :=
  (dat8 (F := Ideal) V c).arrAt_eq_of_cover 2 (res8 V c) (flushed8 V c) fun i =>
    ⟨⟨24, last8⟩, (flush8_2 ⟨24, last8⟩).mpr rfl, by
      show i ∈ ((View.whole main_v149).slice (win8_2.rect ⟨24, last8⟩)).set
      rw [View.set_slice_whole, Rect.mem_set_unit]
      intro a
      have h0 : (i 0 : Nat) < 256 := (i 0).isLt
      have h1 : (i 1 : Nat) < 64 := (i 1).isLt
      match a with
      | ⟨0, _⟩ => show win8_2.index ⟨24, last8⟩ 0 * win8_2.size 0 ≤ (i 0 : Nat) ∧ (i 0 : Nat) < win8_2.index ⟨24, last8⟩ 0 * win8_2.size 0 + win8_2.xsize (grid8.coords ⟨24, last8⟩) 0
                  rw [show win8_2.index ⟨24, last8⟩ 0 * win8_2.size 0 = 0 from by decide +kernel, show win8_2.xsize (grid8.coords ⟨24, last8⟩) 0 = 256 from by decide +kernel]; omega
      | ⟨1, _⟩ => show win8_2.index ⟨24, last8⟩ 1 * win8_2.size 1 ≤ (i 1 : Nat) ∧ (i 1 : Nat) < win8_2.index ⟨24, last8⟩ 1 * win8_2.size 1 + win8_2.xsize (grid8.coords ⟨24, last8⟩) 1
                  rw [show win8_2.index ⟨24, last8⟩ 1 * win8_2.size 1 = 0 from by decide +kernel, show win8_2.xsize (grid8.coords ⟨24, last8⟩) 1 = 64 from by decide +kernel]; omega⟩

/-- Region 8: the accumulated output block, after the last grid point, is the one-hot product summed over ALL 51200 rows:
    25 tiles of 2048 rows, added in point order from a zero block, on the extended reals one sum. -/
theorem seg8 (c : Dev nD) (g : Fin 256) (d : Fin 64) :
    out8 V c (ix2 g d) = ∑ n : Fin 51200, oh8 V c (ix2 g n) * x8 V c (ix2 n d) := by
  have hN : cfg8.N = 25 := N_8
  refine (congrFun (final8 V c) (ix2 g d)).trans ?_
  refine (acc8 V c g d 24 last8).trans ?_
  rw [Finset.sum_range (tile8 V c g d)]
  refine Eq.trans ?_ (Cert.LibSegment.sum_tiles 25 2048 (fun n : Fin 51200 => oh8 V c (ix2 g n) * x8 V c (ix2 n d))).symm
  refine Finset.sum_congr rfl fun t _ => ?_
  have ht : t.val < cfg8.N := by rw [hN]; exact t.isLt
  unfold tile8
  rw [dif_pos ht]
  refine Finset.sum_congr rfl fun k _ => ?_
  have hlt : t.val * 2048 + k.val < 51200 := by have := t.isLt; have := k.isLt; omega
  rw [ohb8_apply V c ⟨t.val, ht⟩ g k ⟨t.val * 2048 + k.val, hlt⟩ rfl, xb8_apply V c ⟨t.val, ht⟩ k d ⟨t.val * 2048 + k.val, hlt⟩ rfl]

end Cert.KernelIdeal.RegVal

end
-- ==== Proof.RegCenter.lean ====
/-
  THE CENTRE-AND-SQUARE-SUM REGIONS (regions 1 and 5), read as values at the exact instance.

  Each region runs the same body over 25 row blocks of 2048 rows. The body stores, block by block, the rows minus the
  scaled product of their one-hot rows with the table of means, and adds the product of the one-hot block with the
  squares of those centred rows into an accumulator that is reset at the first point and written back after the last.
  So the first output is the array of centred rows, and the second is the sum over all 51200 rows, taken 2048 at a time.
-/
import proofs.«413028_j69071664054692_1_alg».proof.Proof.Gen.KernelIdeal.Frame
import proofs.«413028_j69071664054692_1_alg».proof.Proof.LibSegment
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen

theorem originCen : (![0, 0] : Fin 2 → Nat) = fun _ => 0 := funext fun a => by fin_cases a <;> rfl

-- the TensorCore's buffer contents when the region is entered: any
variable (V : (c : Dev nD) → (b : Ref sig .tc) → Buf (Elt Ideal) ((c : Thread nD τ).loc b))

/-! ## Region 1: what each case of the body leaves in its two output buffers -/

/-- At the first point the row block's buffer holds the centred rows of the point's blocks. -/
theorem cenA1 {F : FTy → Type} [FloatOps F] (c : Dev nD) (i : grid1.Coords) (a1 : Memref sig .tc .vmem S256x2048 .bf16) (h1 : a1.IsWhole) (a2 : Memref sig .tc .vmem S2048x256 .bf16) (h2 : a2.IsWhole) (a3 : Memref sig .tc .vmem S2048x64 .f32) (h3 : a3.IsWhole) (a4 : Memref sig .tc .vmem S256x64 .f32) (h4 : a4.IsWhole) (a5 : Memref sig .tc .vmem S1x64 .f32) (h5 : a5.IsWhole) (a6 : Memref sig .tc .vmem S2048x64 .f32) (h6 : a6.IsWhole) (a7 : Memref sig .tc .vmem S256x64 .f32) (h7 : a7.IsWhole) (hc : cond1_0 i) (y0 : Vec F S256x2048 .bf16) (y1 : Vec F S2048x256 .bf16) (y2 : Vec F S2048x64 .f32) (y3 : Vec F S256x64 .f32) (y4 : Vec F S1x64 .f32) :
    out1_A_5 c i a1 h1 a2 h2 a3 h3 a4 h4 a5 h5 a6 h6 a7 h7 hc y0 y1 y2 y3 y4 = k1_pay2 y3 y1 y2 y4 := by
  unfold out1_A_5
  rw [View.read_writes_eq_canon _ _ _ (cover1_A_5 c i a1 h1 a2 h2 a3 h3 a4 h4 a5 h5 a6 h6 a7 h7 hc y0 y1 y2 y3 y4)]
  unfold kernelRun1_A
  dsimp only
  sl_unfold_words
  rw [View.canon_unit_zero originCen]
  simp only [View.readAt_eq_ld, h2.read_unread, h3.read_unread, h4.read_unread, h5.read_unread,
    View.ld_unit_zero (S := S256x64) originCen, View.ld_unit_zero (S := S2048x256) originCen, View.ld_unit_zero (S := S2048x64) originCen,
    View.ld_unit_zero (S := S1x64) originCen]

/-- At a later point the same. -/
theorem cenB1 {F : FTy → Type} [FloatOps F] (c : Dev nD) (i : grid1.Coords) (a1 : Memref sig .tc .vmem S256x2048 .bf16) (h1 : a1.IsWhole) (a2 : Memref sig .tc .vmem S2048x256 .bf16) (h2 : a2.IsWhole) (a3 : Memref sig .tc .vmem S2048x64 .f32) (h3 : a3.IsWhole) (a4 : Memref sig .tc .vmem S256x64 .f32) (h4 : a4.IsWhole) (a5 : Memref sig .tc .vmem S1x64 .f32) (h5 : a5.IsWhole) (a6 : Memref sig .tc .vmem S2048x64 .f32) (h6 : a6.IsWhole) (a7 : Memref sig .tc .vmem S256x64 .f32) (h7 : a7.IsWhole) (hc : ¬cond1_0 i) (y0 : Vec F S256x2048 .bf16) (y1 : Vec F S2048x256 .bf16) (y2 : Vec F S2048x64 .f32) (y3 : Vec F S256x64 .f32) (y4 : Vec F S1x64 .f32) (xo : Vec F S256x64 .f32) :
    out1_B_5 c i a1 h1 a2 h2 a3 h3 a4 h4 a5 h5 a6 h6 a7 h7 hc y0 y1 y2 y3 y4 xo = k1_pay2 y3 y1 y2 y4 := by
  unfold out1_B_5
  rw [View.read_writes_eq_canon _ _ _ (cover1_B_5 c i a1 h1 a2 h2 a3 h3 a4 h4 a5 h5 a6 h6 a7 h7 hc y0 y1 y2 y3 y4 xo)]
  unfold kernelRun1_B
  dsimp only
  sl_unfold_words
  rw [View.canon_unit_zero originCen]
  simp only [View.readAt_eq_ld, h2.read_unread, h3.read_unread, h4.read_unread, h5.read_unread,
    View.ld_unit_zero (S := S256x64) originCen, View.ld_unit_zero (S := S2048x256) originCen, View.ld_unit_zero (S := S2048x64) originCen,
    View.ld_unit_zero (S := S1x64) originCen]

/-- At the first point the accumulator is reset to the zero block and then updated. -/
theorem accA1 {F : FTy → Type} [FloatOps F] (c : Dev nD) (i : grid1.Coords) (a1 : Memref sig .tc .vmem S256x2048 .bf16) (h1 : a1.IsWhole) (a2 : Memref sig .tc .vmem S2048x256 .bf16) (h2 : a2.IsWhole) (a3 : Memref sig .tc .vmem S2048x64 .f32) (h3 : a3.IsWhole) (a4 : Memref sig .tc .vmem S256x64 .f32) (h4 : a4.IsWhole) (a5 : Memref sig .tc .vmem S1x64 .f32) (h5 : a5.IsWhole) (a6 : Memref sig .tc .vmem S2048x64 .f32) (h6 : a6.IsWhole) (a7 : Memref sig .tc .vmem S256x64 .f32) (h7 : a7.IsWhole) (hc : cond1_0 i) (y0 : Vec F S256x2048 .bf16) (y1 : Vec F S2048x256 .bf16) (y2 : Vec F S2048x64 .f32) (y3 : Vec F S256x64 .f32) (y4 : Vec F S1x64 .f32) :
    out1_A_6 c i a1 h1 a2 h2 a3 h3 a4 h4 a5 h5 a6 h6 a7 h7 hc y0 y1 y2 y3 y4 = k1_pay3 y3 y1 y2 y4 k1_pay1 y0 := by
  unfold out1_A_6
  rw [View.read_writes_eq_canon _ _ _ (cover1_A_6 c i a1 h1 a2 h2 a3 h3 a4 h4 a5 h5 a6 h6 a7 h7 hc y0 y1 y2 y3 y4)]
  unfold kernelRun1_A
  dsimp only
  sl_unfold_words
  rw [View.canon_cons_unit_zero (S := S256x64) originCen, View.readCov_unit_zero (S := S256x64) _ originCen]
  simp only [View.readAt_eq_ld, h1.read_unread, h2.read_unread, h3.read_unread, h4.read_unread, h5.read_unread,
    View.ld_unit_zero (S := S256x64) originCen, View.ld_unit_zero (S := S2048x256) originCen, View.ld_unit_zero (S := S2048x64) originCen,
    View.ld_unit_zero (S := S1x64) originCen, View.ld_unit_zero (S := S256x2048) originCen]

/-- At a later point the accumulator is updated from what the point before left. -/
theorem accB1 {F : FTy → Type} [FloatOps F] (c : Dev nD) (i : grid1.Coords) (a1 : Memref sig .tc .vmem S256x2048 .bf16) (h1 : a1.IsWhole) (a2 : Memref sig .tc .vmem S2048x256 .bf16) (h2 : a2.IsWhole) (a3 : Memref sig .tc .vmem S2048x64 .f32) (h3 : a3.IsWhole) (a4 : Memref sig .tc .vmem S256x64 .f32) (h4 : a4.IsWhole) (a5 : Memref sig .tc .vmem S1x64 .f32) (h5 : a5.IsWhole) (a6 : Memref sig .tc .vmem S2048x64 .f32) (h6 : a6.IsWhole) (a7 : Memref sig .tc .vmem S256x64 .f32) (h7 : a7.IsWhole) (hc : ¬cond1_0 i) (y0 : Vec F S256x2048 .bf16) (y1 : Vec F S2048x256 .bf16) (y2 : Vec F S2048x64 .f32) (y3 : Vec F S256x64 .f32) (y4 : Vec F S1x64 .f32) (xo : Vec F S256x64 .f32) :
    out1_B_6 c i a1 h1 a2 h2 a3 h3 a4 h4 a5 h5 a6 h6 a7 h7 hc y0 y1 y2 y3 y4 xo = k1_pay3 y3 y1 y2 y4 xo y0 := by
  unfold out1_B_6
  rw [View.read_writes_eq_canon _ _ _ (cover1_B_6 c i a1 h1 a2 h2 a3 h3 a4 h4 a5 h5 a6 h6 a7 h7 hc y0 y1 y2 y3 y4 xo)]
  unfold kernelRun1_B
  dsimp only
  sl_unfold_words
  rw [View.canon_unit_zero originCen]
  simp only [View.readAt_eq_ld, h1.read_unread, h2.read_unread, h3.read_unread, h4.read_unread, h5.read_unread, h7.read_unread,
    View.ld_unit_zero (S := S256x64) originCen, View.ld_unit_zero (S := S2048x256) originCen, View.ld_unit_zero (S := S2048x64) originCen,
    View.ld_unit_zero (S := S1x64) originCen, View.ld_unit_zero (S := S256x2048) originCen]

/-! ## Region 1: the body's two products and its stored terms, entry by entry, at the exact instance -/

theorem rowMean1_l0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem rowMean1_l1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rowMean1_r0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rowMean1_r1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The product of a block of one-hot rows with the table, into a zero accumulator: a sum over the 256 table rows. -/
theorem rowMean1_apply (L : FVec Ideal S2048x256 .bf16) (R : FVec Ideal S256x64 .bf16) (p : Fin 2048) (q : Fin 64) :
    FloatOps.matmul dot_S2048x256_S256x64_S2048x64_1_0_0_1_n_n none L R (constant S2048x64 .f32 0x00000000#32) (ix2 p q)
      = ∑ g : Fin 256, L (ix2 p g) * R (ix2 g q) := by
  rw [Ideal.matmul_constant_zero_apply, ← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 p q) ((contrEquiv1 dot_S2048x256_S256x64_S2048x64_1_0_0_1_n_n 256 rfl rfl).symm k) = ix2 p k := funext fun a => Fin.ext (by
    match a with
    | ⟨0, _⟩ => exact rowMean1_l0 _ _
    | ⟨1, _⟩ => exact (rowMean1_l1 _ _).trans hk)
  have er : dot_S2048x256_S256x64_S2048x64_1_0_0_1_n_n.rhsIdx (ix2 p q) ((contrEquiv1 dot_S2048x256_S256x64_S2048x64_1_0_0_1_n_n 256 rfl rfl).symm k) = ix2 k q := funext fun a => Fin.ext (by
    match a with
    | ⟨0, _⟩ => exact (rowMean1_r0 _ _).trans hk
    | ⟨1, _⟩ => exact rowMean1_r1 _ _)
  rw [el, er]

theorem segSq1_l0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem segSq1_l1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem segSq1_r0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem segSq1_r1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product of the one-hot block with a block of rows, into a zero accumulator: a sum over the block's 2048 rows. -/
theorem segSq1_apply (L : FVec Ideal S256x2048 .bf16) (R : FVec Ideal S2048x64 .bf16) (g : Fin 256) (q : Fin 64) :
    FloatOps.matmul dot_S256x2048_S2048x64_S256x64_1_0_0_1_n_n none L R (constant S256x64 .f32 0x00000000#32) (ix2 g q)
      = ∑ r : Fin 2048, L (ix2 g r) * R (ix2 r q) := by
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 g q) ((contrEquiv1 dot_S256x2048_S2048x64_S256x64_1_0_0_1_n_n 2048 rfl rfl).symm k) = ix2 g k := funext fun a => Fin.ext (by
    match a with
    | ⟨0, _⟩ => exact segSq1_l0 _ _
    | ⟨1, _⟩ => exact (segSq1_l1 _ _).trans hk)
  have er : dot_S256x2048_S2048x64_S256x64_1_0_0_1_n_n.rhsIdx (ix2 g q) ((contrEquiv1 dot_S256x2048_S2048x64_S256x64_1_0_0_1_n_n 2048 rfl rfl).symm k) = ix2 k q := funext fun a => Fin.ext (by
    match a with
    | ⟨0, _⟩ => exact (segSq1_r0 _ _).trans hk
    | ⟨1, _⟩ => exact segSq1_r1 _ _)
  rw [el, er]

/-- The scale row broadcast down the block reads the row at the column. -/
theorem scaleRow1_apply (ms : Vec Ideal S1x64 .f32) (p : Fin 2048) (q : Fin 64) :
    broadcastTo S2048x64 ms broadcasts_S1x64_S2048x64 (ix2 p q) = ms (ix2 0 q) := by
  refine broadcastTo_apply ms broadcasts_S1x64_S2048x64 (ix2 p q) (ix2 0 q) fun a => ?_
  match a with
  | ⟨0, _⟩ => rfl
  | ⟨1, _⟩ => rfl

/-- The centred block, entry by entry: a row minus the scaled product of its one-hot row with the table. -/
theorem cenPay1_apply (mean : Vec Ideal S256x64 .f32) (ohT : Vec Ideal S2048x256 .bf16) (x : Vec Ideal S2048x64 .f32)
    (ms : Vec Ideal S1x64 .f32) (p : Fin 2048) (q : Fin 64) :
    k1_pay2 (F := Ideal) mean ohT x ms (ix2 p q)
      = (x (ix2 p q) : EReal) - (ms (ix2 0 q) : EReal) * ∑ g : Fin 256, (ohT (ix2 p g) : EReal) * (mean (ix2 g q) : EReal) := by
  unfold k1_pay2
  simp only [shapeCast_self]
  refine (subf_apply _ _ (ix2 p q)).trans ?_
  refine congrArg (fun z => (x (ix2 p q) : EReal) - z) ?_
  refine (mulf_apply _ _ (ix2 p q)).trans ?_
  rw [scaleRow1_apply]
  refine congrArg (fun z => (ms (ix2 0 q) : EReal) * z) ?_
  exact rowMean1_apply ohT (truncf .bf16 mean bitsLt_bf16_f32) p q

/-- The updated accumulator block, entry by entry: what it held plus the one-hot product with the squared centred rows. -/
theorem accPay1_apply (mean : Vec Ideal S256x64 .f32) (ohT : Vec Ideal S2048x256 .bf16) (x : Vec Ideal S2048x64 .f32)
    (ms : Vec Ideal S1x64 .f32) (acc : Vec Ideal S256x64 .f32) (oh : Vec Ideal S256x2048 .bf16) (g : Fin 256) (q : Fin 64) :
    k1_pay3 (F := Ideal) mean ohT x ms acc oh (ix2 g q)
      = (acc (ix2 g q) : EReal) + ∑ r : Fin 2048, (oh (ix2 g r) : EReal)
          * ((k1_pay2 (F := Ideal) mean ohT x ms (ix2 r q) : EReal) * (k1_pay2 (F := Ideal) mean ohT x ms (ix2 r q) : EReal)) := by
  unfold k1_pay3
  simp only [shapeCast_self]
  refine (addf_apply _ _ (ix2 g q)).trans ?_
  refine congrArg (fun z => (acc (ix2 g q) : EReal) + z) ?_
  exact segSq1_apply oh (truncf .bf16 (mulf (k1_pay2 (F := Ideal) mean ohT x ms) (k1_pay2 (F := Ideal) mean ohT x ms)) bitsLt_bf16_f32) g q

/-- The zero block the reset stores. -/
theorem zeroPay1_apply (g : Fin 256) (q : Fin 64) : (k1_pay1 (F := Ideal) (ix2 g q) : EReal) = 0 := by
  unfold k1_pay1
  exact Ideal.ofBits_zero_f32

/-- Region 1's arrays as it finds them, and its two output arrays after it, each at its literal type. -/
abbrev oh1 (c : Dev nD) : S256x51200.Idx → EReal := V c main_v7
abbrev ohT1 (c : Dev nD) : S51200x256.Idx → EReal := V c main_v13
abbrev x1 (c : Dev nD) : S51200x64.Idx → EReal := V c main_v21
abbrev mean1 (c : Dev nD) : S256x64.Idx → EReal := V c main_v24
abbrev ms1 (c : Dev nD) : S1x64.Idx → EReal := V c main_v25
abbrev cenOut1 (c : Dev nD) : S51200x64.Idx → EReal := (dat1 (F := Ideal) V c).arrAt 5 cfg1.N
abbrev vsOut1 (c : Dev nD) : S256x64.Idx → EReal := (dat1 (F := Ideal) V c).arrAt 6 cfg1.N

/-! ## Region 1: the windows' blocks as entries of the arrays -/

/-- The blocks the body loads at point `t`, each at its literal type. -/
abbrev ohB1 (c : Dev nD) (t : Fin cfg1.N) : Vec Ideal S256x2048 .bf16 := iblk1 (F := Ideal) V c 0 t
abbrev ohTB1 (c : Dev nD) (t : Fin cfg1.N) : Vec Ideal S2048x256 .bf16 := iblk1 (F := Ideal) V c 1 t
abbrev xB1 (c : Dev nD) (t : Fin cfg1.N) : Vec Ideal S2048x64 .f32 := iblk1 (F := Ideal) V c 2 t
abbrev meanB1 (c : Dev nD) (t : Fin cfg1.N) : Vec Ideal S256x64 .f32 := iblk1 (F := Ideal) V c 3 t
abbrev msB1 (c : Dev nD) (t : Fin cfg1.N) : Vec Ideal S1x64 .f32 := iblk1 (F := Ideal) V c 4 t

/-- The index maps over the grid: the row blocks move with the point, the tables and the accumulator stay. -/
theorem idx1 : ∀ t : Fin cfg1.N, win1_0.index t (0 : Fin 2) = 0 ∧ win1_0.index t (1 : Fin 2) = t.val
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0 :=
  (by decide +kernel : ∀ t : Fin grid1.N, _)

theorem ohB1_apply (c : Dev nD) (t : Fin cfg1.N) (g : Fin 256) (r : Fin 2048) (n : Fin 51200)
    (hn : n.val = t.val * 2048 + r.val) : (ohB1 V c t (ix2 g r) : EReal) = oh1 V c (ix2 g n) := by
  obtain ⟨e0, e1, -⟩ := idx1 t
  unfold ohB1 iblk1
  rw [View.read_apply]
  show V c main_v7 _ = V c main_v7 _
  congr 1
  funext a
  apply Fin.ext
  match a with
  | ⟨0, _⟩ => show win1_0.index t 0 * 256 + 1 * g.val = g.val; rw [e0]; omega
  | ⟨1, _⟩ => show win1_0.index t 1 * 2048 + 1 * r.val = n.val; rw [e1, hn]; omega

theorem ohTB1_apply (c : Dev nD) (t : Fin cfg1.N) (r : Fin 2048) (g : Fin 256) (n : Fin 51200)
    (hn : n.val = t.val * 2048 + r.val) : (ohTB1 V c t (ix2 r g) : EReal) = ohT1 V c (ix2 n g) := by
  obtain ⟨-, -, e0, e1, -⟩ := idx1 t
  unfold ohTB1 iblk1
  rw [View.read_apply]
  show V c main_v13 _ = V c main_v13 _
  congr 1
  funext a
  apply Fin.ext
  match a with
  | ⟨0, _⟩ => show win1_1.index t 0 * 2048 + 1 * r.val = n.val; rw [e0, hn]; omega
  | ⟨1, _⟩ => show win1_1.index t 1 * 256 + 1 * g.val = g.val; rw [e1]; omega

theorem xB1_apply (c : Dev nD) (t : Fin cfg1.N) (r : Fin 2048) (d : Fin 64) (n : Fin 51200)
    (hn : n.val = t.val * 2048 + r.val) : (xB1 V c t (ix2 r d) : EReal) = x1 V c (ix2 n d) := by
  obtain ⟨-, -, -, -, e0, e1, -⟩ := idx1 t
  unfold xB1 iblk1
  rw [View.read_apply]
  show V c main_v21 _ = V c main_v21 _
  congr 1
  funext a
  apply Fin.ext
  match a with
  | ⟨0, _⟩ => show win1_2.index t 0 * 2048 + 1 * r.val = n.val; rw [e0, hn]; omega
  | ⟨1, _⟩ => show win1_2.index t 1 * 64 + 1 * d.val = d.val; rw [e1]; omega

theorem meanB1_apply (c : Dev nD) (t : Fin cfg1.N) (g : Fin 256) (d : Fin 64) :
    (meanB1 V c t (ix2 g d) : EReal) = mean1 V c (ix2 g d) := by
  obtain ⟨-, -, -, -, -, -, e0, e1, -⟩ := idx1 t
  unfold meanB1 iblk1
  rw [View.read_apply]
  show V c main_v24 _ = V c main_v24 _
  congr 1
  funext a
  apply Fin.ext
  match a with
  | ⟨0, _⟩ => show win1_3.index t 0 * 256 + 1 * g.val = g.val; rw [e0]; omega
  | ⟨1, _⟩ => show win1_3.index t 1 * 64 + 1 * d.val = d.val; rw [e1]; omega

theorem msB1_apply (c : Dev nD) (t : Fin cfg1.N) (d : Fin 64) :
    (msB1 V c t (ix2 0 d) : EReal) = ms1 V c (ix2 0 d) := by
  obtain ⟨-, -, -, -, -, -, -, -, e0, e1, -⟩ := idx1 t
  unfold msB1 iblk1
  rw [View.read_apply]
  show V c main_v25 _ = V c main_v25 _
  congr 1
  funext a
  apply Fin.ext
  match a with
  | ⟨0, _⟩ => show win1_4.index t 0 * 1 + 1 * 0 = 0; rw [e0]
  | ⟨1, _⟩ => show win1_4.index t 1 * 64 + 1 * d.val = d.val; rw [e1]; omega

/-! ## Region 1, first output: every point writes back its centred row block -/

/-- The centred row `n` at column `d`, from the arrays the region is entered with. -/
def cenVal1 (c : Dev nD) (n : Fin 51200) (d : Fin 64) : EReal :=
  x1 V c (ix2 n d) - ms1 V c (ix2 0 d) * ∑ g : Fin 256, ohT1 V c (ix2 n g) * mean1 V c (ix2 g d)

/-- The whole array of centred rows. -/
abbrev cenG1 (c : Dev nD) : S51200x64.Idx → EReal := fun i => cenVal1 V c (i 0) (i 1)

/-- What the body stores at point `t`, entry by entry, is the centred row of the array the entry sits in. -/
theorem cenBlk1 (c : Dev nD) (t : Fin cfg1.N) (p : Fin 2048) (q : Fin 64) (n : Fin 51200) (d : Fin 64)
    (hn : n.val = t.val * 2048 + p.val) (hd : d.val = q.val) :
    (k1_pay2 (F := Ideal) (meanB1 V c t) (ohTB1 V c t) (xB1 V c t) (msB1 V c t) (ix2 p q) : EReal) = cenVal1 V c n d := by
  obtain rfl : d = q := Fin.ext hd
  refine (cenPay1_apply (meanB1 V c t) (ohTB1 V c t) (xB1 V c t) (msB1 V c t) p d).trans ?_
  unfold cenVal1
  rw [xB1_apply V c t p d n hn, msB1_apply V c t d]
  refine congrArg (fun z => x1 V c (ix2 n d) - ms1 V c (ix2 0 d) * z) ?_
  refine Finset.sum_congr rfl fun g _ => ?_
  rw [ohTB1_apply V c t p g n hn, meanB1_apply V c t g d]

/-- The row block's buffer after the body at point `t`, whichever case the point is. -/
theorem cenAt1 (c : Dev nD) (t : Fin cfg1.N) :
    (outsAt1 V c t.val t.isLt).1 = k1_pay2 (F := Ideal) (meanB1 V c t) (ohTB1 V c t) (xB1 V c t) (msB1 V c t) := by
  by_cases h0 : t.val % 25 = 0
  · rw [outsAt1_A V c t h0]
    dsimp only
    exact cenA1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (ohB1 V c t) (ohTB1 V c t) (xB1 V c t) (meanB1 V c t) (msB1 V c t)
  · rw [outsAt1_B V c t h0]
    dsimp only
    exact cenB1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (ohB1 V c t) (ohTB1 V c t) (xB1 V c t) (meanB1 V c t) (msB1 V c t) _

/-- What point `t` writes back is block `t` of the array of centred rows. -/
theorem cenFlushed1 (c : Dev nD) (t : Fin cfg1.N) :
    (dat1 (F := Ideal) V c).flushed 5 t = ((cfg1.win 5).blk t).view.read (Elt Ideal) (cenG1 V c) := by
  show (cfg1.win 5).cut (grid1.coords t) ((dat1 (F := Ideal) V c).after 5 t) = _
  rw [after1_5, cenAt1]
  obtain ⟨-, -, -, -, -, -, -, -, -, -, e0, e1, -⟩ := idx1 t
  funext j
  obtain ⟨p, q, rfl⟩ : ∃ (p : Fin 2048) (q : Fin 64), j = ix2 p q := ⟨j 0, j 1, eq_ix2 j⟩
  show (k1_pay2 (F := Ideal) (meanB1 V c t) (ohTB1 V c t) (xB1 V c t) (msB1 V c t) (ix2 p q) : EReal)
    = cenVal1 V c ((((cfg1.win 5).blk t).view.emb (ix2 p q)) 0) ((((cfg1.win 5).blk t).view.emb (ix2 p q)) 1)
  refine cenBlk1 V c t p q _ _ ?_ ?_
  · show win1_5.index t 0 * 2048 + 1 * p.val = t.val * 2048 + p.val
    rw [e0]; omega
  · show win1_5.index t 1 * 64 + 1 * q.val = q.val
    rw [e1]; omega

/-- The row blocks tile the array: row `r` is in the block of point `r / 2048`. -/
theorem cenCover1 (i : S51200x64.Idx) :
    ∃ t : Fin cfg1.N, (cfg1.win 5).flush t = true ∧ i ∈ ((cfg1.win 5).blk t).view.set := by
  have hN : cfg1.N = 25 := N_1
  have hi0 : (i 0).val < 51200 := (i 0).isLt
  have hi1 : (i 1).val < 64 := (i 1).isLt
  have ht : (i 0).val / 2048 < cfg1.N := by omega
  refine ⟨⟨(i 0).val / 2048, ht⟩, flush1_5 _, ?_⟩
  obtain ⟨-, -, -, -, -, -, -, -, -, -, e0, e1, -⟩ := idx1 ⟨(i 0).val / 2048, ht⟩
  show i ∈ ((View.whole main_v26_0).slice (win1_5.rect ⟨(i 0).val / 2048, ht⟩)).set
  rw [View.set_slice_whole, Rect.mem_set_unit]
  intro a
  match a with
  | ⟨0, _⟩ =>
    show win1_5.index ⟨(i 0).val / 2048, ht⟩ 0 * 2048 ≤ (i 0).val ∧ (i 0).val < win1_5.index ⟨(i 0).val / 2048, ht⟩ 0 * 2048 + 2048
    rw [e0]; dsimp only; omega
  | ⟨1, _⟩ =>
    show win1_5.index ⟨(i 0).val / 2048, ht⟩ 1 * 64 ≤ (i 1).val ∧ (i 1).val < win1_5.index ⟨(i 0).val / 2048, ht⟩ 1 * 64 + 64
    rw [e1]; omega

/-- Region 1, first output (written block by block): a row minus the scaled one-hot product with the table of means. -/
theorem cen1 (c : Dev nD) (n : Fin 51200) (d : Fin 64) :
    cenOut1 V c (ix2 n d)
      = x1 V c (ix2 n d) - ms1 V c (ix2 0 d) * ∑ g : Fin 256, ohT1 V c (ix2 n g) * mean1 V c (ix2 g d) := by
  have h := (dat1 (F := Ideal) V c).arrAt_eq_of_cover 5 (cenG1 V c) (fun t _ => cenFlushed1 V c t) cenCover1
  exact congrFun h (ix2 n d)

/-! ## Region 1, second output: the accumulator over the grid -/

/-- One row block's share of the one-hot product with the squared centred rows. -/
def tile1 (c : Dev nD) (t : Fin 25) (g : Fin 256) (d : Fin 64) : EReal :=
  ∑ r : Fin 2048, oh1 V c (ix2 g ⟨t.val * 2048 + r.val, by have := t.isLt; have := r.isLt; omega⟩)
    * (cenVal1 V c ⟨t.val * 2048 + r.val, by have := t.isLt; have := r.isLt; omega⟩ d
      * cenVal1 V c ⟨t.val * 2048 + r.val, by have := t.isLt; have := r.isLt; omega⟩ d)

/-- The body's update at point `t`: what the accumulator held plus that point's share. -/
theorem accStep1 (c : Dev nD) (t : Fin cfg1.N) (t' : Fin 25) (ht : t'.val = t.val) (acc : Vec Ideal S256x64 .f32)
    (g : Fin 256) (d : Fin 64) :
    (k1_pay3 (F := Ideal) (meanB1 V c t) (ohTB1 V c t) (xB1 V c t) (msB1 V c t) acc (ohB1 V c t) (ix2 g d) : EReal)
      = (acc (ix2 g d) : EReal) + tile1 V c t' g d := by
  refine (accPay1_apply (meanB1 V c t) (ohTB1 V c t) (xB1 V c t) (msB1 V c t) acc (ohB1 V c t) g d).trans ?_
  refine congrArg (fun z => (acc (ix2 g d) : EReal) + z) ?_
  unfold tile1
  refine Finset.sum_congr rfl fun r _ => ?_
  have hr : t'.val * 2048 + r.val < 51200 := by have := t'.isLt; have := r.isLt; omega
  rw [ohB1_apply V c t g r ⟨t'.val * 2048 + r.val, hr⟩ (by dsimp only; rw [ht]),
    cenBlk1 V c t r d ⟨t'.val * 2048 + r.val, hr⟩ d (by dsimp only; rw [ht]) rfl]

/-- After point `n` the accumulator's buffer holds the shares of the points up to `n`. -/
theorem accAt1 (c : Dev nD) : ∀ (n : ℕ) (h : n < cfg1.N) (g : Fin 256) (d : Fin 64),
    ((outsAt1 V c n h).2 (ix2 g d) : EReal)
      = ∑ k : Fin (n + 1), tile1 V c ⟨k.val, by have hN : cfg1.N = 25 := N_1; have := k.isLt; omega⟩ g d
  | 0, h, g, d => by
    rw [outsAt1_A V c ⟨0, h⟩ rfl]
    dsimp only
    refine (congrFun (accA1 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) ((hcond1_0 ⟨0, h⟩).mpr (Nat.zero_mod _)) (ohB1 V c ⟨0, h⟩) (ohTB1 V c ⟨0, h⟩) (xB1 V c ⟨0, h⟩) (meanB1 V c ⟨0, h⟩) (msB1 V c ⟨0, h⟩)) (ix2 g d)).trans ?_
    refine (accStep1 V c ⟨0, h⟩ ⟨0, by decide⟩ rfl (k1_pay1 (F := Ideal)) g d).trans ?_
    rw [zeroPay1_apply, zero_add, Fin.sum_univ_castSucc, Fin.sum_univ_zero, zero_add]
    rfl
  | n + 1, h, g, d => by
    have hN : cfg1.N = 25 := N_1
    have hB : ¬(⟨n + 1, h⟩ : Fin cfg1.N).val % 25 = 0 := by dsimp only; omega
    rw [outsAt1_B V c ⟨n + 1, h⟩ hB]
    dsimp only
    refine (congrFun (accB1 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun h' => hB ((hcond1_0 ⟨n + 1, h⟩).mp h')) (ohB1 V c ⟨n + 1, h⟩) (ohTB1 V c ⟨n + 1, h⟩) (xB1 V c ⟨n + 1, h⟩) (meanB1 V c ⟨n + 1, h⟩) (msB1 V c ⟨n + 1, h⟩) _) (ix2 g d)).trans ?_
    refine (accStep1 V c ⟨n + 1, h⟩ ⟨n + 1, by omega⟩ rfl _ g d).trans ?_
    rw [Fin.sum_univ_castSucc]
    refine congrArg₂ (· + ·) ?_ rfl
    exact accAt1 c n (Nat.lt_of_succ_lt h) g d

/-- The whole array of segment sums of squares. -/
abbrev vsG1 (c : Dev nD) : S256x64.Idx → EReal := fun i => ∑ t : Fin 25, tile1 V c t (i 0) (i 1)

/-- The one write-back, after the last point, writes the shares of all the points. -/
theorem vsFlushed1 (c : Dev nD) (t : Fin cfg1.N) (hf : (cfg1.win 6).flush t = true) :
    (dat1 (F := Ideal) V c).flushed 6 t = ((cfg1.win 6).blk t).view.read (Elt Ideal) (vsG1 V c) := by
  have hN : cfg1.N = 25 := N_1
  have h24 : t.val = 24 := by have := (flush1_6 t).mp hf; have := t.isLt; omega
  obtain ⟨tv, htv⟩ := t
  obtain rfl : tv = 24 := h24
  show (cfg1.win 6).cut (grid1.coords ⟨24, htv⟩) ((dat1 (F := Ideal) V c).after 6 ⟨24, htv⟩) = _
  rw [after1_6]
  obtain ⟨-, -, -, -, -, -, -, -, -, -, -, -, e0, e1⟩ := idx1 ⟨24, htv⟩
  funext j
  obtain ⟨g, d, rfl⟩ : ∃ (g : Fin 256) (d : Fin 64), j = ix2 g d := ⟨j 0, j 1, eq_ix2 j⟩
  show ((outsAt1 V c 24 htv).2 (ix2 g d) : EReal)
    = ∑ t' : Fin 25, tile1 V c t' ((((cfg1.win 6).blk ⟨24, htv⟩).view.emb (ix2 g d)) 0) ((((cfg1.win 6).blk ⟨24, htv⟩).view.emb (ix2 g d)) 1)
  have hg : (((cfg1.win 6).blk ⟨24, htv⟩).view.emb (ix2 g d)) 0 = g :=
    Fin.ext (show win1_6.index ⟨24, htv⟩ 0 * 256 + 1 * g.val = g.val by rw [e0]; omega)
  have hd : (((cfg1.win 6).blk ⟨24, htv⟩).view.emb (ix2 g d)) 1 = d :=
    Fin.ext (show win1_6.index ⟨24, htv⟩ 1 * 64 + 1 * d.val = d.val by rw [e1]; omega)
  rw [hg, hd, accAt1 V c 24 htv g d]

/-- The last point's block is the whole array. -/
theorem vsCover1 (i : S256x64.Idx) :
    ∃ t : Fin cfg1.N, (cfg1.win 6).flush t = true ∧ i ∈ ((cfg1.win 6).blk t).view.set := by
  have hN : cfg1.N = 25 := N_1
  have h24 : 24 < cfg1.N := by omega
  have hi0 : (i 0).val < 256 := (i 0).isLt
  have hi1 : (i 1).val < 64 := (i 1).isLt
  refine ⟨⟨24, h24⟩, (flush1_6 ⟨24, h24⟩).mpr rfl, ?_⟩
  obtain ⟨-, -, -, -, -, -, -, -, -, -, -, -, e0, e1⟩ := idx1 ⟨24, h24⟩
  show i ∈ ((View.whole main_v26_1).slice (win1_6.rect ⟨24, h24⟩)).set
  rw [View.set_slice_whole, Rect.mem_set_unit]
  intro a
  match a with
  | ⟨0, _⟩ =>
    show win1_6.index ⟨24, h24⟩ 0 * 256 ≤ (i 0).val ∧ (i 0).val < win1_6.index ⟨24, h24⟩ 0 * 256 + 256
    rw [e0]; omega
  | ⟨1, _⟩ =>
    show win1_6.index ⟨24, h24⟩ 1 * 64 ≤ (i 1).val ∧ (i 1).val < win1_6.index ⟨24, h24⟩ 1 * 64 + 64
    rw [e1]; omega

/-- Region 1, second output (accumulated over the grid): the one-hot product with the SQUARES of the first output's rows,
    summed over all 51200 rows. -/
theorem vs1 (c : Dev nD) (g : Fin 256) (d : Fin 64) :
    vsOut1 V c (ix2 g d)
      = ∑ n : Fin 51200, oh1 V c (ix2 g n) * (cenOut1 V c (ix2 n d) * cenOut1 V c (ix2 n d)) := by
  have h := (dat1 (F := Ideal) V c).arrAt_eq_of_cover 6 (vsG1 V c) (vsFlushed1 V c) vsCover1
  refine (congrFun h (ix2 g d)).trans ?_
  show ∑ t : Fin 25, tile1 V c t g d = _
  refine Eq.trans ?_ (Cert.LibSegment.sum_tiles 25 2048
    (fun n : Fin 51200 => oh1 V c (ix2 g n) * (cenOut1 V c (ix2 n d) * cenOut1 V c (ix2 n d)))).symm
  refine Finset.sum_congr rfl fun t _ => ?_
  unfold tile1
  refine Finset.sum_congr rfl fun r _ => ?_
  have hr : t.val * 2048 + r.val < 51200 := by have := t.isLt; have := r.isLt; omega
  rw [cen1 V c ⟨t.val * 2048 + r.val, hr⟩ d]
  rfl

/-! # Region 5: the same body at width 128 -/

/-! ## Region 5: what each case of the body leaves in its two output buffers -/

/-- At the first point the row block's buffer holds the centred rows of the point's blocks. -/
theorem cenA5 {F : FTy → Type} [FloatOps F] (c : Dev nD) (i : grid5.Coords) (a1 : Memref sig .tc .vmem S256x2048 .bf16) (h1 : a1.IsWhole) (a2 : Memref sig .tc .vmem S2048x256 .bf16) (h2 : a2.IsWhole) (a3 : Memref sig .tc .vmem S2048x128 .f32) (h3 : a3.IsWhole) (a4 : Memref sig .tc .vmem S256x128 .f32) (h4 : a4.IsWhole) (a5 : Memref sig .tc .vmem S1x128 .f32) (h5 : a5.IsWhole) (a6 : Memref sig .tc .vmem S2048x128 .f32) (h6 : a6.IsWhole) (a7 : Memref sig .tc .vmem S256x128 .f32) (h7 : a7.IsWhole) (hc : cond5_0 i) (y0 : Vec F S256x2048 .bf16) (y1 : Vec F S2048x256 .bf16) (y2 : Vec F S2048x128 .f32) (y3 : Vec F S256x128 .f32) (y4 : Vec F S1x128 .f32) :
    out5_A_5 c i a1 h1 a2 h2 a3 h3 a4 h4 a5 h5 a6 h6 a7 h7 hc y0 y1 y2 y3 y4 = k5_pay2 y3 y1 y2 y4 := by
  unfold out5_A_5
  rw [View.read_writes_eq_canon _ _ _ (cover5_A_5 c i a1 h1 a2 h2 a3 h3 a4 h4 a5 h5 a6 h6 a7 h7 hc y0 y1 y2 y3 y4)]
  unfold kernelRun5_A
  dsimp only
  sl_unfold_words
  rw [View.canon_unit_zero originCen]
  simp only [View.readAt_eq_ld, h2.read_unread, h3.read_unread, h4.read_unread, h5.read_unread,
    View.ld_unit_zero (S := S256x128) originCen, View.ld_unit_zero (S := S2048x256) originCen, View.ld_unit_zero (S := S2048x128) originCen,
    View.ld_unit_zero (S := S1x128) originCen]

/-- At a later point the same. -/
theorem cenB5 {F : FTy → Type} [FloatOps F] (c : Dev nD) (i : grid5.Coords) (a1 : Memref sig .tc .vmem S256x2048 .bf16) (h1 : a1.IsWhole) (a2 : Memref sig .tc .vmem S2048x256 .bf16) (h2 : a2.IsWhole) (a3 : Memref sig .tc .vmem S2048x128 .f32) (h3 : a3.IsWhole) (a4 : Memref sig .tc .vmem S256x128 .f32) (h4 : a4.IsWhole) (a5 : Memref sig .tc .vmem S1x128 .f32) (h5 : a5.IsWhole) (a6 : Memref sig .tc .vmem S2048x128 .f32) (h6 : a6.IsWhole) (a7 : Memref sig .tc .vmem S256x128 .f32) (h7 : a7.IsWhole) (hc : ¬cond5_0 i) (y0 : Vec F S256x2048 .bf16) (y1 : Vec F S2048x256 .bf16) (y2 : Vec F S2048x128 .f32) (y3 : Vec F S256x128 .f32) (y4 : Vec F S1x128 .f32) (xo : Vec F S256x128 .f32) :
    out5_B_5 c i a1 h1 a2 h2 a3 h3 a4 h4 a5 h5 a6 h6 a7 h7 hc y0 y1 y2 y3 y4 xo = k5_pay2 y3 y1 y2 y4 := by
  unfold out5_B_5
  rw [View.read_writes_eq_canon _ _ _ (cover5_B_5 c i a1 h1 a2 h2 a3 h3 a4 h4 a5 h5 a6 h6 a7 h7 hc y0 y1 y2 y3 y4 xo)]
  unfold kernelRun5_B
  dsimp only
  sl_unfold_words
  rw [View.canon_unit_zero originCen]
  simp only [View.readAt_eq_ld, h2.read_unread, h3.read_unread, h4.read_unread, h5.read_unread,
    View.ld_unit_zero (S := S256x128) originCen, View.ld_unit_zero (S := S2048x256) originCen, View.ld_unit_zero (S := S2048x128) originCen,
    View.ld_unit_zero (S := S1x128) originCen]

/-- At the first point the accumulator is reset to the zero block and then updated. -/
theorem accA5 {F : FTy → Type} [FloatOps F] (c : Dev nD) (i : grid5.Coords) (a1 : Memref sig .tc .vmem S256x2048 .bf16) (h1 : a1.IsWhole) (a2 : Memref sig .tc .vmem S2048x256 .bf16) (h2 : a2.IsWhole) (a3 : Memref sig .tc .vmem S2048x128 .f32) (h3 : a3.IsWhole) (a4 : Memref sig .tc .vmem S256x128 .f32) (h4 : a4.IsWhole) (a5 : Memref sig .tc .vmem S1x128 .f32) (h5 : a5.IsWhole) (a6 : Memref sig .tc .vmem S2048x128 .f32) (h6 : a6.IsWhole) (a7 : Memref sig .tc .vmem S256x128 .f32) (h7 : a7.IsWhole) (hc : cond5_0 i) (y0 : Vec F S256x2048 .bf16) (y1 : Vec F S2048x256 .bf16) (y2 : Vec F S2048x128 .f32) (y3 : Vec F S256x128 .f32) (y4 : Vec F S1x128 .f32) :
    out5_A_6 c i a1 h1 a2 h2 a3 h3 a4 h4 a5 h5 a6 h6 a7 h7 hc y0 y1 y2 y3 y4 = k5_pay3 y3 y1 y2 y4 k5_pay1 y0 := by
  unfold out5_A_6
  rw [View.read_writes_eq_canon _ _ _ (cover5_A_6 c i a1 h1 a2 h2 a3 h3 a4 h4 a5 h5 a6 h6 a7 h7 hc y0 y1 y2 y3 y4)]
  unfold kernelRun5_A
  dsimp only
  sl_unfold_words
  rw [View.canon_cons_unit_zero (S := S256x128) originCen, View.readCov_unit_zero (S := S256x128) _ originCen]
  simp only [View.readAt_eq_ld, h1.read_unread, h2.read_unread, h3.read_unread, h4.read_unread, h5.read_unread,
    View.ld_unit_zero (S := S256x128) originCen, View.ld_unit_zero (S := S2048x256) originCen, View.ld_unit_zero (S := S2048x128) originCen,
    View.ld_unit_zero (S := S1x128) originCen, View.ld_unit_zero (S := S256x2048) originCen]

/-- At a later point the accumulator is updated from what the point before left. -/
theorem accB5 {F : FTy → Type} [FloatOps F] (c : Dev nD) (i : grid5.Coords) (a1 : Memref sig .tc .vmem S256x2048 .bf16) (h1 : a1.IsWhole) (a2 : Memref sig .tc .vmem S2048x256 .bf16) (h2 : a2.IsWhole) (a3 : Memref sig .tc .vmem S2048x128 .f32) (h3 : a3.IsWhole) (a4 : Memref sig .tc .vmem S256x128 .f32) (h4 : a4.IsWhole) (a5 : Memref sig .tc .vmem S1x128 .f32) (h5 : a5.IsWhole) (a6 : Memref sig .tc .vmem S2048x128 .f32) (h6 : a6.IsWhole) (a7 : Memref sig .tc .vmem S256x128 .f32) (h7 : a7.IsWhole) (hc : ¬cond5_0 i) (y0 : Vec F S256x2048 .bf16) (y1 : Vec F S2048x256 .bf16) (y2 : Vec F S2048x128 .f32) (y3 : Vec F S256x128 .f32) (y4 : Vec F S1x128 .f32) (xo : Vec F S256x128 .f32) :
    out5_B_6 c i a1 h1 a2 h2 a3 h3 a4 h4 a5 h5 a6 h6 a7 h7 hc y0 y1 y2 y3 y4 xo = k5_pay3 y3 y1 y2 y4 xo y0 := by
  unfold out5_B_6
  rw [View.read_writes_eq_canon _ _ _ (cover5_B_6 c i a1 h1 a2 h2 a3 h3 a4 h4 a5 h5 a6 h6 a7 h7 hc y0 y1 y2 y3 y4 xo)]
  unfold kernelRun5_B
  dsimp only
  sl_unfold_words
  rw [View.canon_unit_zero originCen]
  simp only [View.readAt_eq_ld, h1.read_unread, h2.read_unread, h3.read_unread, h4.read_unread, h5.read_unread, h7.read_unread,
    View.ld_unit_zero (S := S256x128) originCen, View.ld_unit_zero (S := S2048x256) originCen, View.ld_unit_zero (S := S2048x128) originCen,
    View.ld_unit_zero (S := S1x128) originCen, View.ld_unit_zero (S := S256x2048) originCen]

/-! ## Region 5: the body's two products and its stored terms, entry by entry, at the exact instance -/

theorem rowMean5_l0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem rowMean5_l1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rowMean5_r0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rowMean5_r1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product of a block of one-hot rows with the table, into a zero accumulator: a sum over the 256 table rows. -/
theorem rowMean5_apply (L : FVec Ideal S2048x256 .bf16) (R : FVec Ideal S256x128 .bf16) (p : Fin 2048) (q : Fin 128) :
    FloatOps.matmul dot_S2048x256_S256x128_S2048x128_1_0_0_1_n_n none L R (constant S2048x128 .f32 0x00000000#32) (ix2 p q)
      = ∑ g : Fin 256, L (ix2 p g) * R (ix2 g q) := by
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun a => Fin.ext (by
    match a with
    | ⟨0, _⟩ => exact rowMean5_l0 _ _
    | ⟨1, _⟩ => exact (rowMean5_l1 _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun a => Fin.ext (by
    match a with
    | ⟨0, _⟩ => exact (rowMean5_r0 _ _).trans hk
    | ⟨1, _⟩ => exact rowMean5_r1 _ _)
  rw [el, er]

theorem segSq5_l0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem segSq5_l1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
theorem segSq5_r0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
theorem segSq5_r1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The product of the one-hot block with a block of rows, into a zero accumulator: a sum over the block's 2048 rows. -/
theorem segSq5_apply (L : FVec Ideal S256x2048 .bf16) (R : FVec Ideal S2048x128 .bf16) (g : Fin 256) (q : Fin 128) :
    FloatOps.matmul dot_S256x2048_S2048x128_S256x128_1_0_0_1_n_n none L R (constant S256x128 .f32 0x00000000#32) (ix2 g q)
      = ∑ r : Fin 2048, L (ix2 g r) * R (ix2 r q) := by
  rw [Ideal.matmul_constant_zero_apply, ← Equiv.sum_comp (contrEquiv1 dot_S256x2048_S2048x128_S256x128_1_0_0_1_n_n 2048 rfl rfl).symm]
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 g q) ((contrEquiv1 dot_S256x2048_S2048x128_S256x128_1_0_0_1_n_n 2048 rfl rfl).symm k) = ix2 g k := funext fun a => Fin.ext (by
    match a with
    | ⟨0, _⟩ => exact segSq5_l0 _ _
    | ⟨1, _⟩ => exact (segSq5_l1 _ _).trans hk)
  have er : dot_S256x2048_S2048x128_S256x128_1_0_0_1_n_n.rhsIdx (ix2 g q) ((contrEquiv1 dot_S256x2048_S2048x128_S256x128_1_0_0_1_n_n 2048 rfl rfl).symm k) = ix2 k q := funext fun a => Fin.ext (by
    match a with
    | ⟨0, _⟩ => exact (segSq5_r0 _ _).trans hk
    | ⟨1, _⟩ => exact segSq5_r1 _ _)
  rw [el, er]

/-- The scale row broadcast down the block reads the row at the column. -/
theorem scaleRow5_apply (ms : Vec Ideal S1x128 .f32) (p : Fin 2048) (q : Fin 128) :
    broadcastTo S2048x128 ms broadcasts_S1x128_S2048x128 (ix2 p q) = ms (ix2 0 q) := by
  refine broadcastTo_apply ms broadcasts_S1x128_S2048x128 (ix2 p q) (ix2 0 q) fun a => ?_
  match a with
  | ⟨0, _⟩ => rfl
  | ⟨1, _⟩ => rfl

/-- The centred block, entry by entry: a row minus the scaled product of its one-hot row with the table. -/
theorem cenPay5_apply (mean : Vec Ideal S256x128 .f32) (ohT : Vec Ideal S2048x256 .bf16) (x : Vec Ideal S2048x128 .f32)
    (ms : Vec Ideal S1x128 .f32) (p : Fin 2048) (q : Fin 128) :
    k5_pay2 (F := Ideal) mean ohT x ms (ix2 p q)
      = (x (ix2 p q) : EReal) - (ms (ix2 0 q) : EReal) * ∑ g : Fin 256, (ohT (ix2 p g) : EReal) * (mean (ix2 g q) : EReal) := by
  unfold k5_pay2
  simp only [shapeCast_self]
  refine (subf_apply _ _ (ix2 p q)).trans ?_
  refine congrArg (fun z => (x (ix2 p q) : EReal) - z) ?_
  refine (mulf_apply _ _ (ix2 p q)).trans ?_
  rw [scaleRow5_apply]
  refine congrArg (fun z => (ms (ix2 0 q) : EReal) * z) ?_
  exact rowMean5_apply ohT (truncf .bf16 mean bitsLt_bf16_f32) p q

/-- The updated accumulator block, entry by entry: what it held plus the one-hot product with the squared centred rows. -/
theorem accPay5_apply (mean : Vec Ideal S256x128 .f32) (ohT : Vec Ideal S2048x256 .bf16) (x : Vec Ideal S2048x128 .f32)
    (ms : Vec Ideal S1x128 .f32) (acc : Vec Ideal S256x128 .f32) (oh : Vec Ideal S256x2048 .bf16) (g : Fin 256) (q : Fin 128) :
    k5_pay3 (F := Ideal) mean ohT x ms acc oh (ix2 g q)
      = (acc (ix2 g q) : EReal) + ∑ r : Fin 2048, (oh (ix2 g r) : EReal)
          * ((k5_pay2 (F := Ideal) mean ohT x ms (ix2 r q) : EReal) * (k5_pay2 (F := Ideal) mean ohT x ms (ix2 r q) : EReal)) := by
  unfold k5_pay3
  simp only [shapeCast_self]
  refine (addf_apply _ _ (ix2 g q)).trans ?_
  refine congrArg (fun z => (acc (ix2 g q) : EReal) + z) ?_
  exact segSq5_apply oh (truncf .bf16 (mulf (k5_pay2 (F := Ideal) mean ohT x ms) (k5_pay2 (F := Ideal) mean ohT x ms)) bitsLt_bf16_f32) g q

/-- The zero block the reset stores. -/
theorem zeroPay5_apply (g : Fin 256) (q : Fin 128) : (k5_pay1 (F := Ideal) (ix2 g q) : EReal) = 0 := by
  unfold k5_pay1
  exact Ideal.ofBits_zero_f32

/-- Region 5's arrays as it finds them, and its two output arrays after it, each at its literal type. -/
abbrev oh5 (c : Dev nD) : S256x51200.Idx → EReal := V c main_v7
abbrev ohT5 (c : Dev nD) : S51200x256.Idx → EReal := V c main_v13
abbrev x5 (c : Dev nD) : S51200x128.Idx → EReal := V c main_v85
abbrev mean5 (c : Dev nD) : S256x128.Idx → EReal := V c main_v88
abbrev ms5 (c : Dev nD) : S1x128.Idx → EReal := V c main_v89
abbrev cenOut5 (c : Dev nD) : S51200x128.Idx → EReal := (dat5 (F := Ideal) V c).arrAt 5 cfg5.N
abbrev vsOut5 (c : Dev nD) : S256x128.Idx → EReal := (dat5 (F := Ideal) V c).arrAt 6 cfg5.N

/-! ## Region 5: the windows' blocks as entries of the arrays -/

/-- The blocks the body loads at point `t`, each at its literal type. -/
abbrev ohB5 (c : Dev nD) (t : Fin cfg5.N) : Vec Ideal S256x2048 .bf16 := iblk5 (F := Ideal) V c 0 t
abbrev ohTB5 (c : Dev nD) (t : Fin cfg5.N) : Vec Ideal S2048x256 .bf16 := iblk5 (F := Ideal) V c 1 t
abbrev xB5 (c : Dev nD) (t : Fin cfg5.N) : Vec Ideal S2048x128 .f32 := iblk5 (F := Ideal) V c 2 t
abbrev meanB5 (c : Dev nD) (t : Fin cfg5.N) : Vec Ideal S256x128 .f32 := iblk5 (F := Ideal) V c 3 t
abbrev msB5 (c : Dev nD) (t : Fin cfg5.N) : Vec Ideal S1x128 .f32 := iblk5 (F := Ideal) V c 4 t

/-- The index maps over the grid: the row blocks move with the point, the tables and the accumulator stay. -/
theorem idx5 : ∀ t : Fin cfg5.N, win5_0.index t (0 : Fin 2) = 0 ∧ win5_0.index t (1 : Fin 2) = t.val
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0 :=
  (by decide +kernel : ∀ t : Fin grid5.N, _)

theorem ohB5_apply (c : Dev nD) (t : Fin cfg5.N) (g : Fin 256) (r : Fin 2048) (n : Fin 51200)
    (hn : n.val = t.val * 2048 + r.val) : (ohB5 V c t (ix2 g r) : EReal) = oh5 V c (ix2 g n) := by
  obtain ⟨e0, e1, -⟩ := idx5 t
  unfold ohB5 iblk5
  rw [View.read_apply]
  show V c main_v7 _ = V c main_v7 _
  congr 1
  funext a
  apply Fin.ext
  match a with
  | ⟨0, _⟩ => show win5_0.index t 0 * 256 + 1 * g.val = g.val; rw [e0]; omega
  | ⟨1, _⟩ => show win5_0.index t 1 * 2048 + 1 * r.val = n.val; rw [e1, hn]; omega

theorem ohTB5_apply (c : Dev nD) (t : Fin cfg5.N) (r : Fin 2048) (g : Fin 256) (n : Fin 51200)
    (hn : n.val = t.val * 2048 + r.val) : (ohTB5 V c t (ix2 r g) : EReal) = ohT5 V c (ix2 n g) := by
  obtain ⟨-, -, e0, e1, -⟩ := idx5 t
  unfold ohTB5 iblk5
  rw [View.read_apply]
  show V c main_v13 _ = V c main_v13 _
  congr 1
  funext a
  apply Fin.ext
  match a with
  | ⟨0, _⟩ => show win5_1.index t 0 * 2048 + 1 * r.val = n.val; rw [e0, hn]; omega
  | ⟨1, _⟩ => show win5_1.index t 1 * 256 + 1 * g.val = g.val; rw [e1]; omega

theorem xB5_apply (c : Dev nD) (t : Fin cfg5.N) (r : Fin 2048) (d : Fin 128) (n : Fin 51200)
    (hn : n.val = t.val * 2048 + r.val) : (xB5 V c t (ix2 r d) : EReal) = x5 V c (ix2 n d) := by
  obtain ⟨-, -, -, -, e0, e1, -⟩ := idx5 t
  unfold xB5 iblk5
  rw [View.read_apply]
  show V c main_v85 _ = V c main_v85 _
  congr 1
  funext a
  apply Fin.ext
  match a with
  | ⟨0, _⟩ => show win5_2.index t 0 * 2048 + 1 * r.val = n.val; rw [e0, hn]; omega
  | ⟨1, _⟩ => show win5_2.index t 1 * 128 + 1 * d.val = d.val; rw [e1]; omega

theorem meanB5_apply (c : Dev nD) (t : Fin cfg5.N) (g : Fin 256) (d : Fin 128) :
    (meanB5 V c t (ix2 g d) : EReal) = mean5 V c (ix2 g d) := by
  obtain ⟨-, -, -, -, -, -, e0, e1, -⟩ := idx5 t
  unfold meanB5 iblk5
  rw [View.read_apply]
  show V c main_v88 _ = V c main_v88 _
  congr 1
  funext a
  apply Fin.ext
  match a with
  | ⟨0, _⟩ => show win5_3.index t 0 * 256 + 1 * g.val = g.val; rw [e0]; omega
  | ⟨1, _⟩ => show win5_3.index t 1 * 128 + 1 * d.val = d.val; rw [e1]; omega

theorem msB5_apply (c : Dev nD) (t : Fin cfg5.N) (d : Fin 128) :
    (msB5 V c t (ix2 0 d) : EReal) = ms5 V c (ix2 0 d) := by
  obtain ⟨-, -, -, -, -, -, -, -, e0, e1, -⟩ := idx5 t
  unfold msB5 iblk5
  rw [View.read_apply]
  show V c main_v89 _ = V c main_v89 _
  congr 1
  funext a
  apply Fin.ext
  match a with
  | ⟨0, _⟩ => show win5_4.index t 0 * 1 + 1 * 0 = 0; rw [e0]
  | ⟨1, _⟩ => show win5_4.index t 1 * 128 + 1 * d.val = d.val; rw [e1]; omega

/-! ## Region 5, first output: every point writes back its centred row block -/

/-- The centred row `n` at column `d`, from the arrays the region is entered with. -/
def cenVal5 (c : Dev nD) (n : Fin 51200) (d : Fin 128) : EReal :=
  x5 V c (ix2 n d) - ms5 V c (ix2 0 d) * ∑ g : Fin 256, ohT5 V c (ix2 n g) * mean5 V c (ix2 g d)

/-- The whole array of centred rows. -/
abbrev cenG5 (c : Dev nD) : S51200x128.Idx → EReal := fun i => cenVal5 V c (i 0) (i 1)

/-- What the body stores at point `t`, entry by entry, is the centred row of the array the entry sits in. -/
theorem cenBlk5 (c : Dev nD) (t : Fin cfg5.N) (p : Fin 2048) (q : Fin 128) (n : Fin 51200) (d : Fin 128)
    (hn : n.val = t.val * 2048 + p.val) (hd : d.val = q.val) :
    (k5_pay2 (F := Ideal) (meanB5 V c t) (ohTB5 V c t) (xB5 V c t) (msB5 V c t) (ix2 p q) : EReal) = cenVal5 V c n d := by
  obtain rfl : d = q := Fin.ext hd
  refine (cenPay5_apply (meanB5 V c t) (ohTB5 V c t) (xB5 V c t) (msB5 V c t) p d).trans ?_
  unfold cenVal5
  rw [xB5_apply V c t p d n hn, msB5_apply V c t d]
  refine congrArg (fun z => x5 V c (ix2 n d) - ms5 V c (ix2 0 d) * z) ?_
  refine Finset.sum_congr rfl fun g _ => ?_
  rw [ohTB5_apply V c t p g n hn, meanB5_apply V c t g d]

/-- The row block's buffer after the body at point `t`, whichever case the point is. -/
theorem cenAt5 (c : Dev nD) (t : Fin cfg5.N) :
    (outsAt5 V c t.val t.isLt).1 = k5_pay2 (F := Ideal) (meanB5 V c t) (ohTB5 V c t) (xB5 V c t) (msB5 V c t) := by
  by_cases h0 : t.val % 25 = 0
  · rw [outsAt5_A V c t h0]
    dsimp only
    exact cenA5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (ohB5 V c t) (ohTB5 V c t) (xB5 V c t) (meanB5 V c t) (msB5 V c t)
  · rw [outsAt5_B V c t h0]
    dsimp only
    exact cenB5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (ohB5 V c t) (ohTB5 V c t) (xB5 V c t) (meanB5 V c t) (msB5 V c t) _

/-- What point `t` writes back is block `t` of the array of centred rows. -/
theorem cenFlushed5 (c : Dev nD) (t : Fin cfg5.N) :
    (dat5 (F := Ideal) V c).flushed 5 t = ((cfg5.win 5).blk t).view.read (Elt Ideal) (cenG5 V c) := by
  show (cfg5.win 5).cut (grid5.coords t) ((dat5 (F := Ideal) V c).after 5 t) = _
  rw [after5_5, cenAt5]
  obtain ⟨-, -, -, -, -, -, -, -, -, -, e0, e1, -⟩ := idx5 t
  funext j
  obtain ⟨p, q, rfl⟩ : ∃ (p : Fin 2048) (q : Fin 128), j = ix2 p q := ⟨j 0, j 1, eq_ix2 j⟩
  show (k5_pay2 (F := Ideal) (meanB5 V c t) (ohTB5 V c t) (xB5 V c t) (msB5 V c t) (ix2 p q) : EReal)
    = cenVal5 V c ((((cfg5.win 5).blk t).view.emb (ix2 p q)) 0) ((((cfg5.win 5).blk t).view.emb (ix2 p q)) 1)
  refine cenBlk5 V c t p q _ _ ?_ ?_
  · show win5_5.index t 0 * 2048 + 1 * p.val = t.val * 2048 + p.val
    rw [e0]; omega
  · show win5_5.index t 1 * 128 + 1 * q.val = q.val
    rw [e1]; omega

/-- The row blocks tile the array: row `r` is in the block of point `r / 2048`. -/
theorem cenCover5 (i : S51200x128.Idx) :
    ∃ t : Fin cfg5.N, (cfg5.win 5).flush t = true ∧ i ∈ ((cfg5.win 5).blk t).view.set := by
  have hN : cfg5.N = 25 := N_5
  have hi0 : (i 0).val < 51200 := (i 0).isLt
  have hi1 : (i 1).val < 128 := (i 1).isLt
  have ht : (i 0).val / 2048 < cfg5.N := by omega
  refine ⟨⟨(i 0).val / 2048, ht⟩, flush5_5 _, ?_⟩
  obtain ⟨-, -, -, -, -, -, -, -, -, -, e0, e1, -⟩ := idx5 ⟨(i 0).val / 2048, ht⟩
  show i ∈ ((View.whole main_v90_0).slice (win5_5.rect ⟨(i 0).val / 2048, ht⟩)).set
  rw [View.set_slice_whole, Rect.mem_set_unit]
  intro a
  match a with
  | ⟨0, _⟩ =>
    show win5_5.index ⟨(i 0).val / 2048, ht⟩ 0 * 2048 ≤ (i 0).val ∧ (i 0).val < win5_5.index ⟨(i 0).val / 2048, ht⟩ 0 * 2048 + 2048
    rw [e0]; dsimp only; omega
  | ⟨1, _⟩ =>
    show win5_5.index ⟨(i 0).val / 2048, ht⟩ 1 * 128 ≤ (i 1).val ∧ (i 1).val < win5_5.index ⟨(i 0).val / 2048, ht⟩ 1 * 128 + 128
    rw [e1]; omega

/-- Region 5, first output (written block by block): a row minus the scaled one-hot product with the table of means. -/
theorem cen5 (c : Dev nD) (n : Fin 51200) (d : Fin 128) :
    cenOut5 V c (ix2 n d)
      = x5 V c (ix2 n d) - ms5 V c (ix2 0 d) * ∑ g : Fin 256, ohT5 V c (ix2 n g) * mean5 V c (ix2 g d) := by
  have h := (dat5 (F := Ideal) V c).arrAt_eq_of_cover 5 (cenG5 V c) (fun t _ => cenFlushed5 V c t) cenCover5
  exact congrFun h (ix2 n d)

/-! ## Region 5, second output: the accumulator over the grid -/

/-- One row block's share of the one-hot product with the squared centred rows. -/
def tile5 (c : Dev nD) (t : Fin 25) (g : Fin 256) (d : Fin 128) : EReal :=
  ∑ r : Fin 2048, oh5 V c (ix2 g ⟨t.val * 2048 + r.val, by have := t.isLt; have := r.isLt; omega⟩)
    * (cenVal5 V c ⟨t.val * 2048 + r.val, by have := t.isLt; have := r.isLt; omega⟩ d
      * cenVal5 V c ⟨t.val * 2048 + r.val, by have := t.isLt; have := r.isLt; omega⟩ d)

/-- The body's update at point `t`: what the accumulator held plus that point's share. -/
theorem accStep5 (c : Dev nD) (t : Fin cfg5.N) (t' : Fin 25) (ht : t'.val = t.val) (acc : Vec Ideal S256x128 .f32)
    (g : Fin 256) (d : Fin 128) :
    (k5_pay3 (F := Ideal) (meanB5 V c t) (ohTB5 V c t) (xB5 V c t) (msB5 V c t) acc (ohB5 V c t) (ix2 g d) : EReal)
      = (acc (ix2 g d) : EReal) + tile5 V c t' g d := by
  refine (accPay5_apply (meanB5 V c t) (ohTB5 V c t) (xB5 V c t) (msB5 V c t) acc (ohB5 V c t) g d).trans ?_
  refine congrArg (fun z => (acc (ix2 g d) : EReal) + z) ?_
  unfold tile5
  refine Finset.sum_congr rfl fun r _ => ?_
  have hr : t'.val * 2048 + r.val < 51200 := by have := t'.isLt; have := r.isLt; omega
  rw [ohB5_apply V c t g r ⟨t'.val * 2048 + r.val, hr⟩ (by dsimp only; rw [ht]),
    cenBlk5 V c t r d ⟨t'.val * 2048 + r.val, hr⟩ d (by dsimp only; rw [ht]) rfl]

/-- After point `n` the accumulator's buffer holds the shares of the points up to `n`. -/
theorem accAt5 (c : Dev nD) : ∀ (n : ℕ) (h : n < cfg5.N) (g : Fin 256) (d : Fin 128),
    ((outsAt5 V c n h).2 (ix2 g d) : EReal)
      = ∑ k : Fin (n + 1), tile5 V c ⟨k.val, by have hN : cfg5.N = 25 := N_5; have := k.isLt; omega⟩ g d
  | 0, h, g, d => by
    rw [outsAt5_A V c ⟨0, h⟩ rfl]
    dsimp only
    refine (congrFun (accA5 (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) (ms5_5 ⟨0, h⟩) (hs5_5 ⟨0, h⟩) (ms5_6 ⟨0, h⟩) (hs5_6 ⟨0, h⟩) ((hcond5_0 ⟨0, h⟩).mpr (Nat.zero_mod _)) (ohB5 V c ⟨0, h⟩) (ohTB5 V c ⟨0, h⟩) (xB5 V c ⟨0, h⟩) (meanB5 V c ⟨0, h⟩) (msB5 V c ⟨0, h⟩)) (ix2 g d)).trans ?_
    refine (accStep5 V c ⟨0, h⟩ ⟨0, by decide⟩ rfl (k5_pay1 (F := Ideal)) g d).trans ?_
    rw [zeroPay5_apply, zero_add, Fin.sum_univ_castSucc, Fin.sum_univ_zero, zero_add]
    rfl
  | n + 1, h, g, d => by
    have hN : cfg5.N = 25 := N_5
    have hB : ¬(⟨n + 1, h⟩ : Fin cfg5.N).val % 25 = 0 := by dsimp only; omega
    rw [outsAt5_B V c ⟨n + 1, h⟩ hB]
    dsimp only
    refine (congrFun (accB5 (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (ms5_5 ⟨n + 1, h⟩) (hs5_5 ⟨n + 1, h⟩) (ms5_6 ⟨n + 1, h⟩) (hs5_6 ⟨n + 1, h⟩) (fun h' => hB ((hcond5_0 ⟨n + 1, h⟩).mp h')) (ohB5 V c ⟨n + 1, h⟩) (ohTB5 V c ⟨n + 1, h⟩) (xB5 V c ⟨n + 1, h⟩) (meanB5 V c ⟨n + 1, h⟩) (msB5 V c ⟨n + 1, h⟩) _) (ix2 g d)).trans ?_
    refine (accStep5 V c ⟨n + 1, h⟩ ⟨n + 1, by omega⟩ rfl _ g d).trans ?_
    rw [Fin.sum_univ_castSucc]
    refine congrArg₂ (· + ·) ?_ rfl
    exact accAt5 c n (Nat.lt_of_succ_lt h) g d

/-- The whole array of segment sums of squares. -/
abbrev vsG5 (c : Dev nD) : S256x128.Idx → EReal := fun i => ∑ t : Fin 25, tile5 V c t (i 0) (i 1)

/-- The one write-back, after the last point, writes the shares of all the points. -/
theorem vsFlushed5 (c : Dev nD) (t : Fin cfg5.N) (hf : (cfg5.win 6).flush t = true) :
    (dat5 (F := Ideal) V c).flushed 6 t = ((cfg5.win 6).blk t).view.read (Elt Ideal) (vsG5 V c) := by
  have hN : cfg5.N = 25 := N_5
  have h24 : t.val = 24 := by have := (flush5_6 t).mp hf; have := t.isLt; omega
  obtain ⟨tv, htv⟩ := t
  obtain rfl : tv = 24 := h24
  show (cfg5.win 6).cut (grid5.coords ⟨24, htv⟩) ((dat5 (F := Ideal) V c).after 6 ⟨24, htv⟩) = _
  rw [after5_6]
  obtain ⟨-, -, -, -, -, -, -, -, -, -, -, -, e0, e1⟩ := idx5 ⟨24, htv⟩
  funext j
  obtain ⟨g, d, rfl⟩ : ∃ (g : Fin 256) (d : Fin 128), j = ix2 g d := ⟨j 0, j 1, eq_ix2 j⟩
  show ((outsAt5 V c 24 htv).2 (ix2 g d) : EReal)
    = ∑ t' : Fin 25, tile5 V c t' ((((cfg5.win 6).blk ⟨24, htv⟩).view.emb (ix2 g d)) 0) ((((cfg5.win 6).blk ⟨24, htv⟩).view.emb (ix2 g d)) 1)
  have hg : (((cfg5.win 6).blk ⟨24, htv⟩).view.emb (ix2 g d)) 0 = g :=
    Fin.ext (show win5_6.index ⟨24, htv⟩ 0 * 256 + 1 * g.val = g.val by rw [e0]; omega)
  have hd : (((cfg5.win 6).blk ⟨24, htv⟩).view.emb (ix2 g d)) 1 = d :=
    Fin.ext (show win5_6.index ⟨24, htv⟩ 1 * 128 + 1 * d.val = d.val by rw [e1]; omega)
  rw [hg, hd, accAt5 V c 24 htv g d]

/-- The last point's block is the whole array. -/
theorem vsCover5 (i : S256x128.Idx) :
    ∃ t : Fin cfg5.N, (cfg5.win 6).flush t = true ∧ i ∈ ((cfg5.win 6).blk t).view.set := by
  have hN : cfg5.N = 25 := N_5
  have h24 : 24 < cfg5.N := by omega
  have hi0 : (i 0).val < 256 := (i 0).isLt
  have hi1 : (i 1).val < 128 := (i 1).isLt
  refine ⟨⟨24, h24⟩, (flush5_6 ⟨24, h24⟩).mpr rfl, ?_⟩
  obtain ⟨-, -, -, -, -, -, -, -, -, -, -, -, e0, e1⟩ := idx5 ⟨24, h24⟩
  show i ∈ ((View.whole main_v90_1).slice (win5_6.rect ⟨24, h24⟩)).set
  rw [View.set_slice_whole, Rect.mem_set_unit]
  intro a
  match a with
  | ⟨0, _⟩ =>
    show win5_6.index ⟨24, h24⟩ 0 * 256 ≤ (i 0).val ∧ (i 0).val < win5_6.index ⟨24, h24⟩ 0 * 256 + 256
    rw [e0]; omega
  | ⟨1, _⟩ =>
    show win5_6.index ⟨24, h24⟩ 1 * 128 ≤ (i 1).val ∧ (i 1).val < win5_6.index ⟨24, h24⟩ 1 * 128 + 128
    rw [e1]; omega

/-- Region 5, second output (accumulated over the grid): the one-hot product with the SQUARES of the first output's rows,
    summed over all 51200 rows. -/
theorem vs5 (c : Dev nD) (g : Fin 256) (d : Fin 128) :
    vsOut5 V c (ix2 g d)
      = ∑ n : Fin 51200, oh5 V c (ix2 g n) * (cenOut5 V c (ix2 n d) * cenOut5 V c (ix2 n d)) := by
  have h := (dat5 (F := Ideal) V c).arrAt_eq_of_cover 6 (vsG5 V c) (vsFlushed5 V c) vsCover5
  refine (congrFun h (ix2 g d)).trans ?_
  show ∑ t : Fin 25, tile5 V c t g d = _
  refine Eq.trans ?_ (Cert.LibSegment.sum_tiles 25 2048
    (fun n : Fin 51200 => oh5 V c (ix2 g n) * (cenOut5 V c (ix2 n d) * cenOut5 V c (ix2 n d)))).symm
  refine Finset.sum_congr rfl fun t _ => ?_
  unfold tile5
  refine Finset.sum_congr rfl fun r _ => ?_
  have hr : t.val * 2048 + r.val < 51200 := by have := t.isLt; have := r.isLt; omega
  rw [cen5 V c ⟨t.val * 2048 + r.val, hr⟩ d]
  rfl

end Cert.KernelIdeal.RegVal

end
-- ==== Proof.RegNorm.lean ====
/-
  THE NORMALISE REGIONS (regions 2 and 6), read as values at the exact instance.

  Each region writes its one output array block by block, 25 blocks of 2048 rows. A block's stored value at (p, q) is
  scale(q) · (centred(p, q) · rsqrt(Σ_g onehotT(p, g) · var(g, q) + eps)) + shift(q): the format changes are identities
  on the extended reals, the one-row operands are broadcast down the rows, and the block product into a zero accumulator
  is the plain sum over the 256 groups. The row-blocked windows sit at block row t, the tables at block 0, so the block
  written at point t is rows 2048 t … 2048 t + 2047 of one function of the arrays the region is entered with; the blocks
  tile the 51200 rows (the point covering row r is r / 2048), hence the array ends holding that function everywhere.
  Region 6 is region 2 at width 128 in place of 64.
-/
import proofs.«413028_j69071664054692_1_alg».proof.Proof.Gen.KernelIdeal.Frame
import proofs.«413028_j69071664054692_1_alg».proof.Proof.LibSegment
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen

-- the TensorCore's buffer contents when the region is entered: any
variable (V : (c : Dev nD) → (b : Ref sig .tc) → Buf (Elt Ideal) ((c : Thread nD τ).loc b))

/-- The two zero offsets of a whole-buffer access, however spelt. -/
theorem hz26 : (![0, 0] : Fin 2 → Nat) = fun _ => 0 := funext fun a => by fin_cases a <;> rfl

/-! # Region 2: the normalise kernel at width 64 -/

/-! ## The block product's operand indices -/

theorem lhs2_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs2_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs2_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs2_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The block product into the zero accumulator, at (p, q): row `p` of the one-hot block against column `q` of the table. -/
theorem mm2_apply (a : FVec Ideal S2048x256 .bf16) (b : FVec Ideal S256x64 .bf16) (p : Fin 2048) (q : Fin 64) :
    FloatOps.matmul dot_S2048x256_S256x64_S2048x64_1_0_0_1_n_n none a b (constant S2048x64 .f32 0x00000000#32) (ix2 p q)
      = ∑ g : Fin 256, a (ix2 p g) * b (ix2 g q) := by
  rw [Ideal.matmul_constant_zero_apply, ← Equiv.sum_comp (ValueIdx.contrEquiv1 dot_S2048x256_S256x64_S2048x64_1_0_0_1_n_n 256 rfl rfl).symm]
  refine Finset.sum_congr rfl fun k _ => ?_
  have hk := ValueIdx.contrEquiv1_symm_val dot_S2048x256_S256x64_S2048x64_1_0_0_1_n_n 256 rfl rfl k
  have el : dot_S2048x256_S256x64_S2048x64_1_0_0_1_n_n.lhsIdx (ix2 p q) ((ValueIdx.contrEquiv1 dot_S2048x256_S256x64_S2048x64_1_0_0_1_n_n 256 rfl rfl).symm k) = ix2 p k := funext fun a => Fin.ext (by
    match a with
    | ⟨0, _⟩ => exact lhs2_0 _ _
    | ⟨1, _⟩ => exact (lhs2_1 _ _).trans hk)
  have er : dot_S2048x256_S256x64_S2048x64_1_0_0_1_n_n.rhsIdx (ix2 p q) ((ValueIdx.contrEquiv1 dot_S2048x256_S256x64_S2048x64_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-- The body's one stored value at (p, q): the format changes are identities, the two rows are broadcast down
    the block, and the product into the zero accumulator is the plain sum. -/
theorem pay2_apply (x0 : Vec Ideal S2048x256 .bf16) (x1 : Vec Ideal S2048x64 .f32) (x2 : Vec Ideal S256x64 .f32)
    (x3 : Vec Ideal S1x64 .f32) (x4 : Vec Ideal S1x64 .f32) (p : Fin 2048) (q : Fin 64) :
    k2_pay1 (F := Ideal) x2 x0 x3 x1 x4 (ix2 p q)
      = (x3 (ix2 0 q) : EReal)
          * ((x1 (ix2 p q) : EReal)
              * Ideal.rsqrt ((∑ g : Fin 256, (x0 (ix2 p g) : EReal) * (x2 (ix2 g q) : EReal)) + Ideal.ofBits .f32 0x3727C5AC#32))
        + (x4 (ix2 0 q) : EReal) := by
  unfold k2_pay1
  simp only [shapeCast_self]
  rw [addf_apply, mulf_apply, broadcastTo_1b_ab_apply, broadcastTo_1b_ab_apply, mulf_apply]
  show (x3 (ix2 0 q) : EReal) * ((x1 (ix2 p q) : EReal) * Ideal.rsqrt ((FloatOps.matmul (F := Ideal) dot_S2048x256_S256x64_S2048x64_1_0_0_1_n_n none x0 (truncf (F := Ideal) .bf16 x2 bitsLt_bf16_f32) (constant (F := Ideal) S2048x64 .f32 0x00000000#32) (ix2 p q) : EReal) + Ideal.ofBits .f32 0x3727C5AC#32)) + (x4 (ix2 0 q) : EReal) = _
  rw [mm2_apply]
  rfl

/-- Region 2's arrays as it finds them, and its output array after it, each at its literal type. -/
abbrev ohT2 (c : Dev nD) : S51200x256.Idx → EReal := V c main_v13
abbrev cenIn2 (c : Dev nD) : S51200x64.Idx → EReal := V c main_v26_0
abbrev var2 (c : Dev nD) : S256x64.Idx → EReal := V c main_v28
abbrev w2 (c : Dev nD) : S1x64.Idx → EReal := V c main_v29
abbrev b2 (c : Dev nD) : S1x64.Idx → EReal := V c main_v30
abbrev out2 (c : Dev nD) : S51200x64.Idx → EReal := (dat2 (F := Ideal) V c).arrAt 5 cfg2.N

/-! ## Where each window's block sits at a point -/

/-- The printed index maps, decided once over the grid: the row-blocked windows sit at block row `t`, the tables at block 0. -/
theorem idxAt2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

/-- The input blocks at a point, each at its literal type. -/
abbrev ohB2 (c : Dev nD) (t : Fin cfg2.N) : S2048x256.Idx → EReal := iblk2 (F := Ideal) V c 0 t
abbrev cenB2 (c : Dev nD) (t : Fin cfg2.N) : S2048x64.Idx → EReal := iblk2 (F := Ideal) V c 1 t
abbrev varB2 (c : Dev nD) (t : Fin cfg2.N) : S256x64.Idx → EReal := iblk2 (F := Ideal) V c 2 t
abbrev wB2 (c : Dev nD) (t : Fin cfg2.N) : S1x64.Idx → EReal := iblk2 (F := Ideal) V c 3 t
abbrev bB2 (c : Dev nD) (t : Fin cfg2.N) : S1x64.Idx → EReal := iblk2 (F := Ideal) V c 4 t

/-- The one-hot block at point `t` is rows `2048 t …` of the one-hot array. -/
theorem ohB2_apply (c : Dev nD) (t : Fin cfg2.N) (p : Fin 2048) (g : Fin 256) (n : Fin 51200)
    (hn : n.val = t.val * 2048 + p.val) : ohB2 V c t (ix2 p g) = ohT2 V c (ix2 n g) := by
  obtain ⟨e0, e1, -⟩ := idxAt2 t
  show V c main_v13 (((cfg2.win 0).blk t).view.emb (ix2 p g)) = V c main_v13 (ix2 n g)
  refine congrArg (V c main_v13) (funext fun a => Fin.ext ?_)
  match a with
  | ⟨0, _⟩ => show win2_0.index t (0 : Fin 2) * 2048 + 1 * p.val = n.val; omega
  | ⟨1, _⟩ => show win2_0.index t (1 : Fin 2) * 256 + 1 * g.val = g.val; omega

/-- The centred block at point `t` is rows `2048 t …` of the centred array. -/
theorem cenB2_apply (c : Dev nD) (t : Fin cfg2.N) (p : Fin 2048) (q : Fin 64) (n : Fin 51200)
    (hn : n.val = t.val * 2048 + p.val) : cenB2 V c t (ix2 p q) = cenIn2 V c (ix2 n q) := by
  obtain ⟨-, -, e0, e1, -⟩ := idxAt2 t
  show V c main_v26_0 (((cfg2.win 1).blk t).view.emb (ix2 p q)) = V c main_v26_0 (ix2 n q)
  refine congrArg (V c main_v26_0) (funext fun a => Fin.ext ?_)
  match a with
  | ⟨0, _⟩ => show win2_1.index t (0 : Fin 2) * 2048 + 1 * p.val = n.val; omega
  | ⟨1, _⟩ => show win2_1.index t (1 : Fin 2) * 64 + 1 * q.val = q.val; omega

/-- The variance table's block is the whole table at every point. -/
theorem varB2_apply (c : Dev nD) (t : Fin cfg2.N) (g : Fin 256) (q : Fin 64) :
    varB2 V c t (ix2 g q) = var2 V c (ix2 g q) := by
  obtain ⟨-, -, -, -, e0, e1, -⟩ := idxAt2 t
  show V c main_v28 (((cfg2.win 2).blk t).view.emb (ix2 g q)) = V c main_v28 (ix2 g q)
  refine congrArg (V c main_v28) (funext fun a => Fin.ext ?_)
  match a with
  | ⟨0, _⟩ => show win2_2.index t (0 : Fin 2) * 256 + 1 * g.val = g.val; omega
  | ⟨1, _⟩ => show win2_2.index t (1 : Fin 2) * 64 + 1 * q.val = q.val; omega

/-- The scale row's block is the whole row at every point. -/
theorem wB2_apply (c : Dev nD) (t : Fin cfg2.N) (q : Fin 64) :
    wB2 V c t (ix2 0 q) = w2 V c (ix2 0 q) := by
  obtain ⟨-, -, -, -, -, -, e0, e1, -⟩ := idxAt2 t
  show V c main_v29 (((cfg2.win 3).blk t).view.emb (ix2 0 q)) = V c main_v29 (ix2 0 q)
  refine congrArg (V c main_v29) (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- The shift row's block is the whole row at every point. -/
theorem bB2_apply (c : Dev nD) (t : Fin cfg2.N) (q : Fin 64) :
    bB2 V c t (ix2 0 q) = b2 V c (ix2 0 q) := by
  obtain ⟨-, -, -, -, -, -, -, -, e0, e1, -⟩ := idxAt2 t
  show V c main_v30 (((cfg2.win 4).blk t).view.emb (ix2 0 q)) = V c main_v30 (ix2 0 q)
  refine congrArg (V c main_v30) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-! ## The array the region leaves -/

/-- What the output array holds at row `n`, column `d`. -/
def nrmAt2 (c : Dev nD) (n : Fin 51200) (d : Fin 64) : EReal :=
  w2 V c (ix2 0 d)
      * (cenIn2 V c (ix2 n d)
          * Ideal.rsqrt ((∑ g : Fin 256, ohT2 V c (ix2 n g) * var2 V c (ix2 g d)) + Ideal.ofBits .f32 0x3727C5AC#32))
    + b2 V c (ix2 0 d)

/-- The whole array, index by index. -/
abbrev nrmArr2 (c : Dev nD) : S51200x64.Idx → EReal := fun i => nrmAt2 V c ⟨(i 0).val, idx2_lt0 i⟩ ⟨(i 1).val, idx2_lt1 i⟩

/-- The array at an index whose coordinates are known. -/
theorem nrmArr2_at (c : Dev nD) (i : S51200x64.Idx) (n : Fin 51200) (d : Fin 64) (h0 : (i 0).val = n.val) (h1 : (i 1).val = d.val) :
    nrmArr2 V c i = nrmAt2 V c n d := by
  have e0 : (⟨(i 0).val, idx2_lt0 i⟩ : Fin 51200) = n := Fin.ext h0
  have e1 : (⟨(i 1).val, idx2_lt1 i⟩ : Fin 64) = d := Fin.ext h1
  show nrmAt2 V c ⟨(i 0).val, idx2_lt0 i⟩ ⟨(i 1).val, idx2_lt1 i⟩ = nrmAt2 V c n d
  rw [e0, e1]

/-- The body's stored value at a point, at (p, q): the array's entry at row `2048 t + p`. -/
theorem blockVal2 (c : Dev nD) (t : Fin cfg2.N) (p : Fin 2048) (q : Fin 64) (n : Fin 51200)
    (hn : n.val = t.val * 2048 + p.val) :
    k2_pay1 (F := Ideal) (varB2 V c t) (ohB2 V c t) (wB2 V c t) (cenB2 V c t) (bB2 V c t) (ix2 p q) = nrmAt2 V c n q := by
  refine (pay2_apply (ohB2 V c t) (cenB2 V c t) (varB2 V c t) (wB2 V c t) (bB2 V c t) p q).trans ?_
  unfold nrmAt2
  rw [wB2_apply V c t q, bB2_apply V c t q, cenB2_apply V c t p q n hn]
  simp only [ohB2_apply V c t p _ n hn, varB2_apply V c t]

/-- WHAT POINT `t` WRITES BACK is block `t` of the array above. -/
theorem flushed2_eq (c : Dev nD) (t : Fin cfg2.N) :
    (dat2 (F := Ideal) V c).flushed 5 t = ((cfg2.win 5).blk t).view.read (Elt Ideal) (nrmArr2 V c) := by
  obtain ⟨-, -, -, -, -, -, -, -, -, -, e0, e1⟩ := idxAt2 t
  show (cfg2.win 5).cut (grid2.coords t) ((dat2 (F := Ideal) V c).after 5 t) = _
  rw [after2_5]
  unfold out2_5
  rw [View.canon_unit_zero hz26]
  simp only [View.ld_unit_zero (S := S2048x256) hz26, View.ld_unit_zero (S := S2048x64) hz26, View.ld_unit_zero (S := S256x64) hz26, View.ld_unit_zero (S := S1x64) hz26]
  funext j
  obtain ⟨p, q, rfl⟩ : ∃ (p : Fin 2048) (q : Fin 64), j = ix2 p q := ⟨j 0, j 1, eq_ix2 j⟩
  have hN : cfg2.N = 25 := N_2
  have hn : t.val * 2048 + p.val < 51200 := by have := t.isLt; have := p.isLt; omega
  refine Eq.trans (b := nrmAt2 V c ⟨t.val * 2048 + p.val, hn⟩ q) ?_ ?_
  · exact blockVal2 V c t p q ⟨t.val * 2048 + p.val, hn⟩ rfl
  · rw [View.read_apply]
    refine (nrmArr2_at V c (((cfg2.win 5).blk t).view.emb (ix2 p q)) ⟨t.val * 2048 + p.val, hn⟩ q ?_ ?_).symm
    · show win2_5.index t (0 : Fin 2) * 2048 + 1 * p.val = t.val * 2048 + p.val; omega
    · show win2_5.index t (1 : Fin 2) * 64 + 1 * q.val = q.val; omega

/-- An index of the array is in point `t`'s block iff each coordinate is in the block's range on its axis. -/
theorem mem_blk2 (t : Fin cfg2.N) (i : S51200x64.Idx) :
    i ∈ ((cfg2.win 5).blk t).view.set ↔ ∀ a : Fin 2, win2_5.index t a * S2048x64.size a ≤ (i a).val ∧ (i a).val < win2_5.index t a * S2048x64.size a + S2048x64.size a := by
  show i ∈ ((View.whole main_v31).slice (win2_5.rect t)).set ↔ _
  rw [View.set_slice_whole, Rect.mem_set_unit]
  exact Iff.rfl

/-- Every row is in the block of the point `row / 2048`, and every point writes back. -/
theorem cover2 (i : S51200x64.Idx) :
    ∃ t : Fin cfg2.N, (cfg2.win 5).flush t = true ∧ i ∈ ((cfg2.win 5).blk t).view.set := by
  have hi0 : (i 0).val < 51200 := (i 0).isLt
  have hi1 : (i 1).val < 64 := (i 1).isLt
  have hN : cfg2.N = 25 := N_2
  obtain ⟨t, ht⟩ : ∃ t : Fin cfg2.N, t.val = (i 0).val / 2048 := ⟨⟨(i 0).val / 2048, by omega⟩, rfl⟩
  obtain ⟨-, -, -, -, -, -, -, -, -, -, e0, e1⟩ := idxAt2 t
  refine ⟨t, flush2_5 t, ?_⟩
  rw [mem_blk2]
  intro a
  match a with
  | ⟨0, _⟩ => show win2_5.index t (0 : Fin 2) * 2048 ≤ (i 0).val ∧ (i 0).val < win2_5.index t (0 : Fin 2) * 2048 + 2048; omega
  | ⟨1, _⟩ => show win2_5.index t (1 : Fin 2) * 64 ≤ (i 1).val ∧ (i 1).val < win2_5.index t (1 : Fin 2) * 64 + 64; omega

/-- THE ARRAY after the region: the 25 blocks tile it. -/
theorem final2 (c : Dev nD) : out2 V c = nrmArr2 V c :=
  (dat2 (F := Ideal) V c).arrAt_eq_of_cover 5 (nrmArr2 V c) (fun t _ => flushed2_eq V c t) cover2

/-- Region 2: scale · (centred · rsqrt(one-hot product with the variance table + eps)) + shift, block by block. -/
theorem nrm2 (c : Dev nD) (n : Fin 51200) (d : Fin 64) :
    out2 V c (ix2 n d)
      = w2 V c (ix2 0 d)
          * (cenIn2 V c (ix2 n d)
              * Ideal.rsqrt ((∑ g : Fin 256, ohT2 V c (ix2 n g) * var2 V c (ix2 g d)) + Ideal.ofBits .f32 0x3727C5AC#32))
        + b2 V c (ix2 0 d) := by
  rw [final2]
  rfl

/-! # Region 6: the normalise kernel at width 128 -/

/-! ## The block product's operand indices -/

theorem lhs6_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs6_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs6_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs6_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The block product into the zero accumulator, at (p, q): row `p` of the one-hot block against column `q` of the table. -/
theorem mm6_apply (a : FVec Ideal S2048x256 .bf16) (b : FVec Ideal S256x128 .bf16) (p : Fin 2048) (q : Fin 128) :
    FloatOps.matmul dot_S2048x256_S256x128_S2048x128_1_0_0_1_n_n none a b (constant S2048x128 .f32 0x00000000#32) (ix2 p q)
      = ∑ g : Fin 256, a (ix2 p g) * b (ix2 g q) := by
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 p q) ((ValueIdx.contrEquiv1 dot_S2048x256_S256x128_S2048x128_1_0_0_1_n_n 256 rfl rfl).symm k) = ix2 p k := funext fun a => Fin.ext (by
    match a with
    | ⟨0, _⟩ => exact lhs6_0 _ _
    | ⟨1, _⟩ => exact (lhs6_1 _ _).trans hk)
  have er : dot_S2048x256_S256x128_S2048x128_1_0_0_1_n_n.rhsIdx (ix2 p q) ((ValueIdx.contrEquiv1 dot_S2048x256_S256x128_S2048x128_1_0_0_1_n_n 256 rfl rfl).symm k) = ix2 k q := funext fun a => Fin.ext (by
    match a with
    | ⟨0, _⟩ => exact (rhs6_0 _ _).trans hk
    | ⟨1, _⟩ => exact rhs6_1 _ _)
  rw [el, er]

/-- The body's one stored value at (p, q): the format changes are identities, the two rows are broadcast down
    the block, and the product into the zero accumulator is the plain sum. -/
theorem pay6_apply (x0 : Vec Ideal S2048x256 .bf16) (x1 : Vec Ideal S2048x128 .f32) (x2 : Vec Ideal S256x128 .f32)
    (x3 : Vec Ideal S1x128 .f32) (x4 : Vec Ideal S1x128 .f32) (p : Fin 2048) (q : Fin 128) :
    k6_pay1 (F := Ideal) x2 x0 x3 x1 x4 (ix2 p q)
      = (x3 (ix2 0 q) : EReal)
          * ((x1 (ix2 p q) : EReal)
              * Ideal.rsqrt ((∑ g : Fin 256, (x0 (ix2 p g) : EReal) * (x2 (ix2 g q) : EReal)) + Ideal.ofBits .f32 0x3727C5AC#32))
        + (x4 (ix2 0 q) : EReal) := by
  unfold k6_pay1
  simp only [shapeCast_self]
  rw [addf_apply, mulf_apply, broadcastTo_1b_ab_apply, broadcastTo_1b_ab_apply, mulf_apply]
  show (x3 (ix2 0 q) : EReal) * ((x1 (ix2 p q) : EReal) * Ideal.rsqrt ((FloatOps.matmul (F := Ideal) dot_S2048x256_S256x128_S2048x128_1_0_0_1_n_n none x0 (truncf (F := Ideal) .bf16 x2 bitsLt_bf16_f32) (constant (F := Ideal) S2048x128 .f32 0x00000000#32) (ix2 p q) : EReal) + Ideal.ofBits .f32 0x3727C5AC#32)) + (x4 (ix2 0 q) : EReal) = _
  rw [mm6_apply]
  rfl

/-- Region 6's arrays as it finds them, and its output array after it, each at its literal type. -/
abbrev ohT6 (c : Dev nD) : S51200x256.Idx → EReal := V c main_v13
abbrev cenIn6 (c : Dev nD) : S51200x128.Idx → EReal := V c main_v90_0
abbrev var6 (c : Dev nD) : S256x128.Idx → EReal := V c main_v92
abbrev w6 (c : Dev nD) : S1x128.Idx → EReal := V c main_v93
abbrev b6 (c : Dev nD) : S1x128.Idx → EReal := V c main_v94
abbrev out6 (c : Dev nD) : S51200x128.Idx → EReal := (dat6 (F := Ideal) V c).arrAt 5 cfg6.N

/-! ## Where each window's block sits at a point -/

/-- The printed index maps, decided once over the grid: the row-blocked windows sit at block row `t`, the tables at block 0. -/
theorem idxAt6 : ∀ t : Fin cfg6.N,
    win6_0.index t (0 : Fin 2) = t.val ∧ win6_0.index t (1 : Fin 2) = 0
  ∧ win6_1.index t (0 : Fin 2) = t.val ∧ win6_1.index t (1 : Fin 2) = 0
  ∧ win6_2.index t (0 : Fin 2) = 0 ∧ win6_2.index t (1 : Fin 2) = 0
  ∧ win6_3.index t (0 : Fin 2) = 0 ∧ win6_3.index t (1 : Fin 2) = 0
  ∧ win6_4.index t (0 : Fin 2) = 0 ∧ win6_4.index t (1 : Fin 2) = 0
  ∧ win6_5.index t (0 : Fin 2) = t.val ∧ win6_5.index t (1 : Fin 2) = 0 :=
  (by decide +kernel : ∀ t : Fin grid6.N, _)

/-- The input blocks at a point, each at its literal type. -/
abbrev ohB6 (c : Dev nD) (t : Fin cfg6.N) : S2048x256.Idx → EReal := iblk6 (F := Ideal) V c 0 t
abbrev cenB6 (c : Dev nD) (t : Fin cfg6.N) : S2048x128.Idx → EReal := iblk6 (F := Ideal) V c 1 t
abbrev varB6 (c : Dev nD) (t : Fin cfg6.N) : S256x128.Idx → EReal := iblk6 (F := Ideal) V c 2 t
abbrev wB6 (c : Dev nD) (t : Fin cfg6.N) : S1x128.Idx → EReal := iblk6 (F := Ideal) V c 3 t
abbrev bB6 (c : Dev nD) (t : Fin cfg6.N) : S1x128.Idx → EReal := iblk6 (F := Ideal) V c 4 t

/-- The one-hot block at point `t` is rows `2048 t …` of the one-hot array. -/
theorem ohB6_apply (c : Dev nD) (t : Fin cfg6.N) (p : Fin 2048) (g : Fin 256) (n : Fin 51200)
    (hn : n.val = t.val * 2048 + p.val) : ohB6 V c t (ix2 p g) = ohT6 V c (ix2 n g) := by
  obtain ⟨e0, e1, -⟩ := idxAt6 t
  show V c main_v13 (((cfg6.win 0).blk t).view.emb (ix2 p g)) = V c main_v13 (ix2 n g)
  refine congrArg (V c main_v13) (funext fun a => Fin.ext ?_)
  match a with
  | ⟨0, _⟩ => show win6_0.index t (0 : Fin 2) * 2048 + 1 * p.val = n.val; omega
  | ⟨1, _⟩ => show win6_0.index t (1 : Fin 2) * 256 + 1 * g.val = g.val; omega

/-- The centred block at point `t` is rows `2048 t …` of the centred array. -/
theorem cenB6_apply (c : Dev nD) (t : Fin cfg6.N) (p : Fin 2048) (q : Fin 128) (n : Fin 51200)
    (hn : n.val = t.val * 2048 + p.val) : cenB6 V c t (ix2 p q) = cenIn6 V c (ix2 n q) := by
  obtain ⟨-, -, e0, e1, -⟩ := idxAt6 t
  show V c main_v90_0 (((cfg6.win 1).blk t).view.emb (ix2 p q)) = V c main_v90_0 (ix2 n q)
  refine congrArg (V c main_v90_0) (funext fun a => Fin.ext ?_)
  match a with
  | ⟨0, _⟩ => show win6_1.index t (0 : Fin 2) * 2048 + 1 * p.val = n.val; omega
  | ⟨1, _⟩ => show win6_1.index t (1 : Fin 2) * 128 + 1 * q.val = q.val; omega

/-- The variance table's block is the whole table at every point. -/
theorem varB6_apply (c : Dev nD) (t : Fin cfg6.N) (g : Fin 256) (q : Fin 128) :
    varB6 V c t (ix2 g q) = var6 V c (ix2 g q) := by
  obtain ⟨-, -, -, -, e0, e1, -⟩ := idxAt6 t
  show V c main_v92 (((cfg6.win 2).blk t).view.emb (ix2 g q)) = V c main_v92 (ix2 g q)
  refine congrArg (V c main_v92) (funext fun a => Fin.ext ?_)
  match a with
  | ⟨0, _⟩ => show win6_2.index t (0 : Fin 2) * 256 + 1 * g.val = g.val; omega
  | ⟨1, _⟩ => show win6_2.index t (1 : Fin 2) * 128 + 1 * q.val = q.val; omega

/-- The scale row's block is the whole row at every point. -/
theorem wB6_apply (c : Dev nD) (t : Fin cfg6.N) (q : Fin 128) :
    wB6 V c t (ix2 0 q) = w6 V c (ix2 0 q) := by
  obtain ⟨-, -, -, -, -, -, e0, e1, -⟩ := idxAt6 t
  show V c main_v93 (((cfg6.win 3).blk t).view.emb (ix2 0 q)) = V c main_v93 (ix2 0 q)
  refine congrArg (V c main_v93) (funext fun a => Fin.ext ?_)
  match a with
  | ⟨0, _⟩ => show win6_3.index t (0 : Fin 2) * 1 + 1 * 0 = 0; omega
  | ⟨1, _⟩ => show win6_3.index t (1 : Fin 2) * 128 + 1 * q.val = q.val; omega

/-- The shift row's block is the whole row at every point. -/
theorem bB6_apply (c : Dev nD) (t : Fin cfg6.N) (q : Fin 128) :
    bB6 V c t (ix2 0 q) = b6 V c (ix2 0 q) := by
  obtain ⟨-, -, -, -, -, -, -, -, e0, e1, -⟩ := idxAt6 t
  show V c main_v94 (((cfg6.win 4).blk t).view.emb (ix2 0 q)) = V c main_v94 (ix2 0 q)
  refine congrArg (V c main_v94) (funext fun a => Fin.ext ?_)
  match a with
  | ⟨0, _⟩ => show win6_4.index t (0 : Fin 2) * 1 + 1 * 0 = 0; omega
  | ⟨1, _⟩ => show win6_4.index t (1 : Fin 2) * 128 + 1 * q.val = q.val; omega

/-! ## The array the region leaves -/

/-- What the output array holds at row `n`, column `d`. -/
def nrmAt6 (c : Dev nD) (n : Fin 51200) (d : Fin 128) : EReal :=
  w6 V c (ix2 0 d)
      * (cenIn6 V c (ix2 n d)
          * Ideal.rsqrt ((∑ g : Fin 256, ohT6 V c (ix2 n g) * var6 V c (ix2 g d)) + Ideal.ofBits .f32 0x3727C5AC#32))
    + b6 V c (ix2 0 d)

/-- The whole array, index by index. -/
abbrev nrmArr6 (c : Dev nD) : S51200x128.Idx → EReal := fun i => nrmAt6 V c ⟨(i 0).val, idx2_lt0 i⟩ ⟨(i 1).val, idx2_lt1 i⟩

/-- The array at an index whose coordinates are known. -/
theorem nrmArr6_at (c : Dev nD) (i : S51200x128.Idx) (n : Fin 51200) (d : Fin 128) (h0 : (i 0).val = n.val) (h1 : (i 1).val = d.val) :
    nrmArr6 V c i = nrmAt6 V c n d := by
  have e0 : (⟨(i 0).val, idx2_lt0 i⟩ : Fin 51200) = n := Fin.ext h0
  have e1 : (⟨(i 1).val, idx2_lt1 i⟩ : Fin 128) = d := Fin.ext h1
  show nrmAt6 V c ⟨(i 0).val, idx2_lt0 i⟩ ⟨(i 1).val, idx2_lt1 i⟩ = nrmAt6 V c n d
  rw [e0, e1]

/-- The body's stored value at a point, at (p, q): the array's entry at row `2048 t + p`. -/
theorem blockVal6 (c : Dev nD) (t : Fin cfg6.N) (p : Fin 2048) (q : Fin 128) (n : Fin 51200)
    (hn : n.val = t.val * 2048 + p.val) :
    k6_pay1 (F := Ideal) (varB6 V c t) (ohB6 V c t) (wB6 V c t) (cenB6 V c t) (bB6 V c t) (ix2 p q) = nrmAt6 V c n q := by
  refine (pay6_apply (ohB6 V c t) (cenB6 V c t) (varB6 V c t) (wB6 V c t) (bB6 V c t) p q).trans ?_
  unfold nrmAt6
  rw [wB6_apply V c t q, bB6_apply V c t q, cenB6_apply V c t p q n hn]
  simp only [ohB6_apply V c t p _ n hn, varB6_apply V c t]

/-- WHAT POINT `t` WRITES BACK is block `t` of the array above. -/
theorem flushed6_eq (c : Dev nD) (t : Fin cfg6.N) :
    (dat6 (F := Ideal) V c).flushed 5 t = ((cfg6.win 5).blk t).view.read (Elt Ideal) (nrmArr6 V c) := by
  obtain ⟨-, -, -, -, -, -, -, -, -, -, e0, e1⟩ := idxAt6 t
  show (cfg6.win 5).cut (grid6.coords t) ((dat6 (F := Ideal) V c).after 5 t) = _
  rw [after6_5]
  unfold out6_5
  rw [View.canon_unit_zero hz26]
  simp only [View.ld_unit_zero (S := S2048x256) hz26, View.ld_unit_zero (S := S2048x128) hz26, View.ld_unit_zero (S := S256x128) hz26, View.ld_unit_zero (S := S1x128) hz26]
  funext j
  obtain ⟨p, q, rfl⟩ : ∃ (p : Fin 2048) (q : Fin 128), j = ix2 p q := ⟨j 0, j 1, eq_ix2 j⟩
  have hN : cfg6.N = 25 := N_6
  have hn : t.val * 2048 + p.val < 51200 := by have := t.isLt; have := p.isLt; omega
  refine Eq.trans (b := nrmAt6 V c ⟨t.val * 2048 + p.val, hn⟩ q) ?_ ?_
  · exact blockVal6 V c t p q ⟨t.val * 2048 + p.val, hn⟩ rfl
  · rw [View.read_apply]
    refine (nrmArr6_at V c (((cfg6.win 5).blk t).view.emb (ix2 p q)) ⟨t.val * 2048 + p.val, hn⟩ q ?_ ?_).symm
    · show win6_5.index t (0 : Fin 2) * 2048 + 1 * p.val = t.val * 2048 + p.val; omega
    · show win6_5.index t (1 : Fin 2) * 128 + 1 * q.val = q.val; omega

/-- An index of the array is in point `t`'s block iff each coordinate is in the block's range on its axis. -/
theorem mem_blk6 (t : Fin cfg6.N) (i : S51200x128.Idx) :
    i ∈ ((cfg6.win 5).blk t).view.set ↔ ∀ a : Fin 2, win6_5.index t a * S2048x128.size a ≤ (i a).val ∧ (i a).val < win6_5.index t a * S2048x128.size a + S2048x128.size a := by
  show i ∈ ((View.whole main_v95).slice (win6_5.rect t)).set ↔ _
  rw [View.set_slice_whole, Rect.mem_set_unit]
  exact Iff.rfl

/-- Every row is in the block of the point `row / 2048`, and every point writes back. -/
theorem cover6 (i : S51200x128.Idx) :
    ∃ t : Fin cfg6.N, (cfg6.win 5).flush t = true ∧ i ∈ ((cfg6.win 5).blk t).view.set := by
  have hi0 : (i 0).val < 51200 := (i 0).isLt
  have hi1 : (i 1).val < 128 := (i 1).isLt
  have hN : cfg6.N = 25 := N_6
  obtain ⟨t, ht⟩ : ∃ t : Fin cfg6.N, t.val = (i 0).val / 2048 := ⟨⟨(i 0).val / 2048, by omega⟩, rfl⟩
  obtain ⟨-, -, -, -, -, -, -, -, -, -, e0, e1⟩ := idxAt6 t
  refine ⟨t, flush6_5 t, ?_⟩
  rw [mem_blk6]
  intro a
  match a with
  | ⟨0, _⟩ => show win6_5.index t (0 : Fin 2) * 2048 ≤ (i 0).val ∧ (i 0).val < win6_5.index t (0 : Fin 2) * 2048 + 2048; omega
  | ⟨1, _⟩ => show win6_5.index t (1 : Fin 2) * 128 ≤ (i 1).val ∧ (i 1).val < win6_5.index t (1 : Fin 2) * 128 + 128; omega

/-- THE ARRAY after the region: the 25 blocks tile it. -/
theorem final6 (c : Dev nD) : out6 V c = nrmArr6 V c :=
  (dat6 (F := Ideal) V c).arrAt_eq_of_cover 5 (nrmArr6 V c) (fun t _ => flushed6_eq V c t) cover6

/-- Region 6: scale · (centred · rsqrt(one-hot product with the variance table + eps)) + shift, block by block. -/
theorem nrm6 (c : Dev nD) (n : Fin 51200) (d : Fin 128) :
    out6 V c (ix2 n d)
      = w6 V c (ix2 0 d)
          * (cenIn6 V c (ix2 n d)
              * Ideal.rsqrt ((∑ g : Fin 256, ohT6 V c (ix2 n g) * var6 V c (ix2 g d)) + Ideal.ofBits .f32 0x3727C5AC#32))
        + b6 V c (ix2 0 d) := by
  rw [final6]
  rfl

end Cert.KernelIdeal.RegVal

end
-- ==== Proof.KGn1.lean ====
/-
  THE FIRST GraphNorm of the kernel's program (regions 0, 1, 2 and the host operations between them), as values: the
  table of means, the centred rows, the table of variances and the normalised rows, each as the specification's function
  of the argument arrays.

  Region 0 sums the one-hot column of each graph against the rows padded to 51200; a padding row's one-hot weight is 0,
  so the sum is the segment sum over the 50000 nodes, and the host divides it by the count. Region 1 subtracts from each
  row the scaled one-hot product with the table of means, which for a node whose label is a graph index is the mean row
  of its graph, and sums the squares graph by graph; the host divides by the count again. Region 2 multiplies each
  centred row by the reciprocal root of its graph's variance plus eps, which is the quotient by the root because the
  variance is nonnegative and eps positive. The result is the first 50000 rows.
-/
import proofs.«413028_j69071664054692_1_alg».proof.Proof.Gen.KernelIdeal.Frame
import proofs.«413028_j69071664054692_1_alg».proof.Proof.Spec
import proofs.«413028_j69071664054692_1_alg».proof.Proof.KBufs
import proofs.«413028_j69071664054692_1_alg».proof.Proof.LibSegment
import proofs.«413028_j69071664054692_1_alg».proof.Proof.LibIndexing
import proofs.«413028_j69071664054692_1_alg».proof.Proof.LibPadSum
import proofs.«413028_j69071664054692_1_alg».proof.Proof.Keep
import proofs.«413028_j69071664054692_1_alg».proof.Proof.OneHot
import proofs.«413028_j69071664054692_1_alg».proof.Proof.RegSeg
import proofs.«413028_j69071664054692_1_alg».proof.Proof.RegCenter
import proofs.«413028_j69071664054692_1_alg».proof.Proof.RegNorm
import Idealize.ShloMosaic.Lib.Pipeline.Value
import Idealize.ShloMosaic.Lib.KernelVsHost
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem

namespace Cert.KernelIdeal.Chain

open Cert.KernelIdeal Cert.KernelIdeal.Gen Cert.Spec

variable (m : (ℓ : Loc nD τ sig) → Buf (Elt Ideal) ℓ) (ρ : Dev nD → PrngReg)

/-! ## The buffers the host operations around the three regions read and write, each at its literal type -/

abbrev a21 (c : Dev nD) : S51200x64.Idx → EReal := W4 m ρ c (Proc.devRef .tc main_v21)
abbrev a0_3 (c : Dev nD) : S50000x64.Idx → EReal := W3 m ρ c (Proc.devRef .tc main_arg0)
abbrev ac2_3 (c : Dev nD) : S_.Idx → BitVec 32 := W3 m ρ c (Proc.devRef .tc main_c_2)
abbrev a22 (c : Dev nD) : S256x64.Idx → EReal := W5 m ρ c (Proc.devRef .tc main_v22)
abbrev a20_5 (c : Dev nD) : S256x1.Idx → EReal := W5 m ρ c (Proc.devRef .tc main_v20)
abbrev a5_5 (c : Dev nD) : S64.Idx → EReal := W5 m ρ c (Proc.devRef .tc main_arg5)
abbrev a25 (c : Dev nD) : S1x64.Idx → EReal := W6 m ρ c (Proc.devRef .tc main_v25)
abbrev a26_1 (c : Dev nD) : S256x64.Idx → EReal := W7 m ρ c (Proc.devRef .tc main_v26_1)
abbrev a20_7 (c : Dev nD) : S256x1.Idx → EReal := W7 m ρ c (Proc.devRef .tc main_v20)
abbrev a3_7 (c : Dev nD) : S64.Idx → EReal := W7 m ρ c (Proc.devRef .tc main_arg3)
abbrev a4_7 (c : Dev nD) : S64.Idx → EReal := W7 m ρ c (Proc.devRef .tc main_arg4)
abbrev a29 (c : Dev nD) : S1x64.Idx → EReal := W8 m ρ c (Proc.devRef .tc main_v29)
abbrev a30 (c : Dev nD) : S1x64.Idx → EReal := W8 m ρ c (Proc.devRef .tc main_v30)
abbrev a31 (c : Dev nD) : S51200x64.Idx → EReal := W9 m ρ c (Proc.devRef .tc main_v31)

/-- The padded rows: the argument padded with the converted integer zero. -/
theorem v21_eq (c : Dev nD) :
    a21 m ρ c
      = pad S51200x64 ![0, 0] ![1200, 0] ![0, 0] (a0_3 m ρ c)
          (sitofp (F := Ideal) .f32 (ac2_3 m ρ c)) pads_S50000x64_S51200x64_012000_000 h_S_ := by
  show StableHlo.after hostOps0_3 (W3 m ρ c) (Proc.devRef .tc main_v21) = _
  after_results <;> rfl

/-- The table of means: region 0's sums over the broadcast counts. -/
theorem v24_eq (c : Dev nD) :
    b24 m ρ c
      = Host.divf (F := Ideal) (φ := .f32) (a22 m ρ c)
          (broadcastInDim S256x64 ![0, 1] bcast_S256x1_S256x64_0_1 (a20_5 m ρ c)) := by
  show StableHlo.after hostOps1 (W5 m ρ c) (Proc.devRef .tc main_v24) = _
  after_results <;> rfl

/-- The mean scale as a one-row matrix. -/
theorem v25_eq (c : Dev nD) : a25 m ρ c = shapeCast S1x64 (a5_5 m ρ c) shapeCasts_S64_S1x64 := by
  show StableHlo.after hostOps1 (W5 m ρ c) (Proc.devRef .tc main_v25) = _
  after_results <;> rfl

/-- The table of variances: region 1's square sums over the broadcast counts. -/
theorem v28_eq (c : Dev nD) :
    b28 m ρ c
      = Host.divf (F := Ideal) (φ := .f32) (a26_1 m ρ c)
          (broadcastInDim S256x64 ![0, 1] bcast_S256x1_S256x64_0_1 (a20_7 m ρ c)) := by
  show StableHlo.after hostOps2 (W7 m ρ c) (Proc.devRef .tc main_v28) = _
  after_results <;> rfl

/-- The scale and the shift as one-row matrices. -/
theorem v29_eq (c : Dev nD) : a29 m ρ c = shapeCast S1x64 (a3_7 m ρ c) shapeCasts_S64_S1x64 := by
  show StableHlo.after hostOps2 (W7 m ρ c) (Proc.devRef .tc main_v29) = _
  after_results <;> rfl
theorem v30_eq (c : Dev nD) : a30 m ρ c = shapeCast S1x64 (a4_7 m ρ c) shapeCasts_S64_S1x64 := by
  show StableHlo.after hostOps2 (W7 m ρ c) (Proc.devRef .tc main_v30) = _
  after_results <;> rfl

/-- The normalised rows: the first 50000 rows of region 2's output. -/
theorem v32_eq (c : Dev nD) :
    b32 m ρ c = extractStridedSlice S50000x64 ![0, 0] (a31 m ρ c) slices_S51200x64_S50000x64_0_0 := by
  show StableHlo.after hostOps3 (W9 m ρ c) (Proc.devRef .tc main_v32) = _
  after_results <;> rfl

/-! ## Buffers read at a later boundary than the one they were written at -/

theorem v7_at4 (c : Dev nD) : W4 m ρ c (Proc.devRef .tc main_v7) = W3 m ρ c (Proc.devRef .tc main_v7) := by walk_back
theorem v7_at6 (c : Dev nD) : W6 m ρ c (Proc.devRef .tc main_v7) = W3 m ρ c (Proc.devRef .tc main_v7) := by walk_back
theorem v13_at6 (c : Dev nD) : W6 m ρ c (Proc.devRef .tc main_v13) = W3 m ρ c (Proc.devRef .tc main_v13) := by walk_back
theorem v13_at8 (c : Dev nD) : W8 m ρ c (Proc.devRef .tc main_v13) = W3 m ρ c (Proc.devRef .tc main_v13) := by walk_back
theorem v20_at5 (c : Dev nD) : W5 m ρ c (Proc.devRef .tc main_v20) = W3 m ρ c (Proc.devRef .tc main_v20) := by walk_back
theorem v20_at7 (c : Dev nD) : W7 m ρ c (Proc.devRef .tc main_v20) = W3 m ρ c (Proc.devRef .tc main_v20) := by walk_back
theorem v21_at6 (c : Dev nD) : W6 m ρ c (Proc.devRef .tc main_v21) = W4 m ρ c (Proc.devRef .tc main_v21) := by walk_back
theorem v26_0_at8 (c : Dev nD) : W8 m ρ c (Proc.devRef .tc main_v26_0) = W7 m ρ c (Proc.devRef .tc main_v26_0) := by walk_back
theorem arg0_at3 (c : Dev nD) : W3 m ρ c (Proc.devRef .tc main_arg0) = W0 m ρ c (Proc.devRef .tc main_arg0) := by walk_back
theorem arg5_at5 (c : Dev nD) : W5 m ρ c (Proc.devRef .tc main_arg5) = W0 m ρ c (Proc.devRef .tc main_arg5) := by walk_back
theorem arg3_at7 (c : Dev nD) : W7 m ρ c (Proc.devRef .tc main_arg3) = W0 m ρ c (Proc.devRef .tc main_arg3) := by walk_back
theorem arg4_at7 (c : Dev nD) : W7 m ρ c (Proc.devRef .tc main_arg4) = W0 m ρ c (Proc.devRef .tc main_arg4) := by walk_back

/-! ## The same, index by index in the specification's terms -/

/-- A real row of the padded rows is the argument's row. -/
theorem xpad_apply (c : Dev nD) (n : Fin 51200) (h : n.val < 50000) (d : Fin 64) :
    a21 m ρ c (ix2 n d) = mat (arg0 m c) ⟨n.val, h⟩ d := by
  rw [v21_eq]
  refine (pad_apply_of_inside ![0, 0] ![1200, 0] ![0, 0] (a0_3 m ρ c) _ pads_S50000x64_S51200x64_012000_000 h_S_
    (ix2 n d) (ix2 (⟨n.val, h⟩ : Fin 50000) d) fun a => ?_).trans ?_
  · match a with
    | ⟨0, _⟩ => show n.val = 0 + n.val * (0 + 1); omega
    | ⟨1, _⟩ => show d.val = 0 + d.val * (0 + 1); omega
  · exact congrFun (arg0_at3 m ρ c) (ix2 (⟨n.val, h⟩ : Fin 50000) d)

/-- The one-hot matrix at region 0's and region 1's entries, and its transpose at region 1's and region 2's. -/
theorem oh_apply4 (c : Dev nD) (g : Fin 256) (n : Fin 51200) :
    (W4 m ρ c (Proc.devRef .tc main_v7) : S256x51200.Idx → EReal) (ix2 g n)
      = if h : n.val < 50000 then (if bat m c ⟨n.val, h⟩ = (g.val : Int) then (1 : EReal) else 0) else 0 :=
  (congrFun (v7_at4 m ρ c) (ix2 g n)).trans (v7_apply m ρ c g n)
theorem oh_apply6 (c : Dev nD) (g : Fin 256) (n : Fin 51200) :
    (W6 m ρ c (Proc.devRef .tc main_v7) : S256x51200.Idx → EReal) (ix2 g n)
      = if h : n.val < 50000 then (if bat m c ⟨n.val, h⟩ = (g.val : Int) then (1 : EReal) else 0) else 0 :=
  (congrFun (v7_at6 m ρ c) (ix2 g n)).trans (v7_apply m ρ c g n)
theorem ohT_apply6 (c : Dev nD) (n : Fin 51200) (h : n.val < 50000) (g : Fin 256) :
    (W6 m ρ c (Proc.devRef .tc main_v13) : S51200x256.Idx → EReal) (ix2 n g)
      = if bat m c ⟨n.val, h⟩ = (g.val : Int) then (1 : EReal) else 0 :=
  ((congrFun (v13_at6 m ρ c) (ix2 n g)).trans (v13_apply m ρ c n g)).trans (dif_pos h)
theorem ohT_apply8 (c : Dev nD) (n : Fin 51200) (h : n.val < 50000) (g : Fin 256) :
    (W8 m ρ c (Proc.devRef .tc main_v13) : S51200x256.Idx → EReal) (ix2 n g)
      = if bat m c ⟨n.val, h⟩ = (g.val : Int) then (1 : EReal) else 0 :=
  ((congrFun (v13_at8 m ρ c) (ix2 n g)).trans (v13_apply m ρ c n g)).trans (dif_pos h)

/-- The host's quotient at an index. -/
theorem hostDivf_apply {s : Shape} (x y : s.Idx → EReal) (j : s.Idx) :
    Host.divf (F := Ideal) (φ := .f32) x y j = Ideal.div (x j) (y j) := Ideal.hostDivf_def ..

/-- The broadcast count column at an index. -/
theorem cnt_apply5 (c : Dev nD) (g : Fin 256) (d : Fin 64) :
    broadcastInDim S256x64 ![0, 1] bcast_S256x1_S256x64_0_1 (a20_5 m ρ c) (ix2 g d) = cnt one (bat m c) g :=
  (broadcastInDim_apply ![0, 1] bcast_S256x1_S256x64_0_1 (a20_5 m ρ c) (ix2 g d) (ix2 g 0)
    fun a => match a with | ⟨0, _⟩ => rfl | ⟨1, _⟩ => rfl).trans
    ((congrFun (v20_at5 m ρ c) (ix2 g 0)).trans (v20_apply m ρ c g))
theorem cnt_apply7 (c : Dev nD) (g : Fin 256) (d : Fin 64) :
    broadcastInDim S256x64 ![0, 1] bcast_S256x1_S256x64_0_1 (a20_7 m ρ c) (ix2 g d) = cnt one (bat m c) g :=
  (broadcastInDim_apply ![0, 1] bcast_S256x1_S256x64_0_1 (a20_7 m ρ c) (ix2 g d) (ix2 g 0)
    fun a => match a with | ⟨0, _⟩ => rfl | ⟨1, _⟩ => rfl).trans
    ((congrFun (v20_at7 m ρ c) (ix2 g 0)).trans (v20_apply m ρ c g))

/-- The per-feature vectors as one-row matrices. -/
theorem ms_apply (c : Dev nD) (d : Fin 64) : a25 m ρ c (ix2 0 d) = vec (arg5 m c) d := by
  rw [v25_eq]
  exact (shapeCast_a_1a_apply (a5_5 m ρ c) shapeCasts_S64_S1x64 0 d).trans (congrFun (arg5_at5 m ρ c) (ix1 d))
theorem w_apply (c : Dev nD) (d : Fin 64) : a29 m ρ c (ix2 0 d) = vec (arg3 m c) d := by
  rw [v29_eq]
  exact (shapeCast_a_1a_apply (a3_7 m ρ c) shapeCasts_S64_S1x64 0 d).trans (congrFun (arg3_at7 m ρ c) (ix1 d))
theorem bias_apply (c : Dev nD) (d : Fin 64) : a30 m ρ c (ix2 0 d) = vec (arg4 m c) d := by
  rw [v30_eq]
  exact (shapeCast_a_1a_apply (a4_7 m ρ c) shapeCasts_S64_S1x64 0 d).trans (congrFun (arg4_at7 m ρ c) (ix1 d))

/-! ## The first GraphNorm's values -/

/-- The table of graph means. -/
theorem mean1 (c : Dev nD) (g : Fin 256) (d : Fin 64) :
    b24 m ρ c (ix2 g d) = mean one (bat m c) (mat (arg0 m c)) g d := by
  rw [v24_eq, hostDivf_apply, cnt_apply5]
  -- region 0's sums: the one-hot column over the padded rows against the padded argument
  have hs : a22 m ρ c (ix2 g d) = segSum (bat m c) (mat (arg0 m c)) g d :=
    ((congrFun (W5_arr m ρ c 2) (ix2 g d)).trans (RegVal.seg0 (V4 m ρ) c g d)).trans
      (Cert.LibPadSum.padded_onehot_sum (bat m c) (mat (arg0 m c)) g d _ _ (fun n => oh_apply4 m ρ c g n)
        (fun n h => xpad_apply m ρ c n h d))
  rw [hs]
  rfl

/-- The centred rows of the real nodes. -/
theorem cen1 (c : Dev nD) (hr : InRange (bat m c)) (n : Fin 51200) (h : n.val < 50000) (d : Fin 64) :
    b26_0 m ρ c (ix2 n d) = centered one (bat m c) (vec (arg5 m c)) (mat (arg0 m c)) ⟨n.val, h⟩ d := by
  refine ((congrFun (W7_arr m ρ c 5) (ix2 n d)).trans (RegVal.cen1 (V6 m ρ) c n d)).trans ?_
  have hx : RegVal.x1 (V6 m ρ) c (ix2 n d) = mat (arg0 m c) ⟨n.val, h⟩ d :=
    (congrFun (v21_at6 m ρ c) (ix2 n d)).trans (xpad_apply m ρ c n h d)
  have hms : RegVal.ms1 (V6 m ρ) c (ix2 0 d) = vec (arg5 m c) d := ms_apply m ρ c d
  -- the node's one-hot row picks its graph's row of the table of means
  have hsum : ∑ g : Fin 256, RegVal.ohT1 (V6 m ρ) c (ix2 n g) * RegVal.mean1 (V6 m ρ) c (ix2 g d)
      = mean one (bat m c) (mat (arg0 m c)) (gix (bat m c) ⟨n.val, h⟩) d :=
    (Finset.sum_congr rfl fun g _ => congrArg (RegVal.ohT1 (V6 m ρ) c (ix2 n g) * ·) (mean1 m ρ c g d)).trans
      (Cert.LibPadSum.onehot_row_gather (bat m c) hr ⟨n.val, h⟩ (fun g => mean one (bat m c) (mat (arg0 m c)) g d)
        (fun g => RegVal.ohT1 (V6 m ρ) c (ix2 n g)) (fun g => ohT_apply6 m ρ c n h g))
  rw [hx, hms, hsum]
  rfl

/-- The table of graph variances. -/
theorem var1 (c : Dev nD) (hr : InRange (bat m c)) (g : Fin 256) (d : Fin 64) :
    b28 m ρ c (ix2 g d) = var one (bat m c) (vec (arg5 m c)) (mat (arg0 m c)) g d := by
  rw [v28_eq, hostDivf_apply, cnt_apply7]
  have e : b26_0 m ρ c = RegVal.cenOut1 (V6 m ρ) c := W7_arr m ρ c 5
  -- region 1's square sums: the one-hot column over the padded rows against the squares of the centred rows
  have hs : a26_1 m ρ c (ix2 g d)
      = segSum (bat m c) (fun n d => centered one (bat m c) (vec (arg5 m c)) (mat (arg0 m c)) n d
          * centered one (bat m c) (vec (arg5 m c)) (mat (arg0 m c)) n d) g d :=
    ((congrFun (W7_arr m ρ c 6) (ix2 g d)).trans (RegVal.vs1 (V6 m ρ) c g d)).trans
      (Cert.LibPadSum.padded_onehot_sum (bat m c) _ g d _ _ (fun n => oh_apply6 m ρ c g n)
        (fun n h => by
          show RegVal.cenOut1 (V6 m ρ) c (ix2 n d) * RegVal.cenOut1 (V6 m ρ) c (ix2 n d) = _
          rw [← e, cen1 m ρ c hr n h d]))
  rw [hs]
  rfl

/-- The normalised rows. -/
theorem h1 (c : Dev nD) (hr : InRange (bat m c)) (n : Fin 50000) (d : Fin 64) :
    b32 m ρ c (ix2 n d)
      = gnOut one eps (bat m c) (vec (arg3 m c)) (vec (arg4 m c)) (vec (arg5 m c)) (mat (arg0 m c)) n d := by
  have hlt : n.val < 51200 := by have := n.isLt; omega
  rw [v32_eq]
  refine (slice2_axis0_apply 0 (a31 m ρ c) slices_S51200x64_S50000x64_0_0 n d ⟨n.val, hlt⟩
    (by show n.val = 0 + n.val; omega)).trans ?_
  refine ((congrFun (W9_arr m ρ c 5) (ix2 (⟨n.val, hlt⟩ : Fin 51200) d)).trans
    (RegVal.nrm2 (V8 m ρ) c ⟨n.val, hlt⟩ d)).trans ?_
  have hw : RegVal.w2 (V8 m ρ) c (ix2 0 d) = vec (arg3 m c) d := w_apply m ρ c d
  have hb : RegVal.b2 (V8 m ρ) c (ix2 0 d) = vec (arg4 m c) d := bias_apply m ρ c d
  have hcen : RegVal.cenIn2 (V8 m ρ) c (ix2 (⟨n.val, hlt⟩ : Fin 51200) d)
      = centered one (bat m c) (vec (arg5 m c)) (mat (arg0 m c)) n d :=
    (congrFun (v26_0_at8 m ρ c) (ix2 (⟨n.val, hlt⟩ : Fin 51200) d)).trans (cen1 m ρ c hr ⟨n.val, hlt⟩ n.isLt d)
  -- the node's one-hot row picks its graph's row of the table of variances
  have hsum : ∑ g : Fin 256, RegVal.ohT2 (V8 m ρ) c (ix2 (⟨n.val, hlt⟩ : Fin 51200) g) * RegVal.var2 (V8 m ρ) c (ix2 g d)
      = var one (bat m c) (vec (arg5 m c)) (mat (arg0 m c)) (gix (bat m c) n) d :=
    (Finset.sum_congr rfl fun g _ =>
        congrArg (RegVal.ohT2 (V8 m ρ) c (ix2 (⟨n.val, hlt⟩ : Fin 51200) g) * ·) (var1 m ρ c hr g d)).trans
      (Cert.LibPadSum.onehot_row_gather (bat m c) hr n (fun g => var one (bat m c) (vec (arg5 m c)) (mat (arg0 m c)) g d)
        (fun g => RegVal.ohT2 (V8 m ρ) c (ix2 (⟨n.val, hlt⟩ : Fin 51200) g))
        (fun g => ohT_apply8 m ρ c ⟨n.val, hlt⟩ n.isLt g))
  rw [hw, hb, hcen, hsum]
  -- the variance plus eps is positive: the product with its reciprocal root is the quotient by its root
  exact Cert.LibPadSum.norm_rsqrt_eq (bat m c) (vec (arg5 m c)) (mat (arg0 m c)) (gix (bat m c) n) d _ _ _

end Cert.KernelIdeal.Chain

end
-- ==== Proof.KGn2.lean ====
/-
  THE SECOND GraphNorm of the kernel's program (regions 4, 5, 6 and the host operations between them), as values, of the
  rows the first layer leaves (the buffer `main_v84` at the entry of region 4).

  The rows are padded with 1200 zero rows; region 4 sums them per graph by a one-hot product, the host divides by the
  counts (the means); region 5 centres every row by the scaled mean row of its graph (a one-hot row against the table
  of means; a padding row's one-hot row is zero, so it stays zero) and sums the squares per graph, the host divides by
  the counts (the variances); region 6 scales the centred rows by the reciprocal root of their graph's variance plus
  eps, and the host keeps the first 50000 rows. The reciprocal root is the quotient by the root because the variance
  is nonnegative and eps positive. Nothing is asked to be finite.
-/
import proofs.«413028_j69071664054692_1_alg».proof.Proof.Gen.KernelIdeal.Frame
import proofs.«413028_j69071664054692_1_alg».proof.Proof.Spec
import proofs.«413028_j69071664054692_1_alg».proof.Proof.KBufs
import proofs.«413028_j69071664054692_1_alg».proof.Proof.LibSegment
import proofs.«413028_j69071664054692_1_alg».proof.Proof.LibPadSum
import proofs.«413028_j69071664054692_1_alg».proof.Proof.LibIndexing
import proofs.«413028_j69071664054692_1_alg».proof.Proof.Keep
import proofs.«413028_j69071664054692_1_alg».proof.Proof.OneHot
import proofs.«413028_j69071664054692_1_alg».proof.Proof.RegSeg
import proofs.«413028_j69071664054692_1_alg».proof.Proof.RegCenter
import proofs.«413028_j69071664054692_1_alg».proof.Proof.RegNorm
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.StableHlo.Run
import Idealize.ShloMosaic.Lib.StableHlo.Predicate
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem

namespace Cert.KernelIdeal.Chain

open Cert.KernelIdeal Cert.KernelIdeal.Gen Cert.Spec

variable (m : (ℓ : Loc nD τ sig) → Buf (Elt Ideal) ℓ) (ρ : Dev nD → PrngReg)

/-! ## The host operations between the regions, over any contents `V` of the buffers they read -/

section Steps
variable (V : Valuation τ sig (Elt Ideal))

/-- The padding constant: the integer zero. -/
private theorem c16_step :
    (StableHlo.after hostOps4_4 V (Proc.devRef .tc main_c_16) : IVec S_ 32) = constantI S_ 32 0#32 := by
  after_results

/-- The rows padded to 51200 with the converted constant. -/
private theorem pad_step :
    (StableHlo.after hostOps4_5 V (Proc.devRef .tc main_v85) : S51200x128.Idx → EReal)
      = pad S51200x128 ![0, 0] ![1200, 0] ![0, 0] (V (Proc.devRef .tc main_v84) : S50000x128.Idx → EReal)
          (sitofp (F := Ideal) .f32 (V (Proc.devRef .tc main_c_16) : IVec S_ 32) : FVec Ideal S_ .f32) pads_S50000x128_S51200x128_012000_000 h_S_ := by
  after_results
  rfl

/-- The segment sums over the broadcast counts. -/
private theorem v88_step :
    @Eq (FVec Ideal S256x128 .f32) (StableHlo.after hostOps5 V (Proc.devRef .tc main_v88))
      (Host.divf (V (Proc.devRef .tc main_v86) : FVec Ideal S256x128 .f32)
          (broadcastInDim S256x128 ![0, 1] bcast_S256x1_S256x128_0_1 (V (Proc.devRef .tc main_v20) : FVec Ideal S256x1 .f32))) := by
  after_results

/-- The mean scale as one row. -/
private theorem v89_step :
    (StableHlo.after hostOps5 V (Proc.devRef .tc main_v89) : S1x128.Idx → EReal)
      = shapeCast S1x128 (V (Proc.devRef .tc main_arg10) : S128.Idx → EReal) shapeCasts_S128_S1x128 := by
  after_results
  rfl

/-- The square sums over the broadcast counts. -/
private theorem v92_step :
    @Eq (FVec Ideal S256x128 .f32) (StableHlo.after hostOps6 V (Proc.devRef .tc main_v92))
      (Host.divf (V (Proc.devRef .tc main_v90_1) : FVec Ideal S256x128 .f32)
          (broadcastInDim S256x128 ![0, 1] bcast_S256x1_S256x128_0_1 (V (Proc.devRef .tc main_v20) : FVec Ideal S256x1 .f32))) := by
  after_results

/-- The scale and the shift as one row each. -/
private theorem v93_step :
    (StableHlo.after hostOps6 V (Proc.devRef .tc main_v93) : S1x128.Idx → EReal)
      = shapeCast S1x128 (V (Proc.devRef .tc main_arg8) : S128.Idx → EReal) shapeCasts_S128_S1x128 := by
  after_results
  rfl
private theorem v94_step :
    (StableHlo.after hostOps6 V (Proc.devRef .tc main_v94) : S1x128.Idx → EReal)
      = shapeCast S1x128 (V (Proc.devRef .tc main_arg9) : S128.Idx → EReal) shapeCasts_S128_S1x128 := by
  after_results
  rfl

/-- The first 50000 rows of the normalised rows. -/
private theorem v96_step :
    (StableHlo.after hostOps7 V (Proc.devRef .tc main_v96) : S50000x128.Idx → EReal)
      = extractStridedSlice S50000x128 ![0, 0] (V (Proc.devRef .tc main_v95) : S51200x128.Idx → EReal) slices_S51200x128_S50000x128_0_0 := by
  after_results

end Steps

/-! ## Buffers read at a later boundary than the one they were written at -/

section Walks
open Cert.KernelIdeal.Keep

private theorem w_v7_18 (c : Dev nD) : W18 m ρ c (Proc.devRef .tc main_v7) = W3 m ρ c (Proc.devRef .tc main_v7) := by walk_back
private theorem w_v7_20 (c : Dev nD) : W20 m ρ c (Proc.devRef .tc main_v7) = W3 m ρ c (Proc.devRef .tc main_v7) := by walk_back
private theorem w_v13_20 (c : Dev nD) : W20 m ρ c (Proc.devRef .tc main_v13) = W3 m ρ c (Proc.devRef .tc main_v13) := by walk_back
private theorem w_v13_22 (c : Dev nD) : W22 m ρ c (Proc.devRef .tc main_v13) = W3 m ρ c (Proc.devRef .tc main_v13) := by walk_back
private theorem w_v20_19 (c : Dev nD) : W19 m ρ c (Proc.devRef .tc main_v20) = W3 m ρ c (Proc.devRef .tc main_v20) := by walk_back
private theorem w_v20_21 (c : Dev nD) : W21 m ρ c (Proc.devRef .tc main_v20) = W3 m ρ c (Proc.devRef .tc main_v20) := by walk_back
private theorem w_arg10_19 (c : Dev nD) : W19 m ρ c (Proc.devRef .tc main_arg10) = W0 m ρ c (Proc.devRef .tc main_arg10) := by walk_back
private theorem w_arg8_21 (c : Dev nD) : W21 m ρ c (Proc.devRef .tc main_arg8) = W0 m ρ c (Proc.devRef .tc main_arg8) := by walk_back
private theorem w_arg9_21 (c : Dev nD) : W21 m ρ c (Proc.devRef .tc main_arg9) = W0 m ρ c (Proc.devRef .tc main_arg9) := by walk_back
private theorem w_v84_18 (c : Dev nD) : W18 m ρ c (Proc.devRef .tc main_v84) = W17 m ρ c (Proc.devRef .tc main_v84) := by walk_back
private theorem w_v85_20 (c : Dev nD) : W20 m ρ c (Proc.devRef .tc main_v85) = W18 m ρ c (Proc.devRef .tc main_v85) := by walk_back
private theorem w_v90_0_22 (c : Dev nD) : W22 m ρ c (Proc.devRef .tc main_v90_0) = W21 m ρ c (Proc.devRef .tc main_v90_0) := by walk_back

end Walks

/-! ## The padded rows -/

/-- The rows entering region 4: the first layer's rows, then 1200 zero rows. -/
private theorem v85_apply (c : Dev nD) (n : Fin 51200) (d : Fin 128) :
    (W18 m ρ c (Proc.devRef .tc main_v85) : S51200x128.Idx → EReal) (ix2 n d)
      = if h : n.val < 50000 then b84 m ρ c (ix2 ⟨n.val, h⟩ d) else 0 := by
  refine (congrFun (pad_step (W17 m ρ c)) (ix2 n d)).trans ?_
  by_cases h : n.val < 50000
  · rw [dif_pos h]
    refine (pad_apply_of_inside _ _ _ _ _ _ _ (ix2 n d) (ix2 (⟨n.val, h⟩ : Fin 50000) d) (fun a => ?_)).trans
      (congrFun (w_v84_18 m ρ c) (ix2 ⟨n.val, h⟩ d)).symm
    match a with
    | ⟨0, _⟩ => show n.val = 0 + n.val * (0 + 1); omega
    | ⟨1, _⟩ => show d.val = 0 + d.val * (0 + 1); omega
  · rw [dif_neg h]
    refine (pad_apply_of_not_inside _ _ _ _ _ _ _ (ix2 n d) (0 : Fin 2) ?_).trans ?_
    · show ¬ (0 ≤ n.val ∧ (n.val - 0) % (0 + 1) = 0 ∧ (n.val - 0) / (0 + 1) < 50000)
      omega
    · have hc : (W17 m ρ c (Proc.devRef .tc main_c_16) : IVec S_ 32) (Shape.Idx.first h_S_) = 0#32 :=
        congrFun (c16_step (W16 m ρ c)) (Shape.Idx.first h_S_)
      rw [sitofp_apply, hc]
      exact sitofp_zero (φ := .f32)

/-! ## The second GraphNorm -/

/-- The table of graph means. -/
theorem mean2 (c : Dev nD) (g : Fin 256) (d : Fin 128) :
    b88 m ρ c (ix2 g d) = mean one (bat m c) (mat (b84 m ρ c)) g d := by
  -- the host quotient of the segment sums by the counts, entry by entry
  have e1 : b88 m ρ c (ix2 g d)
      = Ideal.div ((W19 m ρ c (Proc.devRef .tc main_v86) : S256x128.Idx → EReal) (ix2 g d))
          ((W19 m ρ c (Proc.devRef .tc main_v20) : S256x1.Idx → EReal) (ix2 g 0)) := by
    refine (congrFun (v88_step (W19 m ρ c)) (ix2 g d)).trans ?_
    rw [hostDivf_apply]
    congr 1
  -- the region's accumulated block is the one-hot product over all 51200 rows
  have e2 : (W19 m ρ c (Proc.devRef .tc main_v86) : S256x128.Idx → EReal) (ix2 g d)
      = ∑ n : Fin 51200, RegVal.oh4 (V18 m ρ) c (ix2 g n) * RegVal.x4 (V18 m ρ) c (ix2 n d) :=
    (congrFun (W19_arr m ρ c 2) (ix2 g d)).trans (RegVal.seg4 (V18 m ρ) c g d)
  -- which is the segment sum over the real nodes
  have e3 : ∑ n : Fin 51200, RegVal.oh4 (V18 m ρ) c (ix2 g n) * RegVal.x4 (V18 m ρ) c (ix2 n d)
      = segSum (bat m c) (mat (b84 m ρ c)) g d :=
    Cert.LibPadSum.padded_onehot_sum (bat m c) (mat (b84 m ρ c)) g d _ _
      (fun n => (congrFun (w_v7_18 m ρ c) (ix2 g n)).trans (v7_apply m ρ c g n))
      (fun n h => (v85_apply m ρ c n d).trans (dif_pos h))
  have e4 : (W19 m ρ c (Proc.devRef .tc main_v20) : S256x1.Idx → EReal) (ix2 g 0) = cnt one (bat m c) g :=
    (congrFun (w_v20_19 m ρ c) (ix2 g 0)).trans (v20_apply m ρ c g)
  rw [e1, e2, e3, e4]
  rfl

/-- The centred rows (zero on the padding rows). -/
theorem cen2 (c : Dev nD) (hr : InRange (bat m c)) (n : Fin 51200) (d : Fin 128) :
    b90_0 m ρ c (ix2 n d)
      = if h : n.val < 50000 then centered one (bat m c) (vec (arg10 m c)) (mat (b84 m ρ c)) ⟨n.val, h⟩ d else 0 := by
  -- the region's first output, row by row
  have e0 : b90_0 m ρ c (ix2 n d)
      = RegVal.x5 (V20 m ρ) c (ix2 n d) - RegVal.ms5 (V20 m ρ) c (ix2 0 d)
          * ∑ g : Fin 256, RegVal.ohT5 (V20 m ρ) c (ix2 n g) * RegVal.mean5 (V20 m ρ) c (ix2 g d) :=
    (congrFun (W21_arr m ρ c 5) (ix2 n d)).trans (RegVal.cen5 (V20 m ρ) c n d)
  have hx : RegVal.x5 (V20 m ρ) c (ix2 n d) = if h : n.val < 50000 then b84 m ρ c (ix2 ⟨n.val, h⟩ d) else 0 :=
    (congrFun (w_v85_20 m ρ c) (ix2 n d)).trans (v85_apply m ρ c n d)
  have hms : RegVal.ms5 (V20 m ρ) c (ix2 0 d) = vec (arg10 m c) d :=
    (congrFun (v89_step (W19 m ρ c)) (ix2 0 d)).trans
      ((shapeCast_a_1a_apply _ _ 0 d).trans (congrFun (w_arg10_19 m ρ c) (ix1 d)))
  have hoh : ∀ g : Fin 256, RegVal.ohT5 (V20 m ρ) c (ix2 n g)
      = if h : n.val < 50000 then (if bat m c ⟨n.val, h⟩ = (g.val : Int) then (1 : EReal) else 0) else 0 :=
    fun g => (congrFun (w_v13_20 m ρ c) (ix2 n g)).trans (v13_apply m ρ c n g)
  rw [e0, hx, hms]
  by_cases h : n.val < 50000
  · -- a node's row: the one-hot row picks the mean row of the node's graph
    have hs : ∑ g : Fin 256, RegVal.ohT5 (V20 m ρ) c (ix2 n g) * RegVal.mean5 (V20 m ρ) c (ix2 g d)
        = mean one (bat m c) (mat (b84 m ρ c)) (gix (bat m c) ⟨n.val, h⟩) d :=
      (Cert.LibPadSum.onehot_row_gather (bat m c) hr ⟨n.val, h⟩ (fun g => RegVal.mean5 (V20 m ρ) c (ix2 g d))
        (fun g => RegVal.ohT5 (V20 m ρ) c (ix2 n g)) (fun g => (hoh g).trans (dif_pos h))).trans
        (mean2 m ρ c _ d)
    rw [dif_pos h, dif_pos h, hs]
    rfl
  · -- a padding row: zero minus the scale times zero
    have hs : ∑ g : Fin 256, RegVal.ohT5 (V20 m ρ) c (ix2 n g) * RegVal.mean5 (V20 m ρ) c (ix2 g d) = 0 :=
      Cert.LibPadSum.zero_row_gather (fun g => RegVal.mean5 (V20 m ρ) c (ix2 g d))
        (fun g => RegVal.ohT5 (V20 m ρ) c (ix2 n g)) (fun g => (hoh g).trans (dif_neg h))
    rw [dif_neg h, dif_neg h, hs, mul_zero, sub_zero]

/-- The table of graph variances. -/
theorem var2 (c : Dev nD) (hr : InRange (bat m c)) (g : Fin 256) (d : Fin 128) :
    b92 m ρ c (ix2 g d) = var one (bat m c) (vec (arg10 m c)) (mat (b84 m ρ c)) g d := by
  have e1 : b92 m ρ c (ix2 g d)
      = Ideal.div ((W21 m ρ c (Proc.devRef .tc main_v90_1) : S256x128.Idx → EReal) (ix2 g d))
          ((W21 m ρ c (Proc.devRef .tc main_v20) : S256x1.Idx → EReal) (ix2 g 0)) := by
    refine (congrFun (v92_step (W21 m ρ c)) (ix2 g d)).trans ?_
    rw [hostDivf_apply]
    congr 1
  -- the region's second output is the one-hot product with the squares of its first output, over all 51200 rows
  have e2 : (W21 m ρ c (Proc.devRef .tc main_v90_1) : S256x128.Idx → EReal) (ix2 g d)
      = ∑ n : Fin 51200, RegVal.oh5 (V20 m ρ) c (ix2 g n)
          * (RegVal.cenOut5 (V20 m ρ) c (ix2 n d) * RegVal.cenOut5 (V20 m ρ) c (ix2 n d)) :=
    (congrFun (W21_arr m ρ c 6) (ix2 g d)).trans (RegVal.vs5 (V20 m ρ) c g d)
  have hc : ∀ (n : Fin 51200) (h : n.val < 50000), RegVal.cenOut5 (V20 m ρ) c (ix2 n d)
      = centered one (bat m c) (vec (arg10 m c)) (mat (b84 m ρ c)) ⟨n.val, h⟩ d :=
    fun n h => ((congrFun (W21_arr m ρ c 5) (ix2 n d)).symm.trans (cen2 m ρ c hr n d)).trans (dif_pos h)
  have e3 : ∑ n : Fin 51200, RegVal.oh5 (V20 m ρ) c (ix2 g n)
          * (RegVal.cenOut5 (V20 m ρ) c (ix2 n d) * RegVal.cenOut5 (V20 m ρ) c (ix2 n d))
      = segSum (bat m c) (fun n d => centered one (bat m c) (vec (arg10 m c)) (mat (b84 m ρ c)) n d
          * centered one (bat m c) (vec (arg10 m c)) (mat (b84 m ρ c)) n d) g d :=
    Cert.LibPadSum.padded_onehot_sum (bat m c) _ g d _ _
      (fun n => (congrFun (w_v7_20 m ρ c) (ix2 g n)).trans (v7_apply m ρ c g n))
      (fun n h => by rw [hc n h])
  have e4 : (W21 m ρ c (Proc.devRef .tc main_v20) : S256x1.Idx → EReal) (ix2 g 0) = cnt one (bat m c) g :=
    (congrFun (w_v20_21 m ρ c) (ix2 g 0)).trans (v20_apply m ρ c g)
  rw [e1, e2, e3, e4]
  rfl

/-- The normalised rows. -/
theorem h2 (c : Dev nD) (hr : InRange (bat m c)) (n : Fin 50000) (d : Fin 128) :
    b96 m ρ c (ix2 n d)
      = gnOut one eps (bat m c) (vec (arg8 m c)) (vec (arg9 m c)) (vec (arg10 m c)) (mat (b84 m ρ c)) n d := by
  have hn : n.val < 51200 := lt_trans n.isLt (by norm_num)
  have hn' : (⟨n.val, hn⟩ : Fin 51200).val < 50000 := n.isLt
  -- the slice reads the padded result at the node's own row
  have e1 : b96 m ρ c (ix2 n d) = (W23 m ρ c (Proc.devRef .tc main_v95) : S51200x128.Idx → EReal) (ix2 ⟨n.val, hn⟩ d) :=
    (congrFun (v96_step (W23 m ρ c)) (ix2 n d)).trans
      (slice2_axis0_apply 0 _ _ n d ⟨n.val, hn⟩ (Nat.zero_add _).symm)
  -- the region's output, row by row
  have e2 : (W23 m ρ c (Proc.devRef .tc main_v95) : S51200x128.Idx → EReal) (ix2 ⟨n.val, hn⟩ d)
      = RegVal.w6 (V22 m ρ) c (ix2 0 d)
          * (RegVal.cenIn6 (V22 m ρ) c (ix2 ⟨n.val, hn⟩ d)
              * Ideal.rsqrt ((∑ g : Fin 256, RegVal.ohT6 (V22 m ρ) c (ix2 ⟨n.val, hn⟩ g) * RegVal.var6 (V22 m ρ) c (ix2 g d))
                  + Ideal.ofBits .f32 0x3727C5AC#32))
        + RegVal.b6 (V22 m ρ) c (ix2 0 d) :=
    (congrFun (W23_arr m ρ c 5) (ix2 ⟨n.val, hn⟩ d)).trans (RegVal.nrm6 (V22 m ρ) c ⟨n.val, hn⟩ d)
  have hw : RegVal.w6 (V22 m ρ) c (ix2 0 d) = vec (arg8 m c) d :=
    (congrFun (v93_step (W21 m ρ c)) (ix2 0 d)).trans
      ((shapeCast_a_1a_apply _ _ 0 d).trans (congrFun (w_arg8_21 m ρ c) (ix1 d)))
  have hb : RegVal.b6 (V22 m ρ) c (ix2 0 d) = vec (arg9 m c) d :=
    (congrFun (v94_step (W21 m ρ c)) (ix2 0 d)).trans
      ((shapeCast_a_1a_apply _ _ 0 d).trans (congrFun (w_arg9_21 m ρ c) (ix1 d)))
  have hc : RegVal.cenIn6 (V22 m ρ) c (ix2 ⟨n.val, hn⟩ d)
      = centered one (bat m c) (vec (arg10 m c)) (mat (b84 m ρ c)) n d :=
    ((congrFun (w_v90_0_22 m ρ c) (ix2 ⟨n.val, hn⟩ d)).trans (cen2 m ρ c hr ⟨n.val, hn⟩ d)).trans (dif_pos hn')
  have hs : ∑ g : Fin 256, RegVal.ohT6 (V22 m ρ) c (ix2 ⟨n.val, hn⟩ g) * RegVal.var6 (V22 m ρ) c (ix2 g d)
      = var one (bat m c) (vec (arg10 m c)) (mat (b84 m ρ c)) (gix (bat m c) n) d :=
    (Cert.LibPadSum.onehot_row_gather (bat m c) hr n (fun g => RegVal.var6 (V22 m ρ) c (ix2 g d))
      (fun g => RegVal.ohT6 (V22 m ρ) c (ix2 ⟨n.val, hn⟩ g))
      (fun g => ((congrFun (w_v13_22 m ρ c) (ix2 ⟨n.val, hn⟩ g)).trans (v13_apply m ρ c ⟨n.val, hn⟩ g)).trans (dif_pos hn'))).trans
      (var2 m ρ c hr _ d)
  rw [e1, e2, hw, hb, hc, hs]
  exact Cert.LibPadSum.norm_rsqrt_eq (bat m c) (vec (arg10 m c)) (mat (b84 m ρ c)) (gix (bat m c) n) d _ _ _

end Cert.KernelIdeal.Chain

end
-- ==== Proof.RegMat.lean ====
/-
  THE MATRIX-PRODUCT REGIONS (regions 3 and 7), read as values at the exact instance.
-/
import proofs.«413028_j69071664054692_1_alg».proof.Proof.Gen.KernelIdeal.Frame
import proofs.«413028_j69071664054692_1_alg».proof.Proof.LibSegment
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen

-- the TensorCore's buffer contents when the region is entered: any
variable (V : (c : Dev nD) → (b : Ref sig .tc) → Buf (Elt Ideal) ((c : Thread nD τ).loc b))

/-- A block's zero offsets, as the constant function. -/
theorem zero_offsets : (![0, 0] : Fin 2 → Nat) = fun _ => 0 := funext fun a => by fin_cases a <;> rfl

/-! ## Region 3: [51200, 64] · [64, 128], 2048 rows per grid point -/

/-- Region 3's arrays as it finds them, and its output array after it, each at its literal type. -/
abbrev a3 (c : Dev nD) : S51200x64.Idx → EReal := V c main_v40
abbrev wt3 (c : Dev nD) : S64x128.Idx → EReal := V c main_arg6
abbrev out3 (c : Dev nD) : S51200x128.Idx → EReal := (dat3 (F := Ideal) V c).arrAt 2 cfg3.N

/-- The two input blocks at a grid point, at their literal types. -/
abbrev ablk3 (c : Dev nD) (t : Fin cfg3.N) : S2048x64.Idx → EReal := iblk3 V c 0 t
abbrev wblk3 (c : Dev nD) (t : Fin cfg3.N) : S64x128.Idx → EReal := iblk3 V c 1 t

/-- The whole matrix product, index by index. -/
abbrev prod3 (c : Dev nD) : S51200x128.Idx → EReal :=
  fun i => ∑ k : Fin 64, a3 V c (ix2 (⟨(i 0).val, idx2_lt0 i⟩ : Fin 51200) k) * wt3 V c (ix2 k (⟨(i 1).val, idx2_lt1 i⟩ : Fin 128))

/-! The dot's operand indices, axis by axis: the left operand is read at (row, contracted), the right at
    (contracted, column). -/
theorem lhs3_0 (i : S2048x128.Idx) (q : dot_S2048x64_S64x128_S2048x128_1_0_0_1_n_n.contr.Idx) :
    (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
theorem lhs3_1 (i : S2048x128.Idx) (q : dot_S2048x64_S64x128_S2048x128_1_0_0_1_n_n.contr.Idx) :
    (dot_S2048x64_S64x128_S2048x128_1_0_0_1_n_n.lhsIdx i q 1).val = (q ⟨0, by decide⟩).val :=
  dot_S2048x64_S64x128_S2048x128_1_0_0_1_n_n.lhsIdx_val_of_single rfl i q
theorem rhs3_0 (i : S2048x128.Idx) (q : dot_S2048x64_S64x128_S2048x128_1_0_0_1_n_n.contr.Idx) :
    (dot_S2048x64_S64x128_S2048x128_1_0_0_1_n_n.rhsIdx i q 0).val = (q ⟨0, by decide⟩).val :=
  dot_S2048x64_S64x128_S2048x128_1_0_0_1_n_n.rhsIdx_val_of_single rfl i q
theorem rhs3_1 (i : S2048x128.Idx) (q : dot_S2048x64_S64x128_S2048x128_1_0_0_1_n_n.contr.Idx) :
    (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- The body's one store, read at an index: the format changes are the identity and the product into a zero
    accumulator is the plain sum over the contracted axis. -/
theorem pay3_apply (x0 : S2048x64.Idx → EReal) (x1 : S64x128.Idx → EReal) (p : Fin 2048) (q : Fin 128) :
    k3_pay1 (F := Ideal) x0 x1 (ix2 p q) = ∑ k : Fin 64, x0 (ix2 p k) * x1 (ix2 k q) := by
  unfold k3_pay1
  refine (Ideal.matmul_constant_zero_apply dot_S2048x64_S64x128_S2048x128_1_0_0_1_n_n none _ _ (ix2 p q)).trans ?_
  rw [← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 p q) ((contrEquiv1 dot_S2048x64_S64x128_S2048x128_1_0_0_1_n_n 64 rfl rfl).symm k) = ix2 p k := funext fun a => Fin.ext (by
    match a with
    | ⟨0, _⟩ => exact lhs3_0 _ _
    | ⟨1, _⟩ => exact (lhs3_1 _ _).trans hk)
  have er : dot_S2048x64_S64x128_S2048x128_1_0_0_1_n_n.rhsIdx (ix2 p q) ((contrEquiv1 dot_S2048x64_S64x128_S2048x128_1_0_0_1_n_n 64 rfl rfl).symm k) = ix2 k q := funext fun a => Fin.ext (by
    match a with
    | ⟨0, _⟩ => exact (rhs3_0 _ _).trans hk
    | ⟨1, _⟩ => exact rhs3_1 _ _)
  rw [el, er, shapeCast_self]
  rfl

/-- The printed index maps, decided once over the grid: the row blocks of the left operand and of the output
    move with the grid point; the weight's block never moves. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t` is rows `2048 t … 2048 t + 2047` of its array. -/
theorem ablk3_apply (c : Dev nD) (t : Fin cfg3.N) (p : Fin 2048) (k : Fin 64) (n : Fin 51200)
    (h0 : n.val = t.val * 2048 + p.val) :
    ablk3 V c t (ix2 p k) = a3 V c (ix2 n k) := by
  obtain ⟨e0, e1, -, -, -, -⟩ := idx3 t
  show iblk3 V c 0 t (ix2 p k) = V c main_v40 (ix2 n k)
  unfold iblk3
  rw [View.read_apply]
  show V c main_v40 _ = V c main_v40 _
  congr 1
  funext a
  apply Fin.ext
  match a with
  | ⟨0, _⟩ => show win3_0.index t (0 : Fin 2) * 2048 + 1 * p.val = n.val; rw [e0, h0]; omega
  | ⟨1, _⟩ => show win3_0.index t (1 : Fin 2) * 64 + 1 * k.val = k.val; rw [e1]; omega

/-- The weight's block at every point is the whole weight matrix. -/
theorem wblk3_apply (c : Dev nD) (t : Fin cfg3.N) (k : Fin 64) (q q' : Fin 128) (h1 : q'.val = q.val) :
    wblk3 V c t (ix2 k q) = wt3 V c (ix2 k q') := by
  obtain ⟨-, -, e2, e3, -, -⟩ := idx3 t
  show iblk3 V c 1 t (ix2 k q) = V c main_arg6 (ix2 k q')
  unfold iblk3
  rw [View.read_apply]
  show V c main_arg6 _ = V c main_arg6 _
  congr 1
  funext a
  apply Fin.ext
  match a with
  | ⟨0, _⟩ => show win3_1.index t (0 : Fin 2) * 64 + 1 * k.val = k.val; rw [e2]; omega
  | ⟨1, _⟩ => show win3_1.index t (1 : Fin 2) * 128 + 1 * q.val = q'.val; rw [e3, h1]; omega

/-- WHAT POINT `t` WRITES BACK is block `t` of the whole matrix product. -/
theorem flushed3_eq (c : Dev nD) (t : Fin cfg3.N) :
    (dat3 (F := Ideal) V c).flushed 2 t = ((cfg3.win 2).blk t).view.read (Elt Ideal) (prod3 V c) := by
  show (cfg3.win 2).cut (grid3.coords t) ((dat3 (F := Ideal) V c).after 2 t) = _
  rw [after3_2]
  unfold out3_2
  rw [View.canon_unit_zero zero_offsets]
  simp only [View.ld_unit_zero (S := S2048x64) zero_offsets, View.ld_unit_zero (S := S64x128) zero_offsets]
  obtain ⟨-, -, -, -, e4, e5⟩ := idx3 t
  funext j
  obtain ⟨p, q, rfl⟩ : ∃ (p : Fin 2048) (q : Fin 128), j = ix2 p q := ⟨j 0, j 1, eq_ix2 j⟩
  refine (pay3_apply (ablk3 V c t) (wblk3 V c t) p q).trans ?_
  rw [View.read_apply]
  show _ = ∑ k : Fin 64, a3 V c (ix2 _ k) * wt3 V c (ix2 k _)
  refine Finset.sum_congr rfl fun k _ => ?_
  have hr : ((((cfg3.win 2).blk t).view.emb (ix2 p q)) 0).val = t.val * 2048 + p.val := by
    show win3_2.index t (0 : Fin 2) * 2048 + 1 * p.val = _; rw [e4]; omega
  have hc : ((((cfg3.win 2).blk t).view.emb (ix2 p q)) 1).val = q.val := by
    show win3_2.index t (1 : Fin 2) * 128 + 1 * q.val = _; rw [e5]; omega
  exact congrArg₂ (· * ·) (ablk3_apply V c t p k ⟨_, _⟩ hr) (wblk3_apply V c t k q ⟨_, _⟩ hc)

/-- An index of the output array is in point `t`'s block iff each coordinate is in the block's range on its axis. -/
theorem mem_blk3 (t : Fin cfg3.N) (i : S51200x128.Idx) :
    i ∈ ((cfg3.win 2).blk t).view.set ↔ ∀ a : Fin 2, win3_2.index t a * S2048x128.size a ≤ (i a).val ∧ (i a).val < win3_2.index t a * S2048x128.size a + S2048x128.size a := by
  show i ∈ ((View.whole main_v41).slice (win3_2.rect t)).set ↔ _
  rw [View.set_slice_whole, Rect.mem_set_unit]
  exact Iff.rfl

/-- The row blocks tile the output: row `r` is in the block of point `r / 2048`. -/
theorem cover3 (i : S51200x128.Idx) :
    ∃ t : Fin cfg3.N, (cfg3.win 2).flush t = true ∧ i ∈ ((cfg3.win 2).blk t).view.set := by
  have hi0 : (i 0).val < 51200 := (i 0).isLt
  have hi1 : (i 1).val < 128 := (i 1).isLt
  have ht : (i 0).val / 2048 < cfg3.N := Nat.lt_of_lt_of_eq (by omega : (i 0).val / 2048 < 25) N_3.symm
  obtain ⟨-, -, -, -, e4, e5⟩ := idx3 ⟨(i 0).val / 2048, ht⟩
  refine ⟨⟨(i 0).val / 2048, ht⟩, flush3_2 _, ?_⟩
  rw [mem_blk3]
  intro a
  match a with
  | ⟨0, _⟩ =>
    show win3_2.index ⟨(i 0).val / 2048, ht⟩ (0 : Fin 2) * 2048 ≤ (i 0).val ∧ (i 0).val < win3_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win3_2.index ⟨(i 0).val / 2048, ht⟩ (1 : Fin 2) * 128 ≤ (i 1).val ∧ (i 1).val < win3_2.index ⟨(i 0).val / 2048, ht⟩ (1 : Fin 2) * 128 + 128
    rw [e5]; omega

/-- The output array after the region is the whole matrix product. -/
theorem out3_eq (c : Dev nD) : out3 V c = prod3 V c :=
  (dat3 (F := Ideal) V c).arrAt_eq_of_cover 2 (prod3 V c) (fun t _ => flushed3_eq V c t) (cover3)

/-- Region 3: the row-tiled matrix product is the whole matrix product, row by row. -/
theorem mm3 (c : Dev nD) (n : Fin 51200) (j : Fin 128) :
    out3 V c (ix2 n j) = ∑ k : Fin 64, a3 V c (ix2 n k) * wt3 V c (ix2 k j) :=
  congrFun (out3_eq V c) (ix2 n j)

/-! ## Region 7: [51200, 128] · [128, 64], 2048 rows per grid point -/

/-- Region 7's arrays as it finds them, and its output array after it, each at its literal type. -/
abbrev a7 (c : Dev nD) : S51200x128.Idx → EReal := V c main_v104
abbrev wt7 (c : Dev nD) : S128x64.Idx → EReal := V c main_arg11
abbrev out7 (c : Dev nD) : S51200x64.Idx → EReal := (dat7 (F := Ideal) V c).arrAt 2 cfg7.N

/-- The two input blocks at a grid point, at their literal types. -/
abbrev ablk7 (c : Dev nD) (t : Fin cfg7.N) : S2048x128.Idx → EReal := iblk7 V c 0 t
abbrev wblk7 (c : Dev nD) (t : Fin cfg7.N) : S128x64.Idx → EReal := iblk7 V c 1 t

/-- The whole matrix product, index by index. -/
abbrev prod7 (c : Dev nD) : S51200x64.Idx → EReal :=
  fun i => ∑ k : Fin 128, a7 V c (ix2 (⟨(i 0).val, idx2_lt0 i⟩ : Fin 51200) k) * wt7 V c (ix2 k (⟨(i 1).val, idx2_lt1 i⟩ : Fin 64))

/-! The dot's operand indices, axis by axis: the left operand is read at (row, contracted), the right at
    (contracted, column). -/
theorem lhs7_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs7_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs7_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs7_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- The body's one store, read at an index: the format changes are the identity and the product into a zero
    accumulator is the plain sum over the contracted axis. -/
theorem pay7_apply (x0 : S2048x128.Idx → EReal) (x1 : S128x64.Idx → EReal) (p : Fin 2048) (q : Fin 64) :
    k7_pay1 (F := Ideal) x0 x1 (ix2 p q) = ∑ k : Fin 128, x0 (ix2 p k) * x1 (ix2 k q) := by
  unfold k7_pay1
  refine (Ideal.matmul_constant_zero_apply dot_S2048x128_S128x64_S2048x64_1_0_0_1_n_n none _ _ (ix2 p q)).trans ?_
  rw [← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 p q) ((contrEquiv1 dot_S2048x128_S128x64_S2048x64_1_0_0_1_n_n 128 rfl rfl).symm k) = ix2 p k := funext fun a => Fin.ext (by
    match a with
    | ⟨0, _⟩ => exact lhs7_0 _ _
    | ⟨1, _⟩ => exact (lhs7_1 _ _).trans hk)
  have er : dot_S2048x128_S128x64_S2048x64_1_0_0_1_n_n.rhsIdx (ix2 p q) ((contrEquiv1 dot_S2048x128_S128x64_S2048x64_1_0_0_1_n_n 128 rfl rfl).symm k) = ix2 k q := funext fun a => Fin.ext (by
    match a with
    | ⟨0, _⟩ => exact (rhs7_0 _ _).trans hk
    | ⟨1, _⟩ => exact rhs7_1 _ _)
  rw [el, er, shapeCast_self]
  rfl

/-- The printed index maps, decided once over the grid: the row blocks of the left operand and of the output
    move with the grid point; the weight's block never moves. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The left operand's block at point `t` is rows `2048 t … 2048 t + 2047` of its array. -/
theorem ablk7_apply (c : Dev nD) (t : Fin cfg7.N) (p : Fin 2048) (k : Fin 128) (n : Fin 51200)
    (h0 : n.val = t.val * 2048 + p.val) :
    ablk7 V c t (ix2 p k) = a7 V c (ix2 n k) := by
  obtain ⟨e0, e1, -, -, -, -⟩ := idx7 t
  show iblk7 V c 0 t (ix2 p k) = V c main_v104 (ix2 n k)
  unfold iblk7
  rw [View.read_apply]
  show V c main_v104 _ = V c main_v104 _
  congr 1
  funext a
  apply Fin.ext
  match a with
  | ⟨0, _⟩ => show win7_0.index t (0 : Fin 2) * 2048 + 1 * p.val = n.val; rw [e0, h0]; omega
  | ⟨1, _⟩ => show win7_0.index t (1 : Fin 2) * 128 + 1 * k.val = k.val; rw [e1]; omega

/-- The weight's block at every point is the whole weight matrix. -/
theorem wblk7_apply (c : Dev nD) (t : Fin cfg7.N) (k : Fin 128) (q q' : Fin 64) (h1 : q'.val = q.val) :
    wblk7 V c t (ix2 k q) = wt7 V c (ix2 k q') := by
  obtain ⟨-, -, e2, e3, -, -⟩ := idx7 t
  show iblk7 V c 1 t (ix2 k q) = V c main_arg11 (ix2 k q')
  unfold iblk7
  rw [View.read_apply]
  show V c main_arg11 _ = V c main_arg11 _
  congr 1
  funext a
  apply Fin.ext
  match a with
  | ⟨0, _⟩ => show win7_1.index t (0 : Fin 2) * 128 + 1 * k.val = k.val; rw [e2]; omega
  | ⟨1, _⟩ => show win7_1.index t (1 : Fin 2) * 64 + 1 * q.val = q'.val; rw [e3, h1]; omega

/-- WHAT POINT `t` WRITES BACK is block `t` of the whole matrix product. -/
theorem flushed7_eq (c : Dev nD) (t : Fin cfg7.N) :
    (dat7 (F := Ideal) V c).flushed 2 t = ((cfg7.win 2).blk t).view.read (Elt Ideal) (prod7 V c) := by
  show (cfg7.win 2).cut (grid7.coords t) ((dat7 (F := Ideal) V c).after 2 t) = _
  rw [after7_2]
  unfold out7_2
  rw [View.canon_unit_zero zero_offsets]
  simp only [View.ld_unit_zero (S := S2048x128) zero_offsets, View.ld_unit_zero (S := S128x64) zero_offsets]
  obtain ⟨-, -, -, -, e4, e5⟩ := idx7 t
  funext j
  obtain ⟨p, q, rfl⟩ : ∃ (p : Fin 2048) (q : Fin 64), j = ix2 p q := ⟨j 0, j 1, eq_ix2 j⟩
  refine (pay7_apply (ablk7 V c t) (wblk7 V c t) p q).trans ?_
  rw [View.read_apply]
  show _ = ∑ k : Fin 128, a7 V c (ix2 _ k) * wt7 V c (ix2 k _)
  refine Finset.sum_congr rfl fun k _ => ?_
  have hr : ((((cfg7.win 2).blk t).view.emb (ix2 p q)) 0).val = t.val * 2048 + p.val := by
    show win7_2.index t (0 : Fin 2) * 2048 + 1 * p.val = _; rw [e4]; omega
  have hc : ((((cfg7.win 2).blk t).view.emb (ix2 p q)) 1).val = q.val := by
    show win7_2.index t (1 : Fin 2) * 64 + 1 * q.val = _; rw [e5]; omega
  exact congrArg₂ (· * ·) (ablk7_apply V c t p k ⟨_, _⟩ hr) (wblk7_apply V c t k q ⟨_, _⟩ hc)

/-- An index of the output array is in point `t`'s block iff each coordinate is in the block's range on its axis. -/
theorem mem_blk7 (t : Fin cfg7.N) (i : S51200x64.Idx) :
    i ∈ ((cfg7.win 2).blk t).view.set ↔ ∀ a : Fin 2, win7_2.index t a * S2048x64.size a ≤ (i a).val ∧ (i a).val < win7_2.index t a * S2048x64.size a + S2048x64.size a := by
  show i ∈ ((View.whole main_v105).slice (win7_2.rect t)).set ↔ _
  rw [View.set_slice_whole, Rect.mem_set_unit]
  exact Iff.rfl

/-- The row blocks tile the output: row `r` is in the block of point `r / 2048`. -/
theorem cover7 (i : S51200x64.Idx) :
    ∃ t : Fin cfg7.N, (cfg7.win 2).flush t = true ∧ i ∈ ((cfg7.win 2).blk t).view.set := by
  have hi0 : (i 0).val < 51200 := (i 0).isLt
  have hi1 : (i 1).val < 64 := (i 1).isLt
  have ht : (i 0).val / 2048 < cfg7.N := Nat.lt_of_lt_of_eq (by omega : (i 0).val / 2048 < 25) N_7.symm
  obtain ⟨-, -, -, -, e4, e5⟩ := idx7 ⟨(i 0).val / 2048, ht⟩
  refine ⟨⟨(i 0).val / 2048, ht⟩, flush7_2 _, ?_⟩
  rw [mem_blk7]
  intro a
  match a with
  | ⟨0, _⟩ =>
    show win7_2.index ⟨(i 0).val / 2048, ht⟩ (0 : Fin 2) * 2048 ≤ (i 0).val ∧ (i 0).val < win7_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win7_2.index ⟨(i 0).val / 2048, ht⟩ (1 : Fin 2) * 64 ≤ (i 1).val ∧ (i 1).val < win7_2.index ⟨(i 0).val / 2048, ht⟩ (1 : Fin 2) * 64 + 64
    rw [e5]; omega

/-- The output array after the region is the whole matrix product. -/
theorem out7_eq (c : Dev nD) : out7 V c = prod7 V c :=
  (dat7 (F := Ideal) V c).arrAt_eq_of_cover 2 (prod7 V c) (fun t _ => flushed7_eq V c t) (cover7)

/-- Region 7: the row-tiled matrix product is the whole matrix product, row by row. -/
theorem mm7 (c : Dev nD) (n : Fin 51200) (j : Fin 64) :
    out7 V c (ix2 n j) = ∑ k : Fin 128, a7 V c (ix2 n k) * wt7 V c (ix2 k j) :=
  congrFun (out7_eq V c) (ix2 n j)

end Cert.KernelIdeal.RegVal

end
-- ==== Proof.KMat.lean ====
/-
  THE TWO LINEAR LAYERS of the kernel's program (regions 3 and 7 with the padding before and the slice after), as values.

  Each layer pads its operand [50000, K] with zero rows to 51200 rows, multiplies the padded array by the weight matrix
  in row tiles, and keeps the first 50000 rows of the product. Row `n < 50000` of the padded array is row `n` of the
  operand, the weight matrix is the argument as launched, and the kept row `n` is the product's row `n`: so entry
  `(n, j)` of the result is `∑ k, A n k * W k j`.
-/
import proofs.«413028_j69071664054692_1_alg».proof.Proof.Gen.KernelIdeal.Frame
import proofs.«413028_j69071664054692_1_alg».proof.Proof.Spec
import proofs.«413028_j69071664054692_1_alg».proof.Proof.KBufs
import proofs.«413028_j69071664054692_1_alg».proof.Proof.LibSegment
import proofs.«413028_j69071664054692_1_alg».proof.Proof.LibIndexing
import proofs.«413028_j69071664054692_1_alg».proof.Proof.Keep
import proofs.«413028_j69071664054692_1_alg».proof.Proof.RegMat
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.StableHlo.Predicate
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem

namespace Cert.KernelIdeal.Chain

open Cert.KernelIdeal Cert.KernelIdeal.Gen Cert.Spec

variable (m : (ℓ : Loc nD τ sig) → Buf (Elt Ideal) ℓ) (ρ : Dev nD → PrngReg)

/-! ## The padding before a product and the slice after it, read at a row of the unpadded array -/

/-- First layer: row `n < 50000` of the array padded with zero rows to 51200 rows is row `n` of the array. -/
theorem pad_row1 (V : Valuation τ sig (Elt Ideal)) (n : Fin 50000) (k : Fin 64) :
    (StableHlo.after hostOps3_1 V (Proc.devRef .tc main_v40) : S51200x64.Idx → EReal) (ix2 (⟨n.val, by omega⟩ : Fin 51200) k)
      = (V (Proc.devRef .tc main_v32) : S50000x64.Idx → EReal) (ix2 n k) := by
  after_results
  simp only [StableHlo.TRef.ofBuf, StableHlo.TRef.toBuf, cast_eq]
  exact pad_apply_of_inside _ _ _ _ _ _ _ _ (ix2 n k) (fun a => by fin_cases a <;> simp [ix2])

/-- First layer: row `n` of the first 50000 rows cut out of the product is the product's row `n`. -/
theorem slice_row1 (V : Valuation τ sig (Elt Ideal)) (n : Fin 50000) (j : Fin 128) :
    (StableHlo.after hostOps4 V (Proc.devRef .tc main_v42) : S50000x128.Idx → EReal) (ix2 n j)
      = (V (Proc.devRef .tc main_v41) : S51200x128.Idx → EReal) (ix2 (⟨n.val, by omega⟩ : Fin 51200) j) := by
  after_results
  exact slice2_axis0_apply 0 _ _ n j ⟨n.val, by omega⟩ (by simp)

/-- Second layer: row `n < 50000` of the array padded with zero rows to 51200 rows is row `n` of the array. -/
theorem pad_row2 (V : Valuation τ sig (Elt Ideal)) (n : Fin 50000) (k : Fin 128) :
    (StableHlo.after hostOps7_1 V (Proc.devRef .tc main_v104) : S51200x128.Idx → EReal) (ix2 (⟨n.val, by omega⟩ : Fin 51200) k)
      = (V (Proc.devRef .tc main_v96) : S50000x128.Idx → EReal) (ix2 n k) := by
  after_results
  simp only [StableHlo.TRef.ofBuf, StableHlo.TRef.toBuf, cast_eq]
  exact pad_apply_of_inside _ _ _ _ _ _ _ _ (ix2 n k) (fun a => by fin_cases a <;> simp [ix2])

/-- Second layer: row `n` of the first 50000 rows cut out of the product is the product's row `n`. -/
theorem slice_row2 (V : Valuation τ sig (Elt Ideal)) (n : Fin 50000) (j : Fin 64) :
    (StableHlo.after hostOps8 V (Proc.devRef .tc main_v106) : S50000x64.Idx → EReal) (ix2 n j)
      = (V (Proc.devRef .tc main_v105) : S51200x64.Idx → EReal) (ix2 (⟨n.val, by omega⟩ : Fin 51200) j) := by
  after_results
  exact slice2_axis0_apply 0 _ _ n j ⟨n.val, by omega⟩ (by simp)

/-! ## The weight matrices are the arguments as launched: no step up to the product writes them -/

theorem w6_entry (c : Dev nD) : (W11 m ρ c (Proc.devRef .tc main_arg6) : S64x128.Idx → EReal) = arg6 m c := by
  have h : W11 m ρ c (Proc.devRef .tc main_arg6) = W0 m ρ c (Proc.devRef .tc main_arg6) := by walk_back
  exact h

theorem w11_entry (c : Dev nD) : (W25 m ρ c (Proc.devRef .tc main_arg11) : S128x64.Idx → EReal) = arg11 m c := by
  have h : W25 m ρ c (Proc.devRef .tc main_arg11) = W0 m ρ c (Proc.devRef .tc main_arg11) := by walk_back
  exact h

/-! ## The two layers -/

/-- The first layer: rows of the first GraphNorm times the weight matrix [64, 128]. -/
theorem hw1 (c : Dev nD) (n : Fin 50000) (j : Fin 128) :
    b42 m ρ c (ix2 n j) = matmul (mat (b32 m ρ c)) (mat (arg6 m c)) n j := by
  -- the slice reads the product's row n; the product is region 3's output array
  have h42 : b42 m ρ c (ix2 n j)
      = (W12 m ρ c (Proc.devRef .tc main_v41) : S51200x128.Idx → EReal) (ix2 (⟨n.val, by omega⟩ : Fin 51200) j) :=
    slice_row1 (W12 m ρ c) n j
  have h41 : (W12 m ρ c (Proc.devRef .tc main_v41) : S51200x128.Idx → EReal) = RegVal.out3 (V11 m ρ) c :=
    W12_arr m ρ c (2 : Fin cfg3.W)
  rw [h42, h41, RegVal.mm3]
  unfold Spec.matmul Spec.mat
  refine Finset.sum_congr rfl fun k _ => ?_
  -- the left factor is the padded array's row n, the right factor the weight matrix as launched
  have hp : RegVal.a3 (V11 m ρ) c (ix2 (⟨n.val, by omega⟩ : Fin 51200) k) = b32 m ρ c (ix2 n k) :=
    pad_row1 (W10 m ρ c) n k
  have hw : RegVal.wt3 (V11 m ρ) c (ix2 k j) = arg6 m c (ix2 k j) := congrFun (w6_entry m ρ c) (ix2 k j)
  rw [hp, hw]

/-- The second layer: rows of the second GraphNorm times the weight matrix [128, 64]. -/
theorem hw2 (c : Dev nD) (n : Fin 50000) (j : Fin 64) :
    b106 m ρ c (ix2 n j) = matmul (mat (b96 m ρ c)) (mat (arg11 m c)) n j := by
  have h106 : b106 m ρ c (ix2 n j)
      = (W26 m ρ c (Proc.devRef .tc main_v105) : S51200x64.Idx → EReal) (ix2 (⟨n.val, by omega⟩ : Fin 51200) j) :=
    slice_row2 (W26 m ρ c) n j
  have h105 : (W26 m ρ c (Proc.devRef .tc main_v105) : S51200x64.Idx → EReal) = RegVal.out7 (V25 m ρ) c :=
    W26_arr m ρ c (2 : Fin cfg7.W)
  rw [h106, h105, RegVal.mm7]
  unfold Spec.matmul Spec.mat
  refine Finset.sum_congr rfl fun k _ => ?_
  have hp : RegVal.a7 (V25 m ρ) c (ix2 (⟨n.val, by omega⟩ : Fin 51200) k) = b96 m ρ c (ix2 n k) :=
    pad_row2 (W24 m ρ c) n k
  have hw : RegVal.wt7 (V25 m ρ) c (ix2 k j) = arg11 m c (ix2 k j) := congrFun (w11_entry m ρ c) (ix2 k j)
  rw [hp, hw]

end Cert.KernelIdeal.Chain

end
-- ==== Proof.KPool.lean ====
/-
  THE MEAN POOL of the kernel's program (region 8 and the division after it), as a value.
-/
import proofs.«413028_j69071664054692_1_alg».proof.Proof.Gen.KernelIdeal.Frame
import proofs.«413028_j69071664054692_1_alg».proof.Proof.Spec
import proofs.«413028_j69071664054692_1_alg».proof.Proof.KBufs
import proofs.«413028_j69071664054692_1_alg».proof.Proof.LibSegment
import proofs.«413028_j69071664054692_1_alg».proof.Proof.LibIndexing
import proofs.«413028_j69071664054692_1_alg».proof.Proof.Keep
import proofs.«413028_j69071664054692_1_alg».proof.Proof.OneHot
import proofs.«413028_j69071664054692_1_alg».proof.Proof.RegSeg
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Run
import Idealize.ShloMosaic.Lib.StableHlo.Predicate
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem

namespace Cert.KernelIdeal.Chain

open Cert.KernelIdeal Cert.KernelIdeal.Gen Cert.Spec

variable (m : (ℓ : Loc nD τ sig) → Buf (Elt Ideal) ℓ) (ρ : Dev nD → PrngReg)

/-- A sum whose terms vanish from position `A` on is the sum of its first `A` terms. -/
private theorem sum_fin_of_zero_tail {A N : Nat} (hAN : A ≤ N) (f : Fin N → EReal) (h0 : ∀ n : Fin N, A ≤ n.val → f n = 0) :
    ∑ n : Fin N, f n = ∑ n : Fin A, f (Fin.castLE hAN n) := by
  obtain ⟨B, rfl⟩ := Nat.exists_eq_add_of_le hAN
  rw [Fin.sum_univ_add, Finset.sum_eq_zero (fun i _ => h0 (Fin.natAdd A i) (by simp)), add_zero]
  rfl

/-- The one-hot product over the 51200 padded rows is the segment sum over the 50000 real rows: a padding row's
    weight is `0`, and `0 * x = 0` whatever the padded row holds. -/
private theorem onehot_padded_sum (b : Fin 50000 → Int) (oh : S256x51200.Idx → EReal) (x : S50000x64.Idx → EReal)
    (xp : S51200x64.Idx → EReal)
    (hoh : ∀ (g : Fin 256) (n : Fin 51200), oh (ix2 g n)
      = if h : n.val < 50000 then (if b ⟨n.val, h⟩ = (g.val : Int) then (1 : EReal) else 0) else 0)
    (hxp : ∀ (n : Fin 51200) (d : Fin 64) (h : n.val < 50000), xp (ix2 n d) = x (ix2 ⟨n.val, h⟩ d))
    (g : Fin 256) (d : Fin 64) :
    ∑ n : Fin 51200, oh (ix2 g n) * xp (ix2 n d) = segSum b (mat x) g d := by
  rw [sum_fin_of_zero_tail (A := 50000) (by norm_num) _ (fun n hn => by rw [hoh, dif_neg (by omega), zero_mul])]
  unfold segSum
  rw [← Cert.LibSegment.sum_onehot_mul]
  refine Finset.sum_congr rfl fun n _ => ?_
  have hn : (Fin.castLE (by norm_num : 50000 ≤ 51200) n).val < 50000 := n.isLt
  rw [hoh, dif_pos hn, hxp _ _ hn]
  rfl

/-- The rows padded from 50000 to 51200 by a scalar. -/
private abbrev padRows (x : FVec Ideal S50000x64 .f32) (z : IVec S_ 32) : FVec Ideal S51200x64 .f32 :=
  pad S51200x64 ![0, 0] ![1200, 0] ![0, 0] x (sitofp .f32 z) pads_S50000x64_S51200x64_012000_000 h_S_

/-- A real row of the padded array is the row. -/
private theorem padRows_apply (x : FVec Ideal S50000x64 .f32) (z : IVec S_ 32) (n : Fin 51200) (d : Fin 64) (h : n.val < 50000) :
    padRows x z (ix2 n d) = x (ix2 ⟨n.val, h⟩ d) := by
  refine pad_apply_of_inside ![0, 0] ![1200, 0] ![0, 0] x _ pads_S50000x64_S51200x64_012000_000 h_S_ (ix2 n d) (ix2 ⟨n.val, h⟩ d) ?_
  intro a
  match a with
  | ⟨0, _⟩ => show n.val = 0 + n.val * (0 + 1); omega
  | ⟨1, _⟩ => show d.val = 0 + d.val * (0 + 1); omega

/-- The padding step, from any contents. -/
private theorem pad_step (V : Valuation τ sig (Elt Ideal)) :
    StableHlo.after hostOps8_3 V (Proc.devRef .tc main_v148)
      = padRows (V (Proc.devRef .tc main_v147)) (V (Proc.devRef .tc main_c_30)) := by
  after_results
  simp only [StableHlo.TRef.ofBuf, StableHlo.TRef.toBuf, cast_eq]

/-- The padding step leaves the rows it pads in place. -/
private theorem pad_step_keep (V : Valuation τ sig (Elt Ideal)) :
    StableHlo.after hostOps8_3 V (Proc.devRef .tc main_v147) = V (Proc.devRef .tc main_v147) := by
  after_results

private abbrev p149 (c : Dev nD) : FVec Ideal S256x64 .f32 := W31 m ρ c (Proc.devRef .tc main_v149)
private abbrev p20 (c : Dev nD) : FVec Ideal S256x1 .f32 := W31 m ρ c (Proc.devRef .tc main_v20)

/-- The division after region 8. -/
private theorem v151_eq (c : Dev nD) :
    b151 m ρ c = Host.divf (p149 m ρ c) (broadcastInDim S256x64 ![0, 1] bcast_S256x1_S256x64_0_1 (p20 m ρ c)) := by
  show StableHlo.after hostOps9 (W31 m ρ c) (Proc.devRef .tc main_v151) = _
  after_results

/-- Region 8's output: each graph's segment sum of the last layer's rows. -/
private theorem v149_apply (c : Dev nD) (g : Fin 256) (d : Fin 64) :
    p149 m ρ c (ix2 g d) = segSum (bat m c) (mat (b147 m ρ c)) g d := by
  have w7 : W30 m ρ c (Proc.devRef .tc main_v7) = W3 m ρ c (Proc.devRef .tc main_v7) := by walk_back
  have e : p149 m ρ c = RegVal.out8 (V30 m ρ) c := W31_arr m ρ c 2
  rw [e, RegVal.seg8 (V30 m ρ) c g d]
  refine onehot_padded_sum (bat m c) (RegVal.oh8 (V30 m ρ) c) (b147 m ρ c) (RegVal.x8 (V30 m ρ) c) (fun g n => ?_) (fun n d h => ?_) g d
  · exact (congrFun w7 (ix2 g n)).trans (v7_apply m ρ c g n)
  · have e148 : RegVal.x8 (V30 m ρ) c = padRows (W29 m ρ c (Proc.devRef .tc main_v147)) (W29 m ρ c (Proc.devRef .tc main_c_30)) :=
      pad_step (W29 m ρ c)
    have e147 : b147 m ρ c = W29 m ρ c (Proc.devRef .tc main_v147) := pad_step_keep (W29 m ρ c)
    rw [e148, e147]
    exact padRows_apply _ _ n d h

/-- The result: each graph's segment sum of the last layer's rows over its count. -/
theorem pooled (c : Dev nD) (g : Fin 256) (d : Fin 64) :
    b151 m ρ c (ix2 g d) = pool one (bat m c) (mat (b147 m ρ c)) g d := by
  have w20 : W31 m ρ c (Proc.devRef .tc main_v20) = W3 m ρ c (Proc.devRef .tc main_v20) := by walk_back
  have hc : broadcastInDim S256x64 ![0, 1] bcast_S256x1_S256x64_0_1 (p20 m ρ c) (ix2 g d) = cnt one (bat m c) g := by
    refine (broadcastInDim_apply ![0, 1] bcast_S256x1_S256x64_0_1 (p20 m ρ c) (ix2 g d) (ix2 g 0)
      (fun a => match a with | ⟨0, _⟩ => rfl | ⟨1, _⟩ => rfl)).trans ?_
    exact (congrFun w20 (ix2 g 0)).trans (v20_apply m ρ c g)
  rw [v151_eq, hostDivf_apply, v149_apply, hc]
  rfl

end Cert.KernelIdeal.Chain

end
-- ==== Proof.Tail1.lean ====
/-
  THE GRAPH-CONVOLUTION AGGREGATION OF LAYER 1 IS ONE FUNCTION IN BOTH PROGRAMS: everything the layer does after its linear
  projection — self-loops appended to the edge list, the degrees of the targets, the symmetric normalisation
  deg^(-1/2)[source] · deg^(-1/2)[target], the gather of the source rows, the scatter-add at the targets, the bias, the
  rectifier — is
  the same composition of host operations, with the same dimension numbers, of the projected rows, the edge list and the
  bias, in the kernel's program and in the reference.
-/
import proofs.«413028_j69071664054692_1_alg».proof.Proof.Gen.KernelIdeal.Frame
import proofs.«413028_j69071664054692_1_alg».proof.Proof.RefRead
import proofs.«413028_j69071664054692_1_alg».proof.Proof.KBufs
import proofs.«413028_j69071664054692_1_alg».proof.Proof.Keep
import Idealize.ShloMosaic.Lib.StableHlo.Run

noncomputable section

open Idealize.ShloMosaic Idealize.ShloMosaic.TcCoe Idealize.SL.Sem

namespace Cert.Tail

section Defs
open Cert.KernelIdeal Cert.KernelIdeal.Facts₀
variable {F : FTy → Type} [FloatOps F]

/-- The node numbers 0 … 49999: one self-loop per node. -/
def selfLoops : IVec S50000 32 := iotaInDim S50000 32 0

/-- The sources of the edges (row 0 of the edge list), then the self-loops. -/
def srcs (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, selfLoops⟩] concatenates_S800000_S50000_S850000_d0

/-- The targets of the edges (row 1 of the edge list), then the self-loops. -/
def tgts (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, selfLoops⟩] concatenates_S800000_S50000_S850000_d0

/-- A vector of node numbers as a column of index tuples. -/
def asCol (v : IVec S850000 32) : IVec S850000x1 32 := broadcastInDim S850000x1 ![0] bcast_S850000_S850000x1_0 v

/-- The same with a negative entry counted from the end (50000 added to it). -/
def wrapCol (v : IVec S850000 32) : IVec S850000x1 32 :=
  asCol (select (cmpi .slt v (broadcastInDim S850000 ![] bcast_S_S850000 (constantI S_ 32 0#32)))
    (addi v (broadcastInDim S850000 ![] bcast_S_S850000 (constantI S_ 32 50000#32))) v)

/-- The degree of each node: the number of edges, self-loop included, that end at it. -/
def deg (ei : IVec S2x800000 32) : FVec F S50000 .f32 :=
  Host.scatterAdd scatter_S50000_S850000x1_S850000_n_0_0_1
    (broadcastInDim S50000 ![] bcast_S_S50000 (constant (F := F) S_ .f32 0x00000000#32))
    (asCol (tgts ei))
    (broadcastInDim S850000 ![] bcast_S_S850000 (constant (F := F) S_ .f32 0x3F800000#32))

/-- deg^(-1/2) where the degree is positive, 0 elsewhere. -/
def dis (ei : IVec S2x800000 32) : FVec F S50000 .f32 :=
  select (cmpf .ogt (deg (F := F) ei) (broadcastInDim S50000 ![] bcast_S_S50000 (constant (F := F) S_ .f32 0x00000000#32)))
    (Host.rsqrt (maximumf (deg (F := F) ei) (broadcastInDim S50000 ![] bcast_S_S50000 (constant (F := F) S_ .f32 0x3F800000#32))))
    (broadcastInDim S50000 ![] bcast_S_S50000 (constant (F := F) S_ .f32 0x00000000#32))

/-- The weight of each edge, from the per-node factor `d`: `d` at its source times `d` at its target. -/
def normOf (d : FVec F S50000 .f32) (row col : IVec S850000 32) : FVec F S850000 .f32 :=
  mulf (Host.gather gather_S50000_S850000x1_S850000_n_0_n_n_0_1_1 d (wrapCol row))
    (Host.gather gather_S50000_S850000x1_S850000_n_0_n_n_0_1_1 d (wrapCol col))

/-- The rows `H` at the sources, weighted, summed at the targets, plus the bias. -/
def sumOf (H : FVec F S50000x128 .f32) (row col : IVec S850000 32) (d : FVec F S50000 .f32) (bias : FVec F S128 .f32) :
    FVec F S50000x128 .f32 :=
  addf
    (Host.scatterAdd scatter_S50000x128_S850000x1_S850000x128_1_0_0_1
      (broadcastInDim S50000x128 ![] bcast_S_S50000x128 (constant (F := F) S_ .f32 0x00000000#32))
      (asCol col)
      (mulf (Host.gather gather_S50000x128_S850000x1_S850000x128_1_0_n_n_0_1_1128 H (wrapCol row))
        (broadcastInDim S850000x128 ![0, 1] bcast_S850000x1_S850000x128_0_1
          (broadcastInDim S850000x1 ![0] bcast_S850000_S850000x1_0 (normOf d row col)))))
    (broadcastInDim S50000x128 ![0, 1] bcast_S1x128_S50000x128_0_1 (broadcastInDim S1x128 ![1] bcast_S128_S1x128_1 bias))

/-- The rectifier: the maximum with 0. -/
def relu (x : FVec F S50000x128 .f32) : FVec F S50000x128 .f32 :=
  maximumf x (broadcastInDim S50000x128 ![] bcast_S_S50000x128 (constant (F := F) S_ .f32 0x00000000#32))

/-- The layer's aggregation: the weighted rows summed at their targets, plus the bias, rectified. -/
def aggC (H : FVec F S50000x128 .f32) (ei : IVec S2x800000 32) (bias : FVec F S128 .f32) : FVec F S50000x128 .f32 :=
  relu (sumOf H (srcs ei) (tgts ei) (dis (F := F) ei) bias)

end Defs

/-- Layer 1's aggregation as a function of the projected rows `H`, the edge list and the bias. -/
def agg1 (H : Cert.KernelIdeal.S50000x128.Idx → EReal) (ei : Cert.KernelIdeal.S2x800000.Idx → BitVec 32)
    (bias : Cert.KernelIdeal.S128.Idx → EReal) : Cert.KernelIdeal.S50000x128.Idx → EReal :=
  aggC (F := Ideal) H ei bias

section Kernel
open Cert.KernelIdeal Cert.KernelIdeal.Gen Cert.KernelIdeal.Keep

section AnyF
variable {F : FTy → Type} [FloatOps F]

/-! ### Each stretch read at an arbitrary valuation -/
section Steps
variable (V : Valuation τ sig (Elt F))

/-- The outlined selection: the inverse square root where the degree is positive, the constant elsewhere. -/
theorem where_step :
    (StableHlo.after hostOps4_1 V (Proc.devRef .tc main_v52) : FVec F S50000 .f32)
      = select (V (Proc.devRef .tc main_v48) : IVec S50000 1) (V (Proc.devRef .tc main_v51) : FVec F S50000 .f32)
          (broadcastInDim S50000 ![] Facts₀.bcast_S_S50000 (V (Proc.devRef .tc main_cst_8) : FVec F S_ .f32)) := by
  after_results
  rfl

/-- The stretch of gathers, products and the scatter-add. -/
theorem sum_step :
    (StableHlo.after hostOps4_2 V (Proc.devRef .tc main_v83) : FVec F S50000x128 .f32)
      = sumOf (V (Proc.devRef .tc main_v42) : FVec F S50000x128 .f32) (V (Proc.devRef .tc main_v36) : IVec S850000 32)
          (V (Proc.devRef .tc main_v39) : IVec S850000 32) (V (Proc.devRef .tc main_v52) : FVec F S50000 .f32)
          (V (Proc.devRef .tc main_arg7) : FVec F S128 .f32) := by
  after_results_simp
  rfl

/-- The outlined rectifier. -/
theorem relu_step :
    (StableHlo.after hostOps4_3 V (Proc.devRef .tc main_v84) : FVec F S50000x128 .f32)
      = relu (V (Proc.devRef .tc main_v83) : FVec F S50000x128 .f32) := by
  after_results
  rfl

end Steps
variable (m : (ℓ : Loc nD τ sig) → Buf (Elt F) ℓ) (ρ : Dev nD → PrngReg)

/-- After the reshuffling of the edge list, its sources and its targets, self-loops appended. -/
theorem W10_v36 (c : Dev nD) :
    W10 m ρ c (Proc.devRef .tc main_v36) = srcs (m ((c : Thread nD τ).loc main_arg1)) := by
  have h1 : W9 m ρ c (Proc.devRef .tc main_arg1) = m ((c : Thread nD τ).loc main_arg1) := by
    refine Eq.trans ?_ (W0_arg m ρ c main_arg1); walk_back
  rw [← h1]
  show StableHlo.after hostOps3 (W9 m ρ c) (Proc.devRef .tc main_v36) = _
  after_results
  rfl

theorem W10_v39 (c : Dev nD) :
    W10 m ρ c (Proc.devRef .tc main_v39) = tgts (m ((c : Thread nD τ).loc main_arg1)) := by
  have h1 : W9 m ρ c (Proc.devRef .tc main_arg1) = m ((c : Thread nD τ).loc main_arg1) := by
    refine Eq.trans ?_ (W0_arg m ρ c main_arg1); walk_back
  rw [← h1]
  show StableHlo.after hostOps3 (W9 m ρ c) (Proc.devRef .tc main_v39) = _
  after_results
  rfl

/-- They are still there when the aggregation's stretches run. -/
theorem W12_v39 (c : Dev nD) :
    W12 m ρ c (Proc.devRef .tc main_v39) = tgts (m ((c : Thread nD τ).loc main_arg1)) := by
  refine Eq.trans ?_ (W10_v39 m ρ c); walk_back

theorem W14_v39 (c : Dev nD) :
    W14 m ρ c (Proc.devRef .tc main_v39) = tgts (m ((c : Thread nD τ).loc main_arg1)) := by
  refine Eq.trans ?_ (W10_v39 m ρ c); walk_back

theorem W14_v36 (c : Dev nD) :
    W14 m ρ c (Proc.devRef .tc main_v36) = srcs (m ((c : Thread nD τ).loc main_arg1)) := by
  refine Eq.trans ?_ (W10_v36 m ρ c); walk_back

/-- The degrees, their comparison with 0 and the inverse square roots, after the stretch that computes them. -/
theorem W13_v48 (c : Dev nD) :
    W13 m ρ c (Proc.devRef .tc main_v48) = cmpf .ogt (deg (F := F) (m ((c : Thread nD τ).loc main_arg1)))
      (broadcastInDim S50000 ![] Facts₀.bcast_S_S50000 (constant (F := F) S_ .f32 0x00000000#32)) := by
  have h39 := W12_v39 m ρ c
  show StableHlo.after hostOps4 (W12 m ρ c) (Proc.devRef .tc main_v48) = _
  generalize W12 m ρ c = V at h39 ⊢
  after_results
  rw [h39]
  rfl

theorem W13_v51 (c : Dev nD) :
    W13 m ρ c (Proc.devRef .tc main_v51) = Host.rsqrt (maximumf (deg (F := F) (m ((c : Thread nD τ).loc main_arg1)))
      (broadcastInDim S50000 ![] Facts₀.bcast_S_S50000 (constant (F := F) S_ .f32 0x3F800000#32))) := by
  have h39 := W12_v39 m ρ c
  show StableHlo.after hostOps4 (W12 m ρ c) (Proc.devRef .tc main_v51) = _
  generalize W12 m ρ c = V at h39 ⊢
  after_results
  rw [h39]
  rfl

theorem W13_cst8 (c : Dev nD) :
    W13 m ρ c (Proc.devRef .tc main_cst_8) = constant (F := F) S_ .f32 0x00000000#32 := by
  show StableHlo.after hostOps4 (W12 m ρ c) (Proc.devRef .tc main_cst_8) = _
  generalize W12 m ρ c = V
  after_results

/-- The normalising factor of each node. -/
theorem W14_v52 (c : Dev nD) :
    W14 m ρ c (Proc.devRef .tc main_v52) = dis (F := F) (m ((c : Thread nD τ).loc main_arg1)) := by
  refine (where_step (W13 m ρ c)).trans ?_
  rw [W13_v48 m ρ c, W13_v51 m ρ c, W13_cst8 m ρ c]
  rfl

/-- The bias is as launched; the projected rows are where the stretch before left them. -/
theorem W14_arg7 (c : Dev nD) : W14 m ρ c (Proc.devRef .tc main_arg7) = m ((c : Thread nD τ).loc main_arg7) := by
  refine Eq.trans ?_ (W0_arg m ρ c main_arg7); walk_back

theorem W14_v42 (c : Dev nD) : W14 m ρ c (Proc.devRef .tc main_v42) = W13 m ρ c (Proc.devRef .tc main_v42) := by
  walk_back

/-- The kernel's program, at any float instance: the layer's output buffer is the aggregation of its projected rows. -/
theorem kAgg (c : Dev nD) :
    (W18 m ρ c (Proc.devRef .tc main_v84) : FVec F S50000x128 .f32)
      = aggC (W13 m ρ c (Proc.devRef .tc main_v42) : FVec F S50000x128 .f32)
          (m ((c : Thread nD τ).loc main_arg1) : IVec S2x800000 32) (m ((c : Thread nD τ).loc main_arg7) : FVec F S128 .f32) := by
  have hw : W18 m ρ c (Proc.devRef .tc main_v84) = W16 m ρ c (Proc.devRef .tc main_v84) := by walk_back
  refine hw.trans ((relu_step (W15 m ρ c)).trans ?_)
  refine congrArg relu ((sum_step (W14 m ρ c)).trans ?_)
  rw [W14_v42 m ρ c, W14_v36 m ρ c, W14_v39 m ρ c, W14_v52 m ρ c, W14_arg7 m ρ c]

end AnyF

section AtIdeal
open Cert.KernelIdeal.Chain
variable (m : (ℓ : Loc nD τ sig) → Buf (Elt Ideal) ℓ) (ρ : Dev nD → PrngReg)

/-- The kernel's program: the layer's output buffer is the aggregation of its projected rows. -/
theorem k_agg1 (c : Dev nD) : b84 m ρ c = agg1 (b42 m ρ c) (arg1 m c) (arg7 m c) := kAgg m ρ c
end AtIdeal

end Kernel

section Reference
open Cert.ReferenceIdeal Cert.ReferenceIdeal.Read

section AnyF
variable {F : FTy → Type} [FloatOps F]
variable (x1 : (⟨S2x800000, .i32⟩ : BufTy).Contents (Elt F))

/-- The reference's two index vectors are the sources and the targets. -/
theorem r_srcs : val_main_v56 (F := F) x1 = srcs x1 := rfl
theorem r_tgts : val_main_v59 (F := F) x1 = tgts x1 := rfl

/-- Its scatter-add of ones is the degree. -/
theorem r_deg : val_main_v64 (F := F) x1 = deg (F := F) x1 := by
  unfold val_main_v64 val_main_v63
  rw [r_tgts]
  rfl

/-- Its selection is the normalising factor. -/
theorem r_dis : val_main_v70 (F := F) x1 = dis (F := F) x1 := by
  unfold val_main_v70 val_main_v66 val_main_v69 val_main_v68
  rw [r_deg]
  rfl

/-- Its product of the two gathers is the edge weight. -/
theorem r_norm : val_main_v85 (F := F) x1 = normOf (dis (F := F) x1) (srcs x1) (tgts x1) := by
  unfold val_main_v85 val_main_v77 val_main_v84 val_main_v76 val_main_v83 val_main_v75 val_main_v82 val_main_v72 val_main_v79
    val_main_v74 val_main_v81
  rw [r_dis, r_srcs, r_tgts]
  rfl

variable (x0 : (⟨S50000x64, .f32⟩ : BufTy).Contents (Elt F)) (x2 : (⟨S50000, .i32⟩ : BufTy).Contents (Elt F))
  (x3 x4 x5 : (⟨S64, .f32⟩ : BufTy).Contents (Elt F)) (x6 : (⟨S64x128, .f32⟩ : BufTy).Contents (Elt F))
  (x7 : (⟨S128, .f32⟩ : BufTy).Contents (Elt F))

/-- Its sum before the rectifier. -/
theorem r_sum : val_main_v101 (F := F) x0 x1 x2 x3 x4 x5 x6 x7
    = sumOf (val_main_v60 (F := F) x0 x2 x3 x4 x5 x6) (srcs x1) (tgts x1) (dis (F := F) x1) x7 := by
  unfold val_main_v101 val_main_v98 val_main_v95 val_main_v92 val_main_v94 val_main_v93 val_main_v91 val_main_v90 val_main_v87
    val_main_v89 val_main_v97 val_main_v100 val_main_v99
  rw [r_norm, r_srcs, r_tgts]
  rfl

/-- The reference, at any float instance: the stage after the rectifier is the aggregation of the projected rows. -/
theorem rAgg : val_main_v102 (F := F) x0 x1 x2 x3 x4 x5 x6 x7 = aggC (val_main_v60 (F := F) x0 x2 x3 x4 x5 x6) x1 x7 := by
  unfold val_main_v102
  rw [r_sum]
  rfl

end AnyF

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 x4 x5 : (⟨S64, .f32⟩ : BufTy).Contents (Elt Ideal))
  (x6 : (⟨S64x128, .f32⟩ : BufTy).Contents (Elt Ideal)) (x7 x8 x9 x10 : (⟨S128, .f32⟩ : BufTy).Contents (Elt Ideal))
  (x11 : (⟨S128x64, .f32⟩ : BufTy).Contents (Elt Ideal)) (x12 : (⟨S64, .f32⟩ : BufTy).Contents (Elt Ideal))

/-- The reference: its stage `val_main_v102` is the same aggregation of its stage `val_main_v60`. -/
theorem r_agg1 : val_main_v102 (F := Ideal) x0 x1 x2 x3 x4 x5 x6 x7 = agg1 (val_main_v60 (F := Ideal) x0 x2 x3 x4 x5 x6) x1 x7 :=
  rAgg x1 x0 x2 x3 x4 x5 x6 x7
end Reference

end Cert.Tail

end
-- ==== Proof.Tail2.lean ====
/-
  THE GRAPH-CONVOLUTION AGGREGATION OF LAYER 2 IS ONE FUNCTION IN BOTH PROGRAMS: everything the layer does after its linear
  projection — self-loops appended to the edge list, the degrees of the targets, the symmetric normalisation
  deg^(-1/2)[source] · deg^(-1/2)[target], the gather of the source rows, the scatter-add at the targets, the bias — is
  the same composition of host operations, with the same dimension numbers, of the projected rows, the edge list and the
  bias, in the kernel's program and in the reference.
-/
import proofs.«413028_j69071664054692_1_alg».proof.Proof.Gen.KernelIdeal.Frame
import proofs.«413028_j69071664054692_1_alg».proof.Proof.RefRead
import proofs.«413028_j69071664054692_1_alg».proof.Proof.KBufs
import proofs.«413028_j69071664054692_1_alg».proof.Proof.Keep
import Idealize.ShloMosaic.Lib.StableHlo.Run

noncomputable section

open Idealize.ShloMosaic Idealize.ShloMosaic.TcCoe Idealize.SL.Sem

namespace Cert.Tail

/-! ## Layer 2's aggregation, piece by piece -/
namespace L2

section Defs
open Cert.KernelIdeal Cert.KernelIdeal.Gen

/-- The sources of the edges followed by one self-loop per node: row 0 of the edge list, then the node indices in order. -/
def row (ei : (⟨S2x800000, .i32⟩ : BufTy).Contents (Elt Ideal)) : (⟨S850000, .i32⟩ : BufTy).Contents (Elt Ideal) :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

/-- The targets of the edges followed by one self-loop per node: row 1 of the edge list, then the node indices in order. -/
def col (ei : (⟨S2x800000, .i32⟩ : BufTy).Contents (Elt Ideal)) : (⟨S850000, .i32⟩ : BufTy).Contents (Elt Ideal) :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- A negative node index counts from the end: `v + 50000` where `v < 0`, else `v`. -/
def wrap (v : (⟨S850000, .i32⟩ : BufTy).Contents (Elt Ideal)) : (⟨S850000, .i32⟩ : BufTy).Contents (Elt Ideal) :=
  select (cmpi .slt v (broadcastInDim S850000 ![] bcast_S_S850000 (constantI S_ 32 0#32)))
    (addi v (broadcastInDim S850000 ![] bcast_S_S850000 (constantI S_ 32 50000#32))) v

/-- A vector of node indices as a column of one-coordinate index vectors. -/
def asCol (v : (⟨S850000, .i32⟩ : BufTy).Contents (Elt Ideal)) : (⟨S850000x1, .i32⟩ : BufTy).Contents (Elt Ideal) :=
  broadcastInDim S850000x1 ![0] bcast_S850000_S850000x1_0 v

/-- The degree of every node: ones added at the targets. -/
def deg (c : (⟨S850000, .i32⟩ : BufTy).Contents (Elt Ideal)) : (⟨S50000, .f32⟩ : BufTy).Contents (Elt Ideal) :=
  Host.scatterAdd (F := Ideal) scatter_S50000_S850000x1_S850000_n_0_0_1
    (broadcastInDim S50000 ![] bcast_S_S50000 (constant (F := Ideal) S_ .f32 0x00000000#32))
    (asCol c)
    (broadcastInDim S850000 ![] bcast_S_S850000 (constant (F := Ideal) S_ .f32 0x3F800000#32))

/-- Where the degree is positive. -/
def pos (d : (⟨S50000, .f32⟩ : BufTy).Contents (Elt Ideal)) : (⟨S50000, .i1⟩ : BufTy).Contents (Elt Ideal) :=
  cmpf .ogt d (broadcastInDim S50000 ![] bcast_S_S50000 (constant (F := Ideal) S_ .f32 0x00000000#32))

/-- The inverse square root of the degree floored at one. -/
def rs (d : (⟨S50000, .f32⟩ : BufTy).Contents (Elt Ideal)) : (⟨S50000, .f32⟩ : BufTy).Contents (Elt Ideal) :=
  Host.rsqrt (F := Ideal) (maximumf d (broadcastInDim S50000 ![] bcast_S_S50000 (constant (F := Ideal) S_ .f32 0x3F800000#32)))

/-- The normalisation factor of every node: the inverse square root of its degree where that is positive, zero elsewhere. -/
def dis (d : (⟨S50000, .f32⟩ : BufTy).Contents (Elt Ideal)) : (⟨S50000, .f32⟩ : BufTy).Contents (Elt Ideal) :=
  select (pos d) (rs d) (broadcastInDim S50000 ![] bcast_S_S50000 (id (constant (F := Ideal) S_ .f32 0x00000000#32)))

/-- A per-node factor read at (wrapped) node indices. -/
def pick (s : (⟨S50000, .f32⟩ : BufTy).Contents (Elt Ideal)) (v : (⟨S850000, .i32⟩ : BufTy).Contents (Elt Ideal)) :
    (⟨S850000, .f32⟩ : BufTy).Contents (Elt Ideal) :=
  Host.gather gather_S50000_S850000x1_S850000_n_0_n_n_0_1_1 s (asCol (wrap v))

/-- The symmetric normalisation of every edge: the factor of its source times the factor of its target. -/
def norm (s : (⟨S50000, .f32⟩ : BufTy).Contents (Elt Ideal)) (r c : (⟨S850000, .i32⟩ : BufTy).Contents (Elt Ideal)) :
    (⟨S850000, .f32⟩ : BufTy).Contents (Elt Ideal) :=
  mulf (F := Ideal) (φ := .f32) (pick s r) (pick s c)

/-- The rows read at (wrapped) node indices. -/
def rowsAt (H : (⟨S50000x64, .f32⟩ : BufTy).Contents (Elt Ideal)) (v : (⟨S850000, .i32⟩ : BufTy).Contents (Elt Ideal)) :
    (⟨S850000x64, .f32⟩ : BufTy).Contents (Elt Ideal) :=
  Host.gather gather_S50000x64_S850000x1_S850000x64_1_0_n_n_0_1_164 H (asCol (wrap v))

/-- Every row scaled by its own factor. -/
def scale (G : (⟨S850000x64, .f32⟩ : BufTy).Contents (Elt Ideal)) (n : (⟨S850000, .f32⟩ : BufTy).Contents (Elt Ideal)) :
    (⟨S850000x64, .f32⟩ : BufTy).Contents (Elt Ideal) :=
  mulf (F := Ideal) (φ := .f32) G
    (broadcastInDim S850000x64 ![0, 1] bcast_S850000x1_S850000x64_0_1 (broadcastInDim S850000x1 ![0] bcast_S850000_S850000x1_0 n))

/-- The messages added at their targets, plus the bias on every row. -/
def gatherAdd (M : (⟨S850000x64, .f32⟩ : BufTy).Contents (Elt Ideal)) (c : (⟨S850000, .i32⟩ : BufTy).Contents (Elt Ideal))
    (bias : (⟨S64, .f32⟩ : BufTy).Contents (Elt Ideal)) : (⟨S50000x64, .f32⟩ : BufTy).Contents (Elt Ideal) :=
  addf (F := Ideal) (φ := .f32) (Host.scatterAdd (F := Ideal) scatter_S50000x64_S850000x1_S850000x64_1_0_0_1
      (broadcastInDim S50000x64 ![] bcast_S_S50000x64 (constant (F := Ideal) S_ .f32 0x00000000#32)) (asCol c) M)
    (broadcastInDim S50000x64 ![0, 1] bcast_S1x64_S50000x64_0_1 (broadcastInDim S1x64 ![1] bcast_S64_S1x64_1 bias))

/-- The layer's aggregation: the message of every edge (and self-loop) is the row of its source scaled by the edge's
    normalisation; the messages are added at their targets, and the bias on every row. -/
def agg (H : (⟨S50000x64, .f32⟩ : BufTy).Contents (Elt Ideal)) (ei : (⟨S2x800000, .i32⟩ : BufTy).Contents (Elt Ideal))
    (bias : (⟨S64, .f32⟩ : BufTy).Contents (Elt Ideal)) : (⟨S50000x64, .f32⟩ : BufTy).Contents (Elt Ideal) :=
  gatherAdd (scale (rowsAt H (row ei)) (norm (dis (deg (col ei))) (row ei) (col ei))) (col ei) bias

end Defs

section Kernel
open Cert.KernelIdeal Cert.KernelIdeal.Gen Cert.KernelIdeal.Chain Cert.KernelIdeal.Keep

/-- The last stretch of the layer in four parts: the factor read at the sources; at the targets; their product and
    the rows read at the sources; the scaled rows, their scatter-add and the bias. -/
abbrev partA : List (HloOp τ sig (Elt Ideal)) := (hostOps8_2 (F := Ideal)).take 9
abbrev partB : List (HloOp τ sig (Elt Ideal)) := ((hostOps8_2 (F := Ideal)).drop 9).take 9
abbrev partC : List (HloOp τ sig (Elt Ideal)) := ((hostOps8_2 (F := Ideal)).drop 18).take 10
abbrev partD : List (HloOp τ sig (Elt Ideal)) := (hostOps8_2 (F := Ideal)).drop 28

theorem parts : (hostOps8_2 (F := Ideal)) = partA ++ (partB ++ (partC ++ partD)) := rfl

/-- The part as a literal list. -/
local macro "literal_part" : tactic => `(tactic|
  simp only [partA, partB, partC, partD, hostOps8_2, List.take_succ_cons, List.take_zero, List.drop_succ_cons, List.drop_zero])

/-- A buffer that no operation of the part writes keeps its contents. -/
local macro "unwritten" : tactic => `(tactic|
  exact StableHlo.after_of_forall_not_mem _ _ (List.forall_iff_forall_mem.mp (by
    simp only [partA, partB, partC, partD, hostOps8_2, List.take_succ_cons, List.take_zero, List.drop_succ_cons, List.drop_zero,
      List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ### What each stretch of host operations leaves, from any contents `V` -/

section Stretches
variable (V : Valuation τ sig (Elt Ideal))

/-- The stretch that rebuilds the edge list leaves the sources with their self-loops, -/
theorem ops7_row : StableHlo.after hostOps7 V (Proc.devRef .tc main_v100) = row (V (Proc.devRef .tc main_arg1)) := by
  after_results; rfl
/-- and the targets with theirs. -/
theorem ops7_col : StableHlo.after hostOps7 V (Proc.devRef .tc main_v103) = col (V (Proc.devRef .tc main_arg1)) := by
  after_results; rfl

/-- Where the degrees of the targets are positive, -/
theorem ops8_pos : StableHlo.after hostOps8 V (Proc.devRef .tc main_v112) = pos (deg (V (Proc.devRef .tc main_v103))) := by
  after_results; rfl
/-- their inverse square roots, -/
theorem ops8_rs : StableHlo.after hostOps8 V (Proc.devRef .tc main_v115) = rs (deg (V (Proc.devRef .tc main_v103))) := by
  after_results; rfl
/-- and the zero for the rest. -/
theorem ops8_zero : StableHlo.after hostOps8 V (Proc.devRef .tc main_cst_22) = constant (F := Ideal) S_ .f32 0x00000000#32 := by
  after_results

/-- The selection between the two. -/
theorem ops8_1_dis : StableHlo.after hostOps8_1 V (Proc.devRef .tc main_v116)
    = select (V (Proc.devRef .tc main_v112)) (V (Proc.devRef .tc main_v115))
        (broadcastInDim S50000 ![] bcast_S_S50000 (id (V (Proc.devRef .tc main_cst_22)))) := by
  after_results
  simp only [StableHlo.TRef.ofBuf, StableHlo.TRef.toBuf, cast_eq]

theorem partA_src : StableHlo.after partA V (Proc.devRef .tc main_v123)
    = pick (V (Proc.devRef .tc main_v116)) (V (Proc.devRef .tc main_v100)) := by
  literal_part; after_results; rfl
theorem partA_dis : StableHlo.after partA V (Proc.devRef .tc main_v116) = V (Proc.devRef .tc main_v116) := by unwritten
theorem partA_rows : StableHlo.after partA V (Proc.devRef .tc main_v106) = V (Proc.devRef .tc main_v106) := by unwritten
theorem partA_row : StableHlo.after partA V (Proc.devRef .tc main_v100) = V (Proc.devRef .tc main_v100) := by unwritten
theorem partA_col : StableHlo.after partA V (Proc.devRef .tc main_v103) = V (Proc.devRef .tc main_v103) := by unwritten
theorem partA_bias : StableHlo.after partA V (Proc.devRef .tc main_arg12) = V (Proc.devRef .tc main_arg12) := by unwritten

theorem partB_tgt : StableHlo.after partB V (Proc.devRef .tc main_v130)
    = pick (V (Proc.devRef .tc main_v116)) (V (Proc.devRef .tc main_v103)) := by
  literal_part; after_results; rfl
theorem partB_src : StableHlo.after partB V (Proc.devRef .tc main_v123) = V (Proc.devRef .tc main_v123) := by unwritten
theorem partB_rows : StableHlo.after partB V (Proc.devRef .tc main_v106) = V (Proc.devRef .tc main_v106) := by unwritten
theorem partB_row : StableHlo.after partB V (Proc.devRef .tc main_v100) = V (Proc.devRef .tc main_v100) := by unwritten
theorem partB_col : StableHlo.after partB V (Proc.devRef .tc main_v103) = V (Proc.devRef .tc main_v103) := by unwritten
theorem partB_bias : StableHlo.after partB V (Proc.devRef .tc main_arg12) = V (Proc.devRef .tc main_arg12) := by unwritten

theorem partC_norm : StableHlo.after partC V (Proc.devRef .tc main_v131)
    = mulf (F := Ideal) (φ := .f32) (V (Proc.devRef .tc main_v123)) (V (Proc.devRef .tc main_v130)) := by
  literal_part; after_results
theorem partC_rows : StableHlo.after partC V (Proc.devRef .tc main_v138)
    = rowsAt (V (Proc.devRef .tc main_v106)) (V (Proc.devRef .tc main_v100)) := by
  literal_part; after_results; rfl
theorem partC_col : StableHlo.after partC V (Proc.devRef .tc main_v103) = V (Proc.devRef .tc main_v103) := by unwritten
theorem partC_bias : StableHlo.after partC V (Proc.devRef .tc main_arg12) = V (Proc.devRef .tc main_arg12) := by unwritten

theorem partD_out : StableHlo.after partD V (Proc.devRef .tc main_v147)
    = gatherAdd (scale (V (Proc.devRef .tc main_v138)) (V (Proc.devRef .tc main_v131)))
        (V (Proc.devRef .tc main_v103)) (V (Proc.devRef .tc main_arg12)) := by
  literal_part; after_results; rfl

/-- The reads, the products, the scatter-add and the bias. -/
theorem ops8_2_out : StableHlo.after hostOps8_2 V (Proc.devRef .tc main_v147)
    = gatherAdd (scale (rowsAt (V (Proc.devRef .tc main_v106)) (V (Proc.devRef .tc main_v100)))
          (norm (V (Proc.devRef .tc main_v116)) (V (Proc.devRef .tc main_v100)) (V (Proc.devRef .tc main_v103))))
        (V (Proc.devRef .tc main_v103)) (V (Proc.devRef .tc main_arg12)) := by
  rw [parts, StableHlo.after_append, StableHlo.after_append, StableHlo.after_append,
    partD_out, partC_rows, partC_norm, partC_col, partC_bias,
    partB_tgt, partB_src, partB_rows, partB_row, partB_col, partB_bias,
    partA_src, partA_dis, partA_rows, partA_row, partA_col, partA_bias]
  rfl

end Stretches

/-! ### The buffers at the boundaries of the kernel's program -/

variable (m : (ℓ : Loc nD τ sig) → Buf (Elt Ideal) ℓ) (ρ : Dev nD → PrngReg)

/-- Nothing before the layer writes the edge list. -/
theorem W23_ei (c : Dev nD) : W23 m ρ c (Proc.devRef .tc main_arg1) = arg1 m c :=
  calc W23 m ρ c (Proc.devRef .tc main_arg1)
    _ = W0 m ρ c (Proc.devRef .tc main_arg1) := by walk_back
    _ = arg1 m c := rfl

/-- Nor the bias. -/
theorem W28_bias (c : Dev nD) : W28 m ρ c (Proc.devRef .tc main_arg12) = arg12 m c :=
  calc W28 m ρ c (Proc.devRef .tc main_arg12)
    _ = W0 m ρ c (Proc.devRef .tc main_arg12) := by walk_back
    _ = arg12 m c := rfl

/-- The sources, -/
theorem W24_row (c : Dev nD) : W24 m ρ c (Proc.devRef .tc main_v100) = row (arg1 m c) :=
  calc W24 m ρ c (Proc.devRef .tc main_v100)
    _ = row (W23 m ρ c (Proc.devRef .tc main_arg1)) := ops7_row _
    _ = row (arg1 m c) := by rw [W23_ei]

/-- and the targets, once the edge list is rebuilt. -/
theorem W24_col (c : Dev nD) : W24 m ρ c (Proc.devRef .tc main_v103) = col (arg1 m c) :=
  calc W24 m ρ c (Proc.devRef .tc main_v103)
    _ = col (W23 m ρ c (Proc.devRef .tc main_arg1)) := ops7_col _
    _ = col (arg1 m c) := by rw [W23_ei]

theorem W26_col (c : Dev nD) : W26 m ρ c (Proc.devRef .tc main_v103) = col (arg1 m c) :=
  calc W26 m ρ c (Proc.devRef .tc main_v103)
    _ = W24 m ρ c (Proc.devRef .tc main_v103) := by walk_back
    _ = col (arg1 m c) := W24_col m ρ c

theorem W28_row (c : Dev nD) : W28 m ρ c (Proc.devRef .tc main_v100) = row (arg1 m c) :=
  calc W28 m ρ c (Proc.devRef .tc main_v100)
    _ = W24 m ρ c (Proc.devRef .tc main_v100) := by walk_back
    _ = row (arg1 m c) := W24_row m ρ c

theorem W28_col (c : Dev nD) : W28 m ρ c (Proc.devRef .tc main_v103) = col (arg1 m c) :=
  calc W28 m ρ c (Proc.devRef .tc main_v103)
    _ = W24 m ρ c (Proc.devRef .tc main_v103) := by walk_back
    _ = col (arg1 m c) := W24_col m ρ c

/-- The projected rows are those the linear layer left. -/
theorem W28_rows (c : Dev nD) : W28 m ρ c (Proc.devRef .tc main_v106) = b106 m ρ c := by
  show W28 m ρ c (Proc.devRef .tc main_v106) = W27 m ρ c (Proc.devRef .tc main_v106)
  walk_back

/-- The normalisation factor of every node. -/
theorem W28_dis (c : Dev nD) : W28 m ρ c (Proc.devRef .tc main_v116) = dis (deg (col (arg1 m c))) :=
  calc W28 m ρ c (Proc.devRef .tc main_v116)
    _ = select (W27 m ρ c (Proc.devRef .tc main_v112)) (W27 m ρ c (Proc.devRef .tc main_v115))
          (broadcastInDim S50000 ![] bcast_S_S50000 (id (W27 m ρ c (Proc.devRef .tc main_cst_22)))) := ops8_1_dis _
    _ = select (pos (deg (W26 m ρ c (Proc.devRef .tc main_v103)))) (rs (deg (W26 m ρ c (Proc.devRef .tc main_v103))))
          (broadcastInDim S50000 ![] bcast_S_S50000 (id (constant (F := Ideal) S_ .f32 0x00000000#32))) := by
        rw [show W27 m ρ c (Proc.devRef .tc main_v112) = _ from ops8_pos _,
          show W27 m ρ c (Proc.devRef .tc main_v115) = _ from ops8_rs _,
          show W27 m ρ c (Proc.devRef .tc main_cst_22) = _ from ops8_zero _]
    _ = dis (deg (col (arg1 m c))) := by rw [W26_col]; rfl

/-- The layer's output buffer is the aggregation of its projected rows. -/
theorem kAgg (c : Dev nD) : b147 m ρ c = agg (b106 m ρ c) (arg1 m c) (arg12 m c) :=
  calc b147 m ρ c
    _ = W29 m ρ c (Proc.devRef .tc main_v147) := by
        show W30 m ρ c (Proc.devRef .tc main_v147) = W29 m ρ c (Proc.devRef .tc main_v147)
        walk_back
    _ = gatherAdd (scale (rowsAt (W28 m ρ c (Proc.devRef .tc main_v106)) (W28 m ρ c (Proc.devRef .tc main_v100)))
            (norm (W28 m ρ c (Proc.devRef .tc main_v116)) (W28 m ρ c (Proc.devRef .tc main_v100)) (W28 m ρ c (Proc.devRef .tc main_v103))))
          (W28 m ρ c (Proc.devRef .tc main_v103)) (W28 m ρ c (Proc.devRef .tc main_arg12)) := ops8_2_out _
    _ = gatherAdd (scale (rowsAt (b106 m ρ c) (row (arg1 m c)))
            (norm (dis (deg (col (arg1 m c)))) (row (arg1 m c)) (col (arg1 m c))))
          (col (arg1 m c)) (arg12 m c) := by
        rw [W28_rows, W28_dis, W28_row, W28_col, W28_bias]
    _ = agg (b106 m ρ c) (arg1 m c) (arg12 m c) := rfl
end Kernel

section Reference
open Cert.ReferenceIdeal Cert.ReferenceIdeal.Read
variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 x4 x5 : (⟨S64, .f32⟩ : BufTy).Contents (Elt Ideal))
  (x6 : (⟨S64x128, .f32⟩ : BufTy).Contents (Elt Ideal)) (x7 x8 x9 x10 : (⟨S128, .f32⟩ : BufTy).Contents (Elt Ideal))
  (x11 : (⟨S128x64, .f32⟩ : BufTy).Contents (Elt Ideal)) (x12 : (⟨S64, .f32⟩ : BufTy).Contents (Elt Ideal))

/-! ### The reference's stages of the layer, one after the other (its dimension numbers are the kernel program's) -/

/-- The sources with their self-loops, -/
theorem r_row : val_main_v159 (F := Ideal) x1 = row x1 := rfl
/-- the targets with theirs, -/
theorem r_col : val_main_v162 (F := Ideal) x1 = col x1 := rfl
/-- the degrees of the targets, -/
theorem r_deg : val_main_v167 (F := Ideal) x1 = deg (val_main_v162 (F := Ideal) x1) := rfl
/-- the normalisation factor of every node, -/
theorem r_dis : val_main_v173 (F := Ideal) x1 = dis (val_main_v167 (F := Ideal) x1) := rfl
/-- read at the sources -/
theorem r_src : val_main_v180 (F := Ideal) x1 = pick (val_main_v173 (F := Ideal) x1) (val_main_v159 (F := Ideal) x1) := rfl
/-- and at the targets, -/
theorem r_tgt : val_main_v187 (F := Ideal) x1 = pick (val_main_v173 (F := Ideal) x1) (val_main_v162 (F := Ideal) x1) := rfl
/-- the normalisation of every edge, -/
theorem r_norm : val_main_v188 (F := Ideal) x1
    = norm (val_main_v173 (F := Ideal) x1) (val_main_v159 (F := Ideal) x1) (val_main_v162 (F := Ideal) x1) := by
  rw [val_main_v188, r_src, r_tgt]; rfl
/-- the projected rows read at the sources, -/
theorem r_rows : val_main_v195 (F := Ideal) x0 x1 x2 x3 x4 x5 x6 x7 x8 x9 x10 x11
    = rowsAt (val_main_v163 (F := Ideal) x0 x1 x2 x3 x4 x5 x6 x7 x8 x9 x10 x11) (val_main_v159 (F := Ideal) x1) := rfl
/-- scaled, -/
theorem r_msg : val_main_v198 (F := Ideal) x0 x1 x2 x3 x4 x5 x6 x7 x8 x9 x10 x11
    = scale (val_main_v195 (F := Ideal) x0 x1 x2 x3 x4 x5 x6 x7 x8 x9 x10 x11) (val_main_v188 (F := Ideal) x1) := rfl
/-- added at the targets, plus the bias. -/
theorem r_out : val_main_v204 (F := Ideal) x0 x1 x2 x3 x4 x5 x6 x7 x8 x9 x10 x11 x12
    = gatherAdd (val_main_v198 (F := Ideal) x0 x1 x2 x3 x4 x5 x6 x7 x8 x9 x10 x11) (val_main_v162 (F := Ideal) x1) x12 := rfl

/-- Its stage `val_main_v204` is the same aggregation of its stage `val_main_v163`. -/
theorem rAgg : val_main_v204 (F := Ideal) x0 x1 x2 x3 x4 x5 x6 x7 x8 x9 x10 x11 x12 = agg (val_main_v163 (F := Ideal) x0 x1 x2 x3 x4 x5 x6 x7 x8 x9 x10 x11) x1 x12 := by
  rw [r_out, r_msg, r_rows, r_norm, r_dis, r_deg, r_col, r_row]; rfl
end Reference

end L2

/-- Layer 2's aggregation as a function of the projected rows `H`, the edge list and the bias. -/
def agg2 (H : Cert.KernelIdeal.S50000x64.Idx → EReal) (ei : Cert.KernelIdeal.S2x800000.Idx → BitVec 32)
    (bias : Cert.KernelIdeal.S64.Idx → EReal) : Cert.KernelIdeal.S50000x64.Idx → EReal :=
  L2.agg H ei bias

section Kernel
open Cert.KernelIdeal Cert.KernelIdeal.Gen Cert.KernelIdeal.Chain
variable (m : (ℓ : Loc nD τ sig) → Buf (Elt Ideal) ℓ) (ρ : Dev nD → PrngReg)

/-- The kernel's program: the layer's output buffer is the aggregation of its projected rows. -/
theorem k_agg2 (c : Dev nD) : b147 m ρ c = agg2 (b106 m ρ c) (arg1 m c) (arg12 m c) := L2.kAgg m ρ c
end Kernel

section Reference
open Cert.ReferenceIdeal Cert.ReferenceIdeal.Read
variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 x4 x5 : (⟨S64, .f32⟩ : BufTy).Contents (Elt Ideal))
  (x6 : (⟨S64x128, .f32⟩ : BufTy).Contents (Elt Ideal)) (x7 x8 x9 x10 : (⟨S128, .f32⟩ : BufTy).Contents (Elt Ideal))
  (x11 : (⟨S128x64, .f32⟩ : BufTy).Contents (Elt Ideal)) (x12 : (⟨S64, .f32⟩ : BufTy).Contents (Elt Ideal))

/-- The reference: its stage `val_main_v204` is the same aggregation of its stage `val_main_v163`. -/
theorem r_agg2 : val_main_v204 (F := Ideal) x0 x1 x2 x3 x4 x5 x6 x7 x8 x9 x10 x11 x12 = agg2 (val_main_v163 (F := Ideal) x0 x1 x2 x3 x4 x5 x6 x7 x8 x9 x10 x11) x1 x12 :=
  L2.rAgg x0 x1 x2 x3 x4 x5 x6 x7 x8 x9 x10 x11 x12
end Reference

end Cert.Tail

end
-- ==== Proof.RGn1.lean ====
/-
  THE REFERENCE'S FIRST GraphNorm, read index by index: its scatter-add segment sums, its gathers of the per-graph tables
  at the node labels and its quotient by a square root are the specification's GraphNorm of the argument rows, when
  every label is a graph index.
-/
import proofs.«413028_j69071664054692_1_alg».proof.Proof.RefRead
import proofs.«413028_j69071664054692_1_alg».proof.Proof.Spec
import proofs.«413028_j69071664054692_1_alg».proof.Proof.LibSegment
import proofs.«413028_j69071664054692_1_alg».proof.Proof.LibIndexing

import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Read Cert.Spec

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 x4 x5 : (⟨S64, .f32⟩ : BufTy).Contents (Elt Ideal))
  (x6 : (⟨S64x128, .f32⟩ : BufTy).Contents (Elt Ideal)) (x7 x8 x9 x10 : (⟨S128, .f32⟩ : BufTy).Contents (Elt Ideal))
  (x11 : (⟨S128x64, .f32⟩ : BufTy).Contents (Elt Ideal)) (x12 : (⟨S64, .f32⟩ : BufTy).Contents (Elt Ideal))

/-! ## The printed dimension records are the row / vector scatter and the row gather at these extents -/

theorem gn1_vecScatter_eq : scatter_S256_S50000x1_S50000_n_0_0_1
    = Cert.LibIndexing.vecScatterDims 256 50000 Gen.scatter_S256_S50000x1_S50000_n_0_0_1_wf := rfl
theorem gn1_rowScatter_eq : scatter_S256x64_S50000x1_S50000x64_1_0_0_1
    = Cert.LibIndexing.rowScatterDims 256 64 50000 Gen.scatter_S256x64_S50000x1_S50000x64_1_0_0_1_wf := rfl
theorem gn1_rowGather_eq : gather_S256x64_S50000x1_S50000x64_1_0_n_n_0_1_164
    = Cert.LibIndexing.rowGatherDims 256 64 50000 Gen.gather_S256x64_S50000x1_S50000x64_1_0_n_n_0_1_164_wf := rfl

/-! ## The label column and the count -/

/-- The label column (the labels broadcast to a column) read at row `e` is node `e`'s label. -/
theorem gn1_v1_at (e : Fin 50000) : val_main_v1 (F := Ideal) x2 (ix2 e 0) = x2 (ix1 e) := by
  rw [val_main_v1_apply]; congr 1; funext a; match a with | ⟨0, _⟩ => rfl
theorem gn1_v5_at (e : Fin 50000) : val_main_v5 (F := Ideal) x2 (ix2 e 0) = x2 (ix1 e) := by
  rw [val_main_v5_apply]; congr 1; funext a; match a with | ⟨0, _⟩ => rfl
theorem gn1_v25_at (e : Fin 50000) : val_main_v25 (F := Ideal) x2 (ix2 e 0) = x2 (ix1 e) := by
  rw [val_main_v25_apply]; congr 1; funext a; match a with | ⟨0, _⟩ => rfl
theorem gn1_v29_at (e : Fin 50000) : val_main_v29 (F := Ideal) x2 (ix2 e 0) = x2 (ix1 e) := by
  rw [val_main_v29_apply]; congr 1; funext a; match a with | ⟨0, _⟩ => rfl

/-- The scatter-add of ones at the labels, into zeros, is the sum of a one per node of the graph. -/
theorem gn1_v6_at (g : Fin 256) :
    val_main_v6 (F := Ideal) x2 (ix1 g)
      = ∑ _n ∈ Finset.univ.filter (fun n : Fin 50000 => sint (x2 : IVec S50000 32) n = (g.val : Int)), one := by
  unfold val_main_v6
  rw [gn1_vecScatter_eq, Cert.LibIndexing.scatterAdd_vec_apply, val_main_v4_apply, val_main_cst_1_apply, Ideal.ofBits_def,
    Ideal.ofBits_zero_f32, zero_add]
  simp only [gn1_v5_at, val_main_v3_apply, val_main_cst_0_apply]
  rfl
theorem gn1_v30_at (g : Fin 256) :
    val_main_v30 (F := Ideal) x2 (ix1 g)
      = ∑ _n ∈ Finset.univ.filter (fun n : Fin 50000 => sint (x2 : IVec S50000 32) n = (g.val : Int)), one := by
  unfold val_main_v30
  rw [gn1_vecScatter_eq, Cert.LibIndexing.scatterAdd_vec_apply, val_main_v28_apply, val_main_cst_6_apply, Ideal.ofBits_def,
    Ideal.ofBits_zero_f32, zero_add]
  simp only [gn1_v29_at, val_main_v27_apply, val_main_cst_5_apply]
  rfl

/-- The count floored at one (both times the reference computes it). -/
theorem gn1_r_cnt8 (g : Fin 256) :
    val_main_v8 (F := Ideal) x2 (ix1 g) = cnt one (sint (x2 : IVec S50000 32)) g := by
  rw [val_main_v8_apply, val_main_v7_apply, val_main_cst_2_apply, gn1_v6_at]
  rfl
theorem gn1_r_cnt32 (g : Fin 256) :
    val_main_v32 (F := Ideal) x2 (ix1 g) = cnt one (sint (x2 : IVec S50000 32)) g := by
  rw [val_main_v32_apply, val_main_v31_apply, val_main_cst_7_apply, gn1_v30_at]
  rfl

/-! ## The means -/

/-- The scatter-add of the argument rows at the labels, into zeros, is the segment sum. -/
theorem gn1_v2_at (g : Fin 256) (d : Fin 64) :
    val_main_v2 (F := Ideal) x0 x2 (ix2 g d)
      = segSum (sint (x2 : IVec S50000 32)) (mat (x0 : FVec Ideal S50000x64 .f32)) g d := by
  unfold val_main_v2
  rw [gn1_rowScatter_eq, Cert.LibIndexing.scatterAdd_rows_apply, val_main_v0_apply, val_main_cst_apply, Ideal.ofBits_def,
    Ideal.ofBits_zero_f32, zero_add]
  simp only [gn1_v1_at]
  rfl

/-- The means: segment sum over the floored count. -/
theorem gn1_r_mean (g : Fin 256) (d : Fin 64) :
    val_main_v11 (F := Ideal) x0 x2 (ix2 g d)
      = mean one (sint (x2 : IVec S50000 32)) (mat (x0 : FVec Ideal S50000x64 .f32)) g d := by
  have hi : idx_main_v9 (idx_main_v10 (ix2 g d)) = ix1 g := by
    funext a; match a with | ⟨0, _⟩ => rfl
  rw [val_main_v11_apply, val_main_v10_apply, val_main_v9_apply, gn1_v2_at, hi, gn1_r_cnt8]
  rfl

/-! ## The gather index: a label that is a graph index is not wrapped, and not clamped -/

/-- A label in range is not negative: the wrap leaves it. -/
theorem gn1_v16_at (hr : InRange (sint (x2 : IVec S50000 32))) (n : Fin 50000) :
    val_main_v16 (F := Ideal) x2 (ix1 n) = x2 (ix1 n) := by
  rw [val_main_v16_apply, val_main_v13_apply, val_main_v12_apply, val_main_c_apply]
  have h0 : ¬ IntOp.cmpi .slt (x2 (ix1 n)) 0#32 = 1#1 := by
    rw [IntOp.cmpi_slt]
    have h := (hr n).1
    have hz : (0#32 : BitVec 32).toInt = 0 := by decide
    rw [hz]
    exact not_lt.mpr h
  rw [eq_zero_of_ne_one h0, select_zero]
theorem gn1_v40_at (hr : InRange (sint (x2 : IVec S50000 32))) (n : Fin 50000) :
    val_main_v40 (F := Ideal) x2 (ix1 n) = x2 (ix1 n) := by
  rw [val_main_v40_apply, val_main_v37_apply, val_main_v36_apply, val_main_c_8_apply]
  have h0 : ¬ IntOp.cmpi .slt (x2 (ix1 n)) 0#32 = 1#1 := by
    rw [IntOp.cmpi_slt]
    have h := (hr n).1
    have hz : (0#32 : BitVec 32).toInt = 0 := by decide
    rw [hz]
    exact not_lt.mpr h
  rw [eq_zero_of_ne_one h0, select_zero]

theorem gn1_v17_at (hr : InRange (sint (x2 : IVec S50000 32))) (n : Fin 50000) :
    val_main_v17 (F := Ideal) x2 (ix2 n 0) = x2 (ix1 n) := by
  have hi : idx_main_v17 (ix2 n (0 : Fin 1)) = ix1 n := by
    funext a; match a with | ⟨0, _⟩ => rfl
  rw [val_main_v17_apply, hi, gn1_v16_at x2 hr]
theorem gn1_v41_at (hr : InRange (sint (x2 : IVec S50000 32))) (n : Fin 50000) :
    val_main_v41 (F := Ideal) x2 (ix2 n 0) = x2 (ix1 n) := by
  have hi : idx_main_v41 (ix2 n (0 : Fin 1)) = ix1 n := by
    funext a; match a with | ⟨0, _⟩ => rfl
  rw [val_main_v41_apply, hi, gn1_v40_at x2 hr]

/-- A label in `[0, 256)`, clamped into `[0, 255]`, is the node's graph index. -/
theorem gn1_clamp_eq_gix (b : Fin 50000 → Int) (hr : InRange b) (n : Fin 50000) (w : BitVec 32) (hw : w.toInt = b n) :
    min w.toInt.toNat (256 - 1) = (gix b n).val := by
  show _ = (b n).toNat % 256
  rw [hw]
  have h := hr n
  omega

/-- The means gathered at the labels. -/
theorem gn1_v18_at (hr : InRange (sint (x2 : IVec S50000 32))) (n : Fin 50000) (d : Fin 64) :
    val_main_v18 (F := Ideal) x0 x2 (ix2 n d)
      = mean one (sint (x2 : IVec S50000 32)) (mat (x0 : FVec Ideal S50000x64 .f32)) (gix (sint (x2 : IVec S50000 32)) n) d := by
  unfold val_main_v18
  rw [gn1_rowGather_eq, Cert.LibIndexing.gather_rows_apply (by norm_num), ← gn1_r_mean]
  refine congrArg (fun i : Fin 256 => val_main_v11 (F := Ideal) x0 x2 (ix2 i d)) (Fin.ext ?_)
  exact gn1_clamp_eq_gix _ hr n _ (by rw [gn1_v17_at x2 hr]; rfl)

/-! ## The centred rows -/

theorem gn1_r_centered (hr : InRange (sint (x2 : IVec S50000 32))) (n : Fin 50000) (d : Fin 64) :
    val_main_v22 (F := Ideal) x0 x2 x5 (ix2 n d)
      = centered one (sint (x2 : IVec S50000 32)) (vec (x5 : FVec Ideal S64 .f32)) (mat (x0 : FVec Ideal S50000x64 .f32)) n d := by
  have hi : idx_main_v19 (idx_main_v20 (ix2 n d)) = ix1 d := by
    funext a; match a with | ⟨0, _⟩ => rfl
  rw [val_main_v22_apply, val_main_v21_apply, val_main_v20_apply, val_main_v19_apply, hi, gn1_v18_at x0 x2 hr]
  rfl

/-! ## The variances -/

/-- The scatter-add of the squared centred rows, into zeros, is their segment sum. -/
theorem gn1_v26_at (hr : InRange (sint (x2 : IVec S50000 32))) (g : Fin 256) (d : Fin 64) :
    val_main_v26 (F := Ideal) x0 x2 x5 (ix2 g d)
      = segSum (sint (x2 : IVec S50000 32))
          (fun n d => centered one (sint (x2 : IVec S50000 32)) (vec (x5 : FVec Ideal S64 .f32)) (mat (x0 : FVec Ideal S50000x64 .f32)) n d
            * centered one (sint (x2 : IVec S50000 32)) (vec (x5 : FVec Ideal S64 .f32)) (mat (x0 : FVec Ideal S50000x64 .f32)) n d) g d := by
  unfold val_main_v26
  rw [gn1_rowScatter_eq, Cert.LibIndexing.scatterAdd_rows_apply, val_main_v24_apply, val_main_cst_4_apply, Ideal.ofBits_def,
    Ideal.ofBits_zero_f32, zero_add]
  simp only [gn1_v25_at, val_main_v23_apply, gn1_r_centered x0 x2 x5 hr, Ideal.mulf_def]
  rfl

theorem gn1_r_var (hr : InRange (sint (x2 : IVec S50000 32))) (g : Fin 256) (d : Fin 64) :
    val_main_v35 (F := Ideal) x0 x2 x5 (ix2 g d)
      = var one (sint (x2 : IVec S50000 32)) (vec (x5 : FVec Ideal S64 .f32)) (mat (x0 : FVec Ideal S50000x64 .f32)) g d := by
  have hi : idx_main_v33 (idx_main_v34 (ix2 g d)) = ix1 g := by
    funext a; match a with | ⟨0, _⟩ => rfl
  rw [val_main_v35_apply, val_main_v34_apply, val_main_v33_apply, gn1_v26_at x0 x2 x5 hr, hi, gn1_r_cnt32]
  rfl

/-- The variances gathered at the labels. -/
theorem gn1_v42_at (hr : InRange (sint (x2 : IVec S50000 32))) (n : Fin 50000) (d : Fin 64) :
    val_main_v42 (F := Ideal) x0 x2 x5 (ix2 n d)
      = var one (sint (x2 : IVec S50000 32)) (vec (x5 : FVec Ideal S64 .f32)) (mat (x0 : FVec Ideal S50000x64 .f32))
          (gix (sint (x2 : IVec S50000 32)) n) d := by
  unfold val_main_v42
  rw [gn1_rowGather_eq, Cert.LibIndexing.gather_rows_apply (by norm_num), ← gn1_r_var x0 x2 x5 hr]
  refine congrArg (fun i : Fin 256 => val_main_v35 (F := Ideal) x0 x2 x5 (ix2 i d)) (Fin.ext ?_)
  exact gn1_clamp_eq_gix _ hr n _ (by rw [gn1_v41_at x2 hr]; rfl)

/-- The reference's normalised rows of the first GraphNorm. -/
theorem r_h1 (hr : InRange (sint (x2 : IVec S50000 32))) (n : Fin 50000) (d : Fin 64) :
    val_main_v52 (F := Ideal) x0 x2 x3 x4 x5 (ix2 n d)
      = gnOut one eps (sint (x2 : IVec S50000 32)) (vec (x3 : FVec Ideal S64 .f32)) (vec (x4 : FVec Ideal S64 .f32)) (vec (x5 : FVec Ideal S64 .f32))
          (mat (x0 : FVec Ideal S50000x64 .f32)) n d := by
  have h3 : idx_main_v47 (idx_main_v48 (ix2 n d)) = ix1 d := by
    funext a; match a with | ⟨0, _⟩ => rfl
  have h4 : idx_main_v50 (idx_main_v51 (ix2 n d)) = ix1 d := by
    funext a; match a with | ⟨0, _⟩ => rfl
  rw [val_main_v52_apply, val_main_v49_apply, val_main_v51_apply, val_main_v50_apply, val_main_v48_apply,
    val_main_v47_apply, val_main_v46_apply, val_main_v45_apply, val_main_v44_apply, val_main_v43_apply,
    val_main_cst_10_apply, h3, h4, gn1_r_centered x0 x2 x5 hr, gn1_v42_at x0 x2 x5 hr]
  simp only [Ideal.addf_def, Ideal.mulf_def, Ideal.hostDivf_def, Ideal.hostUnary_sqrt_def, Ideal.ofBits_def]
  rfl

end Cert.ReferenceIdeal.RefValue

end
-- ==== Proof.RGn2.lean ====
/-
  THE REFERENCE'S SECOND GraphNorm, read index by index, of the rows its first layer leaves (the stage `val_main_v102`).

  The stages after `val_main_v102` are written once more as functions of an ARBITRARY array of rows `X` (the reference's
  own are these at `X := val_main_v102 …`, by unfolding), and each is read at an index: a scatter-add into zeros is a
  segment sum, a scatter-add of ones floored at one is the count, the gather at the wrapped labels reads the row of the
  node's graph, and the pointwise stages are the specification's formulas term by term.
-/
import proofs.«413028_j69071664054692_1_alg».proof.Proof.RefRead
import proofs.«413028_j69071664054692_1_alg».proof.Proof.Spec
import proofs.«413028_j69071664054692_1_alg».proof.Proof.LibSegment
import proofs.«413028_j69071664054692_1_alg».proof.Proof.LibIndexing

import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Read Cert.Spec

/-! ## The labels

The column of labels the segment sums scatter by is the label vector itself; the column the per-graph tables are
gathered at is the label vector with its negative entries wrapped by 256, which for labels in `[0, 256)` changes nothing,
and clamping such a label into `[0, 255]` changes nothing either. -/

/-- A word that is not negative, read signed, is left alone by the wrap of negative indices. -/
theorem wrap_of_nonneg (a : BitVec 32) (h : 0 ≤ a.toInt) :
    Scalar.select (IntOp.cmpi .slt a 0#32) (IntOp.addi a 256#32) a = a := by
  have hs : a.slt 0#32 = false := by
    rw [BitVec.slt, BitVec.toInt_zero]
    exact decide_eq_false (not_lt.mpr h)
  show (if BitVec.ofBool (a.slt 0#32) = 1 then _ else _) = _
  rw [hs]
  rfl

section Labels

variable (x2 : (⟨S50000, .i32⟩ : BufTy).Contents (Elt Ideal)) (x8 x9 x10 : (⟨S128, .f32⟩ : BufTy).Contents (Elt Ideal))
  (X : (⟨S50000x128, .f32⟩ : BufTy).Contents (Elt Ideal))

/-- A vector laid out as a column reads the vector. -/
theorem col_apply (y : (⟨S50000, .i32⟩ : BufTy).Contents (Elt Ideal)) (e : Fin 50000) :
    val_main_v104 (F := Ideal) y (ix2 e 0) = y (ix1 e) := by
  rw [val_main_v104_apply]
  exact congrArg y (funext fun a => by match a with | ⟨0, _⟩ => rfl)

/-- The wrapped labels, as a column, are the labels when these are graph indices. -/
theorem wrapCol_apply (hr : InRange (sint (x2 : IVec S50000 32))) (n : Fin 50000) :
    val_main_v120 (F := Ideal) x2 (ix2 n 0) = x2 (ix1 n) := by
  show val_main_v104 (F := Ideal) (val_main_v119 (F := Ideal) x2) (ix2 n 0) = _
  rw [col_apply, val_main_v119_apply, val_main_v116_apply, val_main_v118_apply, val_main_v115_apply,
    val_main_v117_apply, val_main_c_27_apply, val_main_c_28_apply]
  exact wrap_of_nonneg _ (hr n).1

/-- A per-graph table gathered at the wrapped labels reads, at node `n`, the table's row of the node's graph. -/
theorem gather_labels (hr : InRange (sint (x2 : IVec S50000 32)))
    (T : (⟨S256x128, .f32⟩ : BufTy).Contents (Elt Ideal)) (n : Fin 50000) (d : Fin 128) :
    Host.gather gather_S256x128_S50000x1_S50000x128_1_0_n_n_0_1_1128 T (val_main_v120 (F := Ideal) x2) (ix2 n d)
      = T (ix2 (gix (sint (x2 : IVec S50000 32)) n) d) := by
  have hd : gather_S256x128_S50000x1_S50000x128_1_0_n_n_0_1_1128 = Cert.LibIndexing.rowGatherDims 256 128 50000 _ := rfl
  rw [hd, Cert.LibIndexing.gather_rows_apply (by norm_num)]
  refine congrArg (fun k : Fin 256 => T (ix2 k d)) (Fin.ext ?_)
  show min (val_main_v120 (F := Ideal) x2 (ix2 n 0)).toInt.toNat (256 - 1) = (x2 (ix1 n)).toInt.toNat % 256
  rw [wrapCol_apply x2 hr n]
  have h0 : 0 ≤ (x2 (ix1 n)).toInt := (hr n).1
  have h1 : (x2 (ix1 n)).toInt < 256 := (hr n).2
  generalize (x2 (ix1 n)).toInt = z at h0 h1 ⊢
  omega

/-- A feature vector laid out along the rows reads the vector at the column. -/
theorem row_apply (y : (⟨S128, .f32⟩ : BufTy).Contents (Elt Ideal)) (n : Fin 50000) (d : Fin 128) :
    val_main_v123 (F := Ideal) y (ix2 n d) = y (ix1 d) := by
  rw [val_main_v123_apply, val_main_v122_apply]
  exact congrArg y (funext fun a => by match a with | ⟨0, _⟩ => rfl)

/-! ## The counts -/

/-- The number of nodes of a graph, floored at one. -/
theorem count_apply (g : Fin 256) :
    val_main_v111 (F := Ideal) x2 (ix1 g) = cnt one (sint (x2 : IVec S50000 32)) g := by
  have hd : scatter_S256_S50000x1_S50000_n_0_0_1 = Cert.LibIndexing.vecScatterDims 256 50000 _ := rfl
  rw [val_main_v111_apply, val_main_v110_apply, val_main_cst_26_apply]
  unfold val_main_v109
  rw [hd, Cert.LibIndexing.scatterAdd_vec_apply, val_main_v107_apply, val_main_cst_25_apply]
  simp only [val_main_v106_apply, val_main_cst_24_apply, Ideal.ofBits_def, Ideal.maximumf_def, Ideal.ofBits_zero_f32,
    zero_add]
  show max (∑ e ∈ Finset.univ.filter (fun e : Fin 50000 => (val_main_v104 (F := Ideal) x2 (ix2 e 0)).toInt = (g.val : Int)), one) one = _
  simp only [col_apply]
  rfl

/-- The count laid out over the features. -/
theorem countTab_apply (g : Fin 256) (d : Fin 128) :
    val_main_v113 (F := Ideal) x2 (ix2 g d) = cnt one (sint (x2 : IVec S50000 32)) g := by
  rw [val_main_v113_apply, val_main_v112_apply, ← count_apply]
  exact congrArg (val_main_v111 (F := Ideal) x2) (funext fun a => by match a with | ⟨0, _⟩ => rfl)

end Labels

/-! ## The stages, for any rows `X` -/

section Defs

variable {F : FTy → Type} [FloatOps F]
variable (x2 : (⟨S50000, .i32⟩ : BufTy).Contents (Elt F)) (x8 x9 x10 : (⟨S128, .f32⟩ : BufTy).Contents (Elt F))
  (X : (⟨S50000x128, .f32⟩ : BufTy).Contents (Elt F))

/-- The segment sums of the rows. -/
def sumTab : (⟨S256x128, .f32⟩ : BufTy).Contents (Elt F) :=
  Host.scatterAdd scatter_S256x128_S50000x1_S50000x128_1_0_0_1 (val_main_v103 (F := F)) (val_main_v104 (F := F) x2) X

/-- The mean rows. -/
def meanTab : (⟨S256x128, .f32⟩ : BufTy).Contents (Elt F) :=
  Host.divf (sumTab x2 X) (val_main_v113 (F := F) x2)

/-- Every node's mean row. -/
def meanRows : (⟨S50000x128, .f32⟩ : BufTy).Contents (Elt F) :=
  Host.gather gather_S256x128_S50000x1_S50000x128_1_0_n_n_0_1_1128 (meanTab x2 X) (val_main_v120 (F := F) x2)

/-- The centred rows. -/
def cenRows : (⟨S50000x128, .f32⟩ : BufTy).Contents (Elt F) :=
  subf X (mulf (val_main_v123 (F := F) x10) (meanRows x2 X))

/-- The segment sums of the squares of the centred rows. -/
def sqTab : (⟨S256x128, .f32⟩ : BufTy).Contents (Elt F) :=
  Host.scatterAdd scatter_S256x128_S50000x1_S50000x128_1_0_0_1 (val_main_v127 (F := F)) (val_main_v128 (F := F) x2)
    (mulf (cenRows x2 x10 X) (cenRows x2 x10 X))

/-- The variance rows. -/
def varTab : (⟨S256x128, .f32⟩ : BufTy).Contents (Elt F) :=
  Host.divf (sqTab x2 x10 X) (val_main_v137 (F := F) x2)

/-- Every node's variance row. -/
def varRows : (⟨S50000x128, .f32⟩ : BufTy).Contents (Elt F) :=
  Host.gather gather_S256x128_S50000x1_S50000x128_1_0_n_n_0_1_1128 (varTab x2 x10 X) (val_main_v144 (F := F) x2)

/-- The normalised rows, scaled and shifted. -/
def outRows : (⟨S50000x128, .f32⟩ : BufTy).Contents (Elt F) :=
  addf (mulf (val_main_v151 (F := F) x8)
    (Host.divf (cenRows x2 x10 X) (Host.sqrt (addf (varRows x2 x10 X) (val_main_v146 (F := F))))))
    (val_main_v154 (F := F) x9)

/-- The pointwise stages at an index, by unfolding. -/
theorem meanTab_read (i : S256x128.Idx) :
    meanTab x2 X i = FloatOps.hostDivf (sumTab x2 X i) (val_main_v113 (F := F) x2 i) := rfl
theorem cenRows_read (i : S50000x128.Idx) :
    cenRows x2 x10 X i = FloatOps.subf (X i) (FloatOps.mulf (val_main_v123 (F := F) x10 i) (meanRows x2 X i)) := rfl
theorem varTab_read (i : S256x128.Idx) :
    varTab x2 x10 X i = FloatOps.hostDivf (sqTab x2 x10 X i) (val_main_v137 (F := F) x2 i) := rfl
theorem outRows_read (i : S50000x128.Idx) :
    outRows x2 x8 x9 x10 X i
      = FloatOps.addf (FloatOps.mulf (val_main_v151 (F := F) x8 i)
          (FloatOps.hostDivf (cenRows x2 x10 X i)
            (FloatOps.hostUnary .sqrt (FloatOps.addf (varRows x2 x10 X i) (val_main_v146 (F := F) i)))))
          (val_main_v154 (F := F) x9 i) := rfl

end Defs

/-! ## The stages read at an index -/

section Reads

variable (x2 : (⟨S50000, .i32⟩ : BufTy).Contents (Elt Ideal)) (x8 x9 x10 : (⟨S128, .f32⟩ : BufTy).Contents (Elt Ideal))
  (X : (⟨S50000x128, .f32⟩ : BufTy).Contents (Elt Ideal))

theorem sumTab_apply (g : Fin 256) (d : Fin 128) :
    sumTab x2 X (ix2 g d) = segSum (sint (x2 : IVec S50000 32)) (mat (X : FVec Ideal S50000x128 .f32)) g d := by
  have hd : scatter_S256x128_S50000x1_S50000x128_1_0_0_1 = Cert.LibIndexing.rowScatterDims 256 128 50000 _ := rfl
  unfold sumTab
  rw [hd, Cert.LibIndexing.scatterAdd_rows_apply, val_main_v103_apply, val_main_cst_23_apply]
  simp only [col_apply, Ideal.ofBits_def, Ideal.ofBits_zero_f32, zero_add]
  rfl

theorem meanTab_apply (g : Fin 256) (d : Fin 128) :
    meanTab x2 X (ix2 g d) = mean one (sint (x2 : IVec S50000 32)) (mat (X : FVec Ideal S50000x128 .f32)) g d := by
  rw [meanTab_read, Ideal.hostDivf_def, sumTab_apply, countTab_apply]
  rfl

theorem meanRows_apply (hr : InRange (sint (x2 : IVec S50000 32))) (n : Fin 50000) (d : Fin 128) :
    meanRows x2 X (ix2 n d)
      = mean one (sint (x2 : IVec S50000 32)) (mat (X : FVec Ideal S50000x128 .f32)) (gix (sint (x2 : IVec S50000 32)) n) d := by
  unfold meanRows
  rw [gather_labels x2 hr, meanTab_apply]

theorem cenRows_apply (hr : InRange (sint (x2 : IVec S50000 32))) (n : Fin 50000) (d : Fin 128) :
    cenRows x2 x10 X (ix2 n d)
      = centered one (sint (x2 : IVec S50000 32)) (vec (x10 : FVec Ideal S128 .f32)) (mat (X : FVec Ideal S50000x128 .f32)) n d := by
  rw [cenRows_read, Ideal.subf_def, Ideal.mulf_def, row_apply, meanRows_apply x2 X hr]
  rfl

theorem sqTab_apply (hr : InRange (sint (x2 : IVec S50000 32))) (g : Fin 256) (d : Fin 128) :
    sqTab x2 x10 X (ix2 g d)
      = segSum (sint (x2 : IVec S50000 32))
          (fun n d => centered one (sint (x2 : IVec S50000 32)) (vec (x10 : FVec Ideal S128 .f32)) (mat (X : FVec Ideal S50000x128 .f32)) n d
            * centered one (sint (x2 : IVec S50000 32)) (vec (x10 : FVec Ideal S128 .f32)) (mat (X : FVec Ideal S50000x128 .f32)) n d) g d := by
  have hd : scatter_S256x128_S50000x1_S50000x128_1_0_0_1 = Cert.LibIndexing.rowScatterDims 256 128 50000 _ := rfl
  unfold sqTab
  rw [hd, Cert.LibIndexing.scatterAdd_rows_apply, val_main_v127_apply, val_main_cst_29_apply]
  rw [show val_main_v128 (F := Ideal) x2 = val_main_v104 (F := Ideal) x2 from rfl]
  simp only [col_apply, Ideal.ofBits_def, Ideal.ofBits_zero_f32, zero_add]
  unfold segSum
  refine Finset.sum_congr rfl fun e _ => ?_
  show cenRows x2 x10 X (ix2 e d) * cenRows x2 x10 X (ix2 e d) = _
  rw [cenRows_apply x2 x10 X hr]

theorem varTab_apply (hr : InRange (sint (x2 : IVec S50000 32))) (g : Fin 256) (d : Fin 128) :
    varTab x2 x10 X (ix2 g d)
      = var one (sint (x2 : IVec S50000 32)) (vec (x10 : FVec Ideal S128 .f32)) (mat (X : FVec Ideal S50000x128 .f32)) g d := by
  rw [varTab_read, Ideal.hostDivf_def, sqTab_apply x2 x10 X hr,
    show val_main_v137 (F := Ideal) x2 = val_main_v113 (F := Ideal) x2 from rfl, countTab_apply]
  rfl

theorem varRows_apply (hr : InRange (sint (x2 : IVec S50000 32))) (n : Fin 50000) (d : Fin 128) :
    varRows x2 x10 X (ix2 n d)
      = var one (sint (x2 : IVec S50000 32)) (vec (x10 : FVec Ideal S128 .f32)) (mat (X : FVec Ideal S50000x128 .f32))
          (gix (sint (x2 : IVec S50000 32)) n) d := by
  unfold varRows
  rw [show val_main_v144 (F := Ideal) x2 = val_main_v120 (F := Ideal) x2 from rfl, gather_labels x2 hr,
    varTab_apply x2 x10 X hr]

theorem outRows_apply (hr : InRange (sint (x2 : IVec S50000 32))) (n : Fin 50000) (d : Fin 128) :
    outRows x2 x8 x9 x10 X (ix2 n d)
      = gnOut one eps (sint (x2 : IVec S50000 32)) (vec (x8 : FVec Ideal S128 .f32)) (vec (x9 : FVec Ideal S128 .f32))
          (vec (x10 : FVec Ideal S128 .f32)) (mat (X : FVec Ideal S50000x128 .f32)) n d := by
  rw [outRows_read, Ideal.addf_def, Ideal.mulf_def, Ideal.hostDivf_def, Ideal.hostUnary_sqrt_def, Ideal.addf_def,
    show val_main_v151 (F := Ideal) x8 = val_main_v123 (F := Ideal) x8 from rfl,
    show val_main_v154 (F := Ideal) x9 = val_main_v123 (F := Ideal) x9 from rfl,
    row_apply, row_apply, cenRows_apply x2 x10 X hr, varRows_apply x2 x10 X hr, val_main_v146_apply,
    val_main_cst_35_apply, Ideal.ofBits_def]
  rfl

end Reads

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 x4 x5 : (⟨S64, .f32⟩ : BufTy).Contents (Elt Ideal))
  (x6 : (⟨S64x128, .f32⟩ : BufTy).Contents (Elt Ideal)) (x7 x8 x9 x10 : (⟨S128, .f32⟩ : BufTy).Contents (Elt Ideal))
  (x11 : (⟨S128x64, .f32⟩ : BufTy).Contents (Elt Ideal)) (x12 : (⟨S64, .f32⟩ : BufTy).Contents (Elt Ideal))

/-- The reference's second normalisation is the stages above at the rows its first layer leaves. -/
theorem v155_eq_outRows :
    val_main_v155 (F := Ideal) x0 x1 x2 x3 x4 x5 x6 x7 x8 x9 x10
      = outRows x2 x8 x9 x10 (val_main_v102 (F := Ideal) x0 x1 x2 x3 x4 x5 x6 x7) := by
  unfold val_main_v155 val_main_v152 val_main_v149 val_main_v148 val_main_v147 val_main_v145 val_main_v138 val_main_v129
    val_main_v126 val_main_v125 val_main_v124 val_main_v121 val_main_v114 val_main_v105
    outRows varRows varTab sqTab cenRows meanRows meanTab sumTab
  rfl

/-- The reference's normalised rows of the second GraphNorm. -/
theorem r_h2 (hr : InRange (sint (x2 : IVec S50000 32))) (n : Fin 50000) (d : Fin 128) :
    val_main_v155 (F := Ideal) x0 x1 x2 x3 x4 x5 x6 x7 x8 x9 x10 (ix2 n d)
      = gnOut one eps (sint (x2 : IVec S50000 32)) (vec (x8 : FVec Ideal S128 .f32)) (vec (x9 : FVec Ideal S128 .f32)) (vec (x10 : FVec Ideal S128 .f32))
          (mat (val_main_v102 (F := Ideal) x0 x1 x2 x3 x4 x5 x6 x7 : FVec Ideal S50000x128 .f32)) n d := by
  rw [v155_eq_outRows, outRows_apply x2 x8 x9 x10 _ hr]

end Cert.ReferenceIdeal.RefValue

end
-- ==== Proof.RMat.lean ====
/-
  THE REFERENCE'S TWO LINEAR LAYERS (a `dot_general` each) AND ITS MEAN POOL, read index by index.
-/
import proofs.«413028_j69071664054692_1_alg».proof.Proof.RefRead
import proofs.«413028_j69071664054692_1_alg».proof.Proof.Spec
import proofs.«413028_j69071664054692_1_alg».proof.Proof.LibSegment
import proofs.«413028_j69071664054692_1_alg».proof.Proof.LibIndexing

import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Read Cert.Spec

/-- A row scatter-add of the rows of `V` at the labels into an all-zero table is the segment sum of `V`:
    element `(g, d)` is `0` plus the sum of `V (e, d)` over the nodes `e` whose label, read signed, is `g`. -/
theorem scatter_rows_segSum (Z : FVec Ideal S256x64 .f32) (hZ : ∀ i, Z i = 0)
    (L : IVec S50000x1 32) (b : IVec S50000 32) (hL : ∀ e : Fin 50000, L (ix2 e 0) = b (ix1 e))
    (V : FVec Ideal S50000x64 .f32) (g : Fin 256) (d : Fin 64) :
    Host.scatterAdd scatter_S256x64_S50000x1_S50000x64_1_0_0_1 Z L V (ix2 g d) = segSum (sint b) (mat V) g d := by
  have hd : scatter_S256x64_S50000x1_S50000x64_1_0_0_1 = Cert.LibIndexing.rowScatterDims 256 64 50000 _ := rfl
  rw [hd, Cert.LibIndexing.scatterAdd_rows_apply, hZ, zero_add]
  unfold Cert.Spec.segSum Cert.Spec.sint Cert.Spec.mat
  refine Finset.sum_congr (Finset.filter_congr fun e _ => ?_) fun e _ => rfl
  rw [hL]

/-- A vector scatter-add of a constant `c` at the labels into an all-zero vector is `c` summed over the nodes of the
    segment: element `g` is `0` plus one `c` per node whose label, read signed, is `g`. -/
theorem scatter_vec_count (Z : FVec Ideal S256 .f32) (hZ : ∀ i, Z i = 0)
    (L : IVec S50000x1 32) (b : IVec S50000 32) (hL : ∀ e : Fin 50000, L (ix2 e 0) = b (ix1 e))
    (O : FVec Ideal S50000 .f32) (c : EReal) (hO : ∀ i, O i = c) (g : Fin 256) :
    Host.scatterAdd scatter_S256_S50000x1_S50000_n_0_0_1 Z L O (ix1 g)
      = ∑ _n ∈ Finset.univ.filter (fun n : Fin 50000 => sint b n = (g.val : Int)), c := by
  have hd : scatter_S256_S50000x1_S50000_n_0_0_1 = Cert.LibIndexing.vecScatterDims 256 50000 _ := rfl
  rw [hd, Cert.LibIndexing.scatterAdd_vec_apply, hZ, zero_add]
  unfold Cert.Spec.sint
  refine Finset.sum_congr (Finset.filter_congr fun e _ => ?_) fun e _ => hO _
  rw [hL]

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 x4 x5 : (⟨S64, .f32⟩ : BufTy).Contents (Elt Ideal))
  (x6 : (⟨S64x128, .f32⟩ : BufTy).Contents (Elt Ideal)) (x7 x8 x9 x10 : (⟨S128, .f32⟩ : BufTy).Contents (Elt Ideal))
  (x11 : (⟨S128x64, .f32⟩ : BufTy).Contents (Elt Ideal)) (x12 : (⟨S64, .f32⟩ : BufTy).Contents (Elt Ideal))

/-- The first linear layer. -/
theorem r_hw1 (n : Fin 50000) (j : Fin 128) :
    val_main_v60 (F := Ideal) x0 x2 x3 x4 x5 x6 (ix2 n j)
      = matmul (mat (val_main_v52 (F := Ideal) x0 x2 x3 x4 x5 : FVec Ideal S50000x64 .f32)) (mat (x6 : FVec Ideal S64x128 .f32)) n j := by
  -- the contraction runs over the left operand's columns and the right operand's rows
  rw [val_main_v60_apply]
  unfold Cert.Spec.matmul Cert.Spec.mat
  refine Finset.sum_congr rfl fun k _ => ?_
  have el : lidx_main_v60 (ix2 n j) k = ix2 n k := funext fun a => Fin.ext (by
    match a with
    | ⟨0, _⟩ => rfl
    | ⟨1, _⟩ => rfl)
  have er : ridx_main_v60 (ix2 n j) k = ix2 k j := funext fun a => Fin.ext (by
    match a with
    | ⟨0, _⟩ => rfl
    | ⟨1, _⟩ => rfl)
  rw [el, er]

/-- The second linear layer. -/
theorem r_hw2 (n : Fin 50000) (j : Fin 64) :
    val_main_v163 (F := Ideal) x0 x1 x2 x3 x4 x5 x6 x7 x8 x9 x10 x11 (ix2 n j)
      = matmul (mat (val_main_v155 (F := Ideal) x0 x1 x2 x3 x4 x5 x6 x7 x8 x9 x10 : FVec Ideal S50000x128 .f32)) (mat (x11 : FVec Ideal S128x64 .f32)) n j := by
  -- the contraction runs over the left operand's columns and the right operand's rows
  rw [val_main_v163_apply]
  unfold Cert.Spec.matmul Cert.Spec.mat
  refine Finset.sum_congr rfl fun k _ => ?_
  have el : lidx_main_v163 (ix2 n j) k = ix2 n k := funext fun a => Fin.ext (by
    match a with
    | ⟨0, _⟩ => rfl
    | ⟨1, _⟩ => rfl)
  have er : ridx_main_v163 (ix2 n j) k = ix2 k j := funext fun a => Fin.ext (by
    match a with
    | ⟨0, _⟩ => rfl
    | ⟨1, _⟩ => rfl)
  rw [el, er]

/-- The mean pool: each graph's scatter-add segment sum of the last layer's rows over its count. -/
theorem r_pool (g : Fin 256) (d : Fin 64) :
    val_main_v216 (F := Ideal) x0 x1 x2 x3 x4 x5 x6 x7 x8 x9 x10 x11 x12 (ix2 g d)
      = pool one (sint (x2 : IVec S50000 32)) (mat (val_main_v204 (F := Ideal) x0 x1 x2 x3 x4 x5 x6 x7 x8 x9 x10 x11 x12 : FVec Ideal S50000x64 .f32)) g d := by
  -- the label column `[50000, 1]` at `(e, 0)` is the label of node `e`
  have e206 : ∀ e : Fin 50000, idx_main_v206 (ix2 e (0 : Fin 1)) = ix1 e := fun e => funext fun a => Fin.ext (by
    match a with
    | ⟨0, _⟩ => rfl)
  have e210 : ∀ e : Fin 50000, idx_main_v210 (ix2 e (0 : Fin 1)) = ix1 e := fun e => funext fun a => Fin.ext (by
    match a with
    | ⟨0, _⟩ => rfl)
  -- the count `[256]` broadcast to `[256, 1]` and then to `[256, 64]` is read at the graph alone
  have e215 : idx_main_v214 (idx_main_v215 (ix2 g d)) = ix1 g := funext fun a => Fin.ext (by
    match a with
    | ⟨0, _⟩ => rfl)
  -- numerator: the segment sum of the last layer's rows
  have hnum : val_main_v207 (F := Ideal) x0 x1 x2 x3 x4 x5 x6 x7 x8 x9 x10 x11 x12 (ix2 g d)
      = segSum (sint (x2 : IVec S50000 32)) (mat (val_main_v204 (F := Ideal) x0 x1 x2 x3 x4 x5 x6 x7 x8 x9 x10 x11 x12 : FVec Ideal S50000x64 .f32)) g d := by
    unfold val_main_v207
    refine scatter_rows_segSum _ (fun i => ?_) _ x2 (fun e => ?_) _ g d
    · rw [val_main_v205_apply, val_main_cst_48_apply, Ideal.ofBits_def, Ideal.ofBits_zero_f32]
    · rw [val_main_v206_apply, e206]
  -- the number of nodes of the graph, as a sum of ones
  have hcnt : val_main_v211 (F := Ideal) x2 (ix1 g)
      = ∑ _n ∈ Finset.univ.filter (fun n : Fin 50000 => sint (x2 : IVec S50000 32) n = (g.val : Int)), one := by
    unfold val_main_v211
    refine scatter_vec_count _ (fun i => ?_) _ x2 (fun e => ?_) _ one (fun i => ?_) g
    · rw [val_main_v209_apply, val_main_cst_50_apply, Ideal.ofBits_def, Ideal.ofBits_zero_f32]
    · rw [val_main_v210_apply, e210]
    · rw [val_main_v208_apply, val_main_cst_49_apply, Ideal.ofBits_def]
  rw [val_main_v216_apply, Ideal.hostDivf_def, hnum, val_main_v215_apply, val_main_v214_apply, e215,
    val_main_v213_apply, Ideal.maximumf_def, hcnt, val_main_v212_apply, val_main_cst_51_apply, Ideal.ofBits_def]
  rfl

end Cert.ReferenceIdeal.RefValue

end
-- ==== Proof.Bridge.lean ====
/-
  THE TWO RESULTS ARE ONE ARRAY. Stage by stage the kernel's program and the reference compute the same function of the
  argument arrays, when every node label is a graph index:
    GraphNorm of the inputs (both are the specification's `gnOut`),
    the first linear layer (both are the matrix product of equal rows with the same weights),
    the first graph-convolution aggregation with its rectifier (one function of equal projected rows),
    GraphNorm again, the second linear layer, the second aggregation,
    and the mean pool (both are the segment sum of equal rows over the same counts).
  Each stage's equality feeds the next, so the pooled result buffer of the kernel's program is the reference's last stage.
-/
import proofs.«413028_j69071664054692_1_alg».proof.Proof.KGn1
import proofs.«413028_j69071664054692_1_alg».proof.Proof.KGn2
import proofs.«413028_j69071664054692_1_alg».proof.Proof.KMat
import proofs.«413028_j69071664054692_1_alg».proof.Proof.KPool
import proofs.«413028_j69071664054692_1_alg».proof.Proof.Tail1
import proofs.«413028_j69071664054692_1_alg».proof.Proof.Tail2
import proofs.«413028_j69071664054692_1_alg».proof.Proof.RGn1
import proofs.«413028_j69071664054692_1_alg».proof.Proof.RGn2
import proofs.«413028_j69071664054692_1_alg».proof.Proof.RMat

noncomputable section

open Idealize.ShloMosaic Idealize.ShloMosaic.TcCoe Idealize.ShloMosaic.ValueIdx Idealize.SL.Sem

namespace Cert.Bridge

open Cert.KernelIdeal Cert.KernelIdeal.Gen Cert.KernelIdeal.Chain Cert.Spec
open Cert.ReferenceIdeal.Read (val_main_v52 val_main_v60 val_main_v102 val_main_v155 val_main_v163 val_main_v204 val_main_v216)
open Cert.ReferenceIdeal.RefValue (r_h1 r_h2 r_hw1 r_hw2 r_pool)

variable (m : (ℓ : Loc nD τ sig) → Buf (Elt Ideal) ℓ) (ρ : Dev nD → PrngReg)

/-- The kernel program's result buffer holds the reference's result stage of the same arguments. -/
theorem result_eq (c : Dev nD) (hr : InRange (bat m c)) :
    b151 m ρ c = val_main_v216 (F := Ideal) (arg0 m c) (arg1 m c) (arg2 m c) (arg3 m c) (arg4 m c) (arg5 m c) (arg6 m c) (arg7 m c) (arg8 m c) (arg9 m c) (arg10 m c) (arg11 m c) (arg12 m c) := by
  -- the first GraphNorm
  have e32 : b32 m ρ c = val_main_v52 (F := Ideal) (arg0 m c) (arg2 m c) (arg3 m c) (arg4 m c) (arg5 m c) := by
    funext i
    obtain ⟨n, d, rfl⟩ : ∃ (n : Fin 50000) (d : Fin 64), i = ix2 n d := ⟨i 0, i 1, eq_ix2 i⟩
    rw [h1 m ρ c hr n d, r_h1 (arg0 m c) (arg2 m c) (arg3 m c) (arg4 m c) (arg5 m c) hr n d]
  -- the first linear layer
  have e42 : b42 m ρ c = val_main_v60 (F := Ideal) (arg0 m c) (arg2 m c) (arg3 m c) (arg4 m c) (arg5 m c) (arg6 m c) := by
    funext i
    obtain ⟨n, j, rfl⟩ : ∃ (n : Fin 50000) (j : Fin 128), i = ix2 n j := ⟨i 0, i 1, eq_ix2 i⟩
    rw [hw1 m ρ c n j, r_hw1 (arg0 m c) (arg2 m c) (arg3 m c) (arg4 m c) (arg5 m c) (arg6 m c) n j, e32]
  -- the first aggregation
  have e84 : b84 m ρ c = val_main_v102 (F := Ideal) (arg0 m c) (arg1 m c) (arg2 m c) (arg3 m c) (arg4 m c) (arg5 m c) (arg6 m c) (arg7 m c) := by
    rw [Cert.Tail.k_agg1 m ρ c, Cert.Tail.r_agg1 (arg0 m c) (arg1 m c) (arg2 m c) (arg3 m c) (arg4 m c) (arg5 m c) (arg6 m c) (arg7 m c), e42]
  -- the second GraphNorm
  have e96 : b96 m ρ c = val_main_v155 (F := Ideal) (arg0 m c) (arg1 m c) (arg2 m c) (arg3 m c) (arg4 m c) (arg5 m c) (arg6 m c) (arg7 m c) (arg8 m c) (arg9 m c) (arg10 m c) := by
    funext i
    obtain ⟨n, d, rfl⟩ : ∃ (n : Fin 50000) (d : Fin 128), i = ix2 n d := ⟨i 0, i 1, eq_ix2 i⟩
    rw [h2 m ρ c hr n d, r_h2 (arg0 m c) (arg1 m c) (arg2 m c) (arg3 m c) (arg4 m c) (arg5 m c) (arg6 m c) (arg7 m c) (arg8 m c) (arg9 m c) (arg10 m c) hr n d, e84]
  -- the second linear layer
  have e106 : b106 m ρ c = val_main_v163 (F := Ideal) (arg0 m c) (arg1 m c) (arg2 m c) (arg3 m c) (arg4 m c) (arg5 m c) (arg6 m c) (arg7 m c) (arg8 m c) (arg9 m c) (arg10 m c) (arg11 m c) := by
    funext i
    obtain ⟨n, j, rfl⟩ : ∃ (n : Fin 50000) (j : Fin 64), i = ix2 n j := ⟨i 0, i 1, eq_ix2 i⟩
    rw [hw2 m ρ c n j, r_hw2 (arg0 m c) (arg1 m c) (arg2 m c) (arg3 m c) (arg4 m c) (arg5 m c) (arg6 m c) (arg7 m c) (arg8 m c) (arg9 m c) (arg10 m c) (arg11 m c) n j, e96]
  -- the second aggregation
  have e147 : b147 m ρ c = val_main_v204 (F := Ideal) (arg0 m c) (arg1 m c) (arg2 m c) (arg3 m c) (arg4 m c) (arg5 m c) (arg6 m c) (arg7 m c) (arg8 m c) (arg9 m c) (arg10 m c) (arg11 m c) (arg12 m c) := by
    rw [Cert.Tail.k_agg2 m ρ c, Cert.Tail.r_agg2 (arg0 m c) (arg1 m c) (arg2 m c) (arg3 m c) (arg4 m c) (arg5 m c) (arg6 m c) (arg7 m c) (arg8 m c) (arg9 m c) (arg10 m c) (arg11 m c) (arg12 m c), e106]
  -- the mean pool
  funext i
  obtain ⟨g, d, rfl⟩ : ∃ (g : Fin 256) (d : Fin 64), i = ix2 g d := ⟨i 0, i 1, eq_ix2 i⟩
  rw [pooled m ρ c g d, r_pool (arg0 m c) (arg1 m c) (arg2 m c) (arg3 m c) (arg4 m c) (arg5 m c) (arg6 m c) (arg7 m c) (arg8 m c) (arg9 m c) (arg10 m c) (arg11 m c) (arg12 m c) g d, e147]

end Cert.Bridge

end
-- ==== Proof.lean ====
/-
  THE CERTIFICATE. A graph encoder — GraphNorm, a graph-convolution layer, a rectifier, GraphNorm, a second
  graph-convolution layer, a mean pool over graphs — computed by a program of nine kernel regions among host operations,
  against its plain reference, over the extended reals, for finite float inputs and node labels in [0, 256).

  The kernel's program takes every per-graph sum and every "read my graph's row" as a PRODUCT WITH A ONE-HOT MATRIX of
  the labels (padding the 50000 nodes to 51200 rows of label -1), accumulated tile by tile over a grid; the reference
  takes the sums by scatter-add and the reads by gather. On the extended reals a one-hot product IS the sum over the
  matching rows, resp. the matching row (0 · x = 0 and 1 · x = x for every x, the infinities included), for labels that
  are graph indices; the kernel's product with a reciprocal square root is the reference's quotient by a square root
  because a mean of squares plus a positive eps is positive; a matrix product tiled by rows is the matrix product; and
  the edge aggregation is the same composition of host operations in both programs. So the two results agree, element
  by element (Proof/Bridge.lean). The frames: the kernel program's two are the generated frame certificates, the
  reference's is its run (the generated run, in a copy that names the float family at each float compare) with the
  result dropped; the idealization rewrote nothing.
-/
import proofs.«413028_j69071664054692_1_alg».proof.Defs
import proofs.«413028_j69071664054692_1_alg».proof.Proof.Gen.Kernel
import proofs.«413028_j69071664054692_1_alg».proof.Proof.Gen.Kernel.Skeleton
import proofs.«413028_j69071664054692_1_alg».proof.Proof.Gen.Kernel.Launch
import proofs.«413028_j69071664054692_1_alg».proof.Proof.Gen.Kernel.Points
import proofs.«413028_j69071664054692_1_alg».proof.Proof.Gen.Kernel.Frame
import proofs.«413028_j69071664054692_1_alg».proof.Proof.Gen.KernelIdeal
import proofs.«413028_j69071664054692_1_alg».proof.Proof.Gen.KernelIdeal.Skeleton
import proofs.«413028_j69071664054692_1_alg».proof.Proof.Gen.KernelIdeal.Launch
import proofs.«413028_j69071664054692_1_alg».proof.Proof.Gen.KernelIdeal.Points
import proofs.«413028_j69071664054692_1_alg».proof.Proof.Gen.KernelIdeal.Frame
import proofs.«413028_j69071664054692_1_alg».proof.Proof.Gen.ReferenceIdeal
import proofs.«413028_j69071664054692_1_alg».proof.Proof.RefRun
import proofs.«413028_j69071664054692_1_alg».proof.Proof.RefRead
import proofs.«413028_j69071664054692_1_alg».proof.Proof.Gen.Pre_finite_inputs
import proofs.«413028_j69071664054692_1_alg».proof.Proof.KRun
import proofs.«413028_j69071664054692_1_alg».proof.Proof.PreRange
import proofs.«413028_j69071664054692_1_alg».proof.Proof.Bridge
import Idealize.ShloMosaic.Adequacy
import Idealize.ShloMosaic.Init

noncomputable section

namespace Cert.Proof

open Idealize.ShloMosaic Idealize.SL.Sem

/-- The kernel's program, word level: the generated frame certificate. -/
theorem frame_k : Cert.frame_Kernel := fun m ρ _ => Cert.Kernel.Gen.frame m ρ

/-- The kernel's program, idealized: the generated frame certificate. -/
theorem frame_ki : Cert.frame_KernelIdeal := fun m ρ _ => Cert.KernelIdeal.Gen.frame m ρ

/-- The reference: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run, and from memories agreeing on the arguments end with equal results: the kernel program's result
    buffer at the contents its last boundary names, which is the reference's result stage of the same arguments. -/
theorem algebraic : Cert.algebraic_KernelIdeal_ReferenceIdeal := by
  intro m ρ m' ρ' hpre hagree
  refine ⟨fun c => Cert.KernelIdeal.Gen.W32 m ρ c (Proc.devRef .tc Cert.KernelIdeal.main_v151),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v216_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.Bridge.result_eq m ρ c (Cert.PreRange.inRange_of_pre _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
